-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S2048x1024 : Shape := ⟨2, ![2048, 1024]⟩
abbrev S1x1024 : Shape := ⟨2, ![1, 1024]⟩
abbrev S8x256x1024 : Shape := ⟨3, ![8, 256, 1024]⟩
abbrev S8x1x1024 : Shape := ⟨3, ![8, 1, 1024]⟩
abbrev S8 : Shape := ⟨1, ![8]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S8x1024 : Shape := ⟨2, ![8, 1024]⟩
abbrev S8x32x1024 : Shape := ⟨3, ![8, 32, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S8x256x1024, .f32⟩
  | .local _ .vmem, ⟨2, _⟩ => ⟨S8x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v155 : Index := Scalar.indexCast v2
  let c0_142 : Index := 0#32
  let c0_143 : Index := 0#32
  ![v155.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  let c0_i32_152 : BitVec 32 := 0#32
  ![v2.toNat, 0, 0]
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v159 : BitVec 32 := Scalar.addi v2 c1_i32_145
  let c8_i32_146 : BitVec 32 := 8#32
  let v160 : BitVec 32 := Scalar.remsi v159 c8_i32_146
  let c1_i32_149 : BitVec 32 := 1#32
  let v161 : BitVec 32 := Scalar.muli v160 c1_i32_149
  let v162 : BitVec 32 := Scalar.addi c0_i32_150 v161
  v162.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v171 : BitVec 32 := Scalar.addi v2 c2_i32_155
  let c8_i32_156 : BitVec 32 := 8#32
  let v172 : BitVec 32 := Scalar.remsi v171 c8_i32_156
  let c1_i32_159 : BitVec 32 := 1#32
  let v173 : BitVec 32 := Scalar.muli v172 c1_i32_159
  let v174 : BitVec 32 := Scalar.addi c0_i32_160 v173
  v174.toNat
def k0_dev10 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v183 : BitVec 32 := Scalar.addi v2 c3_i32_165
  let c8_i32_166 : BitVec 32 := 8#32
  let v184 : BitVec 32 := Scalar.remsi v183 c8_i32_166
  let c1_i32_169 : BitVec 32 := 1#32
  let v185 : BitVec 32 := Scalar.muli v184 c1_i32_169
  let v186 : BitVec 32 := Scalar.addi c0_i32_170 v185
  v186.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_175 : BitVec 32 := 4#32
  let v195 : BitVec 32 := Scalar.addi v2 c4_i32_175
  let c8_i32_176 : BitVec 32 := 8#32
  let v196 : BitVec 32 := Scalar.remsi v195 c8_i32_176
  let c1_i32_179 : BitVec 32 := 1#32
  let v197 : BitVec 32 := Scalar.muli v196 c1_i32_179
  let v198 : BitVec 32 := Scalar.addi c0_i32_180 v197
  v198.toNat
def k0_dev12 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_185 : BitVec 32 := 5#32
  let v207 : BitVec 32 := Scalar.addi v2 c5_i32_185
  let c8_i32_186 : BitVec 32 := 8#32
  let v208 : BitVec 32 := Scalar.remsi v207 c8_i32_186
  let c1_i32_189 : BitVec 32 := 1#32
  let v209 : BitVec 32 := Scalar.muli v208 c1_i32_189
  let v210 : BitVec 32 := Scalar.addi c0_i32_190 v209
  v210.toNat
def k0_dev13 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_195 : BitVec 32 := 6#32
  let v219 : BitVec 32 := Scalar.addi v2 c6_i32_195
  let c8_i32_196 : BitVec 32 := 8#32
  let v220 : BitVec 32 := Scalar.remsi v219 c8_i32_196
  let c1_i32_199 : BitVec 32 := 1#32
  let v221 : BitVec 32 := Scalar.muli v220 c1_i32_199
  let v222 : BitVec 32 := Scalar.addi c0_i32_200 v221
  v222.toNat
def k0_dev14 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_205 : BitVec 32 := 7#32
  let v231 : BitVec 32 := Scalar.addi v2 c7_i32_205
  let c8_i32_206 : BitVec 32 := 8#32
  let v232 : BitVec 32 := Scalar.remsi v231 c8_i32_206
  let c1_i32_209 : BitVec 32 := 1#32
  let v233 : BitVec 32 := Scalar.muli v232 c1_i32_209
  let v234 : BitVec 32 := Scalar.addi c0_i32_210 v233
  v234.toNat
def k0_off3 (d0 : Dev nD) (c1_i32_215 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v243 : BitVec 32 := Scalar.subi v2 c1_i32_215
  let c8_i32_216 : BitVec 32 := 8#32
  let v244 : BitVec 32 := Scalar.addi v243 c8_i32_216
  let c8_i32_217 : BitVec 32 := 8#32
  let v245 : BitVec 32 := Scalar.remsi v244 c8_i32_217
  let c0_i32_222 : BitVec 32 := 0#32
  let c0_i32_223 : BitVec 32 := 0#32
  ![v245.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S8_S1_0 : ∀ a, (![0] : Fin 1 → Nat) a + S1.size a ≤ S8.size a
  squeezes_S1_S_ : S1.Squeezes S_
  inb_S8x256x1024_S1x256x1024_0_0_0 : ∀ a, (![0, 0, 0] : Fin 3 → Nat) a + S1x256x1024.size a ≤ S8x256x1024.size a
  squeezes_S1x256x1024_S256x1024 : S1x256x1024.Squeezes S256x1024
  inb_S2048x1024_S256x1024_0_0 : ∀ a, (![0, 0] : Fin 2 → Nat) a + S256x1024.size a ≤ S2048x1024.size a
  inb_S8_S1_1 : ∀ a, (![1] : Fin 1 → Nat) a + S1.size a ≤ S8.size a
  inb_S8x256x1024_S1x256x1024_1_0_0 : ∀ a, (![1, 0, 0] : Fin 3 → Nat) a + S1x256x1024.size a ≤ S8x256x1024.size a
  inb_S2048x1024_S256x1024_256_0 : ∀ a, (![256, 0] : Fin 2 → Nat) a + S256x1024.size a ≤ S2048x1024.size a
  inb_S8_S1_2 : ∀ a, (![2] : Fin 1 → Nat) a + S1.size a ≤ S8.size a
  inb_S8x256x1024_S1x256x1024_2_0_0 : ∀ a, (![2, 0, 0] : Fin 3 → Nat) a + S1x256x1024.size a ≤ S8x256x1024.size a
  inb_S2048x1024_S256x1024_512_0 : ∀ a, (![512, 0] : Fin 2 → Nat) a + S256x1024.size a ≤ S2048x1024.size a
  inb_S8_S1_3 : ∀ a, (![3] : Fin 1 → Nat) a + S1.size a ≤ S8.size a
  inb_S8x256x1024_S1x256x1024_3_0_0 : ∀ a, (![3, 0, 0] : Fin 3 → Nat) a + S1x256x1024.size a ≤ S8x256x1024.size a
  inb_S2048x1024_S256x1024_768_0 : ∀ a, (![768, 0] : Fin 2 → Nat) a + S256x1024.size a ≤ S2048x1024.size a
  inb_S8_S1_4 : ∀ a, (![4] : Fin 1 → Nat) a + S1.size a ≤ S8.size a
  inb_S8x256x1024_S1x256x1024_4_0_0 : ∀ a, (![4, 0, 0] : Fin 3 → Nat) a + S1x256x1024.size a ≤ S8x256x1024.size a
  inb_S2048x1024_S256x1024_1024_0 : ∀ a, (![1024, 0] : Fin 2 → Nat) a + S256x1024.size a ≤ S2048x1024.size a
  inb_S8_S1_5 : ∀ a, (![5] : Fin 1 → Nat) a + S1.size a ≤ S8.size a
  inb_S8x256x1024_S1x256x1024_5_0_0 : ∀ a, (![5, 0, 0] : Fin 3 → Nat) a + S1x256x1024.size a ≤ S8x256x1024.size a
  inb_S2048x1024_S256x1024_1280_0 : ∀ a, (![1280, 0] : Fin 2 → Nat) a + S256x1024.size a ≤ S2048x1024.size a
  inb_S8_S1_6 : ∀ a, (![6] : Fin 1 → Nat) a + S1.size a ≤ S8.size a
  inb_S8x256x1024_S1x256x1024_6_0_0 : ∀ a, (![6, 0, 0] : Fin 3 → Nat) a + S1x256x1024.size a ≤ S8x256x1024.size a
  inb_S2048x1024_S256x1024_1536_0 : ∀ a, (![1536, 0] : Fin 2 → Nat) a + S256x1024.size a ≤ S2048x1024.size a
  inb_S8_S1_7 : ∀ a, (![7] : Fin 1 → Nat) a + S1.size a ≤ S8.size a
  inb_S8x256x1024_S1x256x1024_7_0_0 : ∀ a, (![7, 0, 0] : Fin 3 → Nat) a + S1x256x1024.size a ≤ S8x256x1024.size a
  inb_S2048x1024_S256x1024_1792_0 : ∀ a, (![1792, 0] : Fin 2 → Nat) a + S256x1024.size a ≤ S2048x1024.size a
  h_S1x256x1024 : 0 < S1x256x1024.numel
  shapeCasts_S1x256x1024_S256x1024 : S1x256x1024.ShapeCasts S256x1024
  shapeCasts_S256x1024_S8x32x1024 : S256x1024.ShapeCasts S8x32x1024
  reduces_S8x32x1024_S8x1024 : S8x32x1024.Reduces [1] S8x1024
  reduces_S8x1024_S1024 : S8x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  hamt_7 : (7#32 : BitVec 32).msb = false
  squeezes_S1x1x1024_S1x1024 : S1x1x1024.Squeezes S1x1024
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1024 : S8x1x1024.ShapeCasts S8x1024
  inb_S1x1024_S1x1024_0_0 : ∀ a, (![0, 0] : Fin 2 → Nat) a + S1x1024.size a ≤ S1x1024.size a
  h_S1x1024 : 0 < S1x1024.numel
  hcc0_scratch2 : 1 + S8.numel ≤ 25
  hcc0_scratch3 : 9 + S8.numel ≤ 25
  hcc0_scratch4 : 17 + S8.numel ≤ 25
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1x1024.size a ≤ S8x1x1024.size a
  k0_off2_inb : ∀ d0 : Dev nD, ∀ a, (k0_off2 d0) a + S1x1x1024.size a ≤ S8x1x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ (r : Fin 7), ∀ a, (k0_off3 d0 (BitVec.ofNat 32 (1 + r.val))) a + S1x1x1024.size a ≤ S8x1x1024.size a
  hstage0_0 : ∀ j, (stage0_0 j).IsWhole

variable [Facts₀]

abbrev cc0_scratch2 : DmaSems sig S8 := SemArray.consecutive 1 S8 hcc0_scratch2
abbrev cc0_scratch3 : DmaSems sig S8 := SemArray.consecutive 9 S8 hcc0_scratch3
abbrev cc0_scratch4 : DmaSems sig S8 := SemArray.consecutive 17 S8 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Contents.lean ====
/-
  What the kernel computes, as pure functions of the devices' blocks of `x` (no memory, no protocol).

  Device `c` holds a block `x_c` of 2048 rows. It reads the block in eight chunks of 256 rows, folds each
  chunk's rows 32 at a time into eight partial rows, adds the eight chunks' partial rows, and then adds those
  eight partial rows: `rowv x_c` is the column sums of the block. Every device ends holding all eight devices'
  rows (`comm`), and adds them: `outv` is the column sums of all 16384 rows, the same on every device.
-/
import proofs.«901086_g7700000000001087_dist_sum_ax0_shard0_i_m2048_n1024_v7x_i8_bf16_1_alg».proof.Proof.Gen.KernelIdeal.Skeleton
import Idealize.ShloMosaic.Lib.ValueIdx

noncomputable section

namespace Cert.KernelIdeal.Sum

open Idealize.ShloMosaic Idealize.ShloMosaic.ValueIdx Cert.KernelIdeal Cert.KernelIdeal.Gen

variable {F : FTy → Type} [FloatOps F]

/-- Rows `[256 i, 256 i + 256)` of a block, as the rank-3 vector `[1, 256, 1024]` the body loads them as. -/
def chunk (x : Vec F S2048x1024 .f32) (i : Fin 8) : Vec F S1x256x1024 .f32 :=
  fun j => x (ix2 (⟨256 * i.val + (j 1).val, by have h1 : (j 1).val < 256 := (j 1).isLt; have h2 := i.isLt; omega⟩ : Fin 2048)
    (⟨(j 2).val, (j 2).isLt⟩ : Fin 1024))

/-- The block's column sums as the body accumulates them: chunk after chunk into eight partial rows, then the
    eight partial rows added. -/
def rowv (x : Vec F S2048x1024 .f32) : FVec F S1x1x1024 .f32 :=
  k0_pay6 (k0_pay4 (k0_pay3 k0_pay2 (chunk x 0) (chunk x 1) (chunk x 2)) (chunk x 3) (chunk x 4)) (k0_pay5 (chunk x 5))
    (chunk x 6) (chunk x 7)

/-- The gathered buffer: row `d` is device `d`'s column sums. -/
def comm (xb : Dev nD → Vec F S2048x1024 .f32) : Vec F S8x1x1024 .f32 :=
  fun j => rowv (xb (⟨(j 0).val, (j 0).isLt⟩ : Fin 8)) (ix3 (0 : Fin 1) (⟨(j 1).val, (j 1).isLt⟩ : Fin 1) (⟨(j 2).val, (j 2).isLt⟩ : Fin 1024))

/-- The result on every device: the eight rows added. -/
def outv (xb : Dev nD → Vec F S2048x1024 .f32) : FVec F S1x1024 .f32 := k0_pay1 (comm xb)

end Cert.KernelIdeal.Sum

end
-- ==== Proof.Proto.lean ====
/-
  The protocol of the gather-and-add: the cells, the views, and what each landing hands over.

  Eight devices. Device `c` first signals the barrier semaphore of each of the seven others. Its signal to device
  `c + k` hands that device row `c + k` of `c`'s own gather buffer, the slot that device's transfer fills, and the
  fact that `c`'s receive cell `8 - k` is open. Device `c` then copies its block into VMEM in eight chunks (one DMA
  semaphore each), adds them up into row `c` of its gather buffer, waits for the seven entry signals, sends row
  `c` to the seven others (send semaphore `j` here, receive semaphore `j` on device `c + j`), waits for the seven
  rows sent to it and for its own sends, and adds the eight rows.

  A device's cells are numbered by `n : Fin 25`: `0` the barrier semaphore, `1 + i` the DMA semaphore of chunk
  `i`, `9 + j` send semaphore `j`, `17 + j` receive semaphore `j` (`i, j : Fin 8`; send and receive semaphore `0`
  are never used). Every duty is in round 0. Duties are named by `Fin 8`: duty `j ≠ 0` of a barrier cell is the
  signal from the device `j` places further on; a DMA cell's one duty is `0`.
-/
import proofs.«901086_g7700000000001087_dist_sum_ax0_shard0_i_m2048_n1024_v7x_i8_bf16_1_alg».proof.Proof.Contents
import proofs.«901086_g7700000000001087_dist_sum_ax0_shard0_i_m2048_n1024_v7x_i8_bf16_1_alg».proof.Proof.Gen.KernelIdeal.Launch
import proofs.«901086_g7700000000001087_dist_sum_ax0_shard0_i_m2048_n1024_v7x_i8_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s block of `x`, as launched. -/
def xb (d : Dev nD) : Vec F S2048x1024 .f32 := m ((d.tc : Thread nD τ).loc main_arg0)

/-! ## The ring of devices -/

/-- The device `j` places further on. -/
def sh (c : Dev nD) (j : Fin 8) : Dev nD := ⟨(c.val + j.val) % 8, Nat.mod_lt _ (by decide)⟩
/-- The device `j` places back. -/
def bk (c : Dev nD) (j : Fin 8) : Dev nD := ⟨(c.val + (8 - j.val)) % 8, Nat.mod_lt _ (by decide)⟩
/-- The opposite shift. -/
def ng (j : Fin 8) : Fin 8 := ⟨(8 - j.val) % 8, Nat.mod_lt _ (by decide)⟩

theorem bk_sh (c : Dev nD) (j : Fin 8) : bk (sh c j) j = c := by revert c j; decide
theorem sh_bk (c : Dev nD) (j : Fin 8) : sh (bk c j) j = c := by revert c j; decide
theorem sh_ng (c : Dev nD) (j : Fin 8) : sh (sh c j) (ng j) = c := by revert c j; decide
theorem bk_eq (c : Dev nD) (j : Fin 8) : bk c j = sh c (ng j) := by revert c j; decide
theorem ng_ng (j : Fin 8) : ng (ng j) = j := by revert j; decide
theorem sh_zero (c : Dev nD) : sh c 0 = c := by revert c; decide
theorem sh_ne (c : Dev nD) (j : Fin 8) (hj : j ≠ 0) : sh c j ≠ c := by revert c j; decide
theorem sh_inj (c : Dev nD) (j j' : Fin 8) (h : sh c j = sh c j') : j = j' := by revert c j j'; decide

/-- The shift by `j` as a permutation of the devices. -/
def shE (j : Fin 8) : Dev nD ≃ Dev nD := ⟨fun c => sh c j, fun c => bk c j, fun c => bk_sh c j, fun c => sh_bk c j⟩

/-! ## The semaphores and the cells -/

/-- The runtime's barrier semaphore of collective id 0 (not scoped to the launch). -/
abbrev barS : Sem sig := (SemArray.scalar (sig.barrier 0 rfl) : Sems sig S_).sem
/-- The DMA semaphore of chunk `i`, send semaphore `j`, receive semaphore `j`. -/
abbrev copyS (i : Fin 8) : DmaSem sig := (⟨1 + i.val, by have := i.isLt; show 1 + i.val < 25; omega⟩ : Fin 25)
abbrev sendS (j : Fin 8) : DmaSem sig := (⟨9 + j.val, by have := j.isLt; show 9 + j.val < 25; omega⟩ : Fin 25)
abbrev recvS (j : Fin 8) : DmaSem sig := (⟨17 + j.val, by have := j.isLt; show 17 + j.val < 25; omega⟩ : Fin 25)

/-- A device's cells by number: `0` the barrier, `n + 1` DMA semaphore `n + 1`. -/
abbrev csem : Fin 25 → SemLoc sig
  | ⟨0, _⟩ => .reg barS
  | ⟨n + 1, h⟩ => .dma (⟨n + 1, h⟩ : Fin 25)
abbrev kcell (ck : Dev nD × Fin 25) : GSem nD τ sig := ((ck.1 : Thread nD τ), csem ck.2)

abbrev copyN (i : Fin 8) : Fin 25 := ⟨1 + i.val, by have := i.isLt; omega⟩
abbrev sendN (j : Fin 8) : Fin 25 := ⟨9 + j.val, by have := j.isLt; omega⟩
abbrev recvN (j : Fin 8) : Fin 25 := ⟨17 + j.val, by have := j.isLt; omega⟩

abbrev barCell (c : Dev nD) : GSem nD τ sig := ((c : Thread nD τ), .reg barS)
abbrev copyCell (c : Dev nD) (i : Fin 8) : GSem nD τ sig := ((c : Thread nD τ), .dma (copyS i))
abbrev sendCell (c : Dev nD) (j : Fin 8) : GSem nD τ sig := ((c : Thread nD τ), .dma (sendS j))
abbrev recvCell (c : Dev nD) (j : Fin 8) : GSem nD τ sig := ((c : Thread nD τ), .dma (recvS j))

/-- The kernel's OWN (scoped) semaphores, as the launch theorem indexes them: DMA semaphores 1 to 24. -/
abbrev osem : Fin 24 → SemLoc sig := fun i => .dma (⟨i.val + 1, by have := i.isLt; omega⟩ : Fin 25)

/-! ## The memrefs -/

abbrev xM : Memref sig .tc .hbm S2048x1024 .f32 := Memref.whole main_arg0
abbrev oM : Memref sig .tc .vmem S1x1024 .f32 := Memref.whole cc0_stg0_0
abbrev vM : Memref sig .tc .vmem S8x256x1024 .f32 := Memref.whole cc0_scratch0
abbrev cM : Memref sig .tc .vmem S8x1x1024 .f32 := Memref.whole cc0_scratch1

theorem inb_row (r : Fin 8) : ∀ a, (![r.val, 0, 0] : Fin 3 → Nat) a + S1x1x1024.size a ≤ S8x1x1024.size a := by revert r; decide
theorem inb_chunkV (i : Fin 8) : ∀ a, (![i.val, 0, 0] : Fin 3 → Nat) a + S1x256x1024.size a ≤ S8x256x1024.size a := by revert i; decide
theorem inb_chunkX (i : Fin 8) : ∀ a, (![256 * i.val, 0] : Fin 2 → Nat) a + S256x1024.size a ≤ S2048x1024.size a := by revert i; decide

/-- Row `r` of the gather buffer, as the transfers see it (`[1, 1024]`). -/
def rowM (r : Fin 8) : Memref sig .tc .vmem S1x1024 .f32 :=
  (cM.slice (Rect.unit (s := S8x1x1024) ![r.val, 0, 0] S1x1x1024.size (inb_row r)) (fun _ => rfl)).squeeze S1x1024 squeezes_S1x1x1024_S1x1024
/-- Chunk `i` of the VMEM copy of the block, as its transfer sees it (`[256, 1024]`). -/
def vDst (i : Fin 8) : Memref sig .tc .vmem S256x1024 .f32 :=
  (vM.slice (Rect.unit (s := S8x256x1024) ![i.val, 0, 0] S1x256x1024.size (inb_chunkV i)) (fun _ => rfl)).squeeze S256x1024 squeezes_S1x256x1024_S256x1024
/-- Rows `[256 i, 256 i + 256)` of the block in HBM. -/
def xSrc (i : Fin 8) : Memref sig .tc .hbm S256x1024 .f32 :=
  xM.slice (Rect.unit (s := S2048x1024) ![256 * i.val, 0] S256x1024.size (inb_chunkX i)) (fun _ => rfl)

/-- The credit of one row's transfer, and of one chunk's. -/
abbrev Nrow : ℕ := (rowM 0).view.dmaCredit
abbrev Nchunk : ℕ := (vDst 0).view.dmaCredit
theorem Nrow_pos : 0 < Nrow := View.dmaCredit_pos _ (by decide)
theorem Nchunk_pos : 0 < Nchunk := View.dmaCredit_pos _ (by decide)

/-! ## Contents -/

/-- The gather buffer once every row has landed: row `d` is device `d`'s column sums (the same on every device). -/
def commB (c : Dev nD) : Buf (Elt F) ((c : Thread nD τ).loc cc0_scratch1) := comm (xb m)
/-- The VMEM copy of device `c`'s block once every chunk has landed. -/
def vfin (c : Dev nD) : Buf (Elt F) ((c : Thread nD τ).loc cc0_scratch0) :=
  fun j => chunk (xb m c) (⟨(j 0).val, (j 0).isLt⟩ : Fin 8) (ix3 (0 : Fin 1) (⟨(j 1).val, (j 1).isLt⟩ : Fin 256) (⟨(j 2).val, (j 2).isLt⟩ : Fin 1024))

/-- Row `r` of device `c`'s gather buffer at share `q` and contents `f` (a function on the whole buffer: only row `r` of it is held). -/
def rowPts (c : Dev nD) (r : Fin 8) (q : PosShare TreeShare) (f : Buf (Elt F) ((c : Thread nD τ).loc cc0_scratch1)) : sProp 𝕄 :=
  (rowM r).view.loc (c : Thread nD τ) ↦[(rowM r).view.set]{q} (f : Buf (Elt F) ((rowM r).view.loc (c : Thread nD τ)))
/-- Chunk `i` of device `c`'s VMEM copy. -/
def chunkPts (c : Dev nD) (i : Fin 8) (f : Buf (Elt F) ((c : Thread nD τ).loc cc0_scratch0)) : sProp 𝕄 :=
  (vDst i).view.loc (c : Thread nD τ) ↦[(vDst i).view.set]{fullShare} (f : Buf (Elt F) ((vDst i).view.loc (c : Thread nD τ)))

/-! ## The schedule -/

/-- What the device `j` places further on hands device `c` with its entry signal: row `c` of its own gather buffer, the
    slot `c`'s transfer `j` fills, and that its receive cell `j` is open. -/
def barPay (c : Dev nD) (j : Fin 8) : sProp 𝕄 :=
  iprop((∃ f, rowPts (sh c j) c fullShare f) ∗ reached ER (recvCell (sh c j) j) 0)
/-- Chunk `i` landed. -/
def copyPay (c : Dev nD) (i : Fin 8) : sProp 𝕄 := chunkPts c i (vfin m c)
/-- Send `j` has read row `c`: the share it was lent comes back. -/
def sendPay (c : Dev nD) (j : Fin 8) : sProp 𝕄 := rowPts c c (Transfers.shareTokN fullShare j.val) (commB m c)
/-- The row of the device `j` places back has landed. -/
def recvPay (c : Dev nD) (j : Fin 8) : sProp 𝕄 := rowPts c (bk c j) fullShare (commB m c)

/-- A DMA cell's payload by the semaphore's number. -/
def dmaPay (c : Dev nD) (n : ℕ) : sProp 𝕄 :=
  if h : 1 ≤ n ∧ n ≤ 8 then copyPay m c ⟨n - 1, by omega⟩
  else if h : 9 ≤ n ∧ n ≤ 16 then sendPay m c ⟨n - 9, by omega⟩
  else if h : 17 ≤ n ∧ n ≤ 24 then recvPay m c ⟨n - 17, by omega⟩
  else iprop(emp)

/-- A cell's duties of round 0: the seven entry signals on the barrier; one transfer on each chunk, send and receive
    semaphore in use. -/
def semDuties : SemLoc sig → Finset (Fin 8)
  | .reg _ => Finset.univ.erase 0
  | .dma q => if (1 ≤ q.val ∧ q.val ≤ 8) ∨ (10 ≤ q.val ∧ q.val ≤ 16) ∨ (18 ≤ q.val ∧ q.val ≤ 24) then {0} else ∅
def semAmount : SemLoc sig → ℕ
  | .reg _ => 1
  | .dma q => if q.val ≤ 8 then Nchunk else Nrow
def semPay (c : Dev nD) : SemLoc sig → Fin 8 → sProp 𝕄
  | .reg _, d => barPay c d
  | .dma q, _ => dmaPay m c q.val

theorem semAmount_pos (s : SemLoc sig) : 0 < semAmount s := by
  cases s with
  | reg _ => exact Nat.one_pos
  | dma q =>
    show 0 < (if q.val ≤ 8 then Nchunk else Nrow)
    split
    · exact Nchunk_pos
    · exact Nrow_pos

/-- One round, round 0. -/
def sched : Rounds.Schedule (GSem nD τ sig) (Fin 8) 𝕄 where
  duties g r := if r = 0 ∧ g.1.2 = .tc then semDuties g.2 else ∅
  unitless _ := False
  amount g _ _ := semAmount g.2
  payload g _ d := semPay m g.1.1 g.2 d
  amount_pos g _ _ _ := semAmount_pos g.2

omit [FloatOps F] in
instance rowPts_storable (c : Dev nD) (r : Fin 8) (q : PosShare TreeShare) (f : Buf (Elt F) ((c : Thread nD τ).loc cc0_scratch1)) :
    BI.Storable (upEmb : UEmb _ 𝕄) (rowPts (F := F) c r q f) := by
  unfold rowPts
  exact (fun (g : Buf (Elt F) ((rowM r).view.loc (c : Thread nD τ))) =>
    (inferInstance : BI.Storable (upEmb : UEmb _ 𝕄) ((rowM r).view.loc (c : Thread nD τ) ↦[(rowM r).view.set]{q} g))) f
omit [FloatOps F] in
instance chunkPts_storable (c : Dev nD) (i : Fin 8) (f : Buf (Elt F) ((c : Thread nD τ).loc cc0_scratch0)) :
    BI.Storable (upEmb : UEmb _ 𝕄) (chunkPts (F := F) c i f) := by
  unfold chunkPts
  exact (fun (g : Buf (Elt F) ((vDst i).view.loc (c : Thread nD τ))) =>
    (inferInstance : BI.Storable (upEmb : UEmb _ 𝕄) ((vDst i).view.loc (c : Thread nD τ) ↦[(vDst i).view.set]{fullShare} g))) f
omit [FloatOps F] in
instance barPay_storable (c : Dev nD) (j : Fin 8) : BI.Storable (upEmb : UEmb _ 𝕄) (barPay (F := F) c j) := by
  unfold barPay; infer_instance
instance dmaPay_storable (c : Dev nD) (n : ℕ) : BI.Storable (upEmb : UEmb _ 𝕄) (dmaPay (F := F) m c n) := by
  unfold dmaPay copyPay sendPay recvPay; (repeat' split) <;> infer_instance
instance semPay_storable (c : Dev nD) (s : SemLoc sig) (d : Fin 8) : BI.Storable (upEmb : UEmb _ 𝕄) (semPay (F := F) m c s d) := by
  cases s with
  | reg _ => exact barPay_storable c d
  | dma q => exact dmaPay_storable m c q.val

instance sched_payload_storable (g : GSem nD τ sig) (r : ℕ) (d : Fin 8) :
    BI.Storable (upEmb : UEmb _ 𝕄) ((sched (F := F) m).payload g r d) :=
  semPay_storable m g.1.1 g.2 d

/-! ## What each core owes at launch; the levels -/

/-- The shift paid `n + 1`-th from last: `jOf 6 = 1` is paid first, `jOf 0 = 7` last. -/
def jOf (n : ℕ) : Fin 8 := ⟨(7 - n) % 8, Nat.mod_lt _ (by decide)⟩

/-- The receive credits device `c` still owes when `n` of its seven sends are still to come, summed so that each send
    peels the last summand. -/
def owedS (c : Dev nD) : ℕ → CellTallies nD τ sig Unit
  | 0 => 0
  | n + 1 => owedS c n + tallyAt (recvCell (sh c (jOf n)) (jOf n)) () Nrow
/-- What it owes when `n` of its seven entry signals are still to come: all the receive credits, and those signals. -/
def owedB (c : Dev nD) : ℕ → CellTallies nD τ sig Unit
  | 0 => owedS c 7
  | n + 1 => owedB c n + tallyAt (barCell (sh c (jOf n))) () 1
def O₀ (c : Dev nD) : CellTallies nD τ sig Unit := owedB c 7

def L (g : GSem nD τ sig) : Finset Unit := if g.1.2 = .tc then {()} else ∅
/-- Barrier cells at 1, receive cells at 2, everything else (staging, chunk and send cells) at 0. -/
def lvS : SemLoc sig → ℕ
  | .reg _ => 1
  | .dma q => if 17 ≤ q.val then 2 else 0
def lv (g : GSem nD τ sig) (_ : Unit) : ℕ := lvS g.2

/-! ## The ghost state -/

/-- Every cell's invariant under the names `K`, and that round 0 of every cell is reached. -/
def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

instance records_persistent (K : Dev nD × Fin 25 → ℕ) : BI.Persistent (records (F := F) m K) := by unfold records; infer_instance

/-- The tokens of the duties device `c` pays: on the barrier cell of the device `j` places further on the duty named by
    the way back; its own chunk and send cells' duties; the receive duty `j` of the device `j` places further on. -/
def payToks (c : Dev nD) : sProp 𝕄 :=
  iprop((bigSep Finset.univ fun j : Fin 8 => dutyTok ER (barCell (sh c j)) 0 (ng j))
    ∗ (bigSep Finset.univ fun i : Fin 8 => dutyTok ER (copyCell c i) 0 (0 : Fin 8))
    ∗ (bigSep Finset.univ fun j : Fin 8 => dutyTok ER (sendCell c j) 0 (0 : Fin 8))
    ∗ (bigSep Finset.univ fun j : Fin 8 => dutyTok ER (recvCell (sh c j) j) 0 (0 : Fin 8)))

/-- What stays with device `c`: its positions on its 25 cells, and the tokens of the duties it pays. -/
def linear (c : Dev nD) : sProp 𝕄 :=
  iprop((bigSep Finset.univ fun n : Fin 25 => atPos ER (kcell (c, n)) 0 ∅ 0) ∗ payToks c)

def ghost (K : Dev nD × Fin 25 → ℕ) (c : Dev nD) : sProp 𝕄 := iprop(records m K ∗ linear c)

/-- Device `c`'s block of `x` in HBM, whole, and the share of it the body keeps to the end. -/
def xPts (c : Dev nD) : sProp 𝕄 := ((c : Thread nD τ).loc main_arg0) ↦{fullShare} m ((c : Thread nD τ).loc main_arg0)
def xKeep (c : Dev nD) : sProp 𝕄 := ((c : Thread nD τ).loc main_arg0) ↦{Transfers.shareDrop fullShare 8} m ((c : Thread nD τ).loc main_arg0)

/-- What device `c`'s body starts from: the ghost state at some names, its launch credit (seven units on its barrier
    cell, a row's credit on each receive cell in use), the level facts and its block of `x`. -/
def start (c : Dev nD) : sProp 𝕄 :=
  iprop((∃ K, ghost m K c) ∗ cred (tallyAt (barCell c) () 7)
    ∗ (bigSep (Finset.univ.erase (0 : Fin 8)) fun j => cred (tallyAt (recvCell c j) () Nrow)) ∗ levAts L lv ∗ xPts m c)

def Φ₀ (c : Dev nD) : sProp 𝕄 := iprop(start m c ∗ Pipeline.scopedRest cfg0.spec c)
/-- After the point: the kept share of `x`, the kernel's own semaphores at zero, the scratch buffers whole. -/
def Φ₁ (c : Dev nD) : sProp 𝕄 := iprop(xKeep m c ∗ Pipeline.ownSems0 osem c ∗ Pipeline.scopedRest cfg0.spec c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outv (xb m)
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Sum

end
-- ==== Proof.Tables.lean ====
/-
  The schedule's tables, cell by cell: which duties round 0 of each cell has, what each amounts to, what a whole
  round amounts to, what each duty's payload is, and what a wait for a whole round hands back. Then the levels:
  at each of its waits a device owes only cells that sit above the cell it waits on.
-/
import proofs.«901086_g7700000000001087_dist_sum_ax0_shard0_i_m2048_n1024_v7x_i8_bf16_1_alg».proof.Proof.Proto

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' numbers, and the schedule's fields at a device's own cell -/

theorem copyS_val (i : Fin 8) : (copyS i).val = 1 + i.val := rfl
theorem sendS_val (j : Fin 8) : (sendS j).val = 9 + j.val := rfl
theorem recvS_val (j : Fin 8) : (recvS j).val = 17 + j.val := rfl

/-- A shift that is not zero has a positive number. -/
theorem val_pos_of_ne {j : Fin 8} (hj : j ≠ 0) : 0 < j.val := Nat.pos_of_ne_zero fun h => hj (Fin.ext h)

/-- Round 0 of a cell of a device's one thread has the duties its semaphore says. -/
theorem duties_tc (c : Dev nD) (s : SemLoc sig) : (sched (F := F) m).duties ((c : Thread nD τ), s) 0 = semDuties s := by
  dsimp only [sched]; exact if_pos ⟨rfl, rfl⟩

/-- A DMA semaphore numbered in one of the three bands in use has one duty, named 0. -/
theorem semDuties_used (q : DmaSem sig) (n : ℕ) (hq : q.val = n)
    (h : (1 ≤ n ∧ n ≤ 8) ∨ (10 ≤ n ∧ n ≤ 16) ∨ (18 ≤ n ∧ n ≤ 24)) : semDuties (.dma q) = {0} := by
  subst hq; exact if_pos h
/-- One numbered outside them has none. -/
theorem semDuties_unused (q : DmaSem sig) (n : ℕ) (hq : q.val = n)
    (h : ¬ ((1 ≤ n ∧ n ≤ 8) ∨ (10 ≤ n ∧ n ≤ 16) ∨ (18 ≤ n ∧ n ≤ 24))) : semDuties (.dma q) = ∅ := by
  subst hq; exact if_neg h

theorem semAmount_chunk (q : DmaSem sig) (h : q.val ≤ 8) : semAmount (.dma q) = Nchunk := if_pos h
theorem semAmount_row (q : DmaSem sig) (h : ¬ q.val ≤ 8) : semAmount (.dma q) = Nrow := if_neg h

/-- The payload by number, in each of the three bands. -/
theorem dmaPay_copy (c : Dev nD) (i : Fin 8) : dmaPay m c (1 + i.val) = copyPay m c i := by
  have hi := i.isLt
  unfold dmaPay
  rw [dif_pos (⟨by omega, by omega⟩ : 1 ≤ 1 + i.val ∧ 1 + i.val ≤ 8)]
  exact congrArg (copyPay m c) (Fin.ext (Nat.add_sub_cancel_left 1 i.val))
theorem dmaPay_send (c : Dev nD) (j : Fin 8) : dmaPay m c (9 + j.val) = sendPay m c j := by
  have hj := j.isLt
  unfold dmaPay
  rw [dif_neg (fun h => by omega : ¬ (1 ≤ 9 + j.val ∧ 9 + j.val ≤ 8)),
    dif_pos (⟨by omega, by omega⟩ : 9 ≤ 9 + j.val ∧ 9 + j.val ≤ 16)]
  exact congrArg (sendPay m c) (Fin.ext (Nat.add_sub_cancel_left 9 j.val))
theorem dmaPay_recv (c : Dev nD) (j : Fin 8) : dmaPay m c (17 + j.val) = recvPay m c j := by
  have hj := j.isLt
  unfold dmaPay
  rw [dif_neg (fun h => by omega : ¬ (1 ≤ 17 + j.val ∧ 17 + j.val ≤ 8)),
    dif_neg (fun h => by omega : ¬ (9 ≤ 17 + j.val ∧ 17 + j.val ≤ 16)),
    dif_pos (⟨by omega, by omega⟩ : 17 ≤ 17 + j.val ∧ 17 + j.val ≤ 24)]
  exact congrArg (recvPay m c) (Fin.ext (Nat.add_sub_cancel_left 17 j.val))

section Tables
variable (c : Dev nD)

/-! ## Duties -/

theorem duties_bar : (sched (F := F) m).duties (barCell c) 0 = Finset.univ.erase 0 := duties_tc m c (.reg barS)
theorem duties_copy (i : Fin 8) : (sched (F := F) m).duties (copyCell c i) 0 = {0} :=
  (duties_tc m c (.dma (copyS i))).trans
    (semDuties_used (copyS i) (1 + i.val) rfl (.inl ⟨Nat.le_add_right 1 i.val, by have := i.isLt; omega⟩))
theorem duties_send (j : Fin 8) (hj : j ≠ 0) : (sched (F := F) m).duties (sendCell c j) 0 = {0} :=
  (duties_tc m c (.dma (sendS j))).trans
    (semDuties_used (sendS j) (9 + j.val) rfl
      (.inr (.inl ⟨by have := val_pos_of_ne hj; omega, by have := j.isLt; omega⟩)))
theorem duties_recv (j : Fin 8) (hj : j ≠ 0) : (sched (F := F) m).duties (recvCell c j) 0 = {0} :=
  (duties_tc m c (.dma (recvS j))).trans
    (semDuties_used (recvS j) (17 + j.val) rfl
      (.inr (.inr ⟨by have := val_pos_of_ne hj; omega, by have := j.isLt; omega⟩)))
theorem duties_send0 : (sched (F := F) m).duties (sendCell c 0) 0 = ∅ :=
  (duties_tc m c (.dma (sendS 0))).trans (semDuties_unused (sendS 0) 9 rfl (by decide))
theorem duties_recv0 : (sched (F := F) m).duties (recvCell c 0) 0 = ∅ :=
  (duties_tc m c (.dma (recvS 0))).trans (semDuties_unused (recvS 0) 17 rfl (by decide))
theorem duties_later (g : GSem nD τ sig) : ∀ r, 1 ≤ r → (sched (F := F) m).duties g r = ∅ := fun r hr => by
  dsimp only [sched]; exact if_neg fun h => Nat.ne_of_gt hr h.1

/-! ## Amounts -/

theorem amount_bar (d : Fin 8) : (sched (F := F) m).amount (barCell c) 0 d = 1 := rfl
theorem amount_copy (i d : Fin 8) : (sched (F := F) m).amount (copyCell c i) 0 d = Nchunk :=
  semAmount_chunk (copyS i) (by have := i.isLt; show 1 + i.val ≤ 8; omega)
theorem amount_send (j d : Fin 8) : (sched (F := F) m).amount (sendCell c j) 0 d = Nrow :=
  semAmount_row (sendS j) (by show ¬ 9 + j.val ≤ 8; omega)
theorem amount_recv (j d : Fin 8) : (sched (F := F) m).amount (recvCell c j) 0 d = Nrow :=
  semAmount_row (recvS j) (by show ¬ 17 + j.val ≤ 8; omega)

theorem expect_bar : (sched (F := F) m).expect (barCell c) 0 = 7 := by
  have hcard : (Finset.univ.erase (0 : Fin 8)).card = 7 := by decide
  unfold Schedule.expect Schedule.amountOf
  rw [duties_bar, Finset.sum_congr rfl fun d _ => amount_bar m c d, Finset.sum_const, smul_eq_mul, Nat.mul_one]
  exact hcard
theorem expect_copy (i : Fin 8) : (sched (F := F) m).expect (copyCell c i) 0 = Nchunk := by
  unfold Schedule.expect Schedule.amountOf; rw [duties_copy, Finset.sum_singleton, amount_copy]
theorem expect_send (j : Fin 8) (hj : j ≠ 0) : (sched (F := F) m).expect (sendCell c j) 0 = Nrow := by
  unfold Schedule.expect Schedule.amountOf; rw [duties_send m c j hj, Finset.sum_singleton, amount_send]
theorem expect_recv (j : Fin 8) (hj : j ≠ 0) : (sched (F := F) m).expect (recvCell c j) 0 = Nrow := by
  unfold Schedule.expect Schedule.amountOf; rw [duties_recv m c j hj, Finset.sum_singleton, amount_recv]

/-! ## Payloads -/

theorem payload_bar (j : Fin 8) : (sched (F := F) m).payload (barCell c) 0 j = barPay c j := rfl
theorem payload_copy (i d : Fin 8) : (sched (F := F) m).payload (copyCell c i) 0 d = copyPay m c i := dmaPay_copy m c i
theorem payload_send (j d : Fin 8) : (sched (F := F) m).payload (sendCell c j) 0 d = sendPay m c j := dmaPay_send m c j
theorem payload_recv (j d : Fin 8) : (sched (F := F) m).payload (recvCell c j) 0 d = recvPay m c j := dmaPay_recv m c j

/-- The rest of the barrier cell's round, no duty taken: the seven entry signals' payloads. -/
theorem rest_bar : bigSep ((sched (F := F) m).duties (barCell c) 0 \ ∅) (fun d => (sched (F := F) m).payload (barCell c) 0 d)
    = bigSep (Finset.univ.erase (0 : Fin 8)) (fun j => barPay (F := F) c j) := by
  rw [Finset.sdiff_empty, duties_bar]
  exact bigSep_congr fun j _ => payload_bar m c j
theorem rest_copy (i : Fin 8) : bigSep ((sched (F := F) m).duties (copyCell c i) 0 \ ∅) (fun d => (sched (F := F) m).payload (copyCell c i) 0 d)
    = copyPay m c i := by
  rw [Finset.sdiff_empty, duties_copy, bigSep_singleton, payload_copy]
theorem rest_send (j : Fin 8) (hj : j ≠ 0) : bigSep ((sched (F := F) m).duties (sendCell c j) 0 \ ∅) (fun d => (sched (F := F) m).payload (sendCell c j) 0 d)
    = sendPay m c j := by
  rw [Finset.sdiff_empty, duties_send m c j hj, bigSep_singleton, payload_send]
theorem rest_recv (j : Fin 8) (hj : j ≠ 0) : bigSep ((sched (F := F) m).duties (recvCell c j) 0 \ ∅) (fun d => (sched (F := F) m).payload (recvCell c j) 0 d)
    = recvPay m c j := by
  rw [Finset.sdiff_empty, duties_recv m c j hj, bigSep_singleton, payload_recv]

/-! ## Levels -/

theorem L_of_ne (g : GSem nD τ sig) (h : g.1.2 ≠ .tc) : L g = ∅ := if_neg h
theorem L_tc (sm : SemLoc sig) : L ((c : Thread nD τ), sm) = {()} := if_pos rfl

/-- A receive cell sits at level 2, a barrier cell at 1, a cell numbered below 17 at 0. -/
theorem lv_recv (d : Dev nD) (j : Fin 8) (u : Unit) : lv (recvCell d j) u = 2 := if_pos (Nat.le_add_right 17 j.val)
theorem lv_bar (d : Dev nD) (u : Unit) : lv (barCell d) u = 1 := rfl
theorem lv_low (d : Dev nD) (q : DmaSem sig) (hq : q.val < 17) (u : Unit) : lv ((d : Thread nD τ), .dma q) u = 0 :=
  if_neg (Nat.not_le.mpr hq)

/-- While sends are still to come a device owes only receive cells, each the one its shift names. -/
theorem owedS_pos {n : ℕ} {g : GSem nD τ sig} {u : Unit} (h : 0 < owedS c n g u) : ∃ j : Fin 8, g = recvCell (sh c j) j := by
  induction n with
  | zero => exact absurd h (Nat.lt_irrefl 0)
  | succ n ih =>
    rcases Pipeline.add_pos_cases (D₁ := owedS c n) (D₂ := tallyAt (recvCell (sh c (jOf n)) (jOf n)) () Nrow) h with h | h
    · exact ih h
    · rw [tallyAt_apply] at h
      by_cases hg : g = recvCell (sh c (jOf n)) (jOf n) ∧ u = ()
      · exact ⟨jOf n, hg.1⟩
      · rw [if_neg hg] at h; exact absurd h (Nat.lt_irrefl 0)

/-- Before its entry signals a device owes, besides, only barrier cells. -/
theorem owedB_pos {n : ℕ} {g : GSem nD τ sig} {u : Unit} (h : 0 < owedB c n g u) :
    (∃ j : Fin 8, g = recvCell (sh c j) j) ∨ ∃ j : Fin 8, g = barCell (sh c j) := by
  induction n with
  | zero => exact .inl (owedS_pos c h)
  | succ n ih =>
    rcases Pipeline.add_pos_cases (D₁ := owedB c n) (D₂ := tallyAt (barCell (sh c (jOf n))) () 1) h with h | h
    · exact ih h
    · rw [tallyAt_apply] at h
      by_cases hg : g = barCell (sh c (jOf n)) ∧ u = ()
      · exact .inr ⟨jOf n, hg.1⟩
      · rw [if_neg hg] at h; exact absurd h (Nat.lt_irrefl 0)

/-- At its barrier wait a device owes the seven receive credits only: receive cells, above its barrier cell. -/
theorem mayWait_bar : (levAts L lv : sProp 𝕄) ⊢ MayWait (c : Thread nD τ) (.reg barS) () (owedS c 7) :=
  MayOwe.of_cut (L := L) (lev := lv) 1
    (fun p hp => by rw [Finset.mem_singleton.mp hp, L_tc]; exact Finset.mem_singleton_self _)
    (fun g u hg => by obtain ⟨j, rfl⟩ := owedS_pos c hg; rw [L_tc]; exact Finset.mem_singleton_self _)
    (fun p hp => by rw [Finset.mem_singleton.mp hp]; exact Nat.le_of_eq (lv_bar c ()))
    (fun g u hg => by
      obtain ⟨j, rfl⟩ := owedS_pos c hg
      exact lt_of_lt_of_eq (by decide : (1 : ℕ) < 2) (lv_recv (sh c j) j u).symm)
/-- A wait on a staging, chunk or send semaphore (below every cell a device ever owes) while n sends are still to come. -/
theorem mayWait_low (q : DmaSem sig) (hq : q.val < 17) (n : ℕ) :
    (levAts L lv : sProp 𝕄) ⊢ MayWait (c : Thread nD τ) (.dma q) () (owedS c n) :=
  MayOwe.of_cut (L := L) (lev := lv) 0
    (fun p hp => by rw [Finset.mem_singleton.mp hp, L_tc]; exact Finset.mem_singleton_self _)
    (fun g u hg => by obtain ⟨j, rfl⟩ := owedS_pos c hg; rw [L_tc]; exact Finset.mem_singleton_self _)
    (fun p hp => by rw [Finset.mem_singleton.mp hp]; exact Nat.le_of_eq (lv_low c q hq ()))
    (fun g u hg => by
      obtain ⟨j, rfl⟩ := owedS_pos c hg
      exact lt_of_lt_of_eq (by decide : (0 : ℕ) < 2) (lv_recv (sh c j) j u).symm)
/-- The same at the pipeline's own waits: the device owes everything (before the point) or nothing (after it). -/
theorem mayWait_stage (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases owedB_pos c hg with ⟨j, rfl⟩ | ⟨j, rfl⟩ <;> (rw [L_tc]; exact Finset.mem_singleton_self _))
      (fun p hp => by rw [Finset.mem_singleton.mp hp]; exact Nat.le_of_eq (lv_low c q hq ()))
      (fun g u hg => by
        rcases owedB_pos c hg with ⟨j, rfl⟩ | ⟨j, rfl⟩
        · exact lt_of_lt_of_eq (by decide : (0 : ℕ) < 2) (lv_recv (sh c j) j u).symm
        · exact lt_of_lt_of_eq (by decide : (0 : ℕ) < 1) (lv_bar (sh c j) u).symm)
  · rw [MayWait_zero]; iintro -; iempintro

end Tables

/-- info: 'Cert.KernelIdeal.Sum.mayWait_stage' depends on axioms: [propext, Classical.choice, Quot.sound] -/
#guard_msgs in #print axioms mayWait_stage

/-- info: 'Cert.KernelIdeal.Sum.mayWait_bar' depends on axioms: [propext, Classical.choice, Quot.sound] -/
#guard_msgs in #print axioms mayWait_bar

/-- info: 'Cert.KernelIdeal.Sum.rest_recv' depends on axioms: [propext, Classical.choice, Quot.sound] -/
#guard_msgs in #print axioms rest_recv

/-- info: 'Cert.KernelIdeal.Sum.expect_bar' depends on axioms: [propext, Classical.choice, Quot.sound] -/
#guard_msgs in #print axioms expect_bar

end Cert.KernelIdeal.Sum

end
-- ==== Proof.BodyA.lean ====
/-
  The pieces one device's body is stepped with: what each of its steps consumes and what it leaves, and the
  entry signal's step.
-/
import proofs.«901086_g7700000000001087_dist_sum_ax0_shard0_i_m2048_n1024_v7x_i8_bf16_1_alg».proof.Proof.Tables
import proofs.«901086_g7700000000001087_dist_sum_ax0_shard0_i_m2048_n1024_v7x_i8_bf16_1_alg».proof.Proof.Gen.KernelIdeal.Skeleton

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts about the cells and the ring -/

theorem kcell_bar (c : Dev nD) : kcell (c, (0 : Fin 25)) = barCell c := rfl
theorem kcell_copy (c : Dev nD) (i : Fin 8) : kcell (c, copyN i) = copyCell c i := by fin_cases i <;> rfl
theorem kcell_send (c : Dev nD) (j : Fin 8) : kcell (c, sendN j) = sendCell c j := by fin_cases j <;> rfl
theorem kcell_recv (c : Dev nD) (j : Fin 8) : kcell (c, recvN j) = recvCell c j := by fin_cases j <;> rfl

theorem ng_ne_zero (K : Fin 8) (hK : K ≠ 0) : ng K ≠ 0 := by revert K; decide
theorem jOf_ne_zero (n : ℕ) (hn : n < 7) : jOf n ≠ 0 := by
  interval_cases n <;> decide

/-- Every cell's invariant, and that its round 0 is reached, out of the records. -/
theorem records_inv (Kn : Dev nD × Fin 25 → ℕ) (ck : Dev nD × Fin 25) :
    records (F := F) m Kn ⊢ cellInv ER (sched m) (Kn ck) (kcell ck) := by
  unfold records
  exact (BI.Entails.trans BI.sep_and and_elimL).trans (bigSep_elim (Finset.mem_univ ck))
theorem records_reached (Kn : Dev nD × Fin 25 → ℕ) (ck : Dev nD × Fin 25) :
    records (F := F) m Kn ⊢ reached ER (kcell ck) 0 := by
  unfold records
  exact (BI.Entails.trans BI.sep_and and_elimR).trans (bigSep_elim (Finset.mem_univ ck))

/-! ## What the steps consume and leave -/

/-- What a device owes, whichever waits it has recorded. -/
def owesX (c : Dev nD) (O : CellTallies nD τ sig Unit) : sProp 𝕄 := iprop(∃ W, owes (c : Thread nD τ) O W)

/-- The word the body computes for the device's place on the ring. -/
abbrev v2w (c : Dev nD) : BitVec 32 := Scalar.remsi (Scalar.divsi (Dev.word c) 1#32) 8#32

/-- What entry signal `K` consumes: the token of the duty it pays and the row it hands over. -/
def sigR (c : Dev nD) (K : Fin 8) : sProp 𝕄 :=
  iprop(dutyTok ER (barCell (sh c K)) 0 (ng K) ∗ (∃ f, rowPts c (sh c K) fullShare f))

/-- The read token of chunk `i`: share `i` of the block of `x`, on the rows the chunk's transfer reads. -/
def xTok (c : Dev nD) (i : Fin 8) : sProp 𝕄 :=
  (xSrc i).view.loc (c : Thread nD τ) ↦[(xSrc i).view.set]{Transfers.shareTokN fullShare i.val}
    (m ((c : Thread nD τ).loc main_arg0) : Buf (Elt F) ((xSrc i).view.loc (c : Thread nD τ)))

/-- Chunk `i` before its transfer is issued, in flight, and landed. -/
def cpyR (c : Dev nD) (i : Fin 8) : sProp 𝕄 :=
  iprop(dutyTok ER (copyCell c i) 0 (0 : Fin 8) ∗ xTok m c i ∗ (∃ f, chunkPts c i f) ∗ atPos ER (copyCell c i) 0 ∅ 0)
def cpyI (c : Dev nD) (i : Fin 8) : sProp 𝕄 :=
  iprop(cred (tallyAt (copyCell c i) () Nchunk) ∗ atPos ER (copyCell c i) 0 ∅ 0)
def cpyD (c : Dev nD) (i : Fin 8) : sProp 𝕄 :=
  iprop(chunkPts c i (vfin m c) ∗ atPos ER (copyCell c i) 1 ∅ 0)

/-- The barrier cell before the wait for the seven entry signals. -/
def barI (c : Dev nD) : sProp 𝕄 := iprop(cred (tallyAt (barCell c) () 7) ∗ atPos ER (barCell c) 0 ∅ 0)

/-- Send `j`: the two duty tokens it pays with and the send cell's position; in flight; its share of row `c` back. -/
def sndT (c : Dev nD) (j : Fin 8) : sProp 𝕄 :=
  iprop(dutyTok ER (sendCell c j) 0 (0 : Fin 8) ∗ dutyTok ER (recvCell (sh c j) j) 0 (0 : Fin 8) ∗ atPos ER (sendCell c j) 0 ∅ 0)
def sndI (c : Dev nD) (j : Fin 8) : sProp 𝕄 :=
  iprop(cred (tallyAt (sendCell c j) () Nrow) ∗ atPos ER (sendCell c j) 0 ∅ 0)
def sndD (c : Dev nD) (j : Fin 8) : sProp 𝕄 :=
  iprop(rowPts c c (Transfers.shareTokN fullShare j.val) (commB m c) ∗ atPos ER (sendCell c j) 1 ∅ 0)

/-- Receive `j`: the launch credit and the position; the landed row. -/
def rcvI (c : Dev nD) (j : Fin 8) : sProp 𝕄 :=
  iprop(cred (tallyAt (recvCell c j) () Nrow) ∗ atPos ER (recvCell c j) 0 ∅ 0)
def rcvD (c : Dev nD) (j : Fin 8) : sProp 𝕄 :=
  iprop(rowPts c (bk c j) fullShare (commB m c) ∗ atPos ER (recvCell c j) 1 ∅ 0)

/-! ## The entry signal -/

theorem step_signal' (c : Dev nD) (Kn : Dev nD × Fin 25 → ℕ) (K : Fin 8) (n : ℕ) (hn : n < 7) (hK : K = jOf n) (W : Waits sig Unit)
    {α : Type} (k : PUnit → Prog (TpuEff nD τ sig (Elt F) Λ₀ .tc) α) (Q : α → sProp 𝕄) :
    iprop(records m Kn ∗ owes (c : Thread nD τ) (owedB c (n + 1)) W ∗ sigR c K)
      ⊢ iprop((owes (c : Thread nD τ) (owedB c n) W -∗ wp frame (wpE (defs₀ (F := F)) 𝒱₀ c none) Set.univ (k ⟨⟩) Q)
          -∗ wp frame (wpE (defs₀ (F := F)) 𝒱₀ c none) Set.univ (.op (.semSignal ((sh c K : Dev nD) : Thread nD τ) barS 1) k) Q) := by
  subst hK
  have hK0 := jOf_ne_zero n hn
  unfold sigR
  iintro ⟨#Hrec, HL, Htok, Hrow⟩ Hk
  ihave #HIb := (records_inv m Kn (sh c (jOf n), (0 : Fin 25))) $$ Hrec
  ihave #HRb := (records_reached m Kn (sh c (jOf n), (0 : Fin 25))) $$ Hrec
  ihave #HRr := (records_reached m Kn (c, recvN (ng (jOf n)))) $$ Hrec
  rw [kcell_recv]
  have hd : ng (jOf n) ∈ (sched (F := F) m).duties (barCell (sh c (jOf n))) 0 := by
    rw [duties_bar]; exact Finset.mem_erase.mpr ⟨ng_ne_zero _ hK0, Finset.mem_univ _⟩
  iapply (wp_signal 𝒱₀ ER (sched m) (c : Thread nD τ) none (dst := ((sh c (jOf n) : Dev nD) : Thread nD τ)) (sem := barS) (r := 0) (d := ng (jOf n)) (k' := 1)
    (κ := Kn (sh c (jOf n), 0)) hd (amount_bar m _ _) () (owedB c n) rfl) $$ [HL Htok Hrow] Hk
  isplitr; · iexact HIb
  isplitl [HL]; · iexact HL
  isplitl [Htok]; · iexact Htok
  isplitl [Hrow]
  · rw [payload_bar]; unfold barPay; rw [sh_ng]
    isplitl [Hrow]; · iexact Hrow
    iexact HRr
  iexact HRb

/-- Entry signal `K = jOf n` (`n` signals still to come after it): the duty's token and row `sh c K` of the
    device's own gather buffer go, and the signal comes off what the device owes. -/
theorem step_signal (c : Dev nD) (Kn : Dev nD × Fin 25 → ℕ) (K : Fin 8) (n : ℕ) (hn : n < 7) (hK : K = jOf n)
    {α : Type} (k : PUnit → Prog (TpuEff nD τ sig (Elt F) Λ₀ .tc) α) (Q : α → sProp 𝕄) :
    iprop(records m Kn ∗ owesX c (owedB c (n + 1)) ∗ sigR c K)
      ⊢ iprop((owesX c (owedB c n) -∗ wp frame (wpE (defs₀ (F := F)) 𝒱₀ c none) Set.univ (k ⟨⟩) Q)
          -∗ wp frame (wpE (defs₀ (F := F)) 𝒱₀ c none) Set.univ (.op (.semSignal ((sh c K : Dev nD) : Thread nD τ) barS 1) k) Q) := by
  unfold owesX
  iintro ⟨#Hrec, ⟨%W, HL⟩, HS⟩ Hk
  iapply (step_signal' m c Kn K n hn hK W k Q) $$ [HL HS]
  · isplitr; · iexact Hrec
    isplitl [HL]; · iexact HL
    iexact HS
  iintro HL
  iapply Hk
  iexists W
  iexact HL

end Cert.KernelIdeal.Sum

end
-- ==== Proof.Views.lean ====
/-
  The views: which elements of the gather buffer a row's view holds, and of the VMEM copy a chunk's; a buffer is its
  eight rows (chunks), pairwise disjoint; the row and chunk views the program spells through its offset chains are
  these.
-/
import proofs.«901086_g7700000000001087_dist_sum_ax0_shard0_i_m2048_n1024_v7x_i8_bf16_1_alg».proof.Proof.Proto

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## The rows of the gather buffer -/

/-- The elements of row `r`: first coordinate `r`. -/
def rowSet (r : Fin 8) : Finset S8x1x1024.Idx := (Rect.unit (s := S8x1x1024) ![r.val, 0, 0] S1x1x1024.size (inb_row r)).set

omit [FloatOps F] in
theorem rowM_set (r : Fin 8) : (rowM r).view.set = rowSet r := by
  show (((View.whole cc0_scratch1).slice (Rect.unit (s := S8x1x1024) ![r.val, 0, 0] S1x1x1024.size (inb_row r))).reshape S1x1024 _).set = _
  rw [View.set_reshape, View.set_slice_whole]; rfl

theorem mem_rowSet (r : Fin 8) (i : S8x1x1024.Idx) : i ∈ rowSet r ↔ (i 0).val = r.val := by
  unfold rowSet
  rw [Rect.mem_set_unit]
  constructor
  · intro h
    have h0 := h 0
    simp only [Matrix.cons_val_zero] at h0
    have : S1x1x1024.size 0 = 1 := rfl
    omega
  · intro h a
    have h1 : (i 1).val < 1 := (i 1).isLt
    have h2 : (i 2).val < 1024 := (i 2).isLt
    match a with
    | ⟨0, _⟩ => exact ⟨by show r.val ≤ (i 0).val; omega, by show (i 0).val < r.val + 1; omega⟩
    | ⟨1, _⟩ => exact ⟨Nat.zero_le _, by show (i 1).val < 0 + 1; omega⟩
    | ⟨2, _⟩ => exact ⟨Nat.zero_le _, by show (i 2).val < 0 + 1024; omega⟩

theorem rowSet_disjoint (r r' : Fin 8) (h : r ≠ r') : Disjoint (rowSet r) (rowSet r') := by
  rw [Finset.disjoint_left]
  intro i hi hi'
  rw [mem_rowSet] at hi hi'
  exact h (Fin.ext (hi.symm.trans hi'))

/-- Every element of the buffer is in some row, whichever decision procedure for equality of indices the union is
    taken with. -/
theorem rowSet_cover [inst : DecidableEq S8x1x1024.Idx] :
    @Finset.biUnion (Fin 8) S8x1x1024.Idx inst Finset.univ (fun r => rowSet r) = Finset.univ := by
  ext i
  simp only [Finset.mem_biUnion, Finset.mem_univ, true_and, iff_true]
  exact ⟨⟨(i 0).val, (i 0).isLt⟩, (mem_rowSet _ i).mpr rfl⟩

omit [FloatOps F] in
/-- A device's gather buffer at a share is its eight rows at that share. -/
theorem buf_rows (c : Dev nD) (q : PosShare TreeShare) (f : Buf (Elt F) ((c : Thread nD τ).loc cc0_scratch1)) :
    (((c : Thread nD τ).loc cc0_scratch1) ↦{q} f : sProp 𝕄) = bigSep Finset.univ (fun r : Fin 8 => rowPts c r q f) := by
  have h := (pointsTo_biUnion (ℓ := (c : Thread nD τ).loc cc0_scratch1) (q := q) (f := f) (Finset.univ : Finset (Fin 8))
    (fun r => rowSet r) (fun r _ r' _ hne => rowSet_disjoint r r' hne) : (_ : sProp 𝕄) = _)
  rw [rowSet_cover] at h
  refine h.trans (bigSep_congr fun r _ => ?_)
  unfold rowPts
  rw [rowM_set]
  rfl

/-! ## The chunks of the VMEM copy -/

/-- The elements of chunk `i`: first coordinate `i`. -/
def chunkSet (i : Fin 8) : Finset S8x256x1024.Idx := (Rect.unit (s := S8x256x1024) ![i.val, 0, 0] S1x256x1024.size (inb_chunkV i)).set

omit [FloatOps F] in
theorem vDst_set (i : Fin 8) : (vDst i).view.set = chunkSet i := by
  show (((View.whole cc0_scratch0).slice (Rect.unit (s := S8x256x1024) ![i.val, 0, 0] S1x256x1024.size (inb_chunkV i))).reshape S256x1024 _).set = _
  rw [View.set_reshape, View.set_slice_whole]; rfl

theorem mem_chunkSet (i : Fin 8) (j : S8x256x1024.Idx) : j ∈ chunkSet i ↔ (j 0).val = i.val := by
  unfold chunkSet
  rw [Rect.mem_set_unit]
  constructor
  · intro h
    have h0 := h 0
    simp only [Matrix.cons_val_zero] at h0
    have : S1x256x1024.size 0 = 1 := rfl
    omega
  · intro h a
    have h1 : (j 1).val < 256 := (j 1).isLt
    have h2 : (j 2).val < 1024 := (j 2).isLt
    match a with
    | ⟨0, _⟩ => exact ⟨by show i.val ≤ (j 0).val; omega, by show (j 0).val < i.val + 1; omega⟩
    | ⟨1, _⟩ => exact ⟨Nat.zero_le _, by show (j 1).val < 0 + 256; omega⟩
    | ⟨2, _⟩ => exact ⟨Nat.zero_le _, by show (j 2).val < 0 + 1024; omega⟩

theorem chunkSet_disjoint (i i' : Fin 8) (h : i ≠ i') : Disjoint (chunkSet i) (chunkSet i') := by
  rw [Finset.disjoint_left]
  intro j hj hj'
  rw [mem_chunkSet] at hj hj'
  exact h (Fin.ext (hj.symm.trans hj'))

theorem chunkSet_cover [inst : DecidableEq S8x256x1024.Idx] :
    @Finset.biUnion (Fin 8) S8x256x1024.Idx inst Finset.univ (fun i => chunkSet i) = Finset.univ := by
  ext j
  simp only [Finset.mem_biUnion, Finset.mem_univ, true_and, iff_true]
  exact ⟨⟨(j 0).val, (j 0).isLt⟩, (mem_chunkSet _ j).mpr rfl⟩

omit [FloatOps F] in
/-- A device's VMEM copy, whole, is its eight chunks. -/
theorem buf_chunks (c : Dev nD) (f : Buf (Elt F) ((c : Thread nD τ).loc cc0_scratch0)) :
    (((c : Thread nD τ).loc cc0_scratch0) ↦{fullShare} f : sProp 𝕄) = bigSep Finset.univ (fun i : Fin 8 => chunkPts c i f) := by
  have h := (pointsTo_biUnion (ℓ := (c : Thread nD τ).loc cc0_scratch0) (q := fullShare) (f := f) (Finset.univ : Finset (Fin 8))
    (fun i => chunkSet i) (fun i _ i' _ hne => chunkSet_disjoint i i' hne) : (_ : sProp 𝕄) = _)
  rw [chunkSet_cover] at h
  refine h.trans (bigSep_congr fun i _ => ?_)
  unfold chunkPts
  rw [vDst_set]
  rfl

/-! ## The views the program spells through its offset chains -/

omit [FloatOps F] in
/-- The row the sends read and the send waits name: the device's own. -/
theorem row_off2 (c : Dev nD) :
    ((cM : Memref sig .tc .vmem S8x1x1024 .f32).slice (Rect.unit (s := S8x1x1024) (k0_off2 c) S1x1x1024.size (k0_off2_inb c)) (fun _ => rfl)).squeeze S1x1024
      squeezes_S1x1x1024_S1x1024 = rowM c := by
  unfold rowM
  rw [Memref.slice_unit_congr cM (k0_off2_eq c) (k0_off2_inb c) (inb_row c)]

/-- The offset the receive wait `1 + r` names is the row of the device `1 + r` places back. -/
theorem off3_eq (c : Dev nD) (r : Fin 7) :
    k0_off3 c (BitVec.ofNat 32 (1 + r.val)) = ![(bk c ⟨1 + r.val, by have := r.isLt; omega⟩).val, 0, 0] := by
  rw [k0_off3_eq]; revert c r; decide

omit [FloatOps F] in
theorem row_off3 (c : Dev nD) (r : Fin 7) :
    ((cM : Memref sig .tc .vmem S8x1x1024 .f32).slice (Rect.unit (s := S8x1x1024) (k0_off3 c (BitVec.ofNat 32 (1 + r.val))) S1x1x1024.size (k0_off3_inb c r))
      (fun _ => rfl)).squeeze S1x1024 squeezes_S1x1x1024_S1x1024 = rowM (bk c ⟨1 + r.val, by have := r.isLt; omega⟩) := by
  unfold rowM
  rw [Memref.slice_unit_congr cM (off3_eq c r) (k0_off3_inb c r) (inb_row _)]

omit [FloatOps F] in
/-- The rectangle the device's own column sums are stored through is its own row. -/
theorem access_off1_set (c : Dev nD) :
    ((cM : Memref sig .tc .vmem S8x1x1024 .f32).access (Rect.unit (s := S8x1x1024) (k0_off1 c) S1x1x1024.size (k0_off1_inb c))).set = rowSet c := by
  show ((View.whole cc0_scratch1).slice (Rect.unit (s := S8x1x1024) (k0_off1 c) S1x1x1024.size (k0_off1_inb c))).set = _
  rw [View.set_slice_whole, Rect.unit_congr (k0_off1_eq c) (k0_off1_inb c) (inb_row c)]
  rfl

end Cert.KernelIdeal.Sum

end
-- ==== Proof.Landed.lean ====
/-
  What each landing and each load holds. A chunk's transfer copies rows [256 i, 256 i + 256) of the device's block
  into slab i of its VMEM copy, element (y0, y1) of the one to element (i, y0, y1) of the other, so on that slab the
  copy holds the block's rows, whatever it held before. A row's transfer reads and writes through the same view, so
  on that row the destination holds the source's row. The store of a device's own column sums goes through its own
  row, and what it stores is that row of the gathered buffer. A load of slab i of the landed copy reads chunk i of
  the block; the load of the whole gathered buffer reads all eight rows; the last store writes the result whole.
-/
import proofs.«901086_g7700000000001087_dist_sum_ax0_shard0_i_m2048_n1024_v7x_i8_bf16_1_alg».proof.Proof.Views
import Idealize.ShloMosaic.Lib.Pipeline.Value
import Idealize.ShloMosaic.Lib.ValueLayout

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Credits: every row's transfer has one credit, every chunk's another -/

theorem rowM_credit (r : Fin 8) : (rowM r).view.dmaCredit = Nrow := rfl
theorem vDst_credit (i : Fin 8) : (vDst i).view.dmaCredit = Nchunk := rfl
theorem rowM_amount (r : Fin 8) (q : DmaSem sig) : (rowM r).view.amount (.dma q) = Nrow := rfl
theorem vDst_amount (i : Fin 8) (q : DmaSem sig) : (vDst i).view.amount (.dma q) = Nchunk := rfl

/-! ## Where the views put their indices -/

/-- Element (a, b) of chunk i's destination view is element (i, a, b) of the VMEM copy. -/
theorem vDst_emb (i : Fin 8) (a : Fin 256) (b : Fin 1024) :
    ((vDst i).view.emb (ix2 a b) : S8x256x1024.Idx) = ix3 i a b := by
  show (Rect.unit (s := S8x256x1024) ![i.val, 0, 0] S1x256x1024.size (inb_chunkV i)).emb
      (Shape.reshapeEquiv (squeezes_S1x256x1024_S256x1024).numel_eq (ix2 a b)) = _
  rw [reshapeEquiv_ix2_1ab]
  funext k
  apply Fin.ext
  match k with
  | ⟨0, _⟩ => show i.val + 1 * 0 = i.val; omega
  | ⟨1, _⟩ => show 0 + 1 * a.val = a.val; omega
  | ⟨2, _⟩ => show 0 + 1 * b.val = b.val; omega

/-- Element (a, b) of chunk i's source view is element (256 i + a, b) of the block. -/
theorem xSrc_emb (i : Fin 8) (a : Fin 256) (b : Fin 1024) :
    ((xSrc i).view.emb (ix2 a b) : S2048x1024.Idx)
      = ix2 (⟨256 * i.val + a.val, by have := i.isLt; have := a.isLt; omega⟩ : Fin 2048) b := by
  funext k
  apply Fin.ext
  match k with
  | ⟨0, _⟩ => show 256 * i.val + 1 * a.val = 256 * i.val + a.val; omega
  | ⟨1, _⟩ => show 0 + 1 * b.val = b.val; omega

/-! ## (a) A landed chunk -/

/-- Whatever the slab held, once chunk i has landed it holds rows [256 i, 256 i + 256) of the block. -/
theorem landed_chunk (c : Dev nD) (i : Fin 8) (fd : Buf (Elt F) ((vDst i).view.loc (c : Thread nD τ))) :
    ((vDst i).view.loc (c : Thread nD τ) ↦[(vDst i).view.set]{fullShare}
        ((vDst i).view.write (Elt F) fd
          ((xSrc i).view.read (Elt F) (m ((c : Thread nD τ).loc main_arg0) : Buf (Elt F) ((xSrc i).view.loc (c : Thread nD τ))))
          Finset.univ) : sProp 𝕄)
      = chunkPts c i (vfin m c) := by
  unfold chunkPts
  refine pointsTo_congr fun j hj => ?_
  obtain ⟨y, rfl⟩ := View.exists_emb_of_mem_set (vDst i).view hj
  have hy := eq_ix2 y
  generalize y 0 = a at hy
  generalize y 1 = b at hy
  subst hy
  refine (View.write_emb_of_mem (v := (vDst i).view) fd _ (Finset.mem_univ (ix2 a b))).trans ?_
  show m ((c : Thread nD τ).loc main_arg0) ((xSrc i).view.emb (ix2 a b)) = vfin m c ((vDst i).view.emb (ix2 a b))
  have h1 := congrArg (xb m c) (xSrc_emb i a b)
  have h2 := congrArg (vfin m c) (vDst_emb i a b)
  exact h1.trans (h2.trans rfl).symm

/-! ## (b) A landed row -/

/-- Writing through a row's view what was read through it puts the source's row there. -/
theorem landed_row_of (c' : Dev nD) (r : Fin 8) (fd fs : Buf (Elt F) ((rowM r).view.loc (c' : Thread nD τ))) :
    ((rowM r).view.loc (c' : Thread nD τ) ↦[(rowM r).view.set]{fullShare}
        ((rowM r).view.write (Elt F) fd ((rowM r).view.read (Elt F) fs) Finset.univ) : sProp 𝕄)
      = rowPts c' r fullShare fs := by
  unfold rowPts
  refine pointsTo_congr fun j hj => ?_
  rw [View.write_read_eq_piecewise]
  exact Finset.piecewise_eq_of_mem _ _ _ (by rw [View.setOn_univ]; exact hj)

/-- The gathered buffer is the same on every device, so a row of it sent from one device lands as that row of the
    destination's. -/
theorem landed_row (c c' : Dev nD) (r : Fin 8) (fd : Buf (Elt F) ((rowM r).view.loc (c' : Thread nD τ))) :
    ((rowM r).view.loc (c' : Thread nD τ) ↦[(rowM r).view.set]{fullShare}
        ((rowM r).view.write (Elt F) fd
          ((rowM r).view.read (Elt F) (commB m c : Buf (Elt F) ((rowM r).view.loc (c : Thread nD τ)))) Finset.univ) : sProp 𝕄)
      = rowPts c' r fullShare (commB m c') :=
  landed_row_of c' r fd (commB m c')

/-! ## (c) The store of a device's own column sums -/

/-- The rectangle that store (and the load before it) goes through, at the offsets the program computes from the
    device's position: element y of it is element (c, y1, y2) of the gathered buffer. -/
theorem off1_emb (c : Dev nD) (y : S1x1x1024.Idx) :
    (((cM : Memref sig .tc .vmem S8x1x1024 .f32).access
        (Rect.unit (s := S8x1x1024) (k0_off1 c) S1x1x1024.size (k0_off1_inb c))).emb y : S8x1x1024.Idx)
      = ix3 c (y 1) (y 2) := by
  have h0 : (y 0).val = 0 := Nat.lt_one_iff.mp (y 0).isLt
  have hoff := k0_off1_eq c
  funext k
  apply Fin.ext
  match k with
  | ⟨0, _⟩ =>
    show k0_off1 c 0 + 1 * (y 0).val = c.val
    rw [hoff]; show c.val + 1 * (y 0).val = c.val; omega
  | ⟨1, _⟩ =>
    show k0_off1 c 1 + 1 * (y 1).val = (y 1).val
    rw [hoff]; show 0 + 1 * (y 1).val = (y 1).val; omega
  | ⟨2, _⟩ =>
    show k0_off1 c 2 + 1 * (y 2).val = (y 2).val
    rw [hoff]; show 0 + 1 * (y 2).val = (y 2).val; omega

/-- The store stays inside the device's own row, -/
theorem store_off1_sub (c : Dev nD) :
    ((cM : Memref sig .tc .vmem S8x1x1024 .f32).access
        (Rect.unit (s := S8x1x1024) (k0_off1 c) S1x1x1024.size (k0_off1_inb c))).setOn Finset.univ ⊆ (rowM c).view.set :=
  Finset.subset_of_eq ((View.setOn_univ _).trans ((access_off1_set c).trans (rowM_set c).symm))

/-- and so does the load before it. -/
theorem load_off1_sub (c : Dev nD) :
    (cM : Memref sig .tc .vmem S8x1x1024 .f32).view.setOn
        (Rect.unit (s := S8x1x1024) (k0_off1 c) S1x1x1024.size (k0_off1_inb c)).toLoadRect.set ⊆ (rowM c).view.set :=
  Finset.subset_of_eq ((View.set_slice (cM : Memref sig .tc .vmem S8x1x1024 .f32).view
    (Rect.unit (s := S8x1x1024) (k0_off1 c) S1x1x1024.size (k0_off1_inb c))).symm.trans
      ((access_off1_set c).trans (rowM_set c).symm))

/-- Once the block's column sums are stored, the device's own row is that row of the gathered buffer. -/
theorem stored_row (c : Dev nD) (f : Buf (Elt F) ((c : Thread nD τ).loc cc0_scratch1)) :
    (((cM : Memref sig .tc .vmem S8x1x1024 .f32).access
          (Rect.unit (s := S8x1x1024) (k0_off1 c) S1x1x1024.size (k0_off1_inb c))).loc (c : Thread nD τ) ↦[(rowM c).view.set]{fullShare}
        (((cM : Memref sig .tc .vmem S8x1x1024 .f32).access
          (Rect.unit (s := S8x1x1024) (k0_off1 c) S1x1x1024.size (k0_off1_inb c))).write (Elt F) f (rowv (xb m c)) Finset.univ) : sProp 𝕄)
      = rowPts c c fullShare (commB m c) := by
  unfold rowPts
  refine pointsTo_congr fun j hj => ?_
  have hj' : j ∈ ((cM : Memref sig .tc .vmem S8x1x1024 .f32).access
      (Rect.unit (s := S8x1x1024) (k0_off1 c) S1x1x1024.size (k0_off1_inb c))).set := by
    rw [access_off1_set, ← rowM_set]; exact hj
  obtain ⟨y, rfl⟩ := View.exists_emb_of_mem_set _ hj'
  refine (View.write_emb_of_mem (v := (cM : Memref sig .tc .vmem S8x1x1024 .f32).access
      (Rect.unit (s := S8x1x1024) (k0_off1 c) S1x1x1024.size (k0_off1_inb c))) f _ (Finset.mem_univ y)).trans ?_
  show rowv (xb m c) y = comm (xb m) (((cM : Memref sig .tc .vmem S8x1x1024 .f32).access
      (Rect.unit (s := S8x1x1024) (k0_off1 c) S1x1x1024.size (k0_off1_inb c))).emb y)
  have hy : y = ix3 (0 : Fin 1) (y 1) (y 2) := by
    funext k
    match k with
    | ⟨0, _⟩ => exact Fin.ext (Nat.lt_one_iff.mp (y 0).isLt)
    | ⟨1, _⟩ => rfl
    | ⟨2, _⟩ => rfl
  have h1 := congrArg (rowv (xb m c)) hy
  have h2 := congrArg (comm (xb m)) (off1_emb c y)
  exact h1.trans (h2.trans rfl).symm

/-! ## (d) The loads of the landed chunks -/

/-- The load of slab i stays inside chunk i's set, -/
theorem chunk_load_sub (i : Fin 8) :
    (vM : Memref sig .tc .vmem S8x256x1024 .f32).view.setOn
        (Rect.unit (s := S8x256x1024) ![i.val, 0, 0] S1x256x1024.size (inb_chunkV i)).toLoadRect.set ⊆ (vDst i).view.set :=
  Finset.subset_of_eq ((View.set_slice (vM : Memref sig .tc .vmem S8x256x1024 .f32).view
    (Rect.unit (s := S8x256x1024) ![i.val, 0, 0] S1x256x1024.size (inb_chunkV i))).symm.trans
      ((View.set_slice_whole cc0_scratch0 _).trans (vDst_set i).symm))

/-- and reads chunk i of the block. -/
theorem chunk_load (c : Dev nD) (i : Fin 8) :
    (vM : Memref sig .tc .vmem S8x256x1024 .f32).view.readAt (Elt F)
        (Rect.unit (s := S8x256x1024) ![i.val, 0, 0] S1x256x1024.size (inb_chunkV i)).toLoadRect (vfin m c)
      = chunk (xb m c) i := by
  funext x
  show vfin m c ((Rect.unit (s := S8x256x1024) ![i.val, 0, 0] S1x256x1024.size (inb_chunkV i)).emb x) = chunk (xb m c) i x
  have h0 : (x 0).val = 0 := Nat.lt_one_iff.mp (x 0).isLt
  have hx : x = ix3 (0 : Fin 1) (x 1) (x 2) := by
    funext k
    match k with
    | ⟨0, _⟩ => exact Fin.ext h0
    | ⟨1, _⟩ => rfl
    | ⟨2, _⟩ => rfl
  have he : ((Rect.unit (s := S8x256x1024) ![i.val, 0, 0] S1x256x1024.size (inb_chunkV i)).emb x : S8x256x1024.Idx)
      = ix3 i (x 1) (x 2) := by
    funext k
    apply Fin.ext
    match k with
    | ⟨0, _⟩ => show i.val + 1 * (x 0).val = i.val; omega
    | ⟨1, _⟩ => show 0 + 1 * (x 1).val = (x 1).val; omega
    | ⟨2, _⟩ => show 0 + 1 * (x 2).val = (x 2).val; omega
  have h1 := congrArg (vfin m c) he
  have h2 := congrArg (chunk (xb m c) i) hx
  exact h1.trans (h2.trans rfl).symm

/-- The same at each literal slab, as the program spells the rectangle. -/
theorem chunk_load0 (c : Dev nD) :
    (vM : Memref sig .tc .vmem S8x256x1024 .f32).view.readAt (Elt F)
        (Rect.unit (s := S8x256x1024) ![0, 0, 0] S1x256x1024.size inb_S8x256x1024_S1x256x1024_0_0_0).toLoadRect (vfin m c)
      = chunk (xb m c) 0 := chunk_load m c 0
theorem chunk_load1 (c : Dev nD) :
    (vM : Memref sig .tc .vmem S8x256x1024 .f32).view.readAt (Elt F)
        (Rect.unit (s := S8x256x1024) ![1, 0, 0] S1x256x1024.size inb_S8x256x1024_S1x256x1024_1_0_0).toLoadRect (vfin m c)
      = chunk (xb m c) 1 := chunk_load m c 1
theorem chunk_load2 (c : Dev nD) :
    (vM : Memref sig .tc .vmem S8x256x1024 .f32).view.readAt (Elt F)
        (Rect.unit (s := S8x256x1024) ![2, 0, 0] S1x256x1024.size inb_S8x256x1024_S1x256x1024_2_0_0).toLoadRect (vfin m c)
      = chunk (xb m c) 2 := chunk_load m c 2
theorem chunk_load3 (c : Dev nD) :
    (vM : Memref sig .tc .vmem S8x256x1024 .f32).view.readAt (Elt F)
        (Rect.unit (s := S8x256x1024) ![3, 0, 0] S1x256x1024.size inb_S8x256x1024_S1x256x1024_3_0_0).toLoadRect (vfin m c)
      = chunk (xb m c) 3 := chunk_load m c 3
theorem chunk_load4 (c : Dev nD) :
    (vM : Memref sig .tc .vmem S8x256x1024 .f32).view.readAt (Elt F)
        (Rect.unit (s := S8x256x1024) ![4, 0, 0] S1x256x1024.size inb_S8x256x1024_S1x256x1024_4_0_0).toLoadRect (vfin m c)
      = chunk (xb m c) 4 := chunk_load m c 4
theorem chunk_load5 (c : Dev nD) :
    (vM : Memref sig .tc .vmem S8x256x1024 .f32).view.readAt (Elt F)
        (Rect.unit (s := S8x256x1024) ![5, 0, 0] S1x256x1024.size inb_S8x256x1024_S1x256x1024_5_0_0).toLoadRect (vfin m c)
      = chunk (xb m c) 5 := chunk_load m c 5
theorem chunk_load6 (c : Dev nD) :
    (vM : Memref sig .tc .vmem S8x256x1024 .f32).view.readAt (Elt F)
        (Rect.unit (s := S8x256x1024) ![6, 0, 0] S1x256x1024.size inb_S8x256x1024_S1x256x1024_6_0_0).toLoadRect (vfin m c)
      = chunk (xb m c) 6 := chunk_load m c 6
theorem chunk_load7 (c : Dev nD) :
    (vM : Memref sig .tc .vmem S8x256x1024 .f32).view.readAt (Elt F)
        (Rect.unit (s := S8x256x1024) ![7, 0, 0] S1x256x1024.size inb_S8x256x1024_S1x256x1024_7_0_0).toLoadRect (vfin m c)
      = chunk (xb m c) 7 := chunk_load m c 7

/-! ## (d) The load of the whole gathered buffer, and the last store -/

theorem comm_load (c : Dev nD) :
    (cM : Memref sig .tc .vmem S8x1x1024 .f32).view.readAt (Elt F)
        (Rect.unit (s := S8x1x1024) ![0, 0, 0] S8x1x1024.size inb_S8x1x1024_S8x1x1024_0_0_0).toLoadRect (commB m c)
      = comm (xb m) :=
  Memref.readAt_unit_zero (Elt F) cc0_scratch1 (funext fun a => by fin_cases a <;> rfl) _ _

theorem out_store (f : (cc0_stg0_0 : Ref sig .tc).ty.Contents (Elt F)) :
    ((Memref.whole cc0_stg0_0 : Memref sig .tc .vmem S1x1024 .f32).access
        (Rect.unit (s := S1x1024) ![0, 0] S1x1024.size inb_S1x1024_S1x1024_0_0)).write (Elt F) f (outv (xb m)) Finset.univ
      = outv (xb m) :=
  Memref.write_access_unit_zero_univ (Elt F) cc0_stg0_0 (funext fun a => by fin_cases a <;> rfl) _ _ _

/-- info: 'Cert.KernelIdeal.Sum.landed_chunk' depends on axioms: [propext, Classical.choice, Quot.sound] -/
#guard_msgs in #print axioms landed_chunk

/-- info: 'Cert.KernelIdeal.Sum.landed_row' depends on axioms: [propext, Classical.choice, Quot.sound] -/
#guard_msgs in #print axioms landed_row

/-- info: 'Cert.KernelIdeal.Sum.stored_row' depends on axioms: [propext, Classical.choice, Quot.sound] -/
#guard_msgs in #print axioms stored_row

/-- info: 'Cert.KernelIdeal.Sum.chunk_load' depends on axioms: [propext, Classical.choice, Quot.sound] -/
#guard_msgs in #print axioms chunk_load

/-- info: 'Cert.KernelIdeal.Sum.out_store' depends on axioms: [propext, Classical.choice, Quot.sound] -/
#guard_msgs in #print axioms out_store

end Cert.KernelIdeal.Sum

end
-- ==== Proof.BodyCopy.lean ====
/-
  The eight local transfers of the block into VMEM: the issue of one, the wait for it, and the load of the landed chunk.
-/
import proofs.«901086_g7700000000001087_dist_sum_ax0_shard0_i_m2048_n1024_v7x_i8_bf16_1_alg».proof.Proof.BodyA
import proofs.«901086_g7700000000001087_dist_sum_ax0_shard0_i_m2048_n1024_v7x_i8_bf16_1_alg».proof.Proof.Landed

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The transfer of chunk `i` issued: its duty's token, the read token and the VMEM chunk go in; the credit to wait with comes back. -/
theorem step_copy (c : Dev nD) (Kn : Dev nD × Fin 25 → ℕ) (i : Fin 8)
    {hsrc : (xSrc i).view.WordExact} {hdst : (vDst i).view.WordExact} {hsem : DmaTarget.Typed (nD := nD) (p := Proc.tc) .hbm (.dma (copyS i)) (.here (vDst i))}
    {α : Type} (k : PUnit → Prog (TpuEff nD τ sig (Elt F) Λ₀ .tc) α) (Q : α → sProp 𝕄) :
    iprop(records m Kn ∗ cpyR m c i)
      ⊢ iprop((cpyI c i -∗ wp frame (wpE (defs₀ (F := F)) 𝒱₀ c none) Set.univ (k ⟨⟩) Q)
          -∗ wp frame (wpE (defs₀ (F := F)) 𝒱₀ c none) Set.univ (.op (.enqueueDma (xSrc i) (.here (vDst i)) (.dma (copyS i)) hsrc hdst hsem) k) Q) := by
  unfold cpyR cpyI xTok chunkPts
  iintro ⟨#Hrec, Htok, Hx, ⟨%f, Hv⟩, Hat⟩ Hk
  ihave #HI := (records_inv m Kn (c, copyN i)) $$ Hrec
  ihave #HR := (records_reached m Kn (c, copyN i)) $$ Hrec
  rw [kcell_copy]
  have hd : (0 : Fin 8) ∈ (sched (F := F) m).duties (copyCell c i) 0 := by
    rw [duties_copy]; exact Finset.mem_singleton_self _
  -- What the landing delivers makes the duty's payload: the slab rewritten with rows [256 i, 256 i + 256) of the block
  -- is the landed chunk whatever it held before, and the read share that comes back with it is not needed.
  have hpay : iprop(((vDst i).view.loc (c : Thread nD τ) ↦[(vDst i).view.set]{fullShare}
        ((vDst i).view.write (Elt F) (f : Buf (Elt F) ((vDst i).view.loc (c : Thread nD τ)))
          ((xSrc i).view.read (Elt F) (m ((c : Thread nD τ).loc main_arg0) : Buf (Elt F) ((xSrc i).view.loc (c : Thread nD τ))))
          Finset.univ))
      ∗ ((xSrc i).view.loc (c : Thread nD τ) ↦[(xSrc i).view.set]{Transfers.shareTokN fullShare i.val}
          (m ((c : Thread nD τ).loc main_arg0) : Buf (Elt F) ((xSrc i).view.loc (c : Thread nD τ)))))
      ⊢ (sched (F := F) m).payload (copyCell c i) 0 (0 : Fin 8) := by
    rw [payload_copy]; unfold copyPay
    exact (BI.Entails.trans BI.sep_and and_elimL).trans (BIBase.Entails.of_eq (landed_chunk m c i f))
  iapply (wp_copy_pointsTo 𝒱₀ ER (sched m) (c : Thread nD τ) none (src := xSrc i) (dst := vDst i) (sem := .dma (copyS i))
    (q := Transfers.shareTokN fullShare i.val)
    (fs := (m ((c : Thread nD τ).loc main_arg0) : Buf (Elt F) ((xSrc i).view.loc (c : Thread nD τ))))
    (fd := (f : Buf (Elt F) ((vDst i).view.loc (c : Thread nD τ)))) (r := 0) (d := (0 : Fin 8)) (κ := Kn (c, copyN i))
    hd () Nchunk (vDst_amount i (copyS i)) (amount_copy m c i 0) hpay) $$ [Htok Hx Hv] [Hk Hat]
  · isplitr; · iexact HI
    isplitl [Hx]; · iexact Hx
    isplitl [Hv]; · iexact Hv
    isplitl [Htok]; · iexact Htok
    iexact HR
  iintro Hc
  iapply Hk
  isplitl [Hc]; · iexact Hc
  iexact Hat

/-- The wait for chunk `i` while the device still owes its seven receive credits: the chunk comes back landed. -/
theorem step_copy_wait (c : Dev nD) (Kn : Dev nD × Fin 25 → ℕ) (i : Fin 8)
    {sp : Space} {s : Shape} {e : EltTy} {src : Memref sig .tc sp s e} {hsrc : src.view.WordExact} {hdst : (vDst i).view.WordExact}
    {α : Type} (k : PUnit → Prog (TpuEff nD τ sig (Elt F) Λ₀ .tc) α) (Q : α → sProp 𝕄) :
    iprop(records m Kn ∗ levAts L lv ∗ owesX c (owedS c 7) ∗ cpyI c i)
      ⊢ iprop(((owesX c (owedS c 7) ∗ cpyD m c i) -∗ wp frame (wpE (defs₀ (F := F)) 𝒱₀ c none) Set.univ (k ⟨⟩) Q)
          -∗ wp frame (wpE (defs₀ (F := F)) 𝒱₀ c none) Set.univ (.op (.waitDma2 (copyS i) src (vDst i) hsrc hdst) k) Q) := by
  unfold owesX cpyI cpyD
  rw [← vDst_credit i]
  iintro ⟨#Hrec, Hlev, ⟨%W, HL⟩, Hc, Hat⟩ Hk
  ihave #HI := (records_inv m Kn (c, copyN i)) $$ Hrec
  rw [kcell_copy]
  -- A chunk's semaphore is numbered below every receive semaphore, the only cells the device still owes.
  have hq : (copyS i).val < 17 := by rw [copyS_val]; have := i.isLt; omega
  ihave HMW := (mayWait_low (F := F) c (copyS i) hq 7) $$ Hlev
  iapply (wp_wait_rest_token 𝒱₀ ER (sched m) (c : Thread nD τ) none
    (w := .waitDma2 (copyS i) src (vDst i) hsrc hdst) (sm := .dma (copyS i)) (k' := (vDst i).view.dmaCredit)
    (κ := Kn (c, copyN i)) (wpE_waitDma2_eq 𝒱₀ (c : Thread nD τ) none Set.univ) (Set.mem_univ _) ()
    (O := owedS c 7) (W := W) (R := 0) (m := 0) (T := ∅)
    ((Nat.zero_add _).trans ((vDst_credit i).trans (expect_copy m c i).symm))) $$ [HL Hc Hat HMW]
  · isplitr; · iexact HI
    isplitl [Hc]; · iexact Hc
    isplitl [HL]; · iexact HL
    isplitl [HMW]; · iexact HMW
    iexact Hat
  -- The round has the one duty, so the rest of it is that duty's payload: the landed chunk.
  have hrest : bigSep ((sched (F := F) m).duties (copyCell c i) 0 \ ∅) (fun d => (sched (F := F) m).payload (copyCell c i) 0 d)
      = chunkPts c i (vfin m c) := rest_copy m c i
  iintro ⟨HL, Hat, #Hr, Hpay⟩
  ihave Hpay' := (BIBase.Entails.of_eq hrest) $$ Hpay
  iapply Hk
  isplitl [HL]
  · iexists _; iexact HL
  isplitl [Hpay']; · iexact Hpay'
  iexact Hat

omit [FloatOps F] in
/-- A chunk of the VMEM copy is held through the whole buffer's location: the slab's view and the buffer's name the same buffer. -/
theorem chunkPts_whole (c : Dev nD) (i : Fin 8) (f : Buf (Elt F) ((c : Thread nD τ).loc cc0_scratch0)) :
    chunkPts c i f
      = ((vM : Memref sig .tc .vmem S8x256x1024 .f32).view.loc (c : Thread nD τ) ↦[(vDst i).view.set]{fullShare}
          (f : Buf (Elt F) ((vM : Memref sig .tc .vmem S8x256x1024 .f32).view.loc (c : Thread nD τ))) : sProp 𝕄) := rfl

/-- The load of the landed chunk `i` reads rows `[256 i, 256 i + 256)` of the block. -/
theorem step_load_chunk (c : Dev nD) (i : Fin 8)
    {hl : vM.view.LoadsAt (Rect.unit (s := S8x256x1024) ![i.val, 0, 0] S1x256x1024.size (inb_chunkV i)).toLoadRect}
    {α : Type} (k : Vec F S1x256x1024 .f32 → Prog (TpuEff nD τ sig (Elt F) Λ₀ .tc) α) (Q : α → sProp 𝕄) :
    cpyD m c i
      ⊢ iprop((cpyD m c i -∗ wp frame (wpE (defs₀ (F := F)) 𝒱₀ c none) Set.univ (k (chunk (xb m c) i)) Q)
          -∗ wp frame (wpE (defs₀ (F := F)) 𝒱₀ c none) Set.univ (.op (.load vM (Rect.unit (s := S8x256x1024) ![i.val, 0, 0] S1x256x1024.size (inb_chunkV i)).toLoadRect hl) k) Q) := by
  unfold cpyD
  rw [chunkPts_whole, ← chunk_load m c i]
  iintro ⟨Hv, Hat⟩ Hk
  iapply (wp_load 𝒱₀ (c : Thread nD τ) none Set.univ (m := vM) (S := (vDst i).view.set) (q := fullShare)
    (f := (vfin m c : Buf (Elt F) (vM.view.loc (c : Thread nD τ)))) (chunk_load_sub i)) $$ Hv
  iintro Hv
  iapply Hk
  isplitl [Hv]; · iexact Hv
  iexact Hat

/-- info: 'Cert.KernelIdeal.Sum.step_copy' depends on axioms: [propext, Classical.choice, Quot.sound] -/
#guard_msgs in #print axioms step_copy

/-- info: 'Cert.KernelIdeal.Sum.step_copy_wait' depends on axioms: [propext, Classical.choice, Quot.sound] -/
#guard_msgs in #print axioms step_copy_wait

/-- info: 'Cert.KernelIdeal.Sum.step_load_chunk' depends on axioms: [propext, Classical.choice, Quot.sound] -/
#guard_msgs in #print axioms step_load_chunk

end Cert.KernelIdeal.Sum

end
-- ==== Proof.BodySend.lean ====
/-
  One remote transfer of the device's own row into another device's gather buffer.
-/
import proofs.«901086_g7700000000001087_dist_sum_ax0_shard0_i_m2048_n1024_v7x_i8_bf16_1_alg».proof.Proof.BodyA
import proofs.«901086_g7700000000001087_dist_sum_ax0_shard0_i_m2048_n1024_v7x_i8_bf16_1_alg».proof.Proof.Landed

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Send `j = jOf n` (`n` sends still to come after it): the two duties' tokens, share `j` of the device's own row and
    the destination row the signal from `sh c j` handed over go in; the send cell's credit comes back and the receive
    credit comes off what the device owes. -/
theorem step_send (c : Dev nD) (Kn : Dev nD × Fin 25 → ℕ) (j : Fin 8) (n : ℕ) (hn : n < 7) (hj : j = jOf n)
    {hsc : (rowM c).view.ref.isScScratch = false} {hsrc : (rowM c).view.WordExact} {hdst : (rowM c).view.WordExact}
    {hsem : DmaTarget.Typed (nD := nD) (p := Proc.tc) .vmem (.dma (recvS j)) (.remote ((sh c j : Dev nD) : Thread nD τ) (rowM c) (.dma (sendS j)) hsc)}
    {α : Type} (k : PUnit → Prog (TpuEff nD τ sig (Elt F) Λ₀ .tc) α) (Q : α → sProp 𝕄) :
    iprop(records m Kn ∗ owesX c (owedS c (n + 1)) ∗ sndT c j ∗ rowPts c c (Transfers.shareTokN fullShare j.val) (commB m c) ∗ barPay c j)
      ⊢ iprop(((sndI c j ∗ owesX c (owedS c n)) -∗ wp frame (wpE (defs₀ (F := F)) 𝒱₀ c none) Set.univ (k ⟨⟩) Q)
          -∗ wp frame (wpE (defs₀ (F := F)) 𝒱₀ c none) Set.univ (.op (.enqueueDma (rowM c) (.remote ((sh c j : Dev nD) : Thread nD τ) (rowM c) (.dma (sendS j)) hsc) (.dma (recvS j)) hsrc hdst hsem) k) Q) := by
  subst hj
  have hj0 := jOf_ne_zero n hn
  have hd₁ : (0 : Fin 8) ∈ (sched (F := F) m).duties (sendCell c (jOf n)) 0 := by
    rw [duties_send m c (jOf n) hj0]; exact Finset.mem_singleton_self _
  have hd₂ : (0 : Fin 8) ∈ (sched (F := F) m).duties (recvCell (sh c (jOf n)) (jOf n)) 0 := by
    rw [duties_recv m (sh c (jOf n)) (jOf n) hj0]; exact Finset.mem_singleton_self _
  have hpay₁ : ((rowM c).view.loc (c : Thread nD τ) ↦[(rowM c).view.set]{Transfers.shareTokN fullShare (jOf n).val}
        (commB m c : Buf (Elt F) ((rowM c).view.loc (c : Thread nD τ))) : sProp 𝕄)
      ⊢ (sched (F := F) m).payload (sendCell c (jOf n)) 0 (0 : Fin 8) := by
    rw [payload_send]; exact BI.Entails.refl _
  unfold sndT sndI owesX barPay
  iintro ⟨#Hrec, ⟨%W, HL⟩, ⟨HtS, HtR, Hat⟩, Hsrc, ⟨%fd, Hdst⟩, #HRr⟩ Hk
  have hpay₂ : ((rowM c).view.loc ((sh c (jOf n) : Dev nD) : Thread nD τ) ↦[(rowM c).view.set]{fullShare}
        ((rowM c).view.write (Elt F) (fd : Buf (Elt F) ((rowM c).view.loc ((sh c (jOf n) : Dev nD) : Thread nD τ)))
          ((rowM c).view.read (Elt F) (commB m c : Buf (Elt F) ((rowM c).view.loc (c : Thread nD τ)))) Finset.univ) : sProp 𝕄)
      ⊢ (sched (F := F) m).payload (recvCell (sh c (jOf n)) (jOf n)) 0 (0 : Fin 8) := by
    rw [payload_recv]; unfold recvPay; rw [bk_sh]
    exact Entails.of_eq (landed_row m c (sh c (jOf n)) c fd)
  ihave #HIs := (records_inv m Kn (c, sendN (jOf n))) $$ Hrec
  ihave #HIr := (records_inv m Kn (sh c (jOf n), recvN (jOf n))) $$ Hrec
  ihave #HRs := (records_reached m Kn (c, sendN (jOf n))) $$ Hrec
  rw [kcell_send, kcell_recv]
  iapply (wp_send_pointsTo 𝒱₀ ER (sched m) (c : Thread nD τ) none (c' := ((sh c (jOf n) : Dev nD) : Thread nD τ))
    (src := rowM c) (dst := rowM c) (sS := .dma (sendS (jOf n))) (sem := .dma (recvS (jOf n)))
    (q := Transfers.shareTokN fullShare (jOf n).val) (fs := (commB m c : Buf (Elt F) ((rowM c).view.loc (c : Thread nD τ))))
    (fd := (fd : Buf (Elt F) ((rowM c).view.loc ((sh c (jOf n) : Dev nD) : Thread nD τ))))
    (r₁ := 0) (r₂ := 0) (d₁ := (0 : Fin 8)) (d₂ := (0 : Fin 8))
    (κ₁ := Kn (c, sendN (jOf n))) (κ₂ := Kn (sh c (jOf n), recvN (jOf n)))
    hd₁ hd₂ () () Nrow (rowM_amount c _) (amount_send m c _ _) (amount_recv m _ _ _) (owedS c n) rfl hpay₁ hpay₂) $$ [HL HtS HtR Hsrc Hdst] [Hk Hat]
  · isplitr; · iexact HIs
    isplitr; · iexact HIr
    isplitl [Hsrc]; · unfold rowPts; iexact Hsrc
    isplitl [Hdst]; · unfold rowPts; iexact Hdst
    isplitl [HL]; · iexact HL
    isplitl [HtS]; · iexact HtS
    isplitr; · iexact HRs
    isplitl [HtR]; · iexact HtR
    iexact HRr
  · iintro ⟨Hcr, HL⟩
    iapply Hk
    isplitl [Hcr Hat]
    · isplitl [Hcr] <;> iassumption
    · iexists W; iexact HL
/-- info: 'Cert.KernelIdeal.Sum.step_send' depends on axioms: [propext, Classical.choice, Quot.sound] -/
#guard_msgs in #print axioms step_send

end Cert.KernelIdeal.Sum

end
-- ==== Proof.BodyWait.lean ====
/-
  The waits others pay: for the seven entry signals, for a row sent to this device, and for one of its own sends.
-/
import proofs.«901086_g7700000000001087_dist_sum_ax0_shard0_i_m2048_n1024_v7x_i8_bf16_1_alg».proof.Proof.BodyA

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait for the seven entry signals, while the device owes its seven receive credits: each signal's payload comes
    back, the row of the signaller's gather buffer this device's transfer fills and that the signaller's receive cell is open. -/
theorem step_bar_wait (c : Dev nD) (Kn : Dev nD × Fin 25 → ℕ) {α : Type} (k : PUnit → Prog (TpuEff nD τ sig (Elt F) Λ₀ .tc) α) (Q : α → sProp 𝕄) :
    iprop(records m Kn ∗ levAts L lv ∗ owesX c (owedS c 7) ∗ barI c)
      ⊢ iprop(((owesX c (owedS c 7) ∗ atPos ER (barCell c) 1 ∅ 0 ∗ bigSepL [1, 2, 3, 4, 5, 6, 7] (fun j : Fin 8 => barPay (F := F) c j))
            -∗ wp frame (wpE (defs₀ (F := F)) 𝒱₀ c none) Set.univ (k ⟨⟩) Q)
          -∗ wp frame (wpE (defs₀ (F := F)) 𝒱₀ c none) Set.univ (.op (.semWait barS 7) k) Q) := by
  unfold owesX barI
  iintro ⟨#Hrec, #Hlev, ⟨%W, HL⟩, Hc, Hat⟩ Hk
  ihave #HIb := (records_inv m Kn (c, (0 : Fin 25))) $$ Hrec
  iapply (wp_wait_rest_token 𝒱₀ ER (sched m) (c : Thread nD τ) none (κ := Kn (c, 0)) (sm := .reg barS) (k' := 7)
      (wpE_semWait_eq 𝒱₀ (c : Thread nD τ) none Set.univ) (Set.mem_univ _) () (O := owedS c 7) (W := W) (R := 0) (m := 0) (T := ∅)
      (by rw [expect_bar])) $$ [HL Hc Hat]
  · isplitr; · iexact HIb
    isplitl [Hc]; · iexact Hc
    isplitl [HL]; · iexact HL
    isplitr; · iapply (mayWait_bar c); iexact Hlev
    iexact Hat
  iintro ⟨HL, Hat, -, Hpay⟩
  iapply Hk
  isplitl [HL]; · iexists (insert (SemLoc.reg barS, ()) W); iexact HL
  isplitl [Hat]; · iexact Hat
  ihave Hp := (Entails.of_eq ((rest_bar m c).trans
    (bigSep_eq_bigSepL_of_eq [1, 2, 3, 4, 5, 6, 7] (by decide) (by decide) (fun j : Fin 8 => barPay (F := F) c j)))) $$ Hpay
  iexact Hp
/-- The wait for send `j` once the device owes nothing: its share of the device's own row comes back. -/
theorem step_send_wait (c : Dev nD) (Kn : Dev nD × Fin 25 → ℕ) (j : Fin 8) (hj : j ≠ 0)
    {sp sp' : Space} {s : Shape} {e : EltTy} {src : Memref sig .tc sp s e} {dst : Memref sig .tc sp' s e}
    {hsrc : src.view.WordExact} {hdst : dst.view.WordExact} (hN : dst.view.dmaCredit = Nrow)
    {α : Type} (k : PUnit → Prog (TpuEff nD τ sig (Elt F) Λ₀ .tc) α) (Q : α → sProp 𝕄) :
    iprop(records m Kn ∗ owesX c 0 ∗ sndI c j)
      ⊢ iprop(((owesX c 0 ∗ sndD m c j) -∗ wp frame (wpE (defs₀ (F := F)) 𝒱₀ c none) Set.univ (k ⟨⟩) Q)
          -∗ wp frame (wpE (defs₀ (F := F)) 𝒱₀ c none) Set.univ (.op (.waitDma2 (sendS j) src dst hsrc hdst) k) Q) := by
  unfold owesX sndI sndD
  iintro ⟨#Hrec, ⟨%W, HL⟩, Hc, Hat⟩ Hk
  ihave #HI := (records_inv m Kn (c, sendN j)) $$ Hrec
  rw [kcell_send]
  iapply (wp_wait_rest_token 𝒱₀ ER (sched m) (c : Thread nD τ) none (κ := Kn (c, sendN j)) (sm := .dma (sendS j)) (k' := dst.view.dmaCredit)
      (wpE_waitDma2_eq 𝒱₀ (c : Thread nD τ) none Set.univ) (Set.mem_univ _) () (O := 0) (W := W) (R := 0) (m := 0) (T := ∅)
      (by rw [Nat.zero_add, expect_send m c j hj, hN])) $$ [HL Hc Hat]
  · isplitr; · iexact HI
    isplitl [Hc]; · rw [hN]; iexact Hc
    isplitl [HL]; · iexact HL
    isplitr; · rw [MayWait_zero]; iempintro
    iexact Hat
  iintro ⟨HL, Hat, -, Hpay⟩
  iapply Hk
  isplitl [HL]; · iexists (insert (SemLoc.dma (sendS j), ()) W); iexact HL
  ihave Hp := (Entails.of_eq (rest_send m c j hj)) $$ Hpay
  unfold sendPay
  isplitl [Hp]; · iexact Hp
  iexact Hat

/-- The wait for the row of the device `j` places back once this device owes nothing: the row comes back landed. -/
theorem step_recv_wait (c : Dev nD) (Kn : Dev nD × Fin 25 → ℕ) (j : Fin 8) (hj : j ≠ 0)
    {sp sp' : Space} {s : Shape} {e : EltTy} {src : Memref sig .tc sp s e} {dst : Memref sig .tc sp' s e}
    {hsrc : src.view.WordExact} {hdst : dst.view.WordExact} (hN : dst.view.dmaCredit = Nrow)
    {α : Type} (k : PUnit → Prog (TpuEff nD τ sig (Elt F) Λ₀ .tc) α) (Q : α → sProp 𝕄) :
    iprop(records m Kn ∗ owesX c 0 ∗ rcvI c j)
      ⊢ iprop(((owesX c 0 ∗ rcvD m c j) -∗ wp frame (wpE (defs₀ (F := F)) 𝒱₀ c none) Set.univ (k ⟨⟩) Q)
          -∗ wp frame (wpE (defs₀ (F := F)) 𝒱₀ c none) Set.univ (.op (.waitDma2 (recvS j) src dst hsrc hdst) k) Q) := by
  unfold owesX rcvI rcvD
  iintro ⟨#Hrec, ⟨%W, HL⟩, Hc, Hat⟩ Hk
  ihave #HI := (records_inv m Kn (c, recvN j)) $$ Hrec
  rw [kcell_recv]
  iapply (wp_wait_rest_token 𝒱₀ ER (sched m) (c : Thread nD τ) none (κ := Kn (c, recvN j)) (sm := .dma (recvS j)) (k' := dst.view.dmaCredit)
      (wpE_waitDma2_eq 𝒱₀ (c : Thread nD τ) none Set.univ) (Set.mem_univ _) () (O := 0) (W := W) (R := 0) (m := 0) (T := ∅)
      (by rw [Nat.zero_add, expect_recv m c j hj, hN])) $$ [HL Hc Hat]
  · isplitr; · iexact HI
    isplitl [Hc]; · rw [hN]; iexact Hc
    isplitl [HL]; · iexact HL
    isplitr; · rw [MayWait_zero]; iempintro
    iexact Hat
  iintro ⟨HL, Hat, -, Hpay⟩
  iapply Hk
  isplitl [HL]; · iexists (insert (SemLoc.dma (recvS j), ()) W); iexact HL
  ihave Hp := (Entails.of_eq (rest_recv m c j hj)) $$ Hpay
  unfold recvPay
  isplitl [Hp]; · iexact Hp
  iexact Hat

/-- info: 'Cert.KernelIdeal.Sum.step_bar_wait' depends on axioms: [propext, Classical.choice, Quot.sound] -/
#guard_msgs in #print axioms step_bar_wait

/-- info: 'Cert.KernelIdeal.Sum.step_send_wait' depends on axioms: [propext, Classical.choice, Quot.sound] -/
#guard_msgs in #print axioms step_send_wait

/-- info: 'Cert.KernelIdeal.Sum.step_recv_wait' depends on axioms: [propext, Classical.choice, Quot.sound] -/
#guard_msgs in #print axioms step_recv_wait

end Cert.KernelIdeal.Sum

end
-- ==== Proof.BodyMem.lean ====
/-
  The body's loads and stores outside the chunk loop: the device's own row read, written, cut into shares and joined;
  the gather buffer and the VMEM copy made whole again; the last load and the result's store.
-/
import proofs.«901086_g7700000000001087_dist_sum_ax0_shard0_i_m2048_n1024_v7x_i8_bf16_1_alg».proof.Proof.BodyA
import proofs.«901086_g7700000000001087_dist_sum_ax0_shard0_i_m2048_n1024_v7x_i8_bf16_1_alg».proof.Proof.Landed

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The load of the device's own row before it is written: whatever it reads, the row stays. -/
theorem step_row_load (c : Dev nD) (f : Buf (Elt F) ((c : Thread nD τ).loc cc0_scratch1))
    {hl : cM.view.LoadsAt (Rect.unit (s := S8x1x1024) (k0_off1 c) S1x1x1024.size (k0_off1_inb c)).toLoadRect}
    {α : Type} (k : Vec F S1x1x1024 .f32 → Prog (TpuEff nD τ sig (Elt F) Λ₀ .tc) α) (Q : α → sProp 𝕄) :
    rowPts c c fullShare f
      ⊢ iprop((rowPts c c fullShare f -∗ ∀ v, wp frame (wpE (defs₀ (F := F)) 𝒱₀ c none) Set.univ (k v) Q)
          -∗ wp frame (wpE (defs₀ (F := F)) 𝒱₀ c none) Set.univ (.op (.load cM (Rect.unit (s := S8x1x1024) (k0_off1 c) S1x1x1024.size (k0_off1_inb c)).toLoadRect hl) k) Q) := by
  have h := wp_load (defs := defs₀ (F := F)) 𝒱₀ (c : Thread nD τ) none (Γ := .empty) Set.univ (Q := Q)
    (m := (cM : Memref sig .tc .vmem S8x1x1024 .f32)) (r := (Rect.unit (s := S8x1x1024) (k0_off1 c) S1x1x1024.size (k0_off1_inb c)).toLoadRect) (hl := hl) (k := k)
    (S := (rowM c).view.set) (q := fullShare) (f := f) (load_off1_sub c)
  unfold rowPts
  exact h.trans (wand_mono_left (wand_mono_right (forall_elim _)))

/-- The block's column sums stored into the device's own row: the row then holds what every device's gather buffer
    holds there at the end. -/
theorem step_row_store (c : Dev nD) (f : Buf (Elt F) ((c : Thread nD τ).loc cc0_scratch1))
    {hx : (cM.access (Rect.unit (s := S8x1x1024) (k0_off1 c) S1x1x1024.size (k0_off1_inb c))).Stores Finset.univ}
    {hm : (Finset.univ : Finset (Rect.unit (s := S8x1x1024) (k0_off1 c) S1x1x1024.size (k0_off1_inb c)).shape.Idx) = Finset.univ
      ∨ ∀ a, (Rect.unit (s := S8x1x1024) (k0_off1 c) S1x1x1024.size (k0_off1_inb c)).stride a = 1}
    {α : Type} (k : PUnit → Prog (TpuEff nD τ sig (Elt F) Λ₀ .tc) α) (Q : α → sProp 𝕄) :
    rowPts c c fullShare f
      ⊢ iprop((rowPts c c fullShare (commB m c) -∗ wp frame (wpE (defs₀ (F := F)) 𝒱₀ c none) Set.univ (k ⟨⟩) Q)
          -∗ wp frame (wpE (defs₀ (F := F)) 𝒱₀ c none) Set.univ (.op (.store cM (Rect.unit (s := S8x1x1024) (k0_off1 c) S1x1x1024.size (k0_off1_inb c)) (rowv (xb m c)) Finset.univ hx hm) k) Q) := by
  have h := wp_store (defs := defs₀ (F := F)) 𝒱₀ (c : Thread nD τ) none (Γ := .empty) Set.univ (Q := Q)
    (m := (cM : Memref sig .tc .vmem S8x1x1024 .f32)) (r := (Rect.unit (s := S8x1x1024) (k0_off1 c) S1x1x1024.size (k0_off1_inb c))) (w := rowv (xb m c)) (Mk := Finset.univ) (hx := hx) (hm := hm) (k := k)
    (S := (rowM c).view.set) (f := f) (store_off1_sub c)
  rw [stored_row m c f] at h
  exact h

/-- The device's own row cut into the share it keeps and eight read tokens, and joined back. -/
theorem row_split (c : Dev nD) (f : Buf (Elt F) ((c : Thread nD τ).loc cc0_scratch1)) :
    rowPts (F := F) c c fullShare f
      ⊢ iprop(rowPts c c (Transfers.shareDrop fullShare 8) f
          ∗ bigSepL [0, 1, 2, 3, 4, 5, 6, 7] (fun j : Fin 8 => rowPts c c (Transfers.shareTokN fullShare j.val) f)) := by
  unfold rowPts
  have h := (Transfers.pointsTo_toks (ℓ := (rowM c).view.loc (c : Thread nD τ)) (S := (rowM c).view.set)
    (f := (f : Buf (Elt F) ((rowM c).view.loc (c : Thread nD τ)))) fullShare 8 : (_ : sProp 𝕄) ⊣⊢ _)
  rw [bigSep_univ_eq_bigSepL [0, 1, 2, 3, 4, 5, 6, 7] (by decide) (by decide)] at h
  exact h.1
theorem row_join (c : Dev nD) (f : Buf (Elt F) ((c : Thread nD τ).loc cc0_scratch1)) :
    iprop(rowPts c c (Transfers.shareDrop fullShare 8) f
          ∗ bigSepL [0, 1, 2, 3, 4, 5, 6, 7] (fun j : Fin 8 => rowPts c c (Transfers.shareTokN fullShare j.val) f))
      ⊢ rowPts (F := F) c c fullShare f := by
  unfold rowPts
  have h := (Transfers.pointsTo_toks (ℓ := (rowM c).view.loc (c : Thread nD τ)) (S := (rowM c).view.set)
    (f := (f : Buf (Elt F) ((rowM c).view.loc (c : Thread nD τ)))) fullShare 8 : (_ : sProp 𝕄) ⊣⊢ _)
  rw [bigSep_univ_eq_bigSepL [0, 1, 2, 3, 4, 5, 6, 7] (by decide) (by decide)] at h
  exact h.2

/-- The eight devices, listed by how far back they sit from a device: each once, and the device itself first. -/
theorem bk_list_univ (c : Dev nD) : (Finset.univ : Finset (Fin 8)) = ([bk c 0, bk c 1, bk c 2, bk c 3, bk c 4, bk c 5, bk c 6, bk c 7] : List (Fin 8)).toFinset := by
  revert c; decide
theorem bk_list_nodup (c : Dev nD) : ([bk c 0, bk c 1, bk c 2, bk c 3, bk c 4, bk c 5, bk c 6, bk c 7] : List (Fin 8)).Nodup := by revert c; decide
theorem bk_zero (c : Dev nD) : bk c 0 = c := by revert c; decide

/-- The gather buffer whole again out of the device's own row and the seven landed rows; the VMEM copy out of its chunks. -/
theorem rows_join (c : Dev nD) (g : Buf (Elt F) ((c : Thread nD τ).loc cc0_scratch1)) :
    iprop(rowPts c c fullShare g ∗ bigSepL [1, 2, 3, 4, 5, 6, 7] (fun j : Fin 8 => rowPts c (bk c j) fullShare g))
      ⊢ ((((c : Thread nD τ).loc cc0_scratch1) ↦{fullShare} g) : sProp 𝕄) := by
  have e : ((((c : Thread nD τ).loc cc0_scratch1) ↦{fullShare} g) : sProp 𝕄)
      = bigSepL ([bk c 0, bk c 1, bk c 2, bk c 3, bk c 4, bk c 5, bk c 6, bk c 7] : List (Fin 8)) (fun r => rowPts c r fullShare g) :=
    (buf_rows c fullShare g).trans (bigSep_univ_eq_bigSepL _ (bk_list_univ c) (bk_list_nodup c) _)
  rw [e, bk_zero c]
  exact .rfl
theorem chunks_join (c : Dev nD) (g : Buf (Elt F) ((c : Thread nD τ).loc cc0_scratch0)) :
    bigSepL [0, 1, 2, 3, 4, 5, 6, 7] (fun i : Fin 8 => chunkPts (F := F) c i g)
      ⊢ ((((c : Thread nD τ).loc cc0_scratch0) ↦{fullShare} g) : sProp 𝕄) := by
  have e : ((((c : Thread nD τ).loc cc0_scratch0) ↦{fullShare} g) : sProp 𝕄)
      = bigSepL ([0, 1, 2, 3, 4, 5, 6, 7] : List (Fin 8)) (fun i => chunkPts c i g) :=
    (buf_chunks c g).trans (bigSep_univ_eq_bigSepL _ (by decide) (by decide) _)
  exact .of_eq e.symm

/-- The load of the whole gather buffer once every row has landed reads every device's column sums. -/
theorem step_load_all (c : Dev nD)
    {hl : cM.view.LoadsAt (Rect.unit (s := S8x1x1024) ![0, 0, 0] S8x1x1024.size inb_S8x1x1024_S8x1x1024_0_0_0).toLoadRect}
    {α : Type} (k : Vec F S8x1x1024 .f32 → Prog (TpuEff nD τ sig (Elt F) Λ₀ .tc) α) (Q : α → sProp 𝕄) :
    ((((c : Thread nD τ).loc cc0_scratch1) ↦{fullShare} commB m c) : sProp 𝕄)
      ⊢ iprop(((((c : Thread nD τ).loc cc0_scratch1) ↦{fullShare} commB m c) -∗ wp frame (wpE (defs₀ (F := F)) 𝒱₀ c none) Set.univ (k (comm (xb m))) Q)
          -∗ wp frame (wpE (defs₀ (F := F)) 𝒱₀ c none) Set.univ (.op (.load cM (Rect.unit (s := S8x1x1024) ![0, 0, 0] S8x1x1024.size inb_S8x1x1024_S8x1x1024_0_0_0).toLoadRect hl) k) Q) := by
  have h := wp_load (defs := defs₀ (F := F)) 𝒱₀ (c : Thread nD τ) none (Γ := .empty) Set.univ (Q := Q)
    (m := (cM : Memref sig .tc .vmem S8x1x1024 .f32)) (r := (Rect.unit (s := S8x1x1024) ![0, 0, 0] S8x1x1024.size inb_S8x1x1024_S8x1x1024_0_0_0).toLoadRect) (hl := hl) (k := k)
    (S := Finset.univ) (q := fullShare) (f := commB m c) (Finset.subset_univ _)
  rw [comm_load m c] at h
  exact h

/-- The result's staging buffer: the load before the store (whatever it reads), and the store of the eight rows' sum. -/
theorem step_out_load (c : Dev nD) (f : Buf (Elt F) ((c : Thread nD τ).loc cc0_stg0_0))
    {hl : oM.view.LoadsAt (Rect.unit (s := S1x1024) ![0, 0] S1x1024.size inb_S1x1024_S1x1024_0_0).toLoadRect}
    {α : Type} (k : Vec F S1x1024 .f32 → Prog (TpuEff nD τ sig (Elt F) Λ₀ .tc) α) (Q : α → sProp 𝕄) :
    ((((c : Thread nD τ).loc cc0_stg0_0) ↦{fullShare} f) : sProp 𝕄)
      ⊢ iprop(((((c : Thread nD τ).loc cc0_stg0_0) ↦{fullShare} f) -∗ ∀ v, wp frame (wpE (defs₀ (F := F)) 𝒱₀ c none) Set.univ (k v) Q)
          -∗ wp frame (wpE (defs₀ (F := F)) 𝒱₀ c none) Set.univ (.op (.load oM (Rect.unit (s := S1x1024) ![0, 0] S1x1024.size inb_S1x1024_S1x1024_0_0).toLoadRect hl) k) Q) := by
  have h := wp_load (defs := defs₀ (F := F)) 𝒱₀ (c : Thread nD τ) none (Γ := .empty) Set.univ (Q := Q)
    (m := (oM : Memref sig .tc .vmem S1x1024 .f32)) (r := (Rect.unit (s := S1x1024) ![0, 0] S1x1024.size inb_S1x1024_S1x1024_0_0).toLoadRect) (hl := hl) (k := k)
    (S := Finset.univ) (q := fullShare) (f := f) (Finset.subset_univ _)
  exact h.trans (wand_mono_left (wand_mono_right (forall_elim _)))
theorem step_out_store (c : Dev nD) (f : Buf (Elt F) ((c : Thread nD τ).loc cc0_stg0_0))
    {hx : (oM.access (Rect.unit (s := S1x1024) ![0, 0] S1x1024.size inb_S1x1024_S1x1024_0_0)).Stores Finset.univ}
    {hm : (Finset.univ : Finset (Rect.unit (s := S1x1024) ![0, 0] S1x1024.size inb_S1x1024_S1x1024_0_0).shape.Idx) = Finset.univ
      ∨ ∀ a, (Rect.unit (s := S1x1024) ![0, 0] S1x1024.size inb_S1x1024_S1x1024_0_0).stride a = 1}
    {α : Type} (k : PUnit → Prog (TpuEff nD τ sig (Elt F) Λ₀ .tc) α) (Q : α → sProp 𝕄) :
    ((((c : Thread nD τ).loc cc0_stg0_0) ↦{fullShare} f) : sProp 𝕄)
      ⊢ iprop(((((c : Thread nD τ).loc cc0_stg0_0) ↦{fullShare} (outv (xb m) : Buf (Elt F) ((c : Thread nD τ).loc cc0_stg0_0))) -∗ wp frame (wpE (defs₀ (F := F)) 𝒱₀ c none) Set.univ (k ⟨⟩) Q)
          -∗ wp frame (wpE (defs₀ (F := F)) 𝒱₀ c none) Set.univ (.op (.store oM (Rect.unit (s := S1x1024) ![0, 0] S1x1024.size inb_S1x1024_S1x1024_0_0) (outv (xb m)) Finset.univ hx hm) k) Q) := by
  have h := wp_store (defs := defs₀ (F := F)) 𝒱₀ (c : Thread nD τ) none (Γ := .empty) Set.univ (Q := Q)
    (m := (oM : Memref sig .tc .vmem S1x1024 .f32)) (r := (Rect.unit (s := S1x1024) ![0, 0] S1x1024.size inb_S1x1024_S1x1024_0_0)) (w := outv (xb m)) (Mk := Finset.univ) (hx := hx) (hm := hm) (k := k)
    (S := Finset.univ) (f := f) (Finset.subset_univ _)
  rw [out_store m f] at h
  exact h

/-- info: 'Cert.KernelIdeal.Sum.step_row_store' depends on axioms: [propext, Classical.choice, Quot.sound] -/
#guard_msgs in #print axioms step_row_store

/-- info: 'Cert.KernelIdeal.Sum.rows_join' depends on axioms: [propext, Classical.choice, Quot.sound] -/
#guard_msgs in #print axioms rows_join

/-- info: 'Cert.KernelIdeal.Sum.step_load_all' depends on axioms: [propext, Classical.choice, Quot.sound] -/
#guard_msgs in #print axioms step_load_all

/-- info: 'Cert.KernelIdeal.Sum.step_out_store' depends on axioms: [propext, Classical.choice, Quot.sound] -/
#guard_msgs in #print axioms step_out_store

end Cert.KernelIdeal.Sum

end
-- ==== Proof.BodyEnds.lean ====
/-
  The two ends of the body: what the launch hands over opened into the steps' pieces, and every cell of the
  device's own closed at the end.
-/
import proofs.«901086_g7700000000001087_dist_sum_ax0_shard0_i_m2048_n1024_v7x_i8_bf16_1_alg».proof.Proof.BodyA
import proofs.«901086_g7700000000001087_dist_sum_ax0_shard0_i_m2048_n1024_v7x_i8_bf16_1_alg».proof.Proof.Views

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Opening what the launch hands over -/

/-- Going `j` places further on from `c`, for `j` over all eight shifts, visits every device once. -/
def so_shJ (c : Dev nD) : Fin 8 ≃ Fin 8 :=
  ⟨fun j => sh c j, fun d => ⟨(d.val + (8 - c.val)) % 8, Nat.mod_lt _ (by decide)⟩,
    fun j => by revert c j; decide, fun d => by revert c d; decide⟩

omit [FloatOps F] in
/-- A device's gather buffer, whole, is its own row and the rows of the seven devices further on. -/
theorem so_rows_eq (c : Dev nD) (f : Buf (Elt F) ((c : Thread nD τ).loc cc0_scratch1)) :
    (((c : Thread nD τ).loc cc0_scratch1) ↦{fullShare} f : sProp 𝕄)
      = iprop(rowPts c c fullShare f ∗ bigSep (Finset.univ.erase (0 : Fin 8)) (fun K => rowPts (F := F) c (sh c K) fullShare f)) := by
  rw [buf_rows, bigSep_univ_equiv (so_shJ c), bigSep_univ_at _ (0 : Fin 8)]
  show iprop(rowPts c (sh c 0) fullShare f ∗ _) = _
  rw [sh_zero]; rfl

omit [FloatOps F] in
/-- The same at whatever the buffer holds: each row at some contents. -/
theorem so_rows (c : Dev nD) :
    (iprop(∃ f : Buf (Elt F) ((c : Thread nD τ).loc cc0_scratch1), ((c : Thread nD τ).loc cc0_scratch1) ↦{fullShare} f) : sProp 𝕄)
      ⊢ iprop((∃ f, rowPts c c fullShare f) ∗ bigSep (Finset.univ.erase (0 : Fin 8)) (fun K => iprop(∃ f, rowPts (F := F) c (sh c K) fullShare f))) := by
  iintro ⟨%f, H⟩
  have e : (((c : Thread nD τ).loc cc0_scratch1) ↦{fullShare} f : sProp 𝕄)
      ⊢ iprop(rowPts c c fullShare f ∗ bigSep (Finset.univ.erase (0 : Fin 8)) (fun K => rowPts (F := F) c (sh c K) fullShare f)) := by
    rw [← so_rows_eq]
  have h : (bigSep (Finset.univ.erase (0 : Fin 8)) (fun K => rowPts (F := F) c (sh c K) fullShare f) : sProp 𝕄)
      ⊢ bigSep (Finset.univ.erase (0 : Fin 8)) (fun K => iprop(∃ f, rowPts (F := F) c (sh c K) fullShare f)) :=
    bigSep_mono fun K _ => by
      change (_ : sProp 𝕄) ⊢ _
      iintro H; iexists f; iexact H
  ihave H := e $$ H
  icases H with ⟨H0, H⟩
  isplitl [H0]
  · iexists f; iexact H0
  · iapply h $$ H

omit [FloatOps F] in
/-- A device's VMEM copy, whole at whatever it holds, is its eight chunks, each at some contents. -/
theorem so_chunks (c : Dev nD) :
    (iprop(∃ f : Buf (Elt F) ((c : Thread nD τ).loc cc0_scratch0), ((c : Thread nD τ).loc cc0_scratch0) ↦{fullShare} f) : sProp 𝕄)
      ⊢ bigSep Finset.univ (fun i : Fin 8 => iprop(∃ f, chunkPts (F := F) c i f)) := by
  iintro ⟨%f, H⟩
  have h : ((((c : Thread nD τ).loc cc0_scratch0) ↦{fullShare} f) : sProp 𝕄)
      ⊢ bigSep Finset.univ (fun i : Fin 8 => iprop(∃ f, chunkPts (F := F) c i f)) := by
    rw [buf_chunks]
    exact bigSep_mono fun i _ => by
      change (_ : sProp 𝕄) ⊢ _
      iintro H; iexists f; iexact H
  iapply h $$ H

/-- The block of `x`, whole, is the share kept to the end and eight read shares, share `i` restricted to the rows
    chunk `i`'s transfer reads (the rest of that share is let go). -/
theorem so_x (c : Dev nD) : xPts m c ⊢ iprop(xKeep m c ∗ bigSep Finset.univ (fun i : Fin 8 => xTok m c i)) := by
  unfold xPts xKeep
  have h : (bigSep Finset.univ (fun i : Fin 8 => ((c : Thread nD τ).loc main_arg0) ↦[Finset.univ]{Transfers.shareTok fullShare 8 i} m ((c : Thread nD τ).loc main_arg0)) : sProp 𝕄)
      ⊢ bigSep Finset.univ (fun i : Fin 8 => xTok m c i) :=
    bigSep_mono fun i _ => by
      unfold xTok
      change (_ : sProp 𝕄) ⊢ _
      iintro H
      ihave H := (pointsTo_split_subset (I := (xSrc i).view.set) (Finset.subset_univ _)).1 $$ H
      icases H with ⟨H, -⟩
      iexact H
  iintro H
  ihave H := (Transfers.pointsTo_toks_split fullShare 8) $$ H
  icases H with ⟨Hk, Ht⟩
  isplitl [Hk]; · iexact Hk
  iapply h $$ Ht

omit [FloatOps F] in
/-- A conjunction over twenty-five indices, written out. -/
theorem so_fin25 (Φ : Fin 25 → sProp 𝕄) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) := by
  rw [bigSep_univ_eq_bigSepL [0, 1, 2, 3, 4, 5, 6, 7, 8, 9, 10, 11, 12, 13, 14, 15, 16, 17, 18, 19, 20, 21, 22, 23, 24] (by decide) (by decide)]
  exact .rfl

omit [FloatOps F] in
/-- A conjunction over eight indices, put together. -/
theorem so_fin8 (Φ : Fin 8 → sProp 𝕄) :
    iprop(Φ 0 ∗ Φ 1 ∗ Φ 2 ∗ Φ 3 ∗ Φ 4 ∗ Φ 5 ∗ Φ 6 ∗ Φ 7) ⊢ bigSep Finset.univ Φ := by
  rw [bigSep_univ_eq_bigSepL [0, 1, 2, 3, 4, 5, 6, 7] (by decide) (by decide)]
  exact .rfl

/-- A device's 25 positions by kind: the barrier cell's, the eight chunk cells', the eight send cells', the eight
    receive cells'. -/
theorem so_pos (c : Dev nD) :
    (bigSep Finset.univ (fun n : Fin 25 => atPos ER (kcell (c, n)) 0 ∅ 0) : sProp 𝕄)
      ⊢ iprop(atPos ER (barCell c) 0 ∅ 0
          ∗ bigSep Finset.univ (fun i : Fin 8 => atPos ER (copyCell c i) 0 ∅ 0)
          ∗ bigSep Finset.univ (fun j : Fin 8 => atPos ER (sendCell c j) 0 ∅ 0)
          ∗ bigSep Finset.univ (fun j : Fin 8 => atPos ER (recvCell c j) 0 ∅ 0)) := by
  iintro H
  ihave H := (so_fin25 (fun n : Fin 25 => atPos ER (kcell (c, n)) 0 ∅ 0)) $$ H
  icases H with ⟨H0, H1, H2, H3, H4, H5, H6, H7, H8, H9, H10, H11, H12, H13, H14, H15, H16, H17, H18, H19, H20, H21, H22, H23, H24⟩
  isplitl [H0]; · iexact H0
  isplitl [H1 H2 H3 H4 H5 H6 H7 H8]
  · iapply (so_fin8 (fun i : Fin 8 => atPos ER (copyCell c i) 0 ∅ 0))
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13 H14 H15 H16]
  · iapply (so_fin8 (fun j : Fin 8 => atPos ER (sendCell c j) 0 ∅ 0))
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iapply (so_fin8 (fun j : Fin 8 => atPos ER (recvCell c j) 0 ∅ 0))
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

omit [FloatOps F] in
/-- A conjunction over all eight shifts without the summand at shift 0. -/
theorem so_drop0 (Φ : Fin 8 → sProp 𝕄) : bigSep Finset.univ Φ ⊢ bigSep (Finset.univ.erase (0 : Fin 8)) Φ :=
  bigSep_subset (Finset.erase_subset _ _)

omit [FloatOps F] in
/-- The same with the summand at shift 0 kept beside. -/
theorem so_at0 (Φ : Fin 8 → sProp 𝕄) : bigSep Finset.univ Φ ⊢ iprop(Φ 0 ∗ bigSep (Finset.univ.erase (0 : Fin 8)) Φ) :=
  Entails.of_eq (bigSep_univ_at Φ 0)

/-- What the launch hands the device, opened into the pieces the steps consume: the seven entry signals' tokens and
    rows, the device's own row, the eight chunks' tokens, read tokens and VMEM chunks, the share of `x` kept, the
    barrier cell, the sends' tokens, the receives' credits, and the two cells never used. -/
theorem start_open (c : Dev nD) :
    iprop(linear c ∗ cred (tallyAt (barCell c) () 7)
        ∗ (bigSep (Finset.univ.erase (0 : Fin 8)) fun j => cred (tallyAt (recvCell c j) () Nrow)) ∗ xPts m c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ iprop(bigSepL [1, 2, 3, 4, 5, 6, 7] (sigR (F := F) c) ∗ (∃ f, rowPts c c fullShare f) ∗ bigSepL [0, 1, 2, 3, 4, 5, 6, 7] (cpyR m c) ∗ xKeep m c ∗ barI c
          ∗ bigSepL [1, 2, 3, 4, 5, 6, 7] (sndT (F := F) c) ∗ bigSepL [1, 2, 3, 4, 5, 6, 7] (rcvI (F := F) c)
          ∗ atPos ER (sendCell c 0) 0 ∅ 0 ∗ atPos ER (recvCell c 0) 0 ∅ 0) := by
  have e7 : (Finset.univ.erase (0 : Fin 8)) = ([1, 2, 3, 4, 5, 6, 7] : List (Fin 8)).toFinset := by decide
  have n7 : ([1, 2, 3, 4, 5, 6, 7] : List (Fin 8)).Nodup := by decide
  -- each listed family of pieces is, component by component, a conjunction over the set the list enumerates
  have hsig : (bigSepL [1, 2, 3, 4, 5, 6, 7] (sigR (F := F) c) : sProp 𝕄)
      = iprop(bigSep (Finset.univ.erase (0 : Fin 8)) (fun K => dutyTok ER (barCell (sh c K)) 0 (ng K))
          ∗ bigSep (Finset.univ.erase (0 : Fin 8)) (fun K => iprop(∃ f, rowPts (F := F) c (sh c K) fullShare f))) := by
    rw [← bigSep_eq_bigSepL_of_eq [1, 2, 3, 4, 5, 6, 7] e7 n7]
    exact bigSep_sep' _ (fun K => dutyTok ER (barCell (sh c K)) 0 (ng K)) (fun K => iprop(∃ f, rowPts (F := F) c (sh c K) fullShare f))
  have hcpy : (bigSepL [0, 1, 2, 3, 4, 5, 6, 7] (cpyR m c) : sProp 𝕄)
      = iprop(bigSep Finset.univ (fun i : Fin 8 => dutyTok ER (copyCell c i) 0 (0 : Fin 8)) ∗ bigSep Finset.univ (fun i : Fin 8 => xTok m c i)
          ∗ bigSep Finset.univ (fun i : Fin 8 => iprop(∃ f, chunkPts (F := F) c i f)) ∗ bigSep Finset.univ (fun i : Fin 8 => atPos ER (copyCell c i) 0 ∅ 0)) := by
    rw [← bigSep_univ_eq_bigSepL [0, 1, 2, 3, 4, 5, 6, 7] (by decide) (by decide)]
    have h : (iprop(bigSep Finset.univ (fun i : Fin 8 => dutyTok ER (copyCell c i) 0 (0 : Fin 8)) ∗ bigSep Finset.univ (fun i : Fin 8 => xTok m c i)
          ∗ bigSep Finset.univ (fun i : Fin 8 => iprop(∃ f, chunkPts (F := F) c i f)) ∗ bigSep Finset.univ (fun i : Fin 8 => atPos ER (copyCell c i) 0 ∅ 0)) : sProp 𝕄)
        = bigSep Finset.univ (fun i : Fin 8 => iprop(dutyTok ER (copyCell c i) 0 (0 : Fin 8) ∗ xTok m c i ∗ (∃ f, chunkPts (F := F) c i f) ∗ atPos ER (copyCell c i) 0 ∅ 0)) := by
      rw [← bigSep_sep', ← bigSep_sep', ← bigSep_sep']
    exact h.symm
  have hsnd : (bigSepL [1, 2, 3, 4, 5, 6, 7] (sndT (F := F) c) : sProp 𝕄)
      = iprop(bigSep (Finset.univ.erase (0 : Fin 8)) (fun j => dutyTok ER (sendCell c j) 0 (0 : Fin 8)) ∗ bigSep (Finset.univ.erase (0 : Fin 8)) (fun j => dutyTok ER (recvCell (sh c j) j) 0 (0 : Fin 8))
          ∗ bigSep (Finset.univ.erase (0 : Fin 8)) (fun j => atPos ER (sendCell c j) 0 ∅ 0)) := by
    rw [← bigSep_eq_bigSepL_of_eq [1, 2, 3, 4, 5, 6, 7] e7 n7]
    have h : (iprop(bigSep (Finset.univ.erase (0 : Fin 8)) (fun j => dutyTok ER (sendCell c j) 0 (0 : Fin 8)) ∗ bigSep (Finset.univ.erase (0 : Fin 8)) (fun j => dutyTok ER (recvCell (sh c j) j) 0 (0 : Fin 8))
          ∗ bigSep (Finset.univ.erase (0 : Fin 8)) (fun j => atPos ER (sendCell c j) 0 ∅ 0)) : sProp 𝕄)
        = bigSep (Finset.univ.erase (0 : Fin 8)) (fun j => iprop(dutyTok ER (sendCell c j) 0 (0 : Fin 8) ∗ dutyTok ER (recvCell (sh c j) j) 0 (0 : Fin 8) ∗ atPos ER (sendCell c j) 0 ∅ 0)) := by
      rw [← bigSep_sep', ← bigSep_sep']
    exact h.symm
  have hrcv : (bigSepL [1, 2, 3, 4, 5, 6, 7] (rcvI (F := F) c) : sProp 𝕄)
      = iprop(bigSep (Finset.univ.erase (0 : Fin 8)) (fun j => cred (tallyAt (recvCell c j) () Nrow)) ∗ bigSep (Finset.univ.erase (0 : Fin 8)) (fun j => atPos ER (recvCell c j) 0 ∅ 0)) := by
    rw [← bigSep_eq_bigSepL_of_eq [1, 2, 3, 4, 5, 6, 7] e7 n7]
    exact bigSep_sep' _ (fun j => cred (tallyAt (recvCell c j) () Nrow)) (fun j => atPos ER (recvCell c j) 0 ∅ 0)
  rw [hsig, hcpy, hsnd, hrcv]
  unfold linear payToks barI
  iintro ⟨⟨Hpos, Hbt, Hct, Hst, Hrt⟩, Hcb, Hcr, Hx, Hv, Hr⟩
  -- the positions by kind, the two unused cells' aside
  ihave Hpos := (so_pos c) $$ Hpos
  icases Hpos with ⟨Hpb, Hpc, Hps, Hpr⟩
  ihave Hps := (so_at0 (fun j : Fin 8 => atPos ER (sendCell c j) 0 ∅ 0)) $$ Hps
  icases Hps with ⟨Hps0, Hps⟩
  ihave Hpr := (so_at0 (fun j : Fin 8 => atPos ER (recvCell c j) 0 ∅ 0)) $$ Hpr
  icases Hpr with ⟨Hpr0, Hpr⟩
  -- the tokens of shift 0 pay nothing
  ihave Hbt := (so_drop0 (fun j : Fin 8 => dutyTok ER (barCell (sh c j)) 0 (ng j))) $$ Hbt
  ihave Hst := (so_drop0 (fun j : Fin 8 => dutyTok ER (sendCell c j) 0 (0 : Fin 8))) $$ Hst
  ihave Hrt := (so_drop0 (fun j : Fin 8 => dutyTok ER (recvCell (sh c j) j) 0 (0 : Fin 8))) $$ Hrt
  -- the block of x, the VMEM copy and the gather buffer
  ihave Hx := (so_x m c) $$ Hx
  icases Hx with ⟨Hxk, Hxt⟩
  ihave Hv := (so_chunks c) $$ Hv
  ihave Hr := (so_rows c) $$ Hr
  icases Hr with ⟨Hr0, Hr⟩
  isplitl [Hbt Hr]
  · isplitl [Hbt]; · iexact Hbt
    iexact Hr
  isplitl [Hr0]; · iexact Hr0
  isplitl [Hct Hxt Hv Hpc]
  · isplitl [Hct]; · iexact Hct
    isplitl [Hxt]; · iexact Hxt
    isplitl [Hv]; · iexact Hv
    iexact Hpc
  isplitl [Hxk]; · iexact Hxk
  isplitl [Hcb Hpb]
  · isplitl [Hcb]; · iexact Hcb
    iexact Hpb
  isplitl [Hst Hrt Hps]
  · isplitl [Hst]; · iexact Hst
    isplitl [Hrt]; · iexact Hrt
    iexact Hps
  isplitl [Hcr Hpr]
  · isplitl [Hcr]; · iexact Hcr
    iexact Hpr
  isplitl [Hps0]; · iexact Hps0
  iexact Hpr0

/-! ## Closing the cells -/

/-- The kernel's 24 own semaphores by kind: eight chunk, eight send, eight receive semaphores. -/
def ca_ownE : Fin 8 ⊕ Fin 8 ⊕ Fin 8 ≃ Fin 24 where
  toFun
    | .inl i => ⟨i.val, by have := i.isLt; omega⟩
    | .inr (.inl j) => ⟨8 + j.val, by have := j.isLt; omega⟩
    | .inr (.inr j) => ⟨16 + j.val, by have := j.isLt; omega⟩
  invFun k :=
    if h1 : k.val < 8 then .inl ⟨k.val, h1⟩
    else if h2 : k.val < 16 then .inr (.inl ⟨k.val - 8, by omega⟩)
    else .inr (.inr ⟨k.val - 16, by have := k.isLt; omega⟩)
  left_inv := by decide
  right_inv := by decide

theorem ca_osem_copy (i : Fin 8) : osem (ca_ownE (.inl i)) = .dma (copyS i) := by revert i; decide
theorem ca_osem_send (j : Fin 8) : osem (ca_ownE (.inr (.inl j))) = .dma (sendS j) := by revert j; decide
theorem ca_osem_recv (j : Fin 8) : osem (ca_ownE (.inr (.inr j))) = .dma (recvS j) := by revert j; decide

omit [FloatOps F] in
/-- The own semaphores at zero, kind by kind. -/
theorem ca_ownSems0_kinds (c : Dev nD) :
    (Pipeline.ownSems0 (Ix := Unit) (Name := ℕ) (U := UU) (Lvl := ℕ) (Val := Elt F) (τ := τ) osem c : sProp 𝕄)
      = iprop((bigSep Finset.univ fun i : Fin 8 => semVal (copyCell c i) 0) ∗ (bigSep Finset.univ fun j : Fin 8 => semVal (sendCell c j) 0)
          ∗ (bigSep Finset.univ fun j : Fin 8 => semVal (recvCell c j) 0)) := by
  unfold Pipeline.ownSems0
  rw [bigSep_univ_equiv ca_ownE, bigSep_univ_sum, bigSep_univ_sum,
    bigSep_congr (s := Finset.univ) (fun (i : Fin 8) _ => show (semVal ((c : Thread nD τ), osem (ca_ownE (.inl i))) 0 : sProp 𝕄) = semVal (copyCell c i) 0 by rw [ca_osem_copy]),
    bigSep_congr (s := Finset.univ) (fun (j : Fin 8) _ => show (semVal ((c : Thread nD τ), osem (ca_ownE (.inr (.inl j)))) 0 : sProp 𝕄) = semVal (sendCell c j) 0 by rw [ca_osem_send]),
    bigSep_congr (s := Finset.univ) (fun (j : Fin 8) _ => show (semVal ((c : Thread nD τ), osem (ca_ownE (.inr (.inr j)))) 0 : sProp 𝕄) = semVal (recvCell c j) 0 by rw [ca_osem_recv])]
  rfl

/-- A cell of this schedule whose owner stands at a round from which no round has a duty, nothing taken: closed, its
    counter comes back at zero. -/
theorem ca_close_one (Kn : Dev nD × Fin 25 → ℕ) (ck : Dev nD × Fin 25) (R : ℕ) (hR : ∀ r, R ≤ r → (sched (F := F) m).duties (kcell ck) r = ∅) :
    iprop(records m Kn ∗ atPos ER (kcell ck) R ∅ 0) ⊢ iprop(|={Set.univ}=> (semVal (kcell ck) 0 : sProp 𝕄)) :=
  (sep_mono_left (records_inv m Kn ck)).trans (cell_close ER (sched m) (Set.mem_univ _) (fun h => h) hR)

/-- A family of such cells, closed under one update. -/
theorem ca_close_family (Kn : Dev nD × Fin 25 → ℕ) (c : Dev nD) (S : Finset (Fin 8)) (n : Fin 8 → Fin 25) (R : ℕ)
    (hR : ∀ i ∈ S, ∀ r, R ≤ r → (sched (F := F) m).duties (kcell (c, n i)) r = ∅) :
    iprop(records m Kn ∗ bigSep S fun i => atPos ER (kcell (c, n i)) R ∅ 0)
      ⊢ iprop(|={Set.univ}=> (bigSep S fun i => semVal (kcell (c, n i)) 0 : sProp 𝕄)) :=
  (bigSep_with_persistent (R := records m Kn) fun i hi => ca_close_one m Kn (c, n i) R (hR i hi)).trans (bigSep_fupd _ _)

/-- Every cell of the device's own closed: the kernel's own semaphores are back at zero. -/
theorem close_all (c : Dev nD) (Kn : Dev nD × Fin 25 → ℕ) :
    iprop(records m Kn ∗ bigSepL [0, 1, 2, 3, 4, 5, 6, 7] (fun i : Fin 8 => atPos ER (copyCell c i) 1 ∅ 0)
        ∗ bigSepL [1, 2, 3, 4, 5, 6, 7] (fun j : Fin 8 => atPos ER (sendCell c j) 1 ∅ 0)
        ∗ bigSepL [1, 2, 3, 4, 5, 6, 7] (fun j : Fin 8 => atPos ER (recvCell c j) 1 ∅ 0)
        ∗ atPos ER (sendCell c 0) 0 ∅ 0 ∗ atPos ER (recvCell c 0) 0 ∅ 0)
      ⊢ iprop(|={Set.univ}=> (Pipeline.ownSems0 osem c : sProp 𝕄)) := by
  have e7 : (Finset.univ.erase (0 : Fin 8)) = ([1, 2, 3, 4, 5, 6, 7] : List (Fin 8)).toFinset := by decide
  have n7 : ([1, 2, 3, 4, 5, 6, 7] : List (Fin 8)).Nodup := by decide
  rw [ca_ownSems0_kinds, bigSep_univ_at (fun j : Fin 8 => (semVal (sendCell c j) 0 : sProp 𝕄)) 0,
    bigSep_univ_at (fun j : Fin 8 => (semVal (recvCell c j) 0 : sProp 𝕄)) 0]
  iintro ⟨#Hrec, HC, HS, HR, HS0, HR0⟩
  ihave HC := (Entails.of_eq (bigSep_univ_eq_bigSepL [0, 1, 2, 3, 4, 5, 6, 7] (by decide) (by decide)
    (fun i : Fin 8 => (atPos ER (copyCell c i) 1 ∅ 0 : sProp 𝕄))).symm) $$ HC
  ihave HS := (Entails.of_eq (bigSep_eq_bigSepL_of_eq [1, 2, 3, 4, 5, 6, 7] e7 n7
    (fun j : Fin 8 => (atPos ER (sendCell c j) 1 ∅ 0 : sProp 𝕄))).symm) $$ HS
  ihave HR := (Entails.of_eq (bigSep_eq_bigSepL_of_eq [1, 2, 3, 4, 5, 6, 7] e7 n7
    (fun j : Fin 8 => (atPos ER (recvCell c j) 1 ∅ 0 : sProp 𝕄))).symm) $$ HR
  imod (show iprop(records m Kn ∗ bigSep Finset.univ fun i : Fin 8 => atPos ER (copyCell c i) 1 ∅ 0)
      ⊢ iprop(|={Set.univ}=> (bigSep Finset.univ fun i : Fin 8 => semVal (copyCell c i) 0 : sProp 𝕄)) from by
    have h := ca_close_family m Kn c Finset.univ copyN 1 (fun i _ => duties_later m _)
    simp only [kcell_copy] at h; exact h) $$ [HC] with HC'
  · isplitr; · iexact Hrec
    iexact HC
  imod (show iprop(records m Kn ∗ bigSep (Finset.univ.erase (0 : Fin 8)) fun j : Fin 8 => atPos ER (sendCell c j) 1 ∅ 0)
      ⊢ iprop(|={Set.univ}=> (bigSep (Finset.univ.erase (0 : Fin 8)) fun j : Fin 8 => semVal (sendCell c j) 0 : sProp 𝕄)) from by
    have h := ca_close_family m Kn c (Finset.univ.erase (0 : Fin 8)) sendN 1 (fun j _ => duties_later m _)
    simp only [kcell_send] at h; exact h) $$ [HS] with HS'
  · isplitr; · iexact Hrec
    iexact HS
  imod (show iprop(records m Kn ∗ bigSep (Finset.univ.erase (0 : Fin 8)) fun j : Fin 8 => atPos ER (recvCell c j) 1 ∅ 0)
      ⊢ iprop(|={Set.univ}=> (bigSep (Finset.univ.erase (0 : Fin 8)) fun j : Fin 8 => semVal (recvCell c j) 0 : sProp 𝕄)) from by
    have h := ca_close_family m Kn c (Finset.univ.erase (0 : Fin 8)) recvN 1 (fun j _ => duties_later m _)
    simp only [kcell_recv] at h; exact h) $$ [HR] with HR'
  · isplitr; · iexact Hrec
    iexact HR
  imod (show iprop(records m Kn ∗ atPos ER (sendCell c 0) 0 ∅ 0) ⊢ iprop(|={Set.univ}=> (semVal (sendCell c 0) 0 : sProp 𝕄)) from by
    have h := ca_close_one m Kn (c, sendN 0) 0 (fun r _ => by
      rw [kcell_send]
      rcases Nat.eq_zero_or_pos r with rfl | hr
      · exact duties_send0 m c
      · exact duties_later m _ r hr)
    rw [kcell_send] at h; exact h) $$ [HS0] with HS0'
  · isplitr; · iexact Hrec
    iexact HS0
  imod (show iprop(records m Kn ∗ atPos ER (recvCell c 0) 0 ∅ 0) ⊢ iprop(|={Set.univ}=> (semVal (recvCell c 0) 0 : sProp 𝕄)) from by
    have h := ca_close_one m Kn (c, recvN 0) 0 (fun r _ => by
      rw [kcell_recv]
      rcases Nat.eq_zero_or_pos r with rfl | hr
      · exact duties_recv0 m c
      · exact duties_later m _ r hr)
    rw [kcell_recv] at h; exact h) $$ [HR0] with HR0'
  · isplitr; · iexact Hrec
    iexact HR0
  imodintro
  isplitl [HC']; · iexact HC'
  isplitl [HS0' HS']
  · isplitl [HS0'] <;> iassumption
  · isplitl [HR0'] <;> iassumption

/-- info: 'Cert.KernelIdeal.Sum.start_open' depends on axioms: [propext, Classical.choice, Quot.sound] -/
#guard_msgs in #print axioms start_open

/-- info: 'Cert.KernelIdeal.Sum.close_all' depends on axioms: [propext, Classical.choice, Quot.sound] -/
#guard_msgs in #print axioms close_all

end Cert.KernelIdeal.Sum

end
-- ==== Proof.Names.lean ====
/-
  The program's own spellings of the protocol's names. Each semaphore the body picks out of one of its three
  arrays of eight (slice at a literal index, then squeeze to rank zero) is the chunk, send or receive semaphore
  of that index; each device a signal or a remote copy addresses (the printed chain of integer operations on
  the device's own position) is the device a fixed number of places further on.
-/
import proofs.«901086_g7700000000001087_dist_sum_ax0_shard0_i_m2048_n1024_v7x_i8_bf16_1_alg».proof.Proof.Tables

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The semaphores: entry i of the first array is chunk semaphore i, of the second send semaphore i, of the third
    receive semaphore i (the arrays lie one after the other on the pool, from 1, from 9 and from 17) -/

theorem sem_copy0 : ((cc0_scratch2.slice (Rect.unit (s := S8) ![0] S1.size inb_S8_S1_0)).squeeze S_ squeezes_S1_S_).sem = copyS 0 := rfl
theorem sem_copy1 : ((cc0_scratch2.slice (Rect.unit (s := S8) ![1] S1.size inb_S8_S1_1)).squeeze S_ squeezes_S1_S_).sem = copyS 1 := rfl
theorem sem_copy2 : ((cc0_scratch2.slice (Rect.unit (s := S8) ![2] S1.size inb_S8_S1_2)).squeeze S_ squeezes_S1_S_).sem = copyS 2 := rfl
theorem sem_copy3 : ((cc0_scratch2.slice (Rect.unit (s := S8) ![3] S1.size inb_S8_S1_3)).squeeze S_ squeezes_S1_S_).sem = copyS 3 := rfl
theorem sem_copy4 : ((cc0_scratch2.slice (Rect.unit (s := S8) ![4] S1.size inb_S8_S1_4)).squeeze S_ squeezes_S1_S_).sem = copyS 4 := rfl
theorem sem_copy5 : ((cc0_scratch2.slice (Rect.unit (s := S8) ![5] S1.size inb_S8_S1_5)).squeeze S_ squeezes_S1_S_).sem = copyS 5 := rfl
theorem sem_copy6 : ((cc0_scratch2.slice (Rect.unit (s := S8) ![6] S1.size inb_S8_S1_6)).squeeze S_ squeezes_S1_S_).sem = copyS 6 := rfl
theorem sem_copy7 : ((cc0_scratch2.slice (Rect.unit (s := S8) ![7] S1.size inb_S8_S1_7)).squeeze S_ squeezes_S1_S_).sem = copyS 7 := rfl

theorem sem_send0 : ((cc0_scratch3.slice (Rect.unit (s := S8) ![0] S1.size inb_S8_S1_0)).squeeze S_ squeezes_S1_S_).sem = sendS 0 := rfl
theorem sem_send1 : ((cc0_scratch3.slice (Rect.unit (s := S8) ![1] S1.size inb_S8_S1_1)).squeeze S_ squeezes_S1_S_).sem = sendS 1 := rfl
theorem sem_send2 : ((cc0_scratch3.slice (Rect.unit (s := S8) ![2] S1.size inb_S8_S1_2)).squeeze S_ squeezes_S1_S_).sem = sendS 2 := rfl
theorem sem_send3 : ((cc0_scratch3.slice (Rect.unit (s := S8) ![3] S1.size inb_S8_S1_3)).squeeze S_ squeezes_S1_S_).sem = sendS 3 := rfl
theorem sem_send4 : ((cc0_scratch3.slice (Rect.unit (s := S8) ![4] S1.size inb_S8_S1_4)).squeeze S_ squeezes_S1_S_).sem = sendS 4 := rfl
theorem sem_send5 : ((cc0_scratch3.slice (Rect.unit (s := S8) ![5] S1.size inb_S8_S1_5)).squeeze S_ squeezes_S1_S_).sem = sendS 5 := rfl
theorem sem_send6 : ((cc0_scratch3.slice (Rect.unit (s := S8) ![6] S1.size inb_S8_S1_6)).squeeze S_ squeezes_S1_S_).sem = sendS 6 := rfl
theorem sem_send7 : ((cc0_scratch3.slice (Rect.unit (s := S8) ![7] S1.size inb_S8_S1_7)).squeeze S_ squeezes_S1_S_).sem = sendS 7 := rfl

theorem sem_recv0 : ((cc0_scratch4.slice (Rect.unit (s := S8) ![0] S1.size inb_S8_S1_0)).squeeze S_ squeezes_S1_S_).sem = recvS 0 := rfl
theorem sem_recv1 : ((cc0_scratch4.slice (Rect.unit (s := S8) ![1] S1.size inb_S8_S1_1)).squeeze S_ squeezes_S1_S_).sem = recvS 1 := rfl
theorem sem_recv2 : ((cc0_scratch4.slice (Rect.unit (s := S8) ![2] S1.size inb_S8_S1_2)).squeeze S_ squeezes_S1_S_).sem = recvS 2 := rfl
theorem sem_recv3 : ((cc0_scratch4.slice (Rect.unit (s := S8) ![3] S1.size inb_S8_S1_3)).squeeze S_ squeezes_S1_S_).sem = recvS 3 := rfl
theorem sem_recv4 : ((cc0_scratch4.slice (Rect.unit (s := S8) ![4] S1.size inb_S8_S1_4)).squeeze S_ squeezes_S1_S_).sem = recvS 4 := rfl
theorem sem_recv5 : ((cc0_scratch4.slice (Rect.unit (s := S8) ![5] S1.size inb_S8_S1_5)).squeeze S_ squeezes_S1_S_).sem = recvS 5 := rfl
theorem sem_recv6 : ((cc0_scratch4.slice (Rect.unit (s := S8) ![6] S1.size inb_S8_S1_6)).squeeze S_ squeezes_S1_S_).sem = recvS 6 := rfl
theorem sem_recv7 : ((cc0_scratch4.slice (Rect.unit (s := S8) ![7] S1.size inb_S8_S1_7)).squeeze S_ squeezes_S1_S_).sem = recvS 7 := rfl

/-! ## The devices: the chain printed for the k-th entry signal, and the one printed for the k-th remote copy, both
    name the device k places further on -/

@[sl_canon] theorem dev1_eq (c : Dev nD) : (⟨k0_dev1 c, k0_dev1_lt c⟩ : Dev nD) = sh c 1 := Fin.ext (k0_dev1_eq c)
@[sl_canon] theorem dev2_eq (c : Dev nD) : (⟨k0_dev2 c, k0_dev2_lt c⟩ : Dev nD) = sh c 2 := Fin.ext (k0_dev2_eq c)
@[sl_canon] theorem dev3_eq (c : Dev nD) : (⟨k0_dev3 c, k0_dev3_lt c⟩ : Dev nD) = sh c 3 := Fin.ext (k0_dev3_eq c)
@[sl_canon] theorem dev4_eq (c : Dev nD) : (⟨k0_dev4 c, k0_dev4_lt c⟩ : Dev nD) = sh c 4 := Fin.ext (k0_dev4_eq c)
@[sl_canon] theorem dev5_eq (c : Dev nD) : (⟨k0_dev5 c, k0_dev5_lt c⟩ : Dev nD) = sh c 5 := Fin.ext (k0_dev5_eq c)
@[sl_canon] theorem dev6_eq (c : Dev nD) : (⟨k0_dev6 c, k0_dev6_lt c⟩ : Dev nD) = sh c 6 := Fin.ext (k0_dev6_eq c)
@[sl_canon] theorem dev7_eq (c : Dev nD) : (⟨k0_dev7 c, k0_dev7_lt c⟩ : Dev nD) = sh c 7 := Fin.ext (k0_dev7_eq c)
@[sl_canon] theorem dev8_eq (c : Dev nD) : (⟨k0_dev8 c, k0_dev8_lt c⟩ : Dev nD) = sh c 1 := Fin.ext (k0_dev8_eq c)
@[sl_canon] theorem dev9_eq (c : Dev nD) : (⟨k0_dev9 c, k0_dev9_lt c⟩ : Dev nD) = sh c 2 := Fin.ext (k0_dev9_eq c)
@[sl_canon] theorem dev10_eq (c : Dev nD) : (⟨k0_dev10 c, k0_dev10_lt c⟩ : Dev nD) = sh c 3 := Fin.ext (k0_dev10_eq c)
@[sl_canon] theorem dev11_eq (c : Dev nD) : (⟨k0_dev11 c, k0_dev11_lt c⟩ : Dev nD) = sh c 4 := Fin.ext (k0_dev11_eq c)
@[sl_canon] theorem dev12_eq (c : Dev nD) : (⟨k0_dev12 c, k0_dev12_lt c⟩ : Dev nD) = sh c 5 := Fin.ext (k0_dev12_eq c)
@[sl_canon] theorem dev13_eq (c : Dev nD) : (⟨k0_dev13 c, k0_dev13_lt c⟩ : Dev nD) = sh c 6 := Fin.ext (k0_dev13_eq c)
@[sl_canon] theorem dev14_eq (c : Dev nD) : (⟨k0_dev14 c, k0_dev14_lt c⟩ : Dev nD) = sh c 7 := Fin.ext (k0_dev14_eq c)

/-- info: 'Cert.KernelIdeal.Sum.dev14_eq' depends on axioms: [propext, Quot.sound] -/
#guard_msgs in #print axioms dev14_eq

end Cert.KernelIdeal.Sum

end
-- ==== Proof.Body2.lean ====
/-
  The second half of one device's body, part by part: the seven remote transfers of its own row, the waits for the
  seven rows sent to it and for its own sends, and the load of the whole gather buffer.
-/
import proofs.«901086_g7700000000001087_dist_sum_ax0_shard0_i_m2048_n1024_v7x_i8_bf16_1_alg».proof.Proof.BodyA
import proofs.«901086_g7700000000001087_dist_sum_ax0_shard0_i_m2048_n1024_v7x_i8_bf16_1_alg».proof.Proof.BodyCopy
import proofs.«901086_g7700000000001087_dist_sum_ax0_shard0_i_m2048_n1024_v7x_i8_bf16_1_alg».proof.Proof.BodySend
import proofs.«901086_g7700000000001087_dist_sum_ax0_shard0_i_m2048_n1024_v7x_i8_bf16_1_alg».proof.Proof.BodyWait
import proofs.«901086_g7700000000001087_dist_sum_ax0_shard0_i_m2048_n1024_v7x_i8_bf16_1_alg».proof.Proof.BodyMem
import proofs.«901086_g7700000000001087_dist_sum_ax0_shard0_i_m2048_n1024_v7x_i8_bf16_1_alg».proof.Proof.BodyEnds
import proofs.«901086_g7700000000001087_dist_sum_ax0_shard0_i_m2048_n1024_v7x_i8_bf16_1_alg».proof.Proof.Names
import proofs.«901086_g7700000000001087_dist_sum_ax0_shard0_i_m2048_n1024_v7x_i8_bf16_1_alg».proof.Proof.Views

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A listed conjunction as the chain it is -/

theorem bigSepL2 {I : Type} (Φ : I → sProp 𝕄) (a b : I) : bigSepL [a, b] Φ = iprop(Φ a ∗ Φ b) := rfl
theorem bigSepL3 {I : Type} (Φ : I → sProp 𝕄) (a b c : I) : bigSepL [a, b, c] Φ = iprop(Φ a ∗ Φ b ∗ Φ c) := rfl
theorem bigSepL4 {I : Type} (Φ : I → sProp 𝕄) (a b c d : I) : bigSepL [a, b, c, d] Φ = iprop(Φ a ∗ Φ b ∗ Φ c ∗ Φ d) := rfl
theorem bigSepL5 {I : Type} (Φ : I → sProp 𝕄) (a b c d e : I) : bigSepL [a, b, c, d, e] Φ = iprop(Φ a ∗ Φ b ∗ Φ c ∗ Φ d ∗ Φ e) := rfl
theorem bigSepL7 {I : Type} (Φ : I → sProp 𝕄) (a b c d e f g : I) :
    bigSepL [a, b, c, d, e, f, g] Φ = iprop(Φ a ∗ Φ b ∗ Φ c ∗ Φ d ∗ Φ e ∗ Φ f ∗ Φ g) := rfl
theorem bigSepL8 {I : Type} (Φ : I → sProp 𝕄) (a b c d e f g h : I) :
    bigSepL [a, b, c, d, e, f, g, h] Φ = iprop(Φ a ∗ Φ b ∗ Φ c ∗ Φ d ∗ Φ e ∗ Φ f ∗ Φ g ∗ Φ h) := rfl

/-- What send `j` consumes: its tokens and position, share `j` of the device's own row, and what the entry signal
    from the device `j` places further on handed over. -/
def sndR (c : Dev nD) (j : Fin 8) : sProp 𝕄 :=
  iprop(sndT c j ∗ rowPts c c (Transfers.shareTokN fullShare j.val) (commB m c) ∗ barPay c j)

/-! ## Parts 7 to 13 -/

omit [FloatOps F] in
/-- The credit of a transfer into any one row of the gather buffer is a row's credit. -/
theorem slice_credit (off : Fin 3 → Nat) (h : ∀ a, off a + S1x1x1024.size a ≤ S8x1x1024.size a) (hs : S1x1x1024.Squeezes S1x1024) :
    (((cM : Memref sig .tc .vmem S8x1x1024 .f32).slice (Rect.unit (s := S8x1x1024) off S1x1x1024.size h) (fun _ => rfl)).squeeze S1x1024 hs).view.dmaCredit = Nrow := rfl

/-- Send `j` as the program spells it: the device's own row through its printed offset chain, the device addressed
    through its printed chain, the two semaphores as entries of their arrays. -/
theorem send_run (m : (ℓ : Loc nD τ sig) → Buf (Elt F) ℓ) (c : Dev nD) (Kn : Dev nD × Fin 25 → ℕ) (j : Fin 8) (n : ℕ) (hn : n < 7) (hj : j = jOf n)
    {src dst : Memref sig .tc .vmem S1x1024 .f32} (hs : src = rowM c) (hd : dst = rowM c)
    {d : Dev nD} (hdv : d = sh c j) {s1 s2 : DmaSem sig} (h1 : s1 = sendS j) (h2 : s2 = recvS j)
    {hsc : dst.view.ref.isScScratch = false} {hsrc : src.view.WordExact} {hdst : dst.view.WordExact}
    {hsem : DmaTarget.Typed (nD := nD) (p := Proc.tc) .vmem (.dma s2) (.remote ((d : Dev nD) : Thread nD τ) dst (.dma s1) hsc)}
    {α : Type} (k : PUnit → Prog (TpuEff nD τ sig (Elt F) Λ₀ .tc) α) (Q : α → sProp 𝕄) :
    iprop(records m Kn ∗ owesX c (owedS c (n + 1)) ∗ sndR m c j)
      ⊢ iprop(((sndI c j ∗ owesX c (owedS c n)) -∗ wp frame (wpE (defs₀ (F := F)) 𝒱₀ c none) Set.univ (k ⟨⟩) Q)
          -∗ wp frame (wpE (defs₀ (F := F)) 𝒱₀ c none) Set.univ (.op (.enqueueDma src (.remote ((d : Dev nD) : Thread nD τ) dst (.dma s1) hsc) (.dma s2) hsrc hdst hsem) k) Q) := by
  subst hs hd hdv h1 h2
  unfold sndR
  exact step_send m c Kn j n hn hj k Q

/-- Part 7: sends 1 and 2. -/
theorem part7_run (c : Dev nD) (Kn : Dev nD × Fin 25 → ℕ) (v2 v160 : BitVec 32) (Kt : PUnit → sProp 𝕄) :
    iprop(records m Kn ∗ owesX c (owedS c 7) ∗ bigSepL [1, 2] (sndR m c)
        ∗ ((owesX c (owedS c 5) ∗ bigSepL [1, 2] (sndI (F := F) c)) -∗ Kt ⟨⟩))
      ⊢ wp frame (wpE (defs₀ (F := F)) 𝒱₀ c none) Set.univ (k0_part7 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 v160) Kt := by
  rw [Gen.k0_part7_eq_skeleton]; unfold Gen.k0_part7_skel
  simp only [Prog.lift, Prog.bind_op, Prog.bind_ret, Prog.pure_eq_ret, bigSepL2]
  iintro ⟨#Hrec, HO, ⟨HS1, HS2⟩, Hk⟩
  iapply (send_run m c Kn 1 6 (by decide) (by decide) (row_off2 c) (row_off2 c) (dev8_eq c) sem_send1 sem_recv1 _ _) $$ [HO HS1]
  · isplitr; · iexact Hrec
    isplitl [HO]; · iexact HO
    iexact HS1
  iintro ⟨HI1, HO⟩
  iapply (send_run m c Kn 2 5 (by decide) (by decide) (row_off2 c) (row_off2 c) (dev9_eq c) sem_send2 sem_recv2 _ _) $$ [HO HS2]
  · isplitr; · iexact Hrec
    isplitl [HO]; · iexact HO
    iexact HS2
  iintro ⟨HI2, HO⟩
  rw [wp_ret]; imodintro
  iapply Hk
  isplitl [HO]; · iexact HO
  isplitl [HI1]; · iexact HI1
  iexact HI2

/-- Part 8: sends 3 to 5. -/
theorem part8_run (c : Dev nD) (Kn : Dev nD × Fin 25 → ℕ) (v2 : BitVec 32)
    (Kt : (Σ' (v221 : BitVec 32), BitVec 32) → sProp 𝕄) :
    iprop(records m Kn ∗ owesX c (owedS c 5) ∗ bigSepL [3, 4, 5] (sndR m c)
        ∗ ((owesX c (owedS c 2) ∗ bigSepL [3, 4, 5] (sndI (F := F) c)) -∗ ∀ v, Kt v))
      ⊢ wp frame (wpE (defs₀ (F := F)) 𝒱₀ c none) Set.univ (k0_part8 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [Gen.k0_part8_eq_skeleton]; unfold Gen.k0_part8_skel
  simp only [Prog.lift, Prog.bind_op, Prog.bind_ret, Prog.pure_eq_ret, bigSepL3]
  iintro ⟨#Hrec, HO, ⟨HS3, HS4, HS5⟩, Hk⟩
  iapply (send_run m c Kn 3 4 (by decide) (by decide) (row_off2 c) (row_off2 c) (dev10_eq c) sem_send3 sem_recv3 _ _) $$ [HO HS3]
  · isplitr; · iexact Hrec
    isplitl [HO]; · iexact HO
    iexact HS3
  iintro ⟨HI3, HO⟩
  iapply (send_run m c Kn 4 3 (by decide) (by decide) (row_off2 c) (row_off2 c) (dev11_eq c) sem_send4 sem_recv4 _ _) $$ [HO HS4]
  · isplitr; · iexact Hrec
    isplitl [HO]; · iexact HO
    iexact HS4
  iintro ⟨HI4, HO⟩
  iapply (send_run m c Kn 5 2 (by decide) (by decide) (row_off2 c) (row_off2 c) (dev12_eq c) sem_send5 sem_recv5 _ _) $$ [HO HS5]
  · isplitr; · iexact Hrec
    isplitl [HO]; · iexact HO
    iexact HS5
  iintro ⟨HI5, HO⟩
  rw [wp_ret]; imodintro
  iapply Hk $$ [HO HI3 HI4 HI5] %_
  isplitl [HO]; · iexact HO
  isplitl [HI3]; · iexact HI3
  isplitl [HI4]; · iexact HI4
  iexact HI5

/-- Part 9: sends 6 and 7, after which the device owes nothing, and the wait for the row of the device one place back. -/
theorem part9_run (c : Dev nD) (Kn : Dev nD × Fin 25 → ℕ) (v2 v221 c0 : BitVec 32) (Kt : PUnit → sProp 𝕄) :
    iprop(records m Kn ∗ owesX c (owedS c 2) ∗ bigSepL [6, 7] (sndR m c) ∗ rcvI c 1
        ∗ ((owesX c 0 ∗ bigSepL [6, 7] (sndI (F := F) c) ∗ rcvD m c 1) -∗ Kt ⟨⟩))
      ⊢ wp frame (wpE (defs₀ (F := F)) 𝒱₀ c none) Set.univ (k0_part9 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 v221 c0) Kt := by
  rw [Gen.k0_part9_eq_skeleton]; unfold Gen.k0_part9_skel
  simp only [Prog.lift, Prog.bind_op, Prog.bind_ret, Prog.pure_eq_ret, bigSepL2]
  rw [sem_recv1]
  iintro ⟨#Hrec, HO, ⟨HS6, HS7⟩, HV1, Hk⟩
  iapply (send_run m c Kn 6 1 (by decide) (by decide) (row_off2 c) (row_off2 c) (dev13_eq c) sem_send6 sem_recv6 _ _) $$ [HO HS6]
  · isplitr; · iexact Hrec
    isplitl [HO]; · iexact HO
    iexact HS6
  iintro ⟨HI6, HO⟩
  iapply (send_run m c Kn 7 0 (by decide) (by decide) (row_off2 c) (row_off2 c) (dev14_eq c) sem_send7 sem_recv7 _ _) $$ [HO HS7]
  · isplitr; · iexact Hrec
    isplitl [HO]; · iexact HO
    iexact HS7
  iintro ⟨HI7, HO⟩
  iapply (step_recv_wait m c Kn 1 (by decide) (slice_credit _ _ _) _ _) $$ [HO HV1]
  · isplitr; · iexact Hrec
    isplitl [HO]; · iexact HO
    iexact HV1
  iintro ⟨HO, HD1⟩
  rw [wp_ret]; imodintro
  iapply Hk
  isplitl [HO]; · iexact HO
  isplitl [HI6 HI7]
  · isplitl [HI6]; · iexact HI6
    iexact HI7
  iexact HD1

/-- Part 10: the waits for the rows of the devices two and three places back. -/
theorem part10_run (c : Dev nD) (Kn : Dev nD × Fin 25 → ℕ) (v2 : BitVec 32) (Kt : PUnit → sProp 𝕄) :
    iprop(records m Kn ∗ owesX c 0 ∗ bigSepL [2, 3] (rcvI (F := F) c)
        ∗ ((owesX c 0 ∗ bigSepL [2, 3] (rcvD m c)) -∗ Kt ⟨⟩))
      ⊢ wp frame (wpE (defs₀ (F := F)) 𝒱₀ c none) Set.univ (k0_part10 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [k0_part10_eq_skeleton]; unfold k0_part10_skel
  simp only [Prog.lift, Prog.bind_op, Prog.bind_ret, Prog.pure_eq_ret]
  rw [sem_recv2, sem_recv3]
  show iprop(records m Kn ∗ owesX c 0 ∗ (rcvI (F := F) c 2 ∗ rcvI (F := F) c 3)
        ∗ ((owesX c 0 ∗ (rcvD m c 2 ∗ rcvD m c 3)) -∗ Kt ⟨⟩)) ⊢ _
  iintro ⟨#Hrec, HO, ⟨H2, H3⟩, Hk⟩
  iapply (step_recv_wait m c Kn 2 (by decide) (slice_credit _ _ _) _ _) $$ [HO H2]
  · isplitr; · iexact Hrec
    isplitl [HO]; · iexact HO
    iexact H2
  iintro ⟨HO, D2⟩
  iapply (step_recv_wait m c Kn 3 (by decide) (slice_credit _ _ _) _ _) $$ [HO H3]
  · isplitr; · iexact Hrec
    isplitl [HO]; · iexact HO
    iexact H3
  iintro ⟨HO, D3⟩
  rw [wp_ret]; imodintro
  iapply Hk
  isplitl [HO]; · iexact HO
  isplitl [D2]; · iexact D2
  iexact D3

/-- Part 11: the waits for the rows of the devices four to six places back. -/
theorem part11_run (c : Dev nD) (Kn : Dev nD × Fin 25 → ℕ) (v2 : BitVec 32)
    (Kt : (Σ' (v310 : BitVec 32), BitVec 32) → sProp 𝕄) :
    iprop(records m Kn ∗ owesX c 0 ∗ bigSepL [4, 5, 6] (rcvI (F := F) c)
        ∗ ((owesX c 0 ∗ bigSepL [4, 5, 6] (rcvD m c)) -∗ ∀ v, Kt v))
      ⊢ wp frame (wpE (defs₀ (F := F)) 𝒱₀ c none) Set.univ (k0_part11 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [k0_part11_eq_skeleton]; unfold k0_part11_skel
  simp only [Prog.lift, Prog.bind_op, Prog.bind_ret, Prog.pure_eq_ret]
  rw [sem_recv4, sem_recv5, sem_recv6]
  show iprop(records m Kn ∗ owesX c 0 ∗ (rcvI (F := F) c 4 ∗ rcvI (F := F) c 5 ∗ rcvI (F := F) c 6)
        ∗ ((owesX c 0 ∗ (rcvD m c 4 ∗ rcvD m c 5 ∗ rcvD m c 6)) -∗ ∀ v, Kt v)) ⊢ _
  iintro ⟨#Hrec, HO, ⟨H4, H5, H6⟩, Hk⟩
  iapply (step_recv_wait m c Kn 4 (by decide) (slice_credit _ _ _) _ _) $$ [HO H4]
  · isplitr; · iexact Hrec
    isplitl [HO]; · iexact HO
    iexact H4
  iintro ⟨HO, D4⟩
  iapply (step_recv_wait m c Kn 5 (by decide) (slice_credit _ _ _) _ _) $$ [HO H5]
  · isplitr; · iexact Hrec
    isplitl [HO]; · iexact HO
    iexact H5
  iintro ⟨HO, D5⟩
  iapply (step_recv_wait m c Kn 6 (by decide) (slice_credit _ _ _) _ _) $$ [HO H6]
  · isplitr; · iexact Hrec
    isplitl [HO]; · iexact HO
    iexact H6
  iintro ⟨HO, D6⟩
  rw [wp_ret]; imodintro
  ihave Hk2 := Hk $$ [HO D4 D5 D6]
  · isplitl [HO]; · iexact HO
    isplitl [D4]; · iexact D4
    isplitl [D5]; · iexact D5
    iexact D6
  iapply Hk2

/-- Part 12: the wait for the row of the device seven places back, and for sends 1 to 3. -/
theorem part12_run (c : Dev nD) (Kn : Dev nD × Fin 25 → ℕ) (v310 c8 : BitVec 32) (Kt : PUnit → sProp 𝕄) :
    iprop(records m Kn ∗ owesX c 0 ∗ rcvI c 7 ∗ bigSepL [1, 2, 3] (sndI (F := F) c)
        ∗ ((owesX c 0 ∗ rcvD m c 7 ∗ bigSepL [1, 2, 3] (sndD m c)) -∗ Kt ⟨⟩))
      ⊢ wp frame (wpE (defs₀ (F := F)) 𝒱₀ c none) Set.univ (k0_part12 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v310 c8) Kt := by
  rw [k0_part12_eq_skeleton]; unfold k0_part12_skel
  simp only [Prog.lift, Prog.bind_op, Prog.bind_ret, Prog.pure_eq_ret]
  rw [sem_recv7, sem_send1, sem_send2, sem_send3]
  show iprop(records m Kn ∗ owesX c 0 ∗ rcvI (F := F) c 7 ∗ (sndI (F := F) c 1 ∗ sndI (F := F) c 2 ∗ sndI (F := F) c 3)
        ∗ ((owesX c 0 ∗ rcvD m c 7 ∗ (sndD m c 1 ∗ sndD m c 2 ∗ sndD m c 3)) -∗ Kt ⟨⟩)) ⊢ _
  iintro ⟨#Hrec, HO, H7, ⟨S1, S2, S3⟩, Hk⟩
  iapply (step_recv_wait m c Kn 7 (by decide) (slice_credit _ _ _) _ _) $$ [HO H7]
  · isplitr; · iexact Hrec
    isplitl [HO]; · iexact HO
    iexact H7
  iintro ⟨HO, D7⟩
  iapply (step_send_wait m c Kn 1 (by decide) (slice_credit _ _ _) _ _) $$ [HO S1]
  · isplitr; · iexact Hrec
    isplitl [HO]; · iexact HO
    iexact S1
  iintro ⟨HO, E1⟩
  iapply (step_send_wait m c Kn 2 (by decide) (slice_credit _ _ _) _ _) $$ [HO S2]
  · isplitr; · iexact Hrec
    isplitl [HO]; · iexact HO
    iexact S2
  iintro ⟨HO, E2⟩
  iapply (step_send_wait m c Kn 3 (by decide) (slice_credit _ _ _) _ _) $$ [HO S3]
  · isplitr; · iexact Hrec
    isplitl [HO]; · iexact HO
    iexact S3
  iintro ⟨HO, E3⟩
  rw [wp_ret]; imodintro
  iapply Hk
  isplitl [HO]; · iexact HO
  isplitl [D7]; · iexact D7
  isplitl [E1]; · iexact E1
  isplitl [E2]; · iexact E2
  iexact E3

/-- Part 13: the waits for sends 4 to 7; then the device's own row is whole again, the gather buffer is whole, and
    the load of all of it reads every device's column sums. -/
theorem part13_run (c : Dev nD) (Kn : Dev nD × Fin 25 → ℕ) (Kt : Vec F S8x1x1024 .f32 → sProp 𝕄) :
    iprop(records m Kn ∗ owesX c 0 ∗ bigSepL [4, 5, 6, 7] (sndI (F := F) c) ∗ bigSepL [1, 2, 3] (sndD m c)
        ∗ rowPts c c (Transfers.shareDrop fullShare 8) (commB m c) ∗ rowPts c c (Transfers.shareTokN fullShare 0) (commB m c)
        ∗ bigSepL [1, 2, 3, 4, 5, 6, 7] (rcvD m c)
        ∗ ((owesX c 0 ∗ ((((c : Thread nD τ).loc cc0_scratch1) ↦{fullShare} commB m c) : sProp 𝕄)
              ∗ bigSepL [1, 2, 3, 4, 5, 6, 7] (fun j : Fin 8 => atPos ER (sendCell c j) 1 ∅ 0)
              ∗ bigSepL [1, 2, 3, 4, 5, 6, 7] (fun j : Fin 8 => atPos ER (recvCell c j) 1 ∅ 0)) -∗ Kt (comm (xb m))))
      ⊢ wp frame (wpE (defs₀ (F := F)) 𝒱₀ c none) Set.univ (k0_part13 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c) Kt := by
  have hN : (((cM : Memref sig .tc .vmem S8x1x1024 .f32).slice (Rect.unit (s := S8x1x1024) (k0_off2 c) S1x1x1024.size (k0_off2_inb c)) (fun _ => rfl)).squeeze S1x1024
      squeezes_S1x1x1024_S1x1024).view.dmaCredit = Nrow := by rw [row_off2]
  unfold k0_part13
  rw [bigSepL4, bigSepL3, bigSepL7]
  unfold sndD rcvD
  iintro ⟨#Hrec, HO, ⟨HI4, HI5, HI6, HI7⟩, ⟨⟨Ht1, Ha1⟩, ⟨Ht2, Ha2⟩, ⟨Ht3, Ha3⟩⟩, Hdrop, Ht0,
    ⟨⟨Hr1, Hb1⟩, ⟨Hr2, Hb2⟩, ⟨Hr3, Hb3⟩, ⟨Hr4, Hb4⟩, ⟨Hr5, Hb5⟩, ⟨Hr6, Hb6⟩, ⟨Hr7, Hb7⟩⟩, Hk⟩
  iapply (step_send_wait m c Kn 4 (by decide) hN) $$ [HO HI4]
  · isplitr; · iexact Hrec
    isplitl [HO] <;> iassumption
  iintro ⟨HO, HD4⟩
  iapply (step_send_wait m c Kn 5 (by decide) hN) $$ [HO HI5]
  · isplitr; · iexact Hrec
    isplitl [HO] <;> iassumption
  iintro ⟨HO, HD5⟩
  iapply (step_send_wait m c Kn 6 (by decide) hN) $$ [HO HI6]
  · isplitr; · iexact Hrec
    isplitl [HO] <;> iassumption
  iintro ⟨HO, HD6⟩
  iapply (step_send_wait m c Kn 7 (by decide) hN) $$ [HO HI7]
  · isplitr; · iexact Hrec
    isplitl [HO] <;> iassumption
  iintro ⟨HO, HD7⟩
  unfold sndD
  icases HD4 with ⟨Ht4, Ha4⟩
  icases HD5 with ⟨Ht5, Ha5⟩
  icases HD6 with ⟨Ht6, Ha6⟩
  icases HD7 with ⟨Ht7, Ha7⟩
  ihave Hrow := (row_join c (commB m c)) $$ [Hdrop Ht0 Ht1 Ht2 Ht3 Ht4 Ht5 Ht6 Ht7]
  · isplitl [Hdrop]; · iexact Hdrop
    rw [bigSepL8]
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  ihave Hbuf := (rows_join c (commB m c)) $$ [Hrow Hr1 Hr2 Hr3 Hr4 Hr5 Hr6 Hr7]
  · isplitl [Hrow]; · iexact Hrow
    rw [bigSepL7]
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  iapply (step_load_all m c) $$ Hbuf
  iintro Hbuf
  rw [wp_ret]
  imodintro
  iapply Hk
  isplitl [HO]; · iexact HO
  isplitl [Hbuf]; · iexact Hbuf
  isplitl [Ha1 Ha2 Ha3 Ha4 Ha5 Ha6 Ha7]
  · rw [bigSepL7]
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  · rw [bigSepL7]
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7

/-- info: 'Cert.KernelIdeal.Sum.part7_run' depends on axioms: [propext, Classical.choice, Quot.sound] -/
#guard_msgs in #print axioms part7_run

/-- info: 'Cert.KernelIdeal.Sum.part8_run' depends on axioms: [propext, Classical.choice, Quot.sound] -/
#guard_msgs in #print axioms part8_run

/-- info: 'Cert.KernelIdeal.Sum.part9_run' depends on axioms: [propext, Classical.choice, Quot.sound] -/
#guard_msgs in #print axioms part9_run

/-- info: 'Cert.KernelIdeal.Sum.part10_run' depends on axioms: [propext, Classical.choice, Quot.sound] -/
#guard_msgs in #print axioms part10_run

/-- info: 'Cert.KernelIdeal.Sum.part11_run' depends on axioms: [propext, Classical.choice, Quot.sound] -/
#guard_msgs in #print axioms part11_run

/-- info: 'Cert.KernelIdeal.Sum.part12_run' depends on axioms: [propext, Classical.choice, Quot.sound] -/
#guard_msgs in #print axioms part12_run

/-- info: 'Cert.KernelIdeal.Sum.part13_run' depends on axioms: [propext, Classical.choice, Quot.sound] -/
#guard_msgs in #print axioms part13_run

end Cert.KernelIdeal.Sum

end
-- ==== Proof.Body.lean ====
/-
  One device's body, stepped once at a symbolic device: from what the launch hands it to the result row stored,
  every semaphore of its own back at zero and the scratch buffers whole.
-/
import proofs.«901086_g7700000000001087_dist_sum_ax0_shard0_i_m2048_n1024_v7x_i8_bf16_1_alg».proof.Proof.Body2

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed parts, one by one -/

/-- Part 1: the device reads its place and signals the five devices one to five places further on. -/
theorem part1_run (c : Dev nD) (Kn : Dev nD × Fin 25 → ℕ)
    (Kt : (Σ' (d0 : Dev nD) (v2 : BitVec 32) (v3 : Sems sig S_) (v24 : BitVec 32), BitVec 32) → sProp 𝕄) :
    iprop(records m Kn ∗ owesX c (owedB c 7) ∗ bigSepL [1, 2, 3, 4, 5] (sigR (F := F) c)
        ∗ (owesX c (owedB c 2) -∗ Kt ⟨c, v2w c, SemArray.scalar (sig.barrier 0 rfl), Scalar.addi (v2w c) 6#32, 8#32⟩))
      ⊢ wp frame (wpE (defs₀ (F := F)) 𝒱₀ c none) Set.univ (k0_part1 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt := by
  rw [k0_part1_eq_skeleton]; unfold k0_part1_skel
  simp only [semSignalWord, semWaitWord, Prog.lift, Prog.bind_op, Prog.bind_ret, Prog.pure_eq_ret, wp_deviceId, dev1_eq, dev2_eq, dev3_eq, dev4_eq, dev5_eq, bigSepL5]
  iintro ⟨#Hrec, HL, ⟨S1, S2, S3, S4, S5⟩, Hk⟩
  iapply (step_signal m c Kn 1 6 (by decide) (by decide) _ _) $$ [HL S1]
  · isplitr; · iexact Hrec
    isplitl [HL]; · iexact HL
    iexact S1
  iintro HL
  iapply (step_signal m c Kn 2 5 (by decide) (by decide) _ _) $$ [HL S2]
  · isplitr; · iexact Hrec
    isplitl [HL]; · iexact HL
    iexact S2
  iintro HL
  iapply (step_signal m c Kn 3 4 (by decide) (by decide) _ _) $$ [HL S3]
  · isplitr; · iexact Hrec
    isplitl [HL]; · iexact HL
    iexact S3
  iintro HL
  iapply (step_signal m c Kn 4 3 (by decide) (by decide) _ _) $$ [HL S4]
  · isplitr; · iexact Hrec
    isplitl [HL]; · iexact HL
    iexact S4
  iintro HL
  iapply (step_signal m c Kn 5 2 (by decide) (by decide) _ _) $$ [HL S5]
  · isplitr; · iexact Hrec
    isplitl [HL]; · iexact HL
    iexact S5
  iintro HL
  rw [wp_ret]; imodintro
  iapply Hk; iexact HL

/-- Part 2: the last two entry signals, and the transfers of chunks 0 to 2 issued. -/
theorem part2_run (c : Dev nD) (Kn : Dev nD × Fin 25 → ℕ) (v2 v24 c8 : BitVec 32) (Kt : PUnit → sProp 𝕄) :
    iprop(records m Kn ∗ owesX c (owedB c 2) ∗ bigSepL [6, 7] (sigR (F := F) c) ∗ bigSepL [0, 1, 2] (cpyR m c)
        ∗ ((owesX c (owedS c 7) ∗ bigSepL [0, 1, 2] (cpyI (F := F) c)) -∗ Kt ⟨⟩))
      ⊢ wp frame (wpE (defs₀ (F := F)) 𝒱₀ c none) Set.univ (k0_part2 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 (SemArray.scalar (sig.barrier 0 rfl)) v24 c8) Kt := by
  rw [k0_part2_eq_skeleton]; unfold k0_part2_skel
  simp only [semSignalWord, semWaitWord, Prog.lift, Prog.bind_op, Prog.bind_ret, Prog.pure_eq_ret, wp_deviceId, dev6_eq, dev7_eq, bigSepL2, bigSepL3]
  iintro ⟨#Hrec, HL, ⟨S6, S7⟩, ⟨C0, C1, C2⟩, Hk⟩
  iapply (step_signal m c Kn 6 1 (by decide) (by decide) _ _) $$ [HL S6]
  · isplitr; · iexact Hrec
    isplitl [HL]; · iexact HL
    iexact S6
  iintro HL
  iapply (step_signal m c Kn 7 0 (by decide) (by decide) _ _) $$ [HL S7]
  · isplitr; · iexact Hrec
    isplitl [HL]; · iexact HL
    iexact S7
  iintro HL
  iapply (step_copy m c Kn 0 _ _) $$ [C0]
  · isplitr; · iexact Hrec
    iexact C0
  iintro I0
  iapply (step_copy m c Kn 1 _ _) $$ [C1]
  · isplitr; · iexact Hrec
    iexact C1
  iintro I1
  iapply (step_copy m c Kn 2 _ _) $$ [C2]
  · isplitr; · iexact Hrec
    iexact C2
  iintro I2
  rw [wp_ret]; imodintro
  iapply Hk
  isplitl [HL]; · iexact HL
  isplitl [I0]; · iexact I0
  isplitl [I1]; · iexact I1
  iexact I2

/-- Part 3: the transfers of chunks 3 to 7 issued. -/
theorem part3_run (c : Dev nD) (Kn : Dev nD × Fin 25 → ℕ) (Kt : FVec F S8x1024 .f32 → sProp 𝕄) :
    iprop(records m Kn ∗ bigSepL [3, 4, 5, 6, 7] (cpyR m c) ∗ (bigSepL [3, 4, 5, 6, 7] (cpyI (F := F) c) -∗ Kt k0_pay2))
      ⊢ wp frame (wpE (defs₀ (F := F)) 𝒱₀ c none) Set.univ (k0_part3 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt := by
  rw [k0_part3_eq_skeleton]; unfold k0_part3_skel
  simp only [semSignalWord, semWaitWord, Prog.lift, Prog.bind_op, Prog.bind_ret, Prog.pure_eq_ret, wp_deviceId, bigSepL5]
  iintro ⟨#Hrec, ⟨C3, C4, C5, C6, C7⟩, Hk⟩
  iapply (step_copy m c Kn 3 _ _) $$ [C3]
  · isplitr; · iexact Hrec
    iexact C3
  iintro I3
  iapply (step_copy m c Kn 4 _ _) $$ [C4]
  · isplitr; · iexact Hrec
    iexact C4
  iintro I4
  iapply (step_copy m c Kn 5 _ _) $$ [C5]
  · isplitr; · iexact Hrec
    iexact C5
  iintro I5
  iapply (step_copy m c Kn 6 _ _) $$ [C6]
  · isplitr; · iexact Hrec
    iexact C6
  iintro I6
  iapply (step_copy m c Kn 7 _ _) $$ [C7]
  · isplitr; · iexact Hrec
    iexact C7
  iintro I7
  rw [wp_ret]; imodintro
  iapply Hk
  isplitl [I3]; · iexact I3
  isplitl [I4]; · iexact I4
  isplitl [I5]; · iexact I5
  isplitl [I6]; · iexact I6
  iexact I7

/-- Part 4: chunks 0 to 2 waited for and loaded. -/
theorem part4_run (c : Dev nD) (Kn : Dev nD × Fin 25 → ℕ) (v72 : FVec F S8x1024 .f32) (Kt : FVec F S8x1024 .f32 → sProp 𝕄) :
    iprop(records m Kn ∗ levAts L lv ∗ owesX c (owedS c 7) ∗ bigSepL [0, 1, 2] (cpyI (F := F) c)
        ∗ ((owesX c (owedS c 7) ∗ bigSepL [0, 1, 2] (cpyD m c))
            -∗ Kt (k0_pay3 v72 (chunk (xb m c) 0) (chunk (xb m c) 1) (chunk (xb m c) 2))))
      ⊢ wp frame (wpE (defs₀ (F := F)) 𝒱₀ c none) Set.univ (k0_part4 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 v72) Kt := by
  rw [k0_part4_eq_skeleton]; unfold k0_part4_skel
  simp only [semSignalWord, semWaitWord, Prog.lift, Prog.bind_op, Prog.bind_ret, Prog.pure_eq_ret, wp_deviceId, bigSepL3]
  iintro ⟨#Hrec, #Hlev, HL, ⟨I0, I1, I2⟩, Hk⟩
  iapply (step_copy_wait m c Kn 0 _ _) $$ [HL I0]
  · isplitr; · iexact Hrec
    isplitr; · iexact Hlev
    isplitl [HL]; · iexact HL
    iexact I0
  iintro ⟨HL, D0⟩
  iapply (step_load_chunk m c 0 _ _) $$ D0
  iintro D0
  iapply (step_copy_wait m c Kn 1 _ _) $$ [HL I1]
  · isplitr; · iexact Hrec
    isplitr; · iexact Hlev
    isplitl [HL]; · iexact HL
    iexact I1
  iintro ⟨HL, D1⟩
  iapply (step_load_chunk m c 1 _ _) $$ D1
  iintro D1
  iapply (step_copy_wait m c Kn 2 _ _) $$ [HL I2]
  · isplitr; · iexact Hrec
    isplitr; · iexact Hlev
    isplitl [HL]; · iexact HL
    iexact I2
  iintro ⟨HL, D2⟩
  iapply (step_load_chunk m c 2 _ _) $$ D2
  iintro D2
  rw [wp_ret]; imodintro
  iapply Hk
  isplitl [HL]; · iexact HL
  isplitl [D0]; · iexact D0
  isplitl [D1]; · iexact D1
  iexact D2

/-- Part 5: chunks 3 to 5 waited for and loaded. -/
theorem part5_run (c : Dev nD) (Kn : Dev nD × Fin 25 → ℕ) (v102 : FVec F S8x1024 .f32)
    (Kt : (Σ' (v122 : FVec F S8x1024 .f32), FVec F S8x1024 .f32) → sProp 𝕄) :
    iprop(records m Kn ∗ levAts L lv ∗ owesX c (owedS c 7) ∗ bigSepL [3, 4, 5] (cpyI (F := F) c)
        ∗ ((owesX c (owedS c 7) ∗ bigSepL [3, 4, 5] (cpyD m c))
            -∗ Kt ⟨k0_pay4 v102 (chunk (xb m c) 3) (chunk (xb m c) 4), k0_pay5 (chunk (xb m c) 5)⟩))
      ⊢ wp frame (wpE (defs₀ (F := F)) 𝒱₀ c none) Set.univ (k0_part5 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 v102) Kt := by
  rw [k0_part5_eq_skeleton]; unfold k0_part5_skel
  simp only [semSignalWord, semWaitWord, Prog.lift, Prog.bind_op, Prog.bind_ret, Prog.pure_eq_ret, wp_deviceId, bigSepL3]
  iintro ⟨#Hrec, #Hlev, HL, ⟨I3, I4, I5⟩, Hk⟩
  iapply (step_copy_wait m c Kn 3 _ _) $$ [HL I3]
  · isplitr; · iexact Hrec
    isplitr; · iexact Hlev
    isplitl [HL]; · iexact HL
    iexact I3
  iintro ⟨HL, D3⟩
  iapply (step_load_chunk m c 3 _ _) $$ D3
  iintro D3
  iapply (step_copy_wait m c Kn 4 _ _) $$ [HL I4]
  · isplitr; · iexact Hrec
    isplitr; · iexact Hlev
    isplitl [HL]; · iexact HL
    iexact I4
  iintro ⟨HL, D4⟩
  iapply (step_load_chunk m c 4 _ _) $$ D4
  iintro D4
  iapply (step_copy_wait m c Kn 5 _ _) $$ [HL I5]
  · isplitr; · iexact Hrec
    isplitr; · iexact Hlev
    isplitl [HL]; · iexact HL
    iexact I5
  iintro ⟨HL, D5⟩
  iapply (step_load_chunk m c 5 _ _) $$ D5
  iintro D5
  rw [wp_ret]; imodintro
  iapply Hk
  isplitl [HL]; · iexact HL
  isplitl [D3]; · iexact D3
  isplitl [D4]; · iexact D4
  iexact D5

/-- Part 6: chunks 6 and 7 waited for and loaded, the block's column sums stored into the device's own row, and the
    seven entry signals waited for. -/
theorem part6_run (c : Dev nD) (Kn : Dev nD × Fin 25 → ℕ) (v2 : BitVec 32) (v122 v131 : FVec F S8x1024 .f32)
    (hv : k0_pay6 v122 v131 (chunk (xb m c) 6) (chunk (xb m c) 7) = rowv (xb m c)) (Kt : BitVec 32 → sProp 𝕄) :
    iprop(records m Kn ∗ levAts L lv ∗ owesX c (owedS c 7) ∗ bigSepL [6, 7] (cpyI (F := F) c)
        ∗ (∃ f, rowPts c c fullShare f) ∗ barI c
        ∗ ((owesX c (owedS c 7) ∗ bigSepL [6, 7] (cpyD m c) ∗ rowPts c c fullShare (commB m c)
              ∗ atPos ER (barCell c) 1 ∅ 0 ∗ bigSepL [1, 2, 3, 4, 5, 6, 7] (fun j : Fin 8 => barPay (F := F) c j)) -∗ ∀ v, Kt v))
      ⊢ wp frame (wpE (defs₀ (F := F)) 𝒱₀ c none) Set.univ (k0_part6 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 (SemArray.scalar (sig.barrier 0 rfl)) v122 v131) Kt := by
  rw [k0_part6_eq_skeleton]; unfold k0_part6_skel
  simp only [semSignalWord, semWaitWord, Prog.lift, Prog.bind_op, Prog.bind_ret, Prog.pure_eq_ret, wp_deviceId, bigSepL2]
  iintro ⟨#Hrec, #Hlev, HL, ⟨I6, I7⟩, ⟨%f, Hrow⟩, Hbar, Hk⟩
  iapply (step_copy_wait m c Kn 6 _ _) $$ [HL I6]
  · isplitr; · iexact Hrec
    isplitr; · iexact Hlev
    isplitl [HL]; · iexact HL
    iexact I6
  iintro ⟨HL, D6⟩
  iapply (step_load_chunk m c 6 _ _) $$ D6
  iintro D6
  iapply (step_copy_wait m c Kn 7 _ _) $$ [HL I7]
  · isplitr; · iexact Hrec
    isplitr; · iexact Hlev
    isplitl [HL]; · iexact HL
    iexact I7
  iintro ⟨HL, D7⟩
  iapply (step_load_chunk m c 7 _ _) $$ D7
  iintro D7
  iapply (step_row_load c f _ _) $$ Hrow
  iintro Hrow %v
  rw [hv]
  iapply (step_row_store m c f _ _) $$ Hrow
  iintro Hrow
  iapply (step_bar_wait m c Kn _ _) $$ [HL Hbar]
  · isplitr; · iexact Hrec
    isplitr; · iexact Hlev
    isplitl [HL]; · iexact HL
    iexact Hbar
  iintro ⟨HL, Hat, Hpay⟩
  generalize Scalar.remsi (Scalar.addi v2 1#32) 8#32 = w
  rw [wp_ret]; imodintro
  ihave Hk := Hk $$ [HL D6 D7 Hrow Hat Hpay]
  · isplitl [HL]; · iexact HL
    isplitl [D6 D7]
    · isplitl [D6]; · iexact D6
      iexact D7
    isplitl [Hrow]; · iexact Hrow
    isplitl [Hat]; · iexact Hat
    iexact Hpay
  iapply Hk $$ %w

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the share of `x` kept, the kernel's own semaphores at zero, the two scratch buffers whole,
    nothing owed, and the result's staging buffer at the sum of the eight rows. -/
def bodyEnd (c : Dev nD) : sProp 𝕄 :=
  iprop(xKeep m c ∗ Pipeline.ownSems0 osem c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ owesX c 0
    ∗ ((((c : Thread nD τ).loc cc0_stg0_0) ↦{fullShare} (outv (xb m) : Buf (Elt F) ((c : Thread nD τ).loc cc0_stg0_0))) : sProp 𝕄))

theorem rowv_eq (x : Vec F S2048x1024 .f32) :
    k0_pay6 (k0_pay4 (k0_pay3 k0_pay2 (chunk x 0) (chunk x 1) (chunk x 2)) (chunk x 3) (chunk x 4)) (k0_pay5 (chunk x 5))
      (chunk x 6) (chunk x 7) = rowv x := rfl

set_option maxHeartbeats 1600000 in
/-- The body from what the launch hands device `c`, the parts composed in program order. -/
theorem body_run (c : Dev nD) (Kn : Dev nD × Fin 25 → ℕ) (fo : Buf (Elt F) ((c : Thread nD τ).loc cc0_stg0_0)) (Kt : PUnit → sProp 𝕄) :
    iprop(records m Kn ∗ linear c ∗ cred (tallyAt (barCell c) () 7)
        ∗ (bigSep (Finset.univ.erase (0 : Fin 8)) fun j => cred (tallyAt (recvCell c j) () Nrow)) ∗ levAts L lv ∗ xPts m c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ owesX c (O₀ c)
        ∗ ((((c : Thread nD τ).loc cc0_stg0_0) ↦{fullShare} fo) : sProp 𝕄)
        ∗ (bodyEnd m c -∗ Kt ⟨⟩))
      ⊢ wp frame (wpE (defs₀ (F := F)) 𝒱₀ c none) Set.univ (Gen.bodyAt0 t₀) Kt := by
  show _ ⊢ wp frame (wpE (defs₀ (F := F)) 𝒱₀ c none) Set.univ (cc0_body (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt
  rw [cc0_body_eq_skeleton]; unfold cc0_body_skel
  simp only [wp_bind]
  iintro ⟨#Hrec, Hlin, HcB, HcR, #Hlev, Hx, Hs0, Hs1, HL, Hout, Hk⟩
  ihave Hopen := (start_open m c) $$ [Hlin HcB HcR Hx Hs0 Hs1]
  · isplitl [Hlin]; · iexact Hlin
    isplitl [HcB]; · iexact HcB
    isplitl [HcR]; · iexact HcR
    isplitl [Hx]; · iexact Hx
    isplitl [Hs0]; · iexact Hs0
    iexact Hs1
  simp only [bigSepL7, bigSepL8]
  icases Hopen with ⟨⟨S1, S2, S3, S4, S5, S6, S7⟩, ⟨%fr, Hrow⟩, ⟨C0, C1, C2, C3, C4, C5, C6, C7⟩, Hkeep, Hbar,
    ⟨T1, T2, T3, T4, T5, T6, T7⟩, ⟨R1, R2, R3, R4, R5, R6, R7⟩, HatS0, HatR0⟩
  -- part 1
  iapply (part1_run m c Kn _)
  isplitr; · iexact Hrec
  isplitl [HL]; · iexact HL
  isplitl [S1 S2 S3 S4 S5]
  · rw [bigSepL5]
    isplitl [S1]; · iexact S1
    isplitl [S2]; · iexact S2
    isplitl [S3]; · iexact S3
    isplitl [S4]; · iexact S4
    iexact S5
  iintro HL
  dsimp only
  -- part 2
  iapply (part2_run m c Kn _ _ _ _)
  isplitr; · iexact Hrec
  isplitl [HL]; · iexact HL
  isplitl [S6 S7]
  · rw [bigSepL2]
    isplitl [S6]; · iexact S6
    iexact S7
  isplitl [C0 C1 C2]
  · rw [bigSepL3]
    isplitl [C0]; · iexact C0
    isplitl [C1]; · iexact C1
    iexact C2
  rw [bigSepL3]
  iintro ⟨HL, I0, I1, I2⟩
  -- part 3
  iapply (part3_run m c Kn _)
  isplitr; · iexact Hrec
  isplitl [C3 C4 C5 C6 C7]
  · rw [bigSepL5]
    isplitl [C3]; · iexact C3
    isplitl [C4]; · iexact C4
    isplitl [C5]; · iexact C5
    isplitl [C6]; · iexact C6
    iexact C7
  rw [bigSepL5]
  iintro ⟨I3, I4, I5, I6, I7⟩
  -- part 4
  iapply (part4_run m c Kn _ _)
  isplitr; · iexact Hrec
  isplitr; · iexact Hlev
  isplitl [HL]; · iexact HL
  isplitl [I0 I1 I2]
  · rw [bigSepL3]
    isplitl [I0]; · iexact I0
    isplitl [I1]; · iexact I1
    iexact I2
  rw [bigSepL3]
  iintro ⟨HL, D0, D1, D2⟩
  -- part 5
  iapply (part5_run m c Kn _ _)
  isplitr; · iexact Hrec
  isplitr; · iexact Hlev
  isplitl [HL]; · iexact HL
  isplitl [I3 I4 I5]
  · rw [bigSepL3]
    isplitl [I3]; · iexact I3
    isplitl [I4]; · iexact I4
    iexact I5
  rw [bigSepL3]
  iintro ⟨HL, D3, D4, D5⟩
  dsimp only
  -- part 6
  iapply (part6_run m c Kn _ _ _ (rowv_eq (xb m c)) _)
  isplitr; · iexact Hrec
  isplitr; · iexact Hlev
  isplitl [HL]; · iexact HL
  isplitl [I6 I7]
  · rw [bigSepL2]
    isplitl [I6]; · iexact I6
    iexact I7
  isplitl [Hrow]
  · iexists fr; iexact Hrow
  isplitl [Hbar]; · iexact Hbar
  rw [bigSepL2, bigSepL7]
  iintro ⟨HL, ⟨D6, D7⟩, Hrow, HatB, ⟨P1, P2, P3, P4, P5, P6, P7⟩⟩ %v160
  ihave Hsh := (row_split c (commB m c)) $$ Hrow
  rw [bigSepL8]
  icases Hsh with ⟨Hdrop, Q0, Q1, Q2, Q3, Q4, Q5, Q6, Q7⟩
  -- part 7
  iapply (part7_run m c Kn _ _ _)
  isplitr; · iexact Hrec
  isplitl [HL]; · iexact HL
  isplitl [T1 Q1 P1 T2 Q2 P2]
  · rw [bigSepL2]
    isplitl [T1 Q1 P1]
    · unfold sndR
      isplitl [T1]; · iexact T1
      isplitl [Q1]; · iexact Q1
      iexact P1
    unfold sndR
    isplitl [T2]; · iexact T2
    isplitl [Q2]; · iexact Q2
    iexact P2
  rw [bigSepL2]
  iintro ⟨HL, J1, J2⟩
  -- part 8
  iapply (part8_run m c Kn _ _)
  isplitr; · iexact Hrec
  isplitl [HL]; · iexact HL
  isplitl [T3 Q3 P3 T4 Q4 P4 T5 Q5 P5]
  · rw [bigSepL3]
    isplitl [T3 Q3 P3]
    · unfold sndR
      isplitl [T3]; · iexact T3
      isplitl [Q3]; · iexact Q3
      iexact P3
    isplitl [T4 Q4 P4]
    · unfold sndR
      isplitl [T4]; · iexact T4
      isplitl [Q4]; · iexact Q4
      iexact P4
    unfold sndR
    isplitl [T5]; · iexact T5
    isplitl [Q5]; · iexact Q5
    iexact P5
  rw [bigSepL3]
  iintro ⟨HL, J3, J4, J5⟩ %v8
  -- part 9
  iapply (part9_run m c Kn _ _ _ _)
  isplitr; · iexact Hrec
  isplitl [HL]; · iexact HL
  isplitl [T6 Q6 P6 T7 Q7 P7]
  · rw [bigSepL2]
    isplitl [T6 Q6 P6]
    · unfold sndR
      isplitl [T6]; · iexact T6
      isplitl [Q6]; · iexact Q6
      iexact P6
    unfold sndR
    isplitl [T7]; · iexact T7
    isplitl [Q7]; · iexact Q7
    iexact P7
  isplitl [R1]; · iexact R1
  rw [bigSepL2]
  iintro ⟨HL, ⟨J6, J7⟩, E1⟩
  -- part 10
  iapply (part10_run m c Kn _ _)
  isplitr; · iexact Hrec
  isplitl [HL]; · iexact HL
  isplitl [R2 R3]
  · rw [bigSepL2]
    isplitl [R2]; · iexact R2
    iexact R3
  rw [bigSepL2]
  iintro ⟨HL, E2, E3⟩
  -- part 11
  iapply (part11_run m c Kn _ _)
  isplitr; · iexact Hrec
  isplitl [HL]; · iexact HL
  isplitl [R4 R5 R6]
  · rw [bigSepL3]
    isplitl [R4]; · iexact R4
    isplitl [R5]; · iexact R5
    iexact R6
  rw [bigSepL3]
  iintro ⟨HL, E4, E5, E6⟩ %v11
  -- part 12
  iapply (part12_run m c Kn _ _ _)
  isplitr; · iexact Hrec
  isplitl [HL]; · iexact HL
  isplitl [R7]; · iexact R7
  isplitl [J1 J2 J3]
  · rw [bigSepL3]
    isplitl [J1]; · iexact J1
    isplitl [J2]; · iexact J2
    iexact J3
  rw [bigSepL3]
  iintro ⟨HL, E7, G1, G2, G3⟩
  -- part 13
  iapply (part13_run m c Kn _)
  isplitr; · iexact Hrec
  isplitl [HL]; · iexact HL
  isplitl [J4 J5 J6 J7]
  · rw [bigSepL4]
    isplitl [J4]; · iexact J4
    isplitl [J5]; · iexact J5
    isplitl [J6]; · iexact J6
    iexact J7
  isplitl [G1 G2 G3]
  · rw [bigSepL3]
    isplitl [G1]; · iexact G1
    isplitl [G2]; · iexact G2
    iexact G3
  isplitl [Hdrop]; · iexact Hdrop
  isplitl [Q0]; · iexact Q0
  isplitl [E1 E2 E3 E4 E5 E6 E7]
  · rw [bigSepL7]
    isplitl [E1]; · iexact E1
    isplitl [E2]; · iexact E2
    isplitl [E3]; · iexact E3
    isplitl [E4]; · iexact E4
    isplitl [E5]; · iexact E5
    isplitl [E6]; · iexact E6
    iexact E7
  iintro ⟨HL, Hcm, HatS, HatR⟩
  -- the result row
  simp only [Prog.lift, Prog.pure_eq_ret]
  iapply (step_out_load c fo _ _) $$ Hout
  iintro Hout %v366
  rw [wp_ret]; imodintro
  iapply (step_out_store m c fo _ _) $$ Hout
  iintro Hout
  rw [wp_ret]; imodintro
  rw [wp_ret]
  -- every cell of the device's own closed, the two scratch buffers whole
  simp only [cpyD]
  icases D0 with ⟨V0, A0⟩
  icases D1 with ⟨V1, A1⟩
  icases D2 with ⟨V2, A2⟩
  icases D3 with ⟨V3, A3⟩
  icases D4 with ⟨V4, A4⟩
  icases D5 with ⟨V5, A5⟩
  icases D6 with ⟨V6, A6⟩
  icases D7 with ⟨V7, A7⟩
  imod (close_all m c Kn) $$ [A0 A1 A2 A3 A4 A5 A6 A7 HatS HatR HatS0 HatR0] with Hsems
  · isplitr; · iexact Hrec
    isplitl [A0 A1 A2 A3 A4 A5 A6 A7]
    · rw [bigSepL8]
      isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [HatS]; · iexact HatS
    isplitl [HatR]; · iexact HatR
    isplitl [HatS0]; · iexact HatS0
    iexact HatR0
  imodintro
  iapply Hk
  unfold bodyEnd
  isplitl [Hkeep]; · iexact Hkeep
  isplitl [Hsems]; · iexact Hsems
  isplitl [V0 V1 V2 V3 V4 V5 V6 V7]
  · iexists (vfin m c)
    iapply (chunks_join c (vfin m c))
    rw [bigSepL8]
    isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  isplitl [Hcm]
  · iexists (commB m c); iexact Hcm
  isplitl [HL]; · iexact HL
  iexact Hout

/-! ## The body obligation -/

/-- What the pipeline hands the body at its one point, and what it takes back. -/
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outv (xb m)))

/-- The library's body obligation on device `c`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (Gen.bodyAt0 t₀) (fun _ => bodyPost m ρ c)
  unfold bodyPre' Φ₀ start ghost
  rw [Gen.scopedRest0_eq]
  iintro ⟨⟨⟨⟨%Kn, Hrec, Hlin⟩, HcB, HcR, Hlev, Hx⟩, Hs0, Hs1⟩, ⟨%W, %hW, HL⟩, ⟨%d, %fo, %hfo, Hout⟩⟩
  iapply (body_run m c Kn fo (fun _ => bodyPost m ρ c))
  isplitl [Hrec]; · iexact Hrec
  isplitl [Hlin]; · iexact Hlin
  isplitl [HcB]; · iexact HcB
  isplitl [HcR]; · iexact HcR
  isplitl [Hlev]; · iexact Hlev
  isplitl [Hx]; · iexact Hx
  isplitl [Hs0]; · iexact Hs0
  isplitl [Hs1]; · iexact Hs1
  isplitl [HL]
  · unfold owesX; iexists W; iexact HL
  isplitl [Hout]; · iexact Hout
  unfold bodyEnd bodyPost Φ₁ owesX
  rw [Gen.scopedRest0_eq]
  iintro ⟨Hkeep, Hsems, Hs0, Hs1, ⟨%W', HL⟩, Hout⟩
  isplitl [Hkeep Hsems Hs0 Hs1]
  · isplitl [Hkeep]; · iexact Hkeep
    isplitl [Hsems]; · iexact Hsems
    isplitl [Hs0]; · iexact Hs0
    iexact Hs1
  isplitl [HL]
  · iexists W'
    isplitr; · (ipureintro; exact fun _ _ => Or.inl trivial)
    iexact HL
  iexists _; isplitr; · (ipureintro; rfl)
  iexact Hout

/-- info: 'Cert.KernelIdeal.Sum.body_obligation' depends on axioms: [propext, Classical.choice, Quot.sound] -/
#guard_msgs in #print axioms body_obligation

end Cert.KernelIdeal.Sum

end
-- ==== Proof.Run.lean ====
/-
  The kernel's run on the mesh: every fair execution ends, and every device's result is the column sums of
  all the devices' blocks, its argument unchanged.

  The launch: the ghost state of the 8 × 25 cells is minted and dealt (each device keeps its positions; the token
  of a duty goes to the device that pays it), each cell's invariant is allocated from its counter at zero, the
  launch credit is counted (seven entry signals on a device's barrier cell, one row on each receive cell in use),
  and the result array is read off after the one write-back.
-/
import proofs.«901086_g7700000000001087_dist_sum_ax0_shard0_i_m2048_n1024_v7x_i8_bf16_1_alg».proof.Proof.Body

noncomputable section

namespace Cert.KernelIdeal.Sum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

namespace Launch

theorem ownSemFacts : Pipeline.OwnSemFacts cfg0.spec osem := by decide

theorem share_eq (c : Dev nD) (w : Fin cfg0.W) : (dats (F := F) m ρ 0 c).share w = fullShare := by unfold Dat.share; split <;> rfl

omit [FloatOps F] in
theorem csem_injective : Function.Injective (csem : Fin 25 → SemLoc sig) := by
  rintro ⟨a, ha⟩ ⟨b, hb⟩ h
  cases a with
  | zero =>
    cases b with
    | zero => rfl
    | succ b => exact absurd h (fun h' => by cases h')
  | succ a =>
    cases b with
    | zero => exact absurd h (fun h' => by cases h')
    | succ b => exact SemLoc.dma.inj h

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ourCells : Finset (GSem nD τ sig) := Finset.univ.map ⟨kcell, kcell_injective⟩

/-- Every duty name on every cell of round 0, as minted: most are never used. -/
abbrev tokOf (x : Dev nD × Fin 25 × Fin 8) : GSem nD τ sig × ℕ × Fin 8 := (kcell (x.1, x.2.1), 0, x.2.2)
theorem tokOf_injective : Function.Injective tokOf := by
  rintro ⟨c, n, d⟩ ⟨c', n', d'⟩ h
  have h1 : (c, n) = (c', n') := kcell_injective (congrArg (fun x : GSem nD τ sig × ℕ × Fin 8 => x.1) h)
  have h2 : d = d' := congrArg (fun x : GSem nD τ sig × ℕ × Fin 8 => x.2.2) h
  cases h1; subst h2; rfl
def ourToks : Finset (GSem nD τ sig × ℕ × Fin 8) := Finset.univ.map ⟨tokOf, tokOf_injective⟩

def u₀ : UU :=
  (initOf (Pipeline.cells cfgs cellOf_inj) (Pipeline.launchToks cfgs cellOf_inj), initOf ourCells ourToks)

/-- The duty tokens of device `c`'s own cells. -/
def toks (c : Dev nD) : sProp 𝕄 :=
  bigSep Finset.univ fun n : Fin 25 => bigSep Finset.univ fun d : Fin 8 => dutyTok ER (kcell (c, n)) 0 d

/-- What the launch element deals device `c`. -/
def G (c : Dev nD) : sProp 𝕄 :=
  iprop((bigSep Finset.univ fun n : Fin 25 => roundState ER (sched m) (kcell (c, n)) 0)
    ∗ (bigSep Finset.univ fun n : Fin 25 => iprop(atPos ER (kcell (c, n)) 0 ∅ 0 ∗ reached ER (kcell (c, n)) 0)) ∗ toks (F := F) c)

/-- What the global step makes of it. -/
def G' (c : Dev nD) : sProp 𝕄 := iprop(∃ K, ghost m K c)

theorem fund_ring : BI.own (ER (initOf ourCells ourToks)) ⊢ (|==> bigSep Finset.univ (G (F := F) m) : sProp 𝕄) := by
  have hX (Φ : GSem nD τ sig → sProp 𝕄) : bigSep ourCells Φ = bigSep Finset.univ fun c : Dev nD => bigSep Finset.univ fun n : Fin 25 => Φ (kcell (c, n)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks toks; rw [bigSep_map, bigSep_univ_prod]
    exact bigSep_congr fun c _ => by rw [bigSep_univ_prod]; rfl
  iintro HX
  imod (Rounds.fund ER (sched m) ourCells ourToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, cell by cell -/

/-- A family over `Fin (n + 1)`: its member at 0, and the rest. -/
theorem bigSep_fin_succ {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

omit [FloatOps F] in
theorem csem_succ (i : Fin 24) : csem i.succ = osem i := rfl

omit [FloatOps F] in
/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun n : Fin 25 => semVal (kcell (c, n)) 0 : sProp 𝕄) := by
  rw [unscopedSems0_eq, bigSep_fin_succ]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n => iprop(∃ κ : ℕ, cellInv ER (sched m) κ (kcell (c, n))))
          ∗ (bigSep Finset.univ fun n : Fin 25 => iprop(atPos ER (kcell (c, n)) 0 ∅ 0 ∗ reached ER (kcell (c, n)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun n : Fin 25 => semVal (kcell (c, n)) 0) ∗ bigSep Finset.univ fun n : Fin 25 => roundState ER (sched m) (kcell (c, n)) 0)
      ⊢ (|={Set.univ}=> bigSep Finset.univ fun n => iprop(∃ κ : ℕ, cellInv ER (sched m) κ (kcell (c, n))) : sProp 𝕄) from by
        rw [← bigSep_sep']
        exact (bigSep_mono fun n _ => (Rounds.body_intro ER (sched m) (kcell (c, n))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens -/

/-- A device's 25 cells by kind: the barrier cell, eight chunk cells, eight send cells, eight receive cells. -/
def cellsE : Unit ⊕ Fin 8 ⊕ Fin 8 ⊕ Fin 8 ≃ Fin 25 where
  toFun
    | .inl _ => 0
    | .inr (.inl i) => copyN i
    | .inr (.inr (.inl j)) => sendN j
    | .inr (.inr (.inr j)) => recvN j
  invFun n :=
    if h1 : n.val = 0 then .inl ()
    else if h2 : n.val ≤ 8 then .inr (.inl ⟨n.val - 1, by omega⟩)
    else if h3 : n.val ≤ 16 then .inr (.inr (.inl ⟨n.val - 9, by omega⟩))
    else .inr (.inr (.inr ⟨n.val - 17, by have := n.isLt; omega⟩))
  left_inv := by decide
  right_inv := by decide

omit [FloatOps F] in
theorem bigSep_cells25 (Ψ : Fin 25 → sProp 𝕄) :
    bigSep Finset.univ Ψ = iprop(Ψ 0 ∗ (bigSep Finset.univ fun i : Fin 8 => Ψ (copyN i)) ∗ (bigSep Finset.univ fun j : Fin 8 => Ψ (sendN j))
      ∗ (bigSep Finset.univ fun j : Fin 8 => Ψ (recvN j))) := by
  rw [bigSep_univ_equiv cellsE Ψ, bigSep_univ_sum, bigSep_univ_sum, bigSep_univ_sum, bigSep_univ_of_subsingleton ()]
  rfl

omit [FloatOps F] in
theorem csem_copyN (i : Fin 8) : csem (copyN i) = .dma (copyS i) := by revert i; decide
omit [FloatOps F] in
theorem csem_sendN (j : Fin 8) : csem (sendN j) = .dma (sendS j) := by revert j; decide
omit [FloatOps F] in
theorem csem_recvN (j : Fin 8) : csem (recvN j) = .dma (recvS j) := by revert j; decide
omit [FloatOps F] in
theorem kcell_copy (c : Dev nD) (i : Fin 8) : kcell (c, copyN i) = copyCell c i := congrArg (Prod.mk (c : Thread nD τ)) (csem_copyN i)
omit [FloatOps F] in
theorem kcell_send (c : Dev nD) (j : Fin 8) : kcell (c, sendN j) = sendCell c j := congrArg (Prod.mk (c : Thread nD τ)) (csem_sendN j)
omit [FloatOps F] in
theorem kcell_recv (c : Dev nD) (j : Fin 8) : kcell (c, recvN j) = recvCell c j := congrArg (Prod.mk (c : Thread nD τ)) (csem_recvN j)

/-- The shift that undoes a shift, as a permutation of the shifts. -/
def ngE : Fin 8 ≃ Fin 8 := ⟨ng, ng, ng_ng, ng_ng⟩

omit [FloatOps F] in
/-- Of a device's own tokens, the ones some device pays with: every duty of its barrier cell, duty 0 of its chunk, send
    and receive cells. -/
theorem toks_split (c : Dev nD) :
    (toks c : sProp 𝕄) ⊢ iprop((bigSep Finset.univ fun d : Fin 8 => dutyTok ER (barCell c) 0 d)
      ∗ (bigSep Finset.univ fun i : Fin 8 => dutyTok ER (copyCell c i) 0 (0 : Fin 8))
      ∗ (bigSep Finset.univ fun j : Fin 8 => dutyTok ER (sendCell c j) 0 (0 : Fin 8))
      ∗ (bigSep Finset.univ fun j : Fin 8 => dutyTok ER (recvCell c j) 0 (0 : Fin 8))) := by
  unfold toks
  rw [bigSep_cells25]
  refine sep_mono .rfl (sep_mono (bigSep_mono fun i _ => ?_) (sep_mono (bigSep_mono fun j _ => ?_) (bigSep_mono fun j _ => ?_)))
  · rw [kcell_copy]; exact bigSep_elim (Finset.mem_univ 0)
  · rw [kcell_send]; exact bigSep_elim (Finset.mem_univ 0)
  · rw [kcell_recv]; exact bigSep_elim (Finset.mem_univ 0)

omit [FloatOps F] in
/-- A family over (device, shift) regrouped: each device takes, for every shift, the member of the device that far on. -/
theorem shuffle (T : Dev nD → Fin 8 → sProp 𝕄) :
    (bigSep Finset.univ fun c : Dev nD => bigSep Finset.univ fun j : Fin 8 => T c j)
      = bigSep Finset.univ fun c : Dev nD => bigSep Finset.univ fun j : Fin 8 => T (sh c j) j := by
  rw [bigSep_univ_comm, bigSep_congr (s := Finset.univ) (fun (j : Fin 8) _ => bigSep_univ_equiv (shE j) (fun c' : Dev nD => T c' j)), bigSep_univ_comm]
  rfl

omit [FloatOps F] in
/-- The tokens dealt: duty `d` of a barrier cell to the device `d` places further on, the receive duty of receive
    cell `j` to the device `j` places back; chunk and send tokens stay. -/
theorem toks_around : (bigSep Finset.univ fun c : Dev nD => (toks c : sProp 𝕄)) ⊢ bigSep Finset.univ fun c : Dev nD => payToks c := by
  have hA : (bigSep Finset.univ fun c : Dev nD => bigSep Finset.univ fun d : Fin 8 => (dutyTok ER (barCell c) 0 d : sProp 𝕄))
      = bigSep Finset.univ fun c : Dev nD => bigSep Finset.univ fun j : Fin 8 => dutyTok ER (barCell (sh c j)) 0 (ng j) := by
    rw [← shuffle (fun c j => (dutyTok ER (barCell c) 0 (ng j) : sProp 𝕄))]
    exact bigSep_congr fun c _ => bigSep_univ_equiv ngE _
  have hR := shuffle (fun c j => (dutyTok ER (recvCell c j) 0 (0 : Fin 8) : sProp 𝕄))
  refine (bigSep_mono fun c _ => toks_split c).trans ?_
  unfold payToks
  rw [bigSep_sep', bigSep_sep', bigSep_sep', bigSep_sep', bigSep_sep', bigSep_sep', hA, hR]
  exact BI.Entails.refl _

theorem ghost_intro (K : Dev nD × Fin 25 → ℕ) (c : Dev nD) : iprop(records m K ∗ linear c) ⊢ G' m c := by
  unfold G' ghost
  iintro H
  iexists K
  iexact H

theorem regroup :
    (bigSep Finset.univ fun c : Dev nD => iprop((bigSep Finset.univ fun n => iprop(∃ κ : ℕ, cellInv ER (sched m) κ (kcell (c, n))))
          ∗ (bigSep Finset.univ fun n : Fin 25 => iprop(atPos ER (kcell (c, n)) 0 ∅ 0 ∗ reached ER (kcell (c, n)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun n : Fin 25 => (atPos ER (kcell (c, n)) 0 ∅ 0 : sProp 𝕄)) (fun n => reached ER (kcell (c, n)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun n : Fin 25 => (atPos ER (kcell (c, n)) 0 ∅ 0 : sProp 𝕄)) payToks).symm).trans
      (bigSep_mono fun c _ => show _ ⊢ linear c from by unfold linear; exact .rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- With `n` sends to come a device owes the receive cells `jOf 0 … jOf (n-1)`, each of the device that far on: summed over
    the devices, device `c`'s receive cell `jOf k` is owed one row. -/
theorem launchCred_owedS (c : Dev nD) : ∀ n : ℕ,
    (Pipeline.launchCred (fun d => owedS d n) c : sProp 𝕄) ⊢ bigSep (Finset.range n) fun k => cred (tallyAt (recvCell c (jOf k)) () Nrow)
  | 0 => by
    rw [show (fun d : Dev nD => owedS d 0) = fun _ => (0 : CellTallies nD τ sig Unit) from rfl, Pipeline.launchCred_zero, Finset.range_zero, bigSep_empty]
    exact .rfl
  | n + 1 => by
    have e : (bigSep (insert n (Finset.range n)) fun k => (cred (tallyAt (recvCell c (jOf k)) () Nrow) : sProp 𝕄))
        = iprop(cred (tallyAt (recvCell c (jOf n)) () Nrow) ∗ bigSep (Finset.range n) fun k => cred (tallyAt (recvCell c (jOf k)) () Nrow)) :=
      bigSep_insert Finset.notMem_range_self
    rw [show (fun d : Dev nD => owedS d (n + 1)) = fun d => owedS d n + tallyAt (recvCell (sh d (jOf n)) (jOf n)) () Nrow from rfl,
      Pipeline.launchCred_add, Finset.range_add_one, e]
    iintro ⟨H1, H2⟩
    isplitl [H2]
    · iapply (Pipeline.launchCred_tallyAt (.dma (recvS (jOf n))) (fun d => sh d (jOf n)) (fun d => bk d (jOf n)) (fun d => sh_bk d _) (fun d => bk_sh d _) () Nrow c)
      iexact H2
    · iapply (launchCred_owedS c n); iexact H1

omit [FloatOps F] in
/-- and with `n` entry signals to come, its barrier cell is owed `n` units besides. -/
theorem launchCred_owedB (c : Dev nD) : ∀ n : ℕ,
    (Pipeline.launchCred (fun d => owedB d n) c : sProp 𝕄)
      ⊢ iprop((bigSep (Finset.range 7) fun k => cred (tallyAt (recvCell c (jOf k)) () Nrow)) ∗ cred (tallyAt (barCell c) () n))
  | 0 => by
    rw [show (fun d : Dev nD => owedB d 0) = fun d => owedS d 7 from rfl, tallyAt_zero, cred_zero]
    iintro H
    isplitl [H]
    · iapply (launchCred_owedS c 7); iexact H
    · iempintro
  | n + 1 => by
    rw [show (fun d : Dev nD => owedB d (n + 1)) = fun d => owedB d n + tallyAt (barCell (sh d (jOf n))) () 1 from rfl, Pipeline.launchCred_add]
    iintro ⟨H1, H2⟩
    ihave H1' := (launchCred_owedB c n) $$ H1
    icases H1' with ⟨HS, HB⟩
    ihave H2' := (Pipeline.launchCred_tallyAt (.reg barS) (fun d => sh d (jOf n)) (fun d => bk d (jOf n)) (fun d => sh_bk d _) (fun d => bk_sh d _) () 1 c) $$ H2
    isplitl [HS]; · iexact HS
    rw [← tallyAt_add]
    iapply (cred_add _ _).2
    isplitl [HB] <;> iassumption

omit [FloatOps F] in
theorem creds (c : Dev nD) :
    (Pipeline.launchCred O₀ c : sProp 𝕄)
      ⊢ iprop(cred (tallyAt (barCell c) () 7) ∗ bigSep (Finset.univ.erase (0 : Fin 8)) fun j => cred (tallyAt (recvCell c j) () Nrow)) := by
  have himg : (Finset.univ.erase (0 : Fin 8)) = (Finset.range 7).image jOf := by decide
  have hinj : Set.InjOn jOf (Finset.range 7 : Set ℕ) := by
    intro a ha b hb h
    have ha' : a < 7 := Finset.mem_range.mp ha
    have hb' : b < 7 := Finset.mem_range.mp hb
    have := congrArg Fin.val h
    simp only [jOf] at this
    omega
  rw [himg, bigSep_image_of_injOn hinj]
  refine (launchCred_owedB c 7).trans ?_
  iintro ⟨HS, HB⟩
  isplitl [HB] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xPts
  isplitl
  · isplitl [HG]; · iexact HG
    isplitl [H1]; · iexact H1
    isplitl [HN]; · iexact HN
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(xKeep m c ∗ Pipeline.ownSems0 osem c ∗ Pipeline.scopedRest cfg0.spec c) := by
  rw [show (dats m ρ 0 c).Φ (Fin.last cfg0.N) = Φ₁ m c from rfl]
  unfold Φ₁
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The result array after the one write-back: what the body left in the staging buffer. -/
theorem final_out (c : Dev nD) : (dats m ρ 0 c).arrAt 0 cfg0.N = outv (xb m) := by
  have h := (dats (F := F) m ρ 0 c).arrAt_succ 0 t₀
  rw [flush0_0 t₀, if_pos rfl] at h
  have hN : cfg0.N = t₀.val + 1 := cfg0_N
  rw [hN, h]
  exact Memref.write_access_unit_zero_univ (Elt F) main_v1 (funext fun a => Nat.zero_mul _) _ _ _

end Launch

/-! ### The run -/

set_option maxRecDepth 8000 in
/-- On the compiled mesh of eight devices, for any float values, from any memory with every counter zero: every weakly
    fair execution of @main ends, and in every final state each device's result array holds the column sums of all
    eight blocks, its block of `x` what it held. -/
theorem run_main :
    θ_run (defs (F := F)) (onTc (τ := τ) (main (F := F))) ⟨m, fun _ => 0, ρ⟩ (fun r => ∀ c : Dev nD,
      r.2.mem ((c.tc : Thread nD τ).loc main_v1) = outv (xb m)
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ Launch.ownSemFacts (Pipeline.PreFacts.none _) EP defs₀ 𝒱₀ m ρ main
    (hmain := fun _ => rfl)
    (hbody := body_obligation m ρ) (hne := block_pos0) (harr := arr_whole0) (hstage := stage_whole0) (hshare := Launch.share_eq m ρ)
    (hdistinct := winFacts0.arr_inj)
    (O₀ := O₀) (howed₀ := fun _ => rfl) (howedN := fun _ => rfl)
    (L := L) (lv := lv) (hL := L_of_ne) (hwaits := Launch.waits m ρ)
    (G := Launch.G m) (G' := Launch.G' m) (u₀ := Launch.u₀)
    (hu₀ := by
      unfold Launch.u₀
      iintro Hu
      ihave H := (ownU_pair _ _) $$ Hu
      icases H with ⟨HP, HX⟩
      imod (Launch.fund_ring m) $$ HX with HG
      imodintro
      isplitl [HP] <;> iassumption)
    (hglob := Launch.glob m)
    (hA := fun _ _ => rfl) (hpf := fun _ k => k.elim0)
    (X := start m) (Y := xKeep m) (Z := fun _ => iprop(emp))
    (hX := Launch.start_intro m ρ) (hin := Launch.phi0_intro m ρ) (hout := Launch.phi1_exit m ρ)
    (QY := fun c s => s.mem ((c.tc : Thread nD τ).loc main_arg0) = m ((c.tc : Thread nD τ).loc main_arg0))
    (hY := fun c s' => by
      iintro ⟨Hx, -, HSI⟩
      unfold xKeep
      icombine HSI Hx gives %hx
      imodintro
      isplitr; · ipureintro; exact Buf.eq_of_forall_mem_univ hx
      iexact HSI)
    (hQ := fun s h c => ⟨((h c).1 0).trans (Launch.final_out m ρ c), (h c).2.2⟩)

/-- info: 'Cert.KernelIdeal.Sum.run_main' depends on axioms: [propext, Classical.choice, Quot.sound] -/
#guard_msgs in #print axioms run_main

end Cert.KernelIdeal.Sum

end
-- ==== Proof.Word.Contents.lean ====
/-
  What the kernel computes, as pure functions of the devices' blocks of `x` (no memory, no protocol).

  Device `c` holds a block `x_c` of 2048 rows. It reads the block in eight chunks of 256 rows, folds each
  chunk's rows 32 at a time into eight partial rows, adds the eight chunks' partial rows, and then adds those
  eight partial rows: `rowv x_c` is the column sums of the block. Every device ends holding all eight devices'
  rows (`comm`), and adds them: `outv` is the column sums of all 16384 rows, the same on every device.
-/
import proofs.«901086_g7700000000001087_dist_sum_ax0_shard0_i_m2048_n1024_v7x_i8_bf16_1_alg».proof.Proof.Gen.Kernel.Skeleton
import Idealize.ShloMosaic.Lib.ValueIdx

noncomputable section

namespace Cert.Kernel.Sum

open Idealize.ShloMosaic Idealize.ShloMosaic.ValueIdx Cert.Kernel Cert.Kernel.Gen

variable {F : FTy → Type} [FloatOps F]

/-- Rows `[256 i, 256 i + 256)` of a block, as the rank-3 vector `[1, 256, 1024]` the body loads them as. -/
def chunk (x : Vec F S2048x1024 .f32) (i : Fin 8) : Vec F S1x256x1024 .f32 :=
  fun j => x (ix2 (⟨256 * i.val + (j 1).val, by have h1 : (j 1).val < 256 := (j 1).isLt; have h2 := i.isLt; omega⟩ : Fin 2048)
    (⟨(j 2).val, (j 2).isLt⟩ : Fin 1024))

/-- The block's column sums as the body accumulates them: chunk after chunk into eight partial rows, then the
    eight partial rows added. -/
def rowv (x : Vec F S2048x1024 .f32) : FVec F S1x1x1024 .f32 :=
  k0_pay6 (k0_pay4 (k0_pay3 k0_pay2 (chunk x 0) (chunk x 1) (chunk x 2)) (chunk x 3) (chunk x 4)) (k0_pay5 (chunk x 5))
    (chunk x 6) (chunk x 7)

/-- The gathered buffer: row `d` is device `d`'s column sums. -/
def comm (xb : Dev nD → Vec F S2048x1024 .f32) : Vec F S8x1x1024 .f32 :=
  fun j => rowv (xb (⟨(j 0).val, (j 0).isLt⟩ : Fin 8)) (ix3 (0 : Fin 1) (⟨(j 1).val, (j 1).isLt⟩ : Fin 1) (⟨(j 2).val, (j 2).isLt⟩ : Fin 1024))

/-- The result on every device: the eight rows added. -/
def outv (xb : Dev nD → Vec F S2048x1024 .f32) : FVec F S1x1024 .f32 := k0_pay1 (comm xb)

end Cert.Kernel.Sum

end
-- ==== Proof.Word.Proto.lean ====
/-
  The protocol of the gather-and-add: the cells, the views, and what each landing hands over.

  Eight devices. Device `c` first signals the barrier semaphore of each of the seven others. Its signal to device
  `c + k` hands that device row `c + k` of `c`'s own gather buffer, the slot that device's transfer fills, and the
  fact that `c`'s receive cell `8 - k` is open. Device `c` then copies its block into VMEM in eight chunks (one DMA
  semaphore each), adds them up into row `c` of its gather buffer, waits for the seven entry signals, sends row
  `c` to the seven others (send semaphore `j` here, receive semaphore `j` on device `c + j`), waits for the seven
  rows sent to it and for its own sends, and adds the eight rows.

  A device's cells are numbered by `n : Fin 25`: `0` the barrier semaphore, `1 + i` the DMA semaphore of chunk
  `i`, `9 + j` send semaphore `j`, `17 + j` receive semaphore `j` (`i, j : Fin 8`; send and receive semaphore `0`
  are never used). Every duty is in round 0. Duties are named by `Fin 8`: duty `j ≠ 0` of a barrier cell is the
  signal from the device `j` places further on; a DMA cell's one duty is `0`.
-/
import proofs.«901086_g7700000000001087_dist_sum_ax0_shard0_i_m2048_n1024_v7x_i8_bf16_1_alg».proof.Proof.Word.Contents
import proofs.«901086_g7700000000001087_dist_sum_ax0_shard0_i_m2048_n1024_v7x_i8_bf16_1_alg».proof.Proof.Gen.Kernel.Launch
import proofs.«901086_g7700000000001087_dist_sum_ax0_shard0_i_m2048_n1024_v7x_i8_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.Transfers

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s block of `x`, as launched. -/
def xb (d : Dev nD) : Vec F S2048x1024 .f32 := m ((d.tc : Thread nD τ).loc main_arg0)

/-! ## The ring of devices -/

/-- The device `j` places further on. -/
def sh (c : Dev nD) (j : Fin 8) : Dev nD := ⟨(c.val + j.val) % 8, Nat.mod_lt _ (by decide)⟩
/-- The device `j` places back. -/
def bk (c : Dev nD) (j : Fin 8) : Dev nD := ⟨(c.val + (8 - j.val)) % 8, Nat.mod_lt _ (by decide)⟩
/-- The opposite shift. -/
def ng (j : Fin 8) : Fin 8 := ⟨(8 - j.val) % 8, Nat.mod_lt _ (by decide)⟩

theorem bk_sh (c : Dev nD) (j : Fin 8) : bk (sh c j) j = c := by revert c j; decide
theorem sh_bk (c : Dev nD) (j : Fin 8) : sh (bk c j) j = c := by revert c j; decide
theorem sh_ng (c : Dev nD) (j : Fin 8) : sh (sh c j) (ng j) = c := by revert c j; decide
theorem bk_eq (c : Dev nD) (j : Fin 8) : bk c j = sh c (ng j) := by revert c j; decide
theorem ng_ng (j : Fin 8) : ng (ng j) = j := by revert j; decide
theorem sh_zero (c : Dev nD) : sh c 0 = c := by revert c; decide
theorem sh_ne (c : Dev nD) (j : Fin 8) (hj : j ≠ 0) : sh c j ≠ c := by revert c j; decide
theorem sh_inj (c : Dev nD) (j j' : Fin 8) (h : sh c j = sh c j') : j = j' := by revert c j j'; decide

/-- The shift by `j` as a permutation of the devices. -/
def shE (j : Fin 8) : Dev nD ≃ Dev nD := ⟨fun c => sh c j, fun c => bk c j, fun c => bk_sh c j, fun c => sh_bk c j⟩

/-! ## The semaphores and the cells -/

/-- The runtime's barrier semaphore of collective id 0 (not scoped to the launch). -/
abbrev barS : Sem sig := (SemArray.scalar (sig.barrier 0 rfl) : Sems sig S_).sem
/-- The DMA semaphore of chunk `i`, send semaphore `j`, receive semaphore `j`. -/
abbrev copyS (i : Fin 8) : DmaSem sig := (⟨1 + i.val, by have := i.isLt; show 1 + i.val < 25; omega⟩ : Fin 25)
abbrev sendS (j : Fin 8) : DmaSem sig := (⟨9 + j.val, by have := j.isLt; show 9 + j.val < 25; omega⟩ : Fin 25)
abbrev recvS (j : Fin 8) : DmaSem sig := (⟨17 + j.val, by have := j.isLt; show 17 + j.val < 25; omega⟩ : Fin 25)

/-- A device's cells by number: `0` the barrier, `n + 1` DMA semaphore `n + 1`. -/
abbrev csem : Fin 25 → SemLoc sig
  | ⟨0, _⟩ => .reg barS
  | ⟨n + 1, h⟩ => .dma (⟨n + 1, h⟩ : Fin 25)
abbrev kcell (ck : Dev nD × Fin 25) : GSem nD τ sig := ((ck.1 : Thread nD τ), csem ck.2)

abbrev copyN (i : Fin 8) : Fin 25 := ⟨1 + i.val, by have := i.isLt; omega⟩
abbrev sendN (j : Fin 8) : Fin 25 := ⟨9 + j.val, by have := j.isLt; omega⟩
abbrev recvN (j : Fin 8) : Fin 25 := ⟨17 + j.val, by have := j.isLt; omega⟩

abbrev barCell (c : Dev nD) : GSem nD τ sig := ((c : Thread nD τ), .reg barS)
abbrev copyCell (c : Dev nD) (i : Fin 8) : GSem nD τ sig := ((c : Thread nD τ), .dma (copyS i))
abbrev sendCell (c : Dev nD) (j : Fin 8) : GSem nD τ sig := ((c : Thread nD τ), .dma (sendS j))
abbrev recvCell (c : Dev nD) (j : Fin 8) : GSem nD τ sig := ((c : Thread nD τ), .dma (recvS j))

/-- The kernel's OWN (scoped) semaphores, as the launch theorem indexes them: DMA semaphores 1 to 24. -/
abbrev osem : Fin 24 → SemLoc sig := fun i => .dma (⟨i.val + 1, by have := i.isLt; omega⟩ : Fin 25)

/-! ## The memrefs -/

abbrev xM : Memref sig .tc .hbm S2048x1024 .f32 := Memref.whole main_arg0
abbrev oM : Memref sig .tc .vmem S1x1024 .f32 := Memref.whole cc0_stg0_0
abbrev vM : Memref sig .tc .vmem S8x256x1024 .f32 := Memref.whole cc0_scratch0
abbrev cM : Memref sig .tc .vmem S8x1x1024 .f32 := Memref.whole cc0_scratch1

theorem inb_row (r : Fin 8) : ∀ a, (![r.val, 0, 0] : Fin 3 → Nat) a + S1x1x1024.size a ≤ S8x1x1024.size a := by revert r; decide
theorem inb_chunkV (i : Fin 8) : ∀ a, (![i.val, 0, 0] : Fin 3 → Nat) a + S1x256x1024.size a ≤ S8x256x1024.size a := by revert i; decide
theorem inb_chunkX (i : Fin 8) : ∀ a, (![256 * i.val, 0] : Fin 2 → Nat) a + S256x1024.size a ≤ S2048x1024.size a := by revert i; decide

/-- Row `r` of the gather buffer, as the transfers see it (`[1, 1024]`). -/
def rowM (r : Fin 8) : Memref sig .tc .vmem S1x1024 .f32 :=
  (cM.slice (Rect.unit (s := S8x1x1024) ![r.val, 0, 0] S1x1x1024.size (inb_row r)) (fun _ => rfl)).squeeze S1x1024 squeezes_S1x1x1024_S1x1024
/-- Chunk `i` of the VMEM copy of the block, as its transfer sees it (`[256, 1024]`). -/
def vDst (i : Fin 8) : Memref sig .tc .vmem S256x1024 .f32 :=
  (vM.slice (Rect.unit (s := S8x256x1024) ![i.val, 0, 0] S1x256x1024.size (inb_chunkV i)) (fun _ => rfl)).squeeze S256x1024 squeezes_S1x256x1024_S256x1024
/-- Rows `[256 i, 256 i + 256)` of the block in HBM. -/
def xSrc (i : Fin 8) : Memref sig .tc .hbm S256x1024 .f32 :=
  xM.slice (Rect.unit (s := S2048x1024) ![256 * i.val, 0] S256x1024.size (inb_chunkX i)) (fun _ => rfl)

/-- The credit of one row's transfer, and of one chunk's. -/
abbrev Nrow : ℕ := (rowM 0).view.dmaCredit
abbrev Nchunk : ℕ := (vDst 0).view.dmaCredit
theorem Nrow_pos : 0 < Nrow := View.dmaCredit_pos _ (by decide)
theorem Nchunk_pos : 0 < Nchunk := View.dmaCredit_pos _ (by decide)

/-! ## Contents -/

/-- The gather buffer once every row has landed: row `d` is device `d`'s column sums (the same on every device). -/
def commB (c : Dev nD) : Buf (Elt F) ((c : Thread nD τ).loc cc0_scratch1) := comm (xb m)
/-- The VMEM copy of device `c`'s block once every chunk has landed. -/
def vfin (c : Dev nD) : Buf (Elt F) ((c : Thread nD τ).loc cc0_scratch0) :=
  fun j => chunk (xb m c) (⟨(j 0).val, (j 0).isLt⟩ : Fin 8) (ix3 (0 : Fin 1) (⟨(j 1).val, (j 1).isLt⟩ : Fin 256) (⟨(j 2).val, (j 2).isLt⟩ : Fin 1024))

/-- Row `r` of device `c`'s gather buffer at share `q` and contents `f` (a function on the whole buffer: only row `r` of it is held). -/
def rowPts (c : Dev nD) (r : Fin 8) (q : PosShare TreeShare) (f : Buf (Elt F) ((c : Thread nD τ).loc cc0_scratch1)) : sProp 𝕄 :=
  (rowM r).view.loc (c : Thread nD τ) ↦[(rowM r).view.set]{q} (f : Buf (Elt F) ((rowM r).view.loc (c : Thread nD τ)))
/-- Chunk `i` of device `c`'s VMEM copy. -/
def chunkPts (c : Dev nD) (i : Fin 8) (f : Buf (Elt F) ((c : Thread nD τ).loc cc0_scratch0)) : sProp 𝕄 :=
  (vDst i).view.loc (c : Thread nD τ) ↦[(vDst i).view.set]{fullShare} (f : Buf (Elt F) ((vDst i).view.loc (c : Thread nD τ)))

/-! ## The schedule -/

/-- What the device `j` places further on hands device `c` with its entry signal: row `c` of its own gather buffer, the
    slot `c`'s transfer `j` fills, and that its receive cell `j` is open. -/
def barPay (c : Dev nD) (j : Fin 8) : sProp 𝕄 :=
  iprop((∃ f, rowPts (sh c j) c fullShare f) ∗ reached ER (recvCell (sh c j) j) 0)
/-- Chunk `i` landed. -/
def copyPay (c : Dev nD) (i : Fin 8) : sProp 𝕄 := chunkPts c i (vfin m c)
/-- Send `j` has read row `c`: the share it was lent comes back. -/
def sendPay (c : Dev nD) (j : Fin 8) : sProp 𝕄 := rowPts c c (Transfers.shareTokN fullShare j.val) (commB m c)
/-- The row of the device `j` places back has landed. -/
def recvPay (c : Dev nD) (j : Fin 8) : sProp 𝕄 := rowPts c (bk c j) fullShare (commB m c)

/-- A DMA cell's payload by the semaphore's number. -/
def dmaPay (c : Dev nD) (n : ℕ) : sProp 𝕄 :=
  if h : 1 ≤ n ∧ n ≤ 8 then copyPay m c ⟨n - 1, by omega⟩
  else if h : 9 ≤ n ∧ n ≤ 16 then sendPay m c ⟨n - 9, by omega⟩
  else if h : 17 ≤ n ∧ n ≤ 24 then recvPay m c ⟨n - 17, by omega⟩
  else iprop(emp)

/-- A cell's duties of round 0: the seven entry signals on the barrier; one transfer on each chunk, send and receive
    semaphore in use. -/
def semDuties : SemLoc sig → Finset (Fin 8)
  | .reg _ => Finset.univ.erase 0
  | .dma q => if (1 ≤ q.val ∧ q.val ≤ 8) ∨ (10 ≤ q.val ∧ q.val ≤ 16) ∨ (18 ≤ q.val ∧ q.val ≤ 24) then {0} else ∅
def semAmount : SemLoc sig → ℕ
  | .reg _ => 1
  | .dma q => if q.val ≤ 8 then Nchunk else Nrow
def semPay (c : Dev nD) : SemLoc sig → Fin 8 → sProp 𝕄
  | .reg _, d => barPay c d
  | .dma q, _ => dmaPay m c q.val

theorem semAmount_pos (s : SemLoc sig) : 0 < semAmount s := by
  cases s with
  | reg _ => exact Nat.one_pos
  | dma q =>
    show 0 < (if q.val ≤ 8 then Nchunk else Nrow)
    split
    · exact Nchunk_pos
    · exact Nrow_pos

/-- One round, round 0. -/
def sched : Rounds.Schedule (GSem nD τ sig) (Fin 8) 𝕄 where
  duties g r := if r = 0 ∧ g.1.2 = .tc then semDuties g.2 else ∅
  unitless _ := False
  amount g _ _ := semAmount g.2
  payload g _ d := semPay m g.1.1 g.2 d
  amount_pos g _ _ _ := semAmount_pos g.2

omit [FloatOps F] in
instance rowPts_storable (c : Dev nD) (r : Fin 8) (q : PosShare TreeShare) (f : Buf (Elt F) ((c : Thread nD τ).loc cc0_scratch1)) :
    BI.Storable (upEmb : UEmb _ 𝕄) (rowPts (F := F) c r q f) := by
  unfold rowPts
  exact (fun (g : Buf (Elt F) ((rowM r).view.loc (c : Thread nD τ))) =>
    (inferInstance : BI.Storable (upEmb : UEmb _ 𝕄) ((rowM r).view.loc (c : Thread nD τ) ↦[(rowM r).view.set]{q} g))) f
omit [FloatOps F] in
instance chunkPts_storable (c : Dev nD) (i : Fin 8) (f : Buf (Elt F) ((c : Thread nD τ).loc cc0_scratch0)) :
    BI.Storable (upEmb : UEmb _ 𝕄) (chunkPts (F := F) c i f) := by
  unfold chunkPts
  exact (fun (g : Buf (Elt F) ((vDst i).view.loc (c : Thread nD τ))) =>
    (inferInstance : BI.Storable (upEmb : UEmb _ 𝕄) ((vDst i).view.loc (c : Thread nD τ) ↦[(vDst i).view.set]{fullShare} g))) f
omit [FloatOps F] in
instance barPay_storable (c : Dev nD) (j : Fin 8) : BI.Storable (upEmb : UEmb _ 𝕄) (barPay (F := F) c j) := by
  unfold barPay; infer_instance
instance dmaPay_storable (c : Dev nD) (n : ℕ) : BI.Storable (upEmb : UEmb _ 𝕄) (dmaPay (F := F) m c n) := by
  unfold dmaPay copyPay sendPay recvPay; (repeat' split) <;> infer_instance
instance semPay_storable (c : Dev nD) (s : SemLoc sig) (d : Fin 8) : BI.Storable (upEmb : UEmb _ 𝕄) (semPay (F := F) m c s d) := by
  cases s with
  | reg _ => exact barPay_storable c d
  | dma q => exact dmaPay_storable m c q.val

instance sched_payload_storable (g : GSem nD τ sig) (r : ℕ) (d : Fin 8) :
    BI.Storable (upEmb : UEmb _ 𝕄) ((sched (F := F) m).payload g r d) :=
  semPay_storable m g.1.1 g.2 d

/-! ## What each core owes at launch; the levels -/

/-- The shift paid `n + 1`-th from last: `jOf 6 = 1` is paid first, `jOf 0 = 7` last. -/
def jOf (n : ℕ) : Fin 8 := ⟨(7 - n) % 8, Nat.mod_lt _ (by decide)⟩

/-- The receive credits device `c` still owes when `n` of its seven sends are still to come, summed so that each send
    peels the last summand. -/
def owedS (c : Dev nD) : ℕ → CellTallies nD τ sig Unit
  | 0 => 0
  | n + 1 => owedS c n + tallyAt (recvCell (sh c (jOf n)) (jOf n)) () Nrow
/-- What it owes when `n` of its seven entry signals are still to come: all the receive credits, and those signals. -/
def owedB (c : Dev nD) : ℕ → CellTallies nD τ sig Unit
  | 0 => owedS c 7
  | n + 1 => owedB c n + tallyAt (barCell (sh c (jOf n))) () 1
def O₀ (c : Dev nD) : CellTallies nD τ sig Unit := owedB c 7

def L (g : GSem nD τ sig) : Finset Unit := if g.1.2 = .tc then {()} else ∅
/-- Barrier cells at 1, receive cells at 2, everything else (staging, chunk and send cells) at 0. -/
def lvS : SemLoc sig → ℕ
  | .reg _ => 1
  | .dma q => if 17 ≤ q.val then 2 else 0
def lv (g : GSem nD τ sig) (_ : Unit) : ℕ := lvS g.2

/-! ## The ghost state -/

/-- Every cell's invariant under the names `K`, and that round 0 of every cell is reached. -/
def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

instance records_persistent (K : Dev nD × Fin 25 → ℕ) : BI.Persistent (records (F := F) m K) := by unfold records; infer_instance

/-- The tokens of the duties device `c` pays: on the barrier cell of the device `j` places further on the duty named by
    the way back; its own chunk and send cells' duties; the receive duty `j` of the device `j` places further on. -/
def payToks (c : Dev nD) : sProp 𝕄 :=
  iprop((bigSep Finset.univ fun j : Fin 8 => dutyTok ER (barCell (sh c j)) 0 (ng j))
    ∗ (bigSep Finset.univ fun i : Fin 8 => dutyTok ER (copyCell c i) 0 (0 : Fin 8))
    ∗ (bigSep Finset.univ fun j : Fin 8 => dutyTok ER (sendCell c j) 0 (0 : Fin 8))
    ∗ (bigSep Finset.univ fun j : Fin 8 => dutyTok ER (recvCell (sh c j) j) 0 (0 : Fin 8)))

/-- What stays with device `c`: its positions on its 25 cells, and the tokens of the duties it pays. -/
def linear (c : Dev nD) : sProp 𝕄 :=
  iprop((bigSep Finset.univ fun n : Fin 25 => atPos ER (kcell (c, n)) 0 ∅ 0) ∗ payToks c)

def ghost (K : Dev nD × Fin 25 → ℕ) (c : Dev nD) : sProp 𝕄 := iprop(records m K ∗ linear c)

/-- Device `c`'s block of `x` in HBM, whole, and the share of it the body keeps to the end. -/
def xPts (c : Dev nD) : sProp 𝕄 := ((c : Thread nD τ).loc main_arg0) ↦{fullShare} m ((c : Thread nD τ).loc main_arg0)
def xKeep (c : Dev nD) : sProp 𝕄 := ((c : Thread nD τ).loc main_arg0) ↦{Transfers.shareDrop fullShare 8} m ((c : Thread nD τ).loc main_arg0)

/-- What device `c`'s body starts from: the ghost state at some names, its launch credit (seven units on its barrier
    cell, a row's credit on each receive cell in use), the level facts and its block of `x`. -/
def start (c : Dev nD) : sProp 𝕄 :=
  iprop((∃ K, ghost m K c) ∗ cred (tallyAt (barCell c) () 7)
    ∗ (bigSep (Finset.univ.erase (0 : Fin 8)) fun j => cred (tallyAt (recvCell c j) () Nrow)) ∗ levAts L lv ∗ xPts m c)

def Φ₀ (c : Dev nD) : sProp 𝕄 := iprop(start m c ∗ Pipeline.scopedRest cfg0.spec c)
/-- After the point: the kept share of `x`, the kernel's own semaphores at zero, the scratch buffers whole. -/
def Φ₁ (c : Dev nD) : sProp 𝕄 := iprop(xKeep m c ∗ Pipeline.ownSems0 osem c ∗ Pipeline.scopedRest cfg0.spec c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outv (xb m)
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Sum

end
-- ==== Proof.Word.Tables.lean ====
/-
  The schedule's tables, cell by cell: which duties round 0 of each cell has, what each amounts to, what a whole
  round amounts to, what each duty's payload is, and what a wait for a whole round hands back. Then the levels:
  at each of its waits a device owes only cells that sit above the cell it waits on.
-/
import proofs.«901086_g7700000000001087_dist_sum_ax0_shard0_i_m2048_n1024_v7x_i8_bf16_1_alg».proof.Proof.Word.Proto

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' numbers, and the schedule's fields at a device's own cell -/

theorem copyS_val (i : Fin 8) : (copyS i).val = 1 + i.val := rfl
theorem sendS_val (j : Fin 8) : (sendS j).val = 9 + j.val := rfl
theorem recvS_val (j : Fin 8) : (recvS j).val = 17 + j.val := rfl

/-- A shift that is not zero has a positive number. -/
theorem val_pos_of_ne {j : Fin 8} (hj : j ≠ 0) : 0 < j.val := Nat.pos_of_ne_zero fun h => hj (Fin.ext h)

/-- Round 0 of a cell of a device's one thread has the duties its semaphore says. -/
theorem duties_tc (c : Dev nD) (s : SemLoc sig) : (sched (F := F) m).duties ((c : Thread nD τ), s) 0 = semDuties s := by
  dsimp only [sched]; exact if_pos ⟨rfl, rfl⟩

/-- A DMA semaphore numbered in one of the three bands in use has one duty, named 0. -/
theorem semDuties_used (q : DmaSem sig) (n : ℕ) (hq : q.val = n)
    (h : (1 ≤ n ∧ n ≤ 8) ∨ (10 ≤ n ∧ n ≤ 16) ∨ (18 ≤ n ∧ n ≤ 24)) : semDuties (.dma q) = {0} := by
  subst hq; exact if_pos h
/-- One numbered outside them has none. -/
theorem semDuties_unused (q : DmaSem sig) (n : ℕ) (hq : q.val = n)
    (h : ¬ ((1 ≤ n ∧ n ≤ 8) ∨ (10 ≤ n ∧ n ≤ 16) ∨ (18 ≤ n ∧ n ≤ 24))) : semDuties (.dma q) = ∅ := by
  subst hq; exact if_neg h

theorem semAmount_chunk (q : DmaSem sig) (h : q.val ≤ 8) : semAmount (.dma q) = Nchunk := if_pos h
theorem semAmount_row (q : DmaSem sig) (h : ¬ q.val ≤ 8) : semAmount (.dma q) = Nrow := if_neg h

/-- The payload by number, in each of the three bands. -/
theorem dmaPay_copy (c : Dev nD) (i : Fin 8) : dmaPay m c (1 + i.val) = copyPay m c i := by
  have hi := i.isLt
  unfold dmaPay
  rw [dif_pos (⟨by omega, by omega⟩ : 1 ≤ 1 + i.val ∧ 1 + i.val ≤ 8)]
  exact congrArg (copyPay m c) (Fin.ext (Nat.add_sub_cancel_left 1 i.val))
theorem dmaPay_send (c : Dev nD) (j : Fin 8) : dmaPay m c (9 + j.val) = sendPay m c j := by
  have hj := j.isLt
  unfold dmaPay
  rw [dif_neg (fun h => by omega : ¬ (1 ≤ 9 + j.val ∧ 9 + j.val ≤ 8)),
    dif_pos (⟨by omega, by omega⟩ : 9 ≤ 9 + j.val ∧ 9 + j.val ≤ 16)]
  exact congrArg (sendPay m c) (Fin.ext (Nat.add_sub_cancel_left 9 j.val))
theorem dmaPay_recv (c : Dev nD) (j : Fin 8) : dmaPay m c (17 + j.val) = recvPay m c j := by
  have hj := j.isLt
  unfold dmaPay
  rw [dif_neg (fun h => by omega : ¬ (1 ≤ 17 + j.val ∧ 17 + j.val ≤ 8)),
    dif_neg (fun h => by omega : ¬ (9 ≤ 17 + j.val ∧ 17 + j.val ≤ 16)),
    dif_pos (⟨by omega, by omega⟩ : 17 ≤ 17 + j.val ∧ 17 + j.val ≤ 24)]
  exact congrArg (recvPay m c) (Fin.ext (Nat.add_sub_cancel_left 17 j.val))

section Tables
variable (c : Dev nD)

/-! ## Duties -/

theorem duties_bar : (sched (F := F) m).duties (barCell c) 0 = Finset.univ.erase 0 := duties_tc m c (.reg barS)
theorem duties_copy (i : Fin 8) : (sched (F := F) m).duties (copyCell c i) 0 = {0} :=
  (duties_tc m c (.dma (copyS i))).trans
    (semDuties_used (copyS i) (1 + i.val) rfl (.inl ⟨Nat.le_add_right 1 i.val, by have := i.isLt; omega⟩))
theorem duties_send (j : Fin 8) (hj : j ≠ 0) : (sched (F := F) m).duties (sendCell c j) 0 = {0} :=
  (duties_tc m c (.dma (sendS j))).trans
    (semDuties_used (sendS j) (9 + j.val) rfl
      (.inr (.inl ⟨by have := val_pos_of_ne hj; omega, by have := j.isLt; omega⟩)))
theorem duties_recv (j : Fin 8) (hj : j ≠ 0) : (sched (F := F) m).duties (recvCell c j) 0 = {0} :=
  (duties_tc m c (.dma (recvS j))).trans
    (semDuties_used (recvS j) (17 + j.val) rfl
      (.inr (.inr ⟨by have := val_pos_of_ne hj; omega, by have := j.isLt; omega⟩)))
theorem duties_send0 : (sched (F := F) m).duties (sendCell c 0) 0 = ∅ :=
  (duties_tc m c (.dma (sendS 0))).trans (semDuties_unused (sendS 0) 9 rfl (by decide))
theorem duties_recv0 : (sched (F := F) m).duties (recvCell c 0) 0 = ∅ :=
  (duties_tc m c (.dma (recvS 0))).trans (semDuties_unused (recvS 0) 17 rfl (by decide))
theorem duties_later (g : GSem nD τ sig) : ∀ r, 1 ≤ r → (sched (F := F) m).duties g r = ∅ := fun r hr => by
  dsimp only [sched]; exact if_neg fun h => Nat.ne_of_gt hr h.1

/-! ## Amounts -/

theorem amount_bar (d : Fin 8) : (sched (F := F) m).amount (barCell c) 0 d = 1 := rfl
theorem amount_copy (i d : Fin 8) : (sched (F := F) m).amount (copyCell c i) 0 d = Nchunk :=
  semAmount_chunk (copyS i) (by have := i.isLt; show 1 + i.val ≤ 8; omega)
theorem amount_send (j d : Fin 8) : (sched (F := F) m).amount (sendCell c j) 0 d = Nrow :=
  semAmount_row (sendS j) (by show ¬ 9 + j.val ≤ 8; omega)
theorem amount_recv (j d : Fin 8) : (sched (F := F) m).amount (recvCell c j) 0 d = Nrow :=
  semAmount_row (recvS j) (by show ¬ 17 + j.val ≤ 8; omega)

theorem expect_bar : (sched (F := F) m).expect (barCell c) 0 = 7 := by
  have hcard : (Finset.univ.erase (0 : Fin 8)).card = 7 := by decide
  unfold Schedule.expect Schedule.amountOf
  rw [duties_bar, Finset.sum_congr rfl fun d _ => amount_bar m c d, Finset.sum_const, smul_eq_mul, Nat.mul_one]
  exact hcard
theorem expect_copy (i : Fin 8) : (sched (F := F) m).expect (copyCell c i) 0 = Nchunk := by
  unfold Schedule.expect Schedule.amountOf; rw [duties_copy, Finset.sum_singleton, amount_copy]
theorem expect_send (j : Fin 8) (hj : j ≠ 0) : (sched (F := F) m).expect (sendCell c j) 0 = Nrow := by
  unfold Schedule.expect Schedule.amountOf; rw [duties_send m c j hj, Finset.sum_singleton, amount_send]
theorem expect_recv (j : Fin 8) (hj : j ≠ 0) : (sched (F := F) m).expect (recvCell c j) 0 = Nrow := by
  unfold Schedule.expect Schedule.amountOf; rw [duties_recv m c j hj, Finset.sum_singleton, amount_recv]

/-! ## Payloads -/

theorem payload_bar (j : Fin 8) : (sched (F := F) m).payload (barCell c) 0 j = barPay c j := rfl
theorem payload_copy (i d : Fin 8) : (sched (F := F) m).payload (copyCell c i) 0 d = copyPay m c i := dmaPay_copy m c i
theorem payload_send (j d : Fin 8) : (sched (F := F) m).payload (sendCell c j) 0 d = sendPay m c j := dmaPay_send m c j
theorem payload_recv (j d : Fin 8) : (sched (F := F) m).payload (recvCell c j) 0 d = recvPay m c j := dmaPay_recv m c j

/-- The rest of the barrier cell's round, no duty taken: the seven entry signals' payloads. -/
theorem rest_bar : bigSep ((sched (F := F) m).duties (barCell c) 0 \ ∅) (fun d => (sched (F := F) m).payload (barCell c) 0 d)
    = bigSep (Finset.univ.erase (0 : Fin 8)) (fun j => barPay (F := F) c j) := by
  rw [Finset.sdiff_empty, duties_bar]
  exact bigSep_congr fun j _ => payload_bar m c j
theorem rest_copy (i : Fin 8) : bigSep ((sched (F := F) m).duties (copyCell c i) 0 \ ∅) (fun d => (sched (F := F) m).payload (copyCell c i) 0 d)
    = copyPay m c i := by
  rw [Finset.sdiff_empty, duties_copy, bigSep_singleton, payload_copy]
theorem rest_send (j : Fin 8) (hj : j ≠ 0) : bigSep ((sched (F := F) m).duties (sendCell c j) 0 \ ∅) (fun d => (sched (F := F) m).payload (sendCell c j) 0 d)
    = sendPay m c j := by
  rw [Finset.sdiff_empty, duties_send m c j hj, bigSep_singleton, payload_send]
theorem rest_recv (j : Fin 8) (hj : j ≠ 0) : bigSep ((sched (F := F) m).duties (recvCell c j) 0 \ ∅) (fun d => (sched (F := F) m).payload (recvCell c j) 0 d)
    = recvPay m c j := by
  rw [Finset.sdiff_empty, duties_recv m c j hj, bigSep_singleton, payload_recv]

/-! ## Levels -/

theorem L_of_ne (g : GSem nD τ sig) (h : g.1.2 ≠ .tc) : L g = ∅ := if_neg h
theorem L_tc (sm : SemLoc sig) : L ((c : Thread nD τ), sm) = {()} := if_pos rfl

/-- A receive cell sits at level 2, a barrier cell at 1, a cell numbered below 17 at 0. -/
theorem lv_recv (d : Dev nD) (j : Fin 8) (u : Unit) : lv (recvCell d j) u = 2 := if_pos (Nat.le_add_right 17 j.val)
theorem lv_bar (d : Dev nD) (u : Unit) : lv (barCell d) u = 1 := rfl
theorem lv_low (d : Dev nD) (q : DmaSem sig) (hq : q.val < 17) (u : Unit) : lv ((d : Thread nD τ), .dma q) u = 0 :=
  if_neg (Nat.not_le.mpr hq)

/-- While sends are still to come a device owes only receive cells, each the one its shift names. -/
theorem owedS_pos {n : ℕ} {g : GSem nD τ sig} {u : Unit} (h : 0 < owedS c n g u) : ∃ j : Fin 8, g = recvCell (sh c j) j := by
  induction n with
  | zero => exact absurd h (Nat.lt_irrefl 0)
  | succ n ih =>
    rcases Pipeline.add_pos_cases (D₁ := owedS c n) (D₂ := tallyAt (recvCell (sh c (jOf n)) (jOf n)) () Nrow) h with h | h
    · exact ih h
    · rw [tallyAt_apply] at h
      by_cases hg : g = recvCell (sh c (jOf n)) (jOf n) ∧ u = ()
      · exact ⟨jOf n, hg.1⟩
      · rw [if_neg hg] at h; exact absurd h (Nat.lt_irrefl 0)

/-- Before its entry signals a device owes, besides, only barrier cells. -/
theorem owedB_pos {n : ℕ} {g : GSem nD τ sig} {u : Unit} (h : 0 < owedB c n g u) :
    (∃ j : Fin 8, g = recvCell (sh c j) j) ∨ ∃ j : Fin 8, g = barCell (sh c j) := by
  induction n with
  | zero => exact .inl (owedS_pos c h)
  | succ n ih =>
    rcases Pipeline.add_pos_cases (D₁ := owedB c n) (D₂ := tallyAt (barCell (sh c (jOf n))) () 1) h with h | h
    · exact ih h
    · rw [tallyAt_apply] at h
      by_cases hg : g = barCell (sh c (jOf n)) ∧ u = ()
      · exact .inr ⟨jOf n, hg.1⟩
      · rw [if_neg hg] at h; exact absurd h (Nat.lt_irrefl 0)

/-- At its barrier wait a device owes the seven receive credits only: receive cells, above its barrier cell. -/
theorem mayWait_bar : (levAts L lv : sProp 𝕄) ⊢ MayWait (c : Thread nD τ) (.reg barS) () (owedS c 7) :=
  MayOwe.of_cut (L := L) (lev := lv) 1
    (fun p hp => by rw [Finset.mem_singleton.mp hp, L_tc]; exact Finset.mem_singleton_self _)
    (fun g u hg => by obtain ⟨j, rfl⟩ := owedS_pos c hg; rw [L_tc]; exact Finset.mem_singleton_self _)
    (fun p hp => by rw [Finset.mem_singleton.mp hp]; exact Nat.le_of_eq (lv_bar c ()))
    (fun g u hg => by
      obtain ⟨j, rfl⟩ := owedS_pos c hg
      exact lt_of_lt_of_eq (by decide : (1 : ℕ) < 2) (lv_recv (sh c j) j u).symm)
/-- A wait on a staging, chunk or send semaphore (below every cell a device ever owes) while n sends are still to come. -/
theorem mayWait_low (q : DmaSem sig) (hq : q.val < 17) (n : ℕ) :
    (levAts L lv : sProp 𝕄) ⊢ MayWait (c : Thread nD τ) (.dma q) () (owedS c n) :=
  MayOwe.of_cut (L := L) (lev := lv) 0
    (fun p hp => by rw [Finset.mem_singleton.mp hp, L_tc]; exact Finset.mem_singleton_self _)
    (fun g u hg => by obtain ⟨j, rfl⟩ := owedS_pos c hg; rw [L_tc]; exact Finset.mem_singleton_self _)
    (fun p hp => by rw [Finset.mem_singleton.mp hp]; exact Nat.le_of_eq (lv_low c q hq ()))
    (fun g u hg => by
      obtain ⟨j, rfl⟩ := owedS_pos c hg
      exact lt_of_lt_of_eq (by decide : (0 : ℕ) < 2) (lv_recv (sh c j) j u).symm)
/-- The same at the pipeline's own waits: the device owes everything (before the point) or nothing (after it). -/
theorem mayWait_stage (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases owedB_pos c hg with ⟨j, rfl⟩ | ⟨j, rfl⟩ <;> (rw [L_tc]; exact Finset.mem_singleton_self _))
      (fun p hp => by rw [Finset.mem_singleton.mp hp]; exact Nat.le_of_eq (lv_low c q hq ()))
      (fun g u hg => by
        rcases owedB_pos c hg with ⟨j, rfl⟩ | ⟨j, rfl⟩
        · exact lt_of_lt_of_eq (by decide : (0 : ℕ) < 2) (lv_recv (sh c j) j u).symm
        · exact lt_of_lt_of_eq (by decide : (0 : ℕ) < 1) (lv_bar (sh c j) u).symm)
  · rw [MayWait_zero]; iintro -; iempintro

end Tables

/-- info: 'Cert.Kernel.Sum.mayWait_stage' depends on axioms: [propext, Classical.choice, Quot.sound] -/
#guard_msgs in #print axioms mayWait_stage

/-- info: 'Cert.Kernel.Sum.mayWait_bar' depends on axioms: [propext, Classical.choice, Quot.sound] -/
#guard_msgs in #print axioms mayWait_bar

/-- info: 'Cert.Kernel.Sum.rest_recv' depends on axioms: [propext, Classical.choice, Quot.sound] -/
#guard_msgs in #print axioms rest_recv

/-- info: 'Cert.Kernel.Sum.expect_bar' depends on axioms: [propext, Classical.choice, Quot.sound] -/
#guard_msgs in #print axioms expect_bar

end Cert.Kernel.Sum

end
-- ==== Proof.Word.BodyA.lean ====
/-
  The pieces one device's body is stepped with: what each of its steps consumes and what it leaves, and the
  entry signal's step.
-/
import proofs.«901086_g7700000000001087_dist_sum_ax0_shard0_i_m2048_n1024_v7x_i8_bf16_1_alg».proof.Proof.Word.Tables
import proofs.«901086_g7700000000001087_dist_sum_ax0_shard0_i_m2048_n1024_v7x_i8_bf16_1_alg».proof.Proof.Gen.Kernel.Skeleton

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts about the cells and the ring -/

theorem kcell_bar (c : Dev nD) : kcell (c, (0 : Fin 25)) = barCell c := rfl
theorem kcell_copy (c : Dev nD) (i : Fin 8) : kcell (c, copyN i) = copyCell c i := by fin_cases i <;> rfl
theorem kcell_send (c : Dev nD) (j : Fin 8) : kcell (c, sendN j) = sendCell c j := by fin_cases j <;> rfl
theorem kcell_recv (c : Dev nD) (j : Fin 8) : kcell (c, recvN j) = recvCell c j := by fin_cases j <;> rfl

theorem ng_ne_zero (K : Fin 8) (hK : K ≠ 0) : ng K ≠ 0 := by revert K; decide
theorem jOf_ne_zero (n : ℕ) (hn : n < 7) : jOf n ≠ 0 := by
  interval_cases n <;> decide

/-- Every cell's invariant, and that its round 0 is reached, out of the records. -/
theorem records_inv (Kn : Dev nD × Fin 25 → ℕ) (ck : Dev nD × Fin 25) :
    records (F := F) m Kn ⊢ cellInv ER (sched m) (Kn ck) (kcell ck) := by
  unfold records
  exact (BI.Entails.trans BI.sep_and and_elimL).trans (bigSep_elim (Finset.mem_univ ck))
theorem records_reached (Kn : Dev nD × Fin 25 → ℕ) (ck : Dev nD × Fin 25) :
    records (F := F) m Kn ⊢ reached ER (kcell ck) 0 := by
  unfold records
  exact (BI.Entails.trans BI.sep_and and_elimR).trans (bigSep_elim (Finset.mem_univ ck))

/-! ## What the steps consume and leave -/

/-- What a device owes, whichever waits it has recorded. -/
def owesX (c : Dev nD) (O : CellTallies nD τ sig Unit) : sProp 𝕄 := iprop(∃ W, owes (c : Thread nD τ) O W)

/-- The word the body computes for the device's place on the ring. -/
abbrev v2w (c : Dev nD) : BitVec 32 := Scalar.remsi (Scalar.divsi (Dev.word c) 1#32) 8#32

/-- What entry signal `K` consumes: the token of the duty it pays and the row it hands over. -/
def sigR (c : Dev nD) (K : Fin 8) : sProp 𝕄 :=
  iprop(dutyTok ER (barCell (sh c K)) 0 (ng K) ∗ (∃ f, rowPts c (sh c K) fullShare f))

/-- The read token of chunk `i`: share `i` of the block of `x`, on the rows the chunk's transfer reads. -/
def xTok (c : Dev nD) (i : Fin 8) : sProp 𝕄 :=
  (xSrc i).view.loc (c : Thread nD τ) ↦[(xSrc i).view.set]{Transfers.shareTokN fullShare i.val}
    (m ((c : Thread nD τ).loc main_arg0) : Buf (Elt F) ((xSrc i).view.loc (c : Thread nD τ)))

/-- Chunk `i` before its transfer is issued, in flight, and landed. -/
def cpyR (c : Dev nD) (i : Fin 8) : sProp 𝕄 :=
  iprop(dutyTok ER (copyCell c i) 0 (0 : Fin 8) ∗ xTok m c i ∗ (∃ f, chunkPts c i f) ∗ atPos ER (copyCell c i) 0 ∅ 0)
def cpyI (c : Dev nD) (i : Fin 8) : sProp 𝕄 :=
  iprop(cred (tallyAt (copyCell c i) () Nchunk) ∗ atPos ER (copyCell c i) 0 ∅ 0)
def cpyD (c : Dev nD) (i : Fin 8) : sProp 𝕄 :=
  iprop(chunkPts c i (vfin m c) ∗ atPos ER (copyCell c i) 1 ∅ 0)

/-- The barrier cell before the wait for the seven entry signals. -/
def barI (c : Dev nD) : sProp 𝕄 := iprop(cred (tallyAt (barCell c) () 7) ∗ atPos ER (barCell c) 0 ∅ 0)

/-- Send `j`: the two duty tokens it pays with and the send cell's position; in flight; its share of row `c` back. -/
def sndT (c : Dev nD) (j : Fin 8) : sProp 𝕄 :=
  iprop(dutyTok ER (sendCell c j) 0 (0 : Fin 8) ∗ dutyTok ER (recvCell (sh c j) j) 0 (0 : Fin 8) ∗ atPos ER (sendCell c j) 0 ∅ 0)
def sndI (c : Dev nD) (j : Fin 8) : sProp 𝕄 :=
  iprop(cred (tallyAt (sendCell c j) () Nrow) ∗ atPos ER (sendCell c j) 0 ∅ 0)
def sndD (c : Dev nD) (j : Fin 8) : sProp 𝕄 :=
  iprop(rowPts c c (Transfers.shareTokN fullShare j.val) (commB m c) ∗ atPos ER (sendCell c j) 1 ∅ 0)

/-- Receive `j`: the launch credit and the position; the landed row. -/
def rcvI (c : Dev nD) (j : Fin 8) : sProp 𝕄 :=
  iprop(cred (tallyAt (recvCell c j) () Nrow) ∗ atPos ER (recvCell c j) 0 ∅ 0)
def rcvD (c : Dev nD) (j : Fin 8) : sProp 𝕄 :=
  iprop(rowPts c (bk c j) fullShare (commB m c) ∗ atPos ER (recvCell c j) 1 ∅ 0)

/-! ## The entry signal -/

theorem step_signal' (c : Dev nD) (Kn : Dev nD × Fin 25 → ℕ) (K : Fin 8) (n : ℕ) (hn : n < 7) (hK : K = jOf n) (W : Waits sig Unit)
    {α : Type} (k : PUnit → Prog (TpuEff nD τ sig (Elt F) Λ₀ .tc) α) (Q : α → sProp 𝕄) :
    iprop(records m Kn ∗ owes (c : Thread nD τ) (owedB c (n + 1)) W ∗ sigR c K)
      ⊢ iprop((owes (c : Thread nD τ) (owedB c n) W -∗ wp frame (wpE (defs₀ (F := F)) 𝒱₀ c none) Set.univ (k ⟨⟩) Q)
          -∗ wp frame (wpE (defs₀ (F := F)) 𝒱₀ c none) Set.univ (.op (.semSignal ((sh c K : Dev nD) : Thread nD τ) barS 1) k) Q) := by
  subst hK
  have hK0 := jOf_ne_zero n hn
  unfold sigR
  iintro ⟨#Hrec, HL, Htok, Hrow⟩ Hk
  ihave #HIb := (records_inv m Kn (sh c (jOf n), (0 : Fin 25))) $$ Hrec
  ihave #HRb := (records_reached m Kn (sh c (jOf n), (0 : Fin 25))) $$ Hrec
  ihave #HRr := (records_reached m Kn (c, recvN (ng (jOf n)))) $$ Hrec
  rw [kcell_recv]
  have hd : ng (jOf n) ∈ (sched (F := F) m).duties (barCell (sh c (jOf n))) 0 := by
    rw [duties_bar]; exact Finset.mem_erase.mpr ⟨ng_ne_zero _ hK0, Finset.mem_univ _⟩
  iapply (wp_signal 𝒱₀ ER (sched m) (c : Thread nD τ) none (dst := ((sh c (jOf n) : Dev nD) : Thread nD τ)) (sem := barS) (r := 0) (d := ng (jOf n)) (k' := 1)
    (κ := Kn (sh c (jOf n), 0)) hd (amount_bar m _ _) () (owedB c n) rfl) $$ [HL Htok Hrow] Hk
  isplitr; · iexact HIb
  isplitl [HL]; · iexact HL
  isplitl [Htok]; · iexact Htok
  isplitl [Hrow]
  · rw [payload_bar]; unfold barPay; rw [sh_ng]
    isplitl [Hrow]; · iexact Hrow
    iexact HRr
  iexact HRb

/-- Entry signal `K = jOf n` (`n` signals still to come after it): the duty's token and row `sh c K` of the
    device's own gather buffer go, and the signal comes off what the device owes. -/
theorem step_signal (c : Dev nD) (Kn : Dev nD × Fin 25 → ℕ) (K : Fin 8) (n : ℕ) (hn : n < 7) (hK : K = jOf n)
    {α : Type} (k : PUnit → Prog (TpuEff nD τ sig (Elt F) Λ₀ .tc) α) (Q : α → sProp 𝕄) :
    iprop(records m Kn ∗ owesX c (owedB c (n + 1)) ∗ sigR c K)
      ⊢ iprop((owesX c (owedB c n) -∗ wp frame (wpE (defs₀ (F := F)) 𝒱₀ c none) Set.univ (k ⟨⟩) Q)
          -∗ wp frame (wpE (defs₀ (F := F)) 𝒱₀ c none) Set.univ (.op (.semSignal ((sh c K : Dev nD) : Thread nD τ) barS 1) k) Q) := by
  unfold owesX
  iintro ⟨#Hrec, ⟨%W, HL⟩, HS⟩ Hk
  iapply (step_signal' m c Kn K n hn hK W k Q) $$ [HL HS]
  · isplitr; · iexact Hrec
    isplitl [HL]; · iexact HL
    iexact HS
  iintro HL
  iapply Hk
  iexists W
  iexact HL

end Cert.Kernel.Sum

end
-- ==== Proof.Word.Views.lean ====
/-
  The views: which elements of the gather buffer a row's view holds, and of the VMEM copy a chunk's; a buffer is its
  eight rows (chunks), pairwise disjoint; the row and chunk views the program spells through its offset chains are
  these.
-/
import proofs.«901086_g7700000000001087_dist_sum_ax0_shard0_i_m2048_n1024_v7x_i8_bf16_1_alg».proof.Proof.Word.Proto

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## The rows of the gather buffer -/

/-- The elements of row `r`: first coordinate `r`. -/
def rowSet (r : Fin 8) : Finset S8x1x1024.Idx := (Rect.unit (s := S8x1x1024) ![r.val, 0, 0] S1x1x1024.size (inb_row r)).set

omit [FloatOps F] in
theorem rowM_set (r : Fin 8) : (rowM r).view.set = rowSet r := by
  show (((View.whole cc0_scratch1).slice (Rect.unit (s := S8x1x1024) ![r.val, 0, 0] S1x1x1024.size (inb_row r))).reshape S1x1024 _).set = _
  rw [View.set_reshape, View.set_slice_whole]; rfl

theorem mem_rowSet (r : Fin 8) (i : S8x1x1024.Idx) : i ∈ rowSet r ↔ (i 0).val = r.val := by
  unfold rowSet
  rw [Rect.mem_set_unit]
  constructor
  · intro h
    have h0 := h 0
    simp only [Matrix.cons_val_zero] at h0
    have : S1x1x1024.size 0 = 1 := rfl
    omega
  · intro h a
    have h1 : (i 1).val < 1 := (i 1).isLt
    have h2 : (i 2).val < 1024 := (i 2).isLt
    match a with
    | ⟨0, _⟩ => exact ⟨by show r.val ≤ (i 0).val; omega, by show (i 0).val < r.val + 1; omega⟩
    | ⟨1, _⟩ => exact ⟨Nat.zero_le _, by show (i 1).val < 0 + 1; omega⟩
    | ⟨2, _⟩ => exact ⟨Nat.zero_le _, by show (i 2).val < 0 + 1024; omega⟩

theorem rowSet_disjoint (r r' : Fin 8) (h : r ≠ r') : Disjoint (rowSet r) (rowSet r') := by
  rw [Finset.disjoint_left]
  intro i hi hi'
  rw [mem_rowSet] at hi hi'
  exact h (Fin.ext (hi.symm.trans hi'))

/-- Every element of the buffer is in some row, whichever decision procedure for equality of indices the union is
    taken with. -/
theorem rowSet_cover [inst : DecidableEq S8x1x1024.Idx] :
    @Finset.biUnion (Fin 8) S8x1x1024.Idx inst Finset.univ (fun r => rowSet r) = Finset.univ := by
  ext i
  simp only [Finset.mem_biUnion, Finset.mem_univ, true_and, iff_true]
  exact ⟨⟨(i 0).val, (i 0).isLt⟩, (mem_rowSet _ i).mpr rfl⟩

omit [FloatOps F] in
/-- A device's gather buffer at a share is its eight rows at that share. -/
theorem buf_rows (c : Dev nD) (q : PosShare TreeShare) (f : Buf (Elt F) ((c : Thread nD τ).loc cc0_scratch1)) :
    (((c : Thread nD τ).loc cc0_scratch1) ↦{q} f : sProp 𝕄) = bigSep Finset.univ (fun r : Fin 8 => rowPts c r q f) := by
  have h := (pointsTo_biUnion (ℓ := (c : Thread nD τ).loc cc0_scratch1) (q := q) (f := f) (Finset.univ : Finset (Fin 8))
    (fun r => rowSet r) (fun r _ r' _ hne => rowSet_disjoint r r' hne) : (_ : sProp 𝕄) = _)
  rw [rowSet_cover] at h
  refine h.trans (bigSep_congr fun r _ => ?_)
  unfold rowPts
  rw [rowM_set]
  rfl

/-! ## The chunks of the VMEM copy -/

/-- The elements of chunk `i`: first coordinate `i`. -/
def chunkSet (i : Fin 8) : Finset S8x256x1024.Idx := (Rect.unit (s := S8x256x1024) ![i.val, 0, 0] S1x256x1024.size (inb_chunkV i)).set

omit [FloatOps F] in
theorem vDst_set (i : Fin 8) : (vDst i).view.set = chunkSet i := by
  show (((View.whole cc0_scratch0).slice (Rect.unit (s := S8x256x1024) ![i.val, 0, 0] S1x256x1024.size (inb_chunkV i))).reshape S256x1024 _).set = _
  rw [View.set_reshape, View.set_slice_whole]; rfl

theorem mem_chunkSet (i : Fin 8) (j : S8x256x1024.Idx) : j ∈ chunkSet i ↔ (j 0).val = i.val := by
  unfold chunkSet
  rw [Rect.mem_set_unit]
  constructor
  · intro h
    have h0 := h 0
    simp only [Matrix.cons_val_zero] at h0
    have : S1x256x1024.size 0 = 1 := rfl
    omega
  · intro h a
    have h1 : (j 1).val < 256 := (j 1).isLt
    have h2 : (j 2).val < 1024 := (j 2).isLt
    match a with
    | ⟨0, _⟩ => exact ⟨by show i.val ≤ (j 0).val; omega, by show (j 0).val < i.val + 1; omega⟩
    | ⟨1, _⟩ => exact ⟨Nat.zero_le _, by show (j 1).val < 0 + 256; omega⟩
    | ⟨2, _⟩ => exact ⟨Nat.zero_le _, by show (j 2).val < 0 + 1024; omega⟩

theorem chunkSet_disjoint (i i' : Fin 8) (h : i ≠ i') : Disjoint (chunkSet i) (chunkSet i') := by
  rw [Finset.disjoint_left]
  intro j hj hj'
  rw [mem_chunkSet] at hj hj'
  exact h (Fin.ext (hj.symm.trans hj'))

theorem chunkSet_cover [inst : DecidableEq S8x256x1024.Idx] :
    @Finset.biUnion (Fin 8) S8x256x1024.Idx inst Finset.univ (fun i => chunkSet i) = Finset.univ := by
  ext j
  simp only [Finset.mem_biUnion, Finset.mem_univ, true_and, iff_true]
  exact ⟨⟨(j 0).val, (j 0).isLt⟩, (mem_chunkSet _ j).mpr rfl⟩

omit [FloatOps F] in
/-- A device's VMEM copy, whole, is its eight chunks. -/
theorem buf_chunks (c : Dev nD) (f : Buf (Elt F) ((c : Thread nD τ).loc cc0_scratch0)) :
    (((c : Thread nD τ).loc cc0_scratch0) ↦{fullShare} f : sProp 𝕄) = bigSep Finset.univ (fun i : Fin 8 => chunkPts c i f) := by
  have h := (pointsTo_biUnion (ℓ := (c : Thread nD τ).loc cc0_scratch0) (q := fullShare) (f := f) (Finset.univ : Finset (Fin 8))
    (fun i => chunkSet i) (fun i _ i' _ hne => chunkSet_disjoint i i' hne) : (_ : sProp 𝕄) = _)
  rw [chunkSet_cover] at h
  refine h.trans (bigSep_congr fun i _ => ?_)
  unfold chunkPts
  rw [vDst_set]
  rfl

/-! ## The views the program spells through its offset chains -/

omit [FloatOps F] in
/-- The row the sends read and the send waits name: the device's own. -/
theorem row_off2 (c : Dev nD) :
    ((cM : Memref sig .tc .vmem S8x1x1024 .f32).slice (Rect.unit (s := S8x1x1024) (k0_off2 c) S1x1x1024.size (k0_off2_inb c)) (fun _ => rfl)).squeeze S1x1024
      squeezes_S1x1x1024_S1x1024 = rowM c := by
  unfold rowM
  rw [Memref.slice_unit_congr cM (k0_off2_eq c) (k0_off2_inb c) (inb_row c)]

/-- The offset the receive wait `1 + r` names is the row of the device `1 + r` places back. -/
theorem off3_eq (c : Dev nD) (r : Fin 7) :
    k0_off3 c (BitVec.ofNat 32 (1 + r.val)) = ![(bk c ⟨1 + r.val, by have := r.isLt; omega⟩).val, 0, 0] := by
  rw [k0_off3_eq]; revert c r; decide

omit [FloatOps F] in
theorem row_off3 (c : Dev nD) (r : Fin 7) :
    ((cM : Memref sig .tc .vmem S8x1x1024 .f32).slice (Rect.unit (s := S8x1x1024) (k0_off3 c (BitVec.ofNat 32 (1 + r.val))) S1x1x1024.size (k0_off3_inb c r))
      (fun _ => rfl)).squeeze S1x1024 squeezes_S1x1x1024_S1x1024 = rowM (bk c ⟨1 + r.val, by have := r.isLt; omega⟩) := by
  unfold rowM
  rw [Memref.slice_unit_congr cM (off3_eq c r) (k0_off3_inb c r) (inb_row _)]

omit [FloatOps F] in
/-- The rectangle the device's own column sums are stored through is its own row. -/
theorem access_off1_set (c : Dev nD) :
    ((cM : Memref sig .tc .vmem S8x1x1024 .f32).access (Rect.unit (s := S8x1x1024) (k0_off1 c) S1x1x1024.size (k0_off1_inb c))).set = rowSet c := by
  show ((View.whole cc0_scratch1).slice (Rect.unit (s := S8x1x1024) (k0_off1 c) S1x1x1024.size (k0_off1_inb c))).set = _
  rw [View.set_slice_whole, Rect.unit_congr (k0_off1_eq c) (k0_off1_inb c) (inb_row c)]
  rfl

end Cert.Kernel.Sum

end
-- ==== Proof.Word.Landed.lean ====
/-
  What each landing and each load holds. A chunk's transfer copies rows [256 i, 256 i + 256) of the device's block
  into slab i of its VMEM copy, element (y0, y1) of the one to element (i, y0, y1) of the other, so on that slab the
  copy holds the block's rows, whatever it held before. A row's transfer reads and writes through the same view, so
  on that row the destination holds the source's row. The store of a device's own column sums goes through its own
  row, and what it stores is that row of the gathered buffer. A load of slab i of the landed copy reads chunk i of
  the block; the load of the whole gathered buffer reads all eight rows; the last store writes the result whole.
-/
import proofs.«901086_g7700000000001087_dist_sum_ax0_shard0_i_m2048_n1024_v7x_i8_bf16_1_alg».proof.Proof.Word.Views
import Idealize.ShloMosaic.Lib.Pipeline.Value
import Idealize.ShloMosaic.Lib.ValueLayout

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Credits: every row's transfer has one credit, every chunk's another -/

theorem rowM_credit (r : Fin 8) : (rowM r).view.dmaCredit = Nrow := rfl
theorem vDst_credit (i : Fin 8) : (vDst i).view.dmaCredit = Nchunk := rfl
theorem rowM_amount (r : Fin 8) (q : DmaSem sig) : (rowM r).view.amount (.dma q) = Nrow := rfl
theorem vDst_amount (i : Fin 8) (q : DmaSem sig) : (vDst i).view.amount (.dma q) = Nchunk := rfl

/-! ## Where the views put their indices -/

/-- Element (a, b) of chunk i's destination view is element (i, a, b) of the VMEM copy. -/
theorem vDst_emb (i : Fin 8) (a : Fin 256) (b : Fin 1024) :
    ((vDst i).view.emb (ix2 a b) : S8x256x1024.Idx) = ix3 i a b := by
  show (Rect.unit (s := S8x256x1024) ![i.val, 0, 0] S1x256x1024.size (inb_chunkV i)).emb
      (Shape.reshapeEquiv (squeezes_S1x256x1024_S256x1024).numel_eq (ix2 a b)) = _
  rw [reshapeEquiv_ix2_1ab]
  funext k
  apply Fin.ext
  match k with
  | ⟨0, _⟩ => show i.val + 1 * 0 = i.val; omega
  | ⟨1, _⟩ => show 0 + 1 * a.val = a.val; omega
  | ⟨2, _⟩ => show 0 + 1 * b.val = b.val; omega

/-- Element (a, b) of chunk i's source view is element (256 i + a, b) of the block. -/
theorem xSrc_emb (i : Fin 8) (a : Fin 256) (b : Fin 1024) :
    ((xSrc i).view.emb (ix2 a b) : S2048x1024.Idx)
      = ix2 (⟨256 * i.val + a.val, by have := i.isLt; have := a.isLt; omega⟩ : Fin 2048) b := by
  funext k
  apply Fin.ext
  match k with
  | ⟨0, _⟩ => show 256 * i.val + 1 * a.val = 256 * i.val + a.val; omega
  | ⟨1, _⟩ => show 0 + 1 * b.val = b.val; omega

/-! ## (a) A landed chunk -/

/-- Whatever the slab held, once chunk i has landed it holds rows [256 i, 256 i + 256) of the block. -/
theorem landed_chunk (c : Dev nD) (i : Fin 8) (fd : Buf (Elt F) ((vDst i).view.loc (c : Thread nD τ))) :
    ((vDst i).view.loc (c : Thread nD τ) ↦[(vDst i).view.set]{fullShare}
        ((vDst i).view.write (Elt F) fd
          ((xSrc i).view.read (Elt F) (m ((c : Thread nD τ).loc main_arg0) : Buf (Elt F) ((xSrc i).view.loc (c : Thread nD τ))))
          Finset.univ) : sProp 𝕄)
      = chunkPts c i (vfin m c) := by
  unfold chunkPts
  refine pointsTo_congr fun j hj => ?_
  obtain ⟨y, rfl⟩ := View.exists_emb_of_mem_set (vDst i).view hj
  have hy := eq_ix2 y
  generalize y 0 = a at hy
  generalize y 1 = b at hy
  subst hy
  refine (View.write_emb_of_mem (v := (vDst i).view) fd _ (Finset.mem_univ (ix2 a b))).trans ?_
  show m ((c : Thread nD τ).loc main_arg0) ((xSrc i).view.emb (ix2 a b)) = vfin m c ((vDst i).view.emb (ix2 a b))
  have h1 := congrArg (xb m c) (xSrc_emb i a b)
  have h2 := congrArg (vfin m c) (vDst_emb i a b)
  exact h1.trans (h2.trans rfl).symm

/-! ## (b) A landed row -/

/-- Writing through a row's view what was read through it puts the source's row there. -/
theorem landed_row_of (c' : Dev nD) (r : Fin 8) (fd fs : Buf (Elt F) ((rowM r).view.loc (c' : Thread nD τ))) :
    ((rowM r).view.loc (c' : Thread nD τ) ↦[(rowM r).view.set]{fullShare}
        ((rowM r).view.write (Elt F) fd ((rowM r).view.read (Elt F) fs) Finset.univ) : sProp 𝕄)
      = rowPts c' r fullShare fs := by
  unfold rowPts
  refine pointsTo_congr fun j hj => ?_
  rw [View.write_read_eq_piecewise]
  exact Finset.piecewise_eq_of_mem _ _ _ (by rw [View.setOn_univ]; exact hj)

/-- The gathered buffer is the same on every device, so a row of it sent from one device lands as that row of the
    destination's. -/
theorem landed_row (c c' : Dev nD) (r : Fin 8) (fd : Buf (Elt F) ((rowM r).view.loc (c' : Thread nD τ))) :
    ((rowM r).view.loc (c' : Thread nD τ) ↦[(rowM r).view.set]{fullShare}
        ((rowM r).view.write (Elt F) fd
          ((rowM r).view.read (Elt F) (commB m c : Buf (Elt F) ((rowM r).view.loc (c : Thread nD τ)))) Finset.univ) : sProp 𝕄)
      = rowPts c' r fullShare (commB m c') :=
  landed_row_of c' r fd (commB m c')

/-! ## (c) The store of a device's own column sums -/

/-- The rectangle that store (and the load before it) goes through, at the offsets the program computes from the
    device's position: element y of it is element (c, y1, y2) of the gathered buffer. -/
theorem off1_emb (c : Dev nD) (y : S1x1x1024.Idx) :
    (((cM : Memref sig .tc .vmem S8x1x1024 .f32).access
        (Rect.unit (s := S8x1x1024) (k0_off1 c) S1x1x1024.size (k0_off1_inb c))).emb y : S8x1x1024.Idx)
      = ix3 c (y 1) (y 2) := by
  have h0 : (y 0).val = 0 := Nat.lt_one_iff.mp (y 0).isLt
  have hoff := k0_off1_eq c
  funext k
  apply Fin.ext
  match k with
  | ⟨0, _⟩ =>
    show k0_off1 c 0 + 1 * (y 0).val = c.val
    rw [hoff]; show c.val + 1 * (y 0).val = c.val; omega
  | ⟨1, _⟩ =>
    show k0_off1 c 1 + 1 * (y 1).val = (y 1).val
    rw [hoff]; show 0 + 1 * (y 1).val = (y 1).val; omega
  | ⟨2, _⟩ =>
    show k0_off1 c 2 + 1 * (y 2).val = (y 2).val
    rw [hoff]; show 0 + 1 * (y 2).val = (y 2).val; omega

/-- The store stays inside the device's own row, -/
theorem store_off1_sub (c : Dev nD) :
    ((cM : Memref sig .tc .vmem S8x1x1024 .f32).access
        (Rect.unit (s := S8x1x1024) (k0_off1 c) S1x1x1024.size (k0_off1_inb c))).setOn Finset.univ ⊆ (rowM c).view.set :=
  Finset.subset_of_eq ((View.setOn_univ _).trans ((access_off1_set c).trans (rowM_set c).symm))

/-- and so does the load before it. -/
theorem load_off1_sub (c : Dev nD) :
    (cM : Memref sig .tc .vmem S8x1x1024 .f32).view.setOn
        (Rect.unit (s := S8x1x1024) (k0_off1 c) S1x1x1024.size (k0_off1_inb c)).toLoadRect.set ⊆ (rowM c).view.set :=
  Finset.subset_of_eq ((View.set_slice (cM : Memref sig .tc .vmem S8x1x1024 .f32).view
    (Rect.unit (s := S8x1x1024) (k0_off1 c) S1x1x1024.size (k0_off1_inb c))).symm.trans
      ((access_off1_set c).trans (rowM_set c).symm))

/-- Once the block's column sums are stored, the device's own row is that row of the gathered buffer. -/
theorem stored_row (c : Dev nD) (f : Buf (Elt F) ((c : Thread nD τ).loc cc0_scratch1)) :
    (((cM : Memref sig .tc .vmem S8x1x1024 .f32).access
          (Rect.unit (s := S8x1x1024) (k0_off1 c) S1x1x1024.size (k0_off1_inb c))).loc (c : Thread nD τ) ↦[(rowM c).view.set]{fullShare}
        (((cM : Memref sig .tc .vmem S8x1x1024 .f32).access
          (Rect.unit (s := S8x1x1024) (k0_off1 c) S1x1x1024.size (k0_off1_inb c))).write (Elt F) f (rowv (xb m c)) Finset.univ) : sProp 𝕄)
      = rowPts c c fullShare (commB m c) := by
  unfold rowPts
  refine pointsTo_congr fun j hj => ?_
  have hj' : j ∈ ((cM : Memref sig .tc .vmem S8x1x1024 .f32).access
      (Rect.unit (s := S8x1x1024) (k0_off1 c) S1x1x1024.size (k0_off1_inb c))).set := by
    rw [access_off1_set, ← rowM_set]; exact hj
  obtain ⟨y, rfl⟩ := View.exists_emb_of_mem_set _ hj'
  refine (View.write_emb_of_mem (v := (cM : Memref sig .tc .vmem S8x1x1024 .f32).access
      (Rect.unit (s := S8x1x1024) (k0_off1 c) S1x1x1024.size (k0_off1_inb c))) f _ (Finset.mem_univ y)).trans ?_
  show rowv (xb m c) y = comm (xb m) (((cM : Memref sig .tc .vmem S8x1x1024 .f32).access
      (Rect.unit (s := S8x1x1024) (k0_off1 c) S1x1x1024.size (k0_off1_inb c))).emb y)
  have hy : y = ix3 (0 : Fin 1) (y 1) (y 2) := by
    funext k
    match k with
    | ⟨0, _⟩ => exact Fin.ext (Nat.lt_one_iff.mp (y 0).isLt)
    | ⟨1, _⟩ => rfl
    | ⟨2, _⟩ => rfl
  have h1 := congrArg (rowv (xb m c)) hy
  have h2 := congrArg (comm (xb m)) (off1_emb c y)
  exact h1.trans (h2.trans rfl).symm

/-! ## (d) The loads of the landed chunks -/

/-- The load of slab i stays inside chunk i's set, -/
theorem chunk_load_sub (i : Fin 8) :
    (vM : Memref sig .tc .vmem S8x256x1024 .f32).view.setOn
        (Rect.unit (s := S8x256x1024) ![i.val, 0, 0] S1x256x1024.size (inb_chunkV i)).toLoadRect.set ⊆ (vDst i).view.set :=
  Finset.subset_of_eq ((View.set_slice (vM : Memref sig .tc .vmem S8x256x1024 .f32).view
    (Rect.unit (s := S8x256x1024) ![i.val, 0, 0] S1x256x1024.size (inb_chunkV i))).symm.trans
      ((View.set_slice_whole cc0_scratch0 _).trans (vDst_set i).symm))

/-- and reads chunk i of the block. -/
theorem chunk_load (c : Dev nD) (i : Fin 8) :
    (vM : Memref sig .tc .vmem S8x256x1024 .f32).view.readAt (Elt F)
        (Rect.unit (s := S8x256x1024) ![i.val, 0, 0] S1x256x1024.size (inb_chunkV i)).toLoadRect (vfin m c)
      = chunk (xb m c) i := by
  funext x
  show vfin m c ((Rect.unit (s := S8x256x1024) ![i.val, 0, 0] S1x256x1024.size (inb_chunkV i)).emb x) = chunk (xb m c) i x
  have h0 : (x 0).val = 0 := Nat.lt_one_iff.mp (x 0).isLt
  have hx : x = ix3 (0 : Fin 1) (x 1) (x 2) := by
    funext k
    match k with
    | ⟨0, _⟩ => exact Fin.ext h0
    | ⟨1, _⟩ => rfl
    | ⟨2, _⟩ => rfl
  have he : ((Rect.unit (s := S8x256x1024) ![i.val, 0, 0] S1x256x1024.size (inb_chunkV i)).emb x : S8x256x1024.Idx)
      = ix3 i (x 1) (x 2) := by
    funext k
    apply Fin.ext
    match k with
    | ⟨0, _⟩ => show i.val + 1 * (x 0).val = i.val; omega
    | ⟨1, _⟩ => show 0 + 1 * (x 1).val = (x 1).val; omega
    | ⟨2, _⟩ => show 0 + 1 * (x 2).val = (x 2).val; omega
  have h1 := congrArg (vfin m c) he
  have h2 := congrArg (chunk (xb m c) i) hx
  exact h1.trans (h2.trans rfl).symm

/-- The same at each literal slab, as the program spells the rectangle. -/
theorem chunk_load0 (c : Dev nD) :
    (vM : Memref sig .tc .vmem S8x256x1024 .f32).view.readAt (Elt F)
        (Rect.unit (s := S8x256x1024) ![0, 0, 0] S1x256x1024.size inb_S8x256x1024_S1x256x1024_0_0_0).toLoadRect (vfin m c)
      = chunk (xb m c) 0 := chunk_load m c 0
theorem chunk_load1 (c : Dev nD) :
    (vM : Memref sig .tc .vmem S8x256x1024 .f32).view.readAt (Elt F)
        (Rect.unit (s := S8x256x1024) ![1, 0, 0] S1x256x1024.size inb_S8x256x1024_S1x256x1024_1_0_0).toLoadRect (vfin m c)
      = chunk (xb m c) 1 := chunk_load m c 1
theorem chunk_load2 (c : Dev nD) :
    (vM : Memref sig .tc .vmem S8x256x1024 .f32).view.readAt (Elt F)
        (Rect.unit (s := S8x256x1024) ![2, 0, 0] S1x256x1024.size inb_S8x256x1024_S1x256x1024_2_0_0).toLoadRect (vfin m c)
      = chunk (xb m c) 2 := chunk_load m c 2
theorem chunk_load3 (c : Dev nD) :
    (vM : Memref sig .tc .vmem S8x256x1024 .f32).view.readAt (Elt F)
        (Rect.unit (s := S8x256x1024) ![3, 0, 0] S1x256x1024.size inb_S8x256x1024_S1x256x1024_3_0_0).toLoadRect (vfin m c)
      = chunk (xb m c) 3 := chunk_load m c 3
theorem chunk_load4 (c : Dev nD) :
    (vM : Memref sig .tc .vmem S8x256x1024 .f32).view.readAt (Elt F)
        (Rect.unit (s := S8x256x1024) ![4, 0, 0] S1x256x1024.size inb_S8x256x1024_S1x256x1024_4_0_0).toLoadRect (vfin m c)
      = chunk (xb m c) 4 := chunk_load m c 4
theorem chunk_load5 (c : Dev nD) :
    (vM : Memref sig .tc .vmem S8x256x1024 .f32).view.readAt (Elt F)
        (Rect.unit (s := S8x256x1024) ![5, 0, 0] S1x256x1024.size inb_S8x256x1024_S1x256x1024_5_0_0).toLoadRect (vfin m c)
      = chunk (xb m c) 5 := chunk_load m c 5
theorem chunk_load6 (c : Dev nD) :
    (vM : Memref sig .tc .vmem S8x256x1024 .f32).view.readAt (Elt F)
        (Rect.unit (s := S8x256x1024) ![6, 0, 0] S1x256x1024.size inb_S8x256x1024_S1x256x1024_6_0_0).toLoadRect (vfin m c)
      = chunk (xb m c) 6 := chunk_load m c 6
theorem chunk_load7 (c : Dev nD) :
    (vM : Memref sig .tc .vmem S8x256x1024 .f32).view.readAt (Elt F)
        (Rect.unit (s := S8x256x1024) ![7, 0, 0] S1x256x1024.size inb_S8x256x1024_S1x256x1024_7_0_0).toLoadRect (vfin m c)
      = chunk (xb m c) 7 := chunk_load m c 7

/-! ## (d) The load of the whole gathered buffer, and the last store -/

theorem comm_load (c : Dev nD) :
    (cM : Memref sig .tc .vmem S8x1x1024 .f32).view.readAt (Elt F)
        (Rect.unit (s := S8x1x1024) ![0, 0, 0] S8x1x1024.size inb_S8x1x1024_S8x1x1024_0_0_0).toLoadRect (commB m c)
      = comm (xb m) :=
  Memref.readAt_unit_zero (Elt F) cc0_scratch1 (funext fun a => by fin_cases a <;> rfl) _ _

theorem out_store (f : (cc0_stg0_0 : Ref sig .tc).ty.Contents (Elt F)) :
    ((Memref.whole cc0_stg0_0 : Memref sig .tc .vmem S1x1024 .f32).access
        (Rect.unit (s := S1x1024) ![0, 0] S1x1024.size inb_S1x1024_S1x1024_0_0)).write (Elt F) f (outv (xb m)) Finset.univ
      = outv (xb m) :=
  Memref.write_access_unit_zero_univ (Elt F) cc0_stg0_0 (funext fun a => by fin_cases a <;> rfl) _ _ _

/-- info: 'Cert.Kernel.Sum.landed_chunk' depends on axioms: [propext, Classical.choice, Quot.sound] -/
#guard_msgs in #print axioms landed_chunk

/-- info: 'Cert.Kernel.Sum.landed_row' depends on axioms: [propext, Classical.choice, Quot.sound] -/
#guard_msgs in #print axioms landed_row

/-- info: 'Cert.Kernel.Sum.stored_row' depends on axioms: [propext, Classical.choice, Quot.sound] -/
#guard_msgs in #print axioms stored_row

/-- info: 'Cert.Kernel.Sum.chunk_load' depends on axioms: [propext, Classical.choice, Quot.sound] -/
#guard_msgs in #print axioms chunk_load

/-- info: 'Cert.Kernel.Sum.out_store' depends on axioms: [propext, Classical.choice, Quot.sound] -/
#guard_msgs in #print axioms out_store

end Cert.Kernel.Sum

end
-- ==== Proof.Word.BodyCopy.lean ====
/-
  The eight local transfers of the block into VMEM: the issue of one, the wait for it, and the load of the landed chunk.
-/
import proofs.«901086_g7700000000001087_dist_sum_ax0_shard0_i_m2048_n1024_v7x_i8_bf16_1_alg».proof.Proof.Word.BodyA
import proofs.«901086_g7700000000001087_dist_sum_ax0_shard0_i_m2048_n1024_v7x_i8_bf16_1_alg».proof.Proof.Word.Landed

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The transfer of chunk `i` issued: its duty's token, the read token and the VMEM chunk go in; the credit to wait with comes back. -/
theorem step_copy (c : Dev nD) (Kn : Dev nD × Fin 25 → ℕ) (i : Fin 8)
    {hsrc : (xSrc i).view.WordExact} {hdst : (vDst i).view.WordExact} {hsem : DmaTarget.Typed (nD := nD) (p := Proc.tc) .hbm (.dma (copyS i)) (.here (vDst i))}
    {α : Type} (k : PUnit → Prog (TpuEff nD τ sig (Elt F) Λ₀ .tc) α) (Q : α → sProp 𝕄) :
    iprop(records m Kn ∗ cpyR m c i)
      ⊢ iprop((cpyI c i -∗ wp frame (wpE (defs₀ (F := F)) 𝒱₀ c none) Set.univ (k ⟨⟩) Q)
          -∗ wp frame (wpE (defs₀ (F := F)) 𝒱₀ c none) Set.univ (.op (.enqueueDma (xSrc i) (.here (vDst i)) (.dma (copyS i)) hsrc hdst hsem) k) Q) := by
  unfold cpyR cpyI xTok chunkPts
  iintro ⟨#Hrec, Htok, Hx, ⟨%f, Hv⟩, Hat⟩ Hk
  ihave #HI := (records_inv m Kn (c, copyN i)) $$ Hrec
  ihave #HR := (records_reached m Kn (c, copyN i)) $$ Hrec
  rw [kcell_copy]
  have hd : (0 : Fin 8) ∈ (sched (F := F) m).duties (copyCell c i) 0 := by
    rw [duties_copy]; exact Finset.mem_singleton_self _
  -- What the landing delivers makes the duty's payload: the slab rewritten with rows [256 i, 256 i + 256) of the block
  -- is the landed chunk whatever it held before, and the read share that comes back with it is not needed.
  have hpay : iprop(((vDst i).view.loc (c : Thread nD τ) ↦[(vDst i).view.set]{fullShare}
        ((vDst i).view.write (Elt F) (f : Buf (Elt F) ((vDst i).view.loc (c : Thread nD τ)))
          ((xSrc i).view.read (Elt F) (m ((c : Thread nD τ).loc main_arg0) : Buf (Elt F) ((xSrc i).view.loc (c : Thread nD τ))))
          Finset.univ))
      ∗ ((xSrc i).view.loc (c : Thread nD τ) ↦[(xSrc i).view.set]{Transfers.shareTokN fullShare i.val}
          (m ((c : Thread nD τ).loc main_arg0) : Buf (Elt F) ((xSrc i).view.loc (c : Thread nD τ)))))
      ⊢ (sched (F := F) m).payload (copyCell c i) 0 (0 : Fin 8) := by
    rw [payload_copy]; unfold copyPay
    exact (BI.Entails.trans BI.sep_and and_elimL).trans (BIBase.Entails.of_eq (landed_chunk m c i f))
  iapply (wp_copy_pointsTo 𝒱₀ ER (sched m) (c : Thread nD τ) none (src := xSrc i) (dst := vDst i) (sem := .dma (copyS i))
    (q := Transfers.shareTokN fullShare i.val)
    (fs := (m ((c : Thread nD τ).loc main_arg0) : Buf (Elt F) ((xSrc i).view.loc (c : Thread nD τ))))
    (fd := (f : Buf (Elt F) ((vDst i).view.loc (c : Thread nD τ)))) (r := 0) (d := (0 : Fin 8)) (κ := Kn (c, copyN i))
    hd () Nchunk (vDst_amount i (copyS i)) (amount_copy m c i 0) hpay) $$ [Htok Hx Hv] [Hk Hat]
  · isplitr; · iexact HI
    isplitl [Hx]; · iexact Hx
    isplitl [Hv]; · iexact Hv
    isplitl [Htok]; · iexact Htok
    iexact HR
  iintro Hc
  iapply Hk
  isplitl [Hc]; · iexact Hc
  iexact Hat

/-- The wait for chunk `i` while the device still owes its seven receive credits: the chunk comes back landed. -/
theorem step_copy_wait (c : Dev nD) (Kn : Dev nD × Fin 25 → ℕ) (i : Fin 8)
    {sp : Space} {s : Shape} {e : EltTy} {src : Memref sig .tc sp s e} {hsrc : src.view.WordExact} {hdst : (vDst i).view.WordExact}
    {α : Type} (k : PUnit → Prog (TpuEff nD τ sig (Elt F) Λ₀ .tc) α) (Q : α → sProp 𝕄) :
    iprop(records m Kn ∗ levAts L lv ∗ owesX c (owedS c 7) ∗ cpyI c i)
      ⊢ iprop(((owesX c (owedS c 7) ∗ cpyD m c i) -∗ wp frame (wpE (defs₀ (F := F)) 𝒱₀ c none) Set.univ (k ⟨⟩) Q)
          -∗ wp frame (wpE (defs₀ (F := F)) 𝒱₀ c none) Set.univ (.op (.waitDma2 (copyS i) src (vDst i) hsrc hdst) k) Q) := by
  unfold owesX cpyI cpyD
  rw [← vDst_credit i]
  iintro ⟨#Hrec, Hlev, ⟨%W, HL⟩, Hc, Hat⟩ Hk
  ihave #HI := (records_inv m Kn (c, copyN i)) $$ Hrec
  rw [kcell_copy]
  -- A chunk's semaphore is numbered below every receive semaphore, the only cells the device still owes.
  have hq : (copyS i).val < 17 := by rw [copyS_val]; have := i.isLt; omega
  ihave HMW := (mayWait_low (F := F) c (copyS i) hq 7) $$ Hlev
  iapply (wp_wait_rest_token 𝒱₀ ER (sched m) (c : Thread nD τ) none
    (w := .waitDma2 (copyS i) src (vDst i) hsrc hdst) (sm := .dma (copyS i)) (k' := (vDst i).view.dmaCredit)
    (κ := Kn (c, copyN i)) (wpE_waitDma2_eq 𝒱₀ (c : Thread nD τ) none Set.univ) (Set.mem_univ _) ()
    (O := owedS c 7) (W := W) (R := 0) (m := 0) (T := ∅)
    ((Nat.zero_add _).trans ((vDst_credit i).trans (expect_copy m c i).symm))) $$ [HL Hc Hat HMW]
  · isplitr; · iexact HI
    isplitl [Hc]; · iexact Hc
    isplitl [HL]; · iexact HL
    isplitl [HMW]; · iexact HMW
    iexact Hat
  -- The round has the one duty, so the rest of it is that duty's payload: the landed chunk.
  have hrest : bigSep ((sched (F := F) m).duties (copyCell c i) 0 \ ∅) (fun d => (sched (F := F) m).payload (copyCell c i) 0 d)
      = chunkPts c i (vfin m c) := rest_copy m c i
  iintro ⟨HL, Hat, #Hr, Hpay⟩
  ihave Hpay' := (BIBase.Entails.of_eq hrest) $$ Hpay
  iapply Hk
  isplitl [HL]
  · iexists _; iexact HL
  isplitl [Hpay']; · iexact Hpay'
  iexact Hat

omit [FloatOps F] in
/-- A chunk of the VMEM copy is held through the whole buffer's location: the slab's view and the buffer's name the same buffer. -/
theorem chunkPts_whole (c : Dev nD) (i : Fin 8) (f : Buf (Elt F) ((c : Thread nD τ).loc cc0_scratch0)) :
    chunkPts c i f
      = ((vM : Memref sig .tc .vmem S8x256x1024 .f32).view.loc (c : Thread nD τ) ↦[(vDst i).view.set]{fullShare}
          (f : Buf (Elt F) ((vM : Memref sig .tc .vmem S8x256x1024 .f32).view.loc (c : Thread nD τ))) : sProp 𝕄) := rfl

/-- The load of the landed chunk `i` reads rows `[256 i, 256 i + 256)` of the block. -/
theorem step_load_chunk (c : Dev nD) (i : Fin 8)
    {hl : vM.view.LoadsAt (Rect.unit (s := S8x256x1024) ![i.val, 0, 0] S1x256x1024.size (inb_chunkV i)).toLoadRect}
    {α : Type} (k : Vec F S1x256x1024 .f32 → Prog (TpuEff nD τ sig (Elt F) Λ₀ .tc) α) (Q : α → sProp 𝕄) :
    cpyD m c i
      ⊢ iprop((cpyD m c i -∗ wp frame (wpE (defs₀ (F := F)) 𝒱₀ c none) Set.univ (k (chunk (xb m c) i)) Q)
          -∗ wp frame (wpE (defs₀ (F := F)) 𝒱₀ c none) Set.univ (.op (.load vM (Rect.unit (s := S8x256x1024) ![i.val, 0, 0] S1x256x1024.size (inb_chunkV i)).toLoadRect hl) k) Q) := by
  unfold cpyD
  rw [chunkPts_whole, ← chunk_load m c i]
  iintro ⟨Hv, Hat⟩ Hk
  iapply (wp_load 𝒱₀ (c : Thread nD τ) none Set.univ (m := vM) (S := (vDst i).view.set) (q := fullShare)
    (f := (vfin m c : Buf (Elt F) (vM.view.loc (c : Thread nD τ)))) (chunk_load_sub i)) $$ Hv
  iintro Hv
  iapply Hk
  isplitl [Hv]; · iexact Hv
  iexact Hat

/-- info: 'Cert.Kernel.Sum.step_copy' depends on axioms: [propext, Classical.choice, Quot.sound] -/
#guard_msgs in #print axioms step_copy

/-- info: 'Cert.Kernel.Sum.step_copy_wait' depends on axioms: [propext, Classical.choice, Quot.sound] -/
#guard_msgs in #print axioms step_copy_wait

/-- info: 'Cert.Kernel.Sum.step_load_chunk' depends on axioms: [propext, Classical.choice, Quot.sound] -/
#guard_msgs in #print axioms step_load_chunk

end Cert.Kernel.Sum

end
-- ==== Proof.Word.BodySend.lean ====
/-
  One remote transfer of the device's own row into another device's gather buffer.
-/
import proofs.«901086_g7700000000001087_dist_sum_ax0_shard0_i_m2048_n1024_v7x_i8_bf16_1_alg».proof.Proof.Word.BodyA
import proofs.«901086_g7700000000001087_dist_sum_ax0_shard0_i_m2048_n1024_v7x_i8_bf16_1_alg».proof.Proof.Word.Landed

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Send `j = jOf n` (`n` sends still to come after it): the two duties' tokens, share `j` of the device's own row and
    the destination row the signal from `sh c j` handed over go in; the send cell's credit comes back and the receive
    credit comes off what the device owes. -/
theorem step_send (c : Dev nD) (Kn : Dev nD × Fin 25 → ℕ) (j : Fin 8) (n : ℕ) (hn : n < 7) (hj : j = jOf n)
    {hsc : (rowM c).view.ref.isScScratch = false} {hsrc : (rowM c).view.WordExact} {hdst : (rowM c).view.WordExact}
    {hsem : DmaTarget.Typed (nD := nD) (p := Proc.tc) .vmem (.dma (recvS j)) (.remote ((sh c j : Dev nD) : Thread nD τ) (rowM c) (.dma (sendS j)) hsc)}
    {α : Type} (k : PUnit → Prog (TpuEff nD τ sig (Elt F) Λ₀ .tc) α) (Q : α → sProp 𝕄) :
    iprop(records m Kn ∗ owesX c (owedS c (n + 1)) ∗ sndT c j ∗ rowPts c c (Transfers.shareTokN fullShare j.val) (commB m c) ∗ barPay c j)
      ⊢ iprop(((sndI c j ∗ owesX c (owedS c n)) -∗ wp frame (wpE (defs₀ (F := F)) 𝒱₀ c none) Set.univ (k ⟨⟩) Q)
          -∗ wp frame (wpE (defs₀ (F := F)) 𝒱₀ c none) Set.univ (.op (.enqueueDma (rowM c) (.remote ((sh c j : Dev nD) : Thread nD τ) (rowM c) (.dma (sendS j)) hsc) (.dma (recvS j)) hsrc hdst hsem) k) Q) := by
  subst hj
  have hj0 := jOf_ne_zero n hn
  have hd₁ : (0 : Fin 8) ∈ (sched (F := F) m).duties (sendCell c (jOf n)) 0 := by
    rw [duties_send m c (jOf n) hj0]; exact Finset.mem_singleton_self _
  have hd₂ : (0 : Fin 8) ∈ (sched (F := F) m).duties (recvCell (sh c (jOf n)) (jOf n)) 0 := by
    rw [duties_recv m (sh c (jOf n)) (jOf n) hj0]; exact Finset.mem_singleton_self _
  have hpay₁ : ((rowM c).view.loc (c : Thread nD τ) ↦[(rowM c).view.set]{Transfers.shareTokN fullShare (jOf n).val}
        (commB m c : Buf (Elt F) ((rowM c).view.loc (c : Thread nD τ))) : sProp 𝕄)
      ⊢ (sched (F := F) m).payload (sendCell c (jOf n)) 0 (0 : Fin 8) := by
    rw [payload_send]; exact BI.Entails.refl _
  unfold sndT sndI owesX barPay
  iintro ⟨#Hrec, ⟨%W, HL⟩, ⟨HtS, HtR, Hat⟩, Hsrc, ⟨%fd, Hdst⟩, #HRr⟩ Hk
  have hpay₂ : ((rowM c).view.loc ((sh c (jOf n) : Dev nD) : Thread nD τ) ↦[(rowM c).view.set]{fullShare}
        ((rowM c).view.write (Elt F) (fd : Buf (Elt F) ((rowM c).view.loc ((sh c (jOf n) : Dev nD) : Thread nD τ)))
          ((rowM c).view.read (Elt F) (commB m c : Buf (Elt F) ((rowM c).view.loc (c : Thread nD τ)))) Finset.univ) : sProp 𝕄)
      ⊢ (sched (F := F) m).payload (recvCell (sh c (jOf n)) (jOf n)) 0 (0 : Fin 8) := by
    rw [payload_recv]; unfold recvPay; rw [bk_sh]
    exact Entails.of_eq (landed_row m c (sh c (jOf n)) c fd)
  ihave #HIs := (records_inv m Kn (c, sendN (jOf n))) $$ Hrec
  ihave #HIr := (records_inv m Kn (sh c (jOf n), recvN (jOf n))) $$ Hrec
  ihave #HRs := (records_reached m Kn (c, sendN (jOf n))) $$ Hrec
  rw [kcell_send, kcell_recv]
  iapply (wp_send_pointsTo 𝒱₀ ER (sched m) (c : Thread nD τ) none (c' := ((sh c (jOf n) : Dev nD) : Thread nD τ))
    (src := rowM c) (dst := rowM c) (sS := .dma (sendS (jOf n))) (sem := .dma (recvS (jOf n)))
    (q := Transfers.shareTokN fullShare (jOf n).val) (fs := (commB m c : Buf (Elt F) ((rowM c).view.loc (c : Thread nD τ))))
    (fd := (fd : Buf (Elt F) ((rowM c).view.loc ((sh c (jOf n) : Dev nD) : Thread nD τ))))
    (r₁ := 0) (r₂ := 0) (d₁ := (0 : Fin 8)) (d₂ := (0 : Fin 8))
    (κ₁ := Kn (c, sendN (jOf n))) (κ₂ := Kn (sh c (jOf n), recvN (jOf n)))
    hd₁ hd₂ () () Nrow (rowM_amount c _) (amount_send m c _ _) (amount_recv m _ _ _) (owedS c n) rfl hpay₁ hpay₂) $$ [HL HtS HtR Hsrc Hdst] [Hk Hat]
  · isplitr; · iexact HIs
    isplitr; · iexact HIr
    isplitl [Hsrc]; · unfold rowPts; iexact Hsrc
    isplitl [Hdst]; · unfold rowPts; iexact Hdst
    isplitl [HL]; · iexact HL
    isplitl [HtS]; · iexact HtS
    isplitr; · iexact HRs
    isplitl [HtR]; · iexact HtR
    iexact HRr
  · iintro ⟨Hcr, HL⟩
    iapply Hk
    isplitl [Hcr Hat]
    · isplitl [Hcr] <;> iassumption
    · iexists W; iexact HL
/-- info: 'Cert.Kernel.Sum.step_send' depends on axioms: [propext, Classical.choice, Quot.sound] -/
#guard_msgs in #print axioms step_send

end Cert.Kernel.Sum

end
-- ==== Proof.Word.BodyWait.lean ====
/-
  The waits others pay: for the seven entry signals, for a row sent to this device, and for one of its own sends.
-/
import proofs.«901086_g7700000000001087_dist_sum_ax0_shard0_i_m2048_n1024_v7x_i8_bf16_1_alg».proof.Proof.Word.BodyA

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait for the seven entry signals, while the device owes its seven receive credits: each signal's payload comes
    back, the row of the signaller's gather buffer this device's transfer fills and that the signaller's receive cell is open. -/
theorem step_bar_wait (c : Dev nD) (Kn : Dev nD × Fin 25 → ℕ) {α : Type} (k : PUnit → Prog (TpuEff nD τ sig (Elt F) Λ₀ .tc) α) (Q : α → sProp 𝕄) :
    iprop(records m Kn ∗ levAts L lv ∗ owesX c (owedS c 7) ∗ barI c)
      ⊢ iprop(((owesX c (owedS c 7) ∗ atPos ER (barCell c) 1 ∅ 0 ∗ bigSepL [1, 2, 3, 4, 5, 6, 7] (fun j : Fin 8 => barPay (F := F) c j))
            -∗ wp frame (wpE (defs₀ (F := F)) 𝒱₀ c none) Set.univ (k ⟨⟩) Q)
          -∗ wp frame (wpE (defs₀ (F := F)) 𝒱₀ c none) Set.univ (.op (.semWait barS 7) k) Q) := by
  unfold owesX barI
  iintro ⟨#Hrec, #Hlev, ⟨%W, HL⟩, Hc, Hat⟩ Hk
  ihave #HIb := (records_inv m Kn (c, (0 : Fin 25))) $$ Hrec
  iapply (wp_wait_rest_token 𝒱₀ ER (sched m) (c : Thread nD τ) none (κ := Kn (c, 0)) (sm := .reg barS) (k' := 7)
      (wpE_semWait_eq 𝒱₀ (c : Thread nD τ) none Set.univ) (Set.mem_univ _) () (O := owedS c 7) (W := W) (R := 0) (m := 0) (T := ∅)
      (by rw [expect_bar])) $$ [HL Hc Hat]
  · isplitr; · iexact HIb
    isplitl [Hc]; · iexact Hc
    isplitl [HL]; · iexact HL
    isplitr; · iapply (mayWait_bar c); iexact Hlev
    iexact Hat
  iintro ⟨HL, Hat, -, Hpay⟩
  iapply Hk
  isplitl [HL]; · iexists (insert (SemLoc.reg barS, ()) W); iexact HL
  isplitl [Hat]; · iexact Hat
  ihave Hp := (Entails.of_eq ((rest_bar m c).trans
    (bigSep_eq_bigSepL_of_eq [1, 2, 3, 4, 5, 6, 7] (by decide) (by decide) (fun j : Fin 8 => barPay (F := F) c j)))) $$ Hpay
  iexact Hp
/-- The wait for send `j` once the device owes nothing: its share of the device's own row comes back. -/
theorem step_send_wait (c : Dev nD) (Kn : Dev nD × Fin 25 → ℕ) (j : Fin 8) (hj : j ≠ 0)
    {sp sp' : Space} {s : Shape} {e : EltTy} {src : Memref sig .tc sp s e} {dst : Memref sig .tc sp' s e}
    {hsrc : src.view.WordExact} {hdst : dst.view.WordExact} (hN : dst.view.dmaCredit = Nrow)
    {α : Type} (k : PUnit → Prog (TpuEff nD τ sig (Elt F) Λ₀ .tc) α) (Q : α → sProp 𝕄) :
    iprop(records m Kn ∗ owesX c 0 ∗ sndI c j)
      ⊢ iprop(((owesX c 0 ∗ sndD m c j) -∗ wp frame (wpE (defs₀ (F := F)) 𝒱₀ c none) Set.univ (k ⟨⟩) Q)
          -∗ wp frame (wpE (defs₀ (F := F)) 𝒱₀ c none) Set.univ (.op (.waitDma2 (sendS j) src dst hsrc hdst) k) Q) := by
  unfold owesX sndI sndD
  iintro ⟨#Hrec, ⟨%W, HL⟩, Hc, Hat⟩ Hk
  ihave #HI := (records_inv m Kn (c, sendN j)) $$ Hrec
  rw [kcell_send]
  iapply (wp_wait_rest_token 𝒱₀ ER (sched m) (c : Thread nD τ) none (κ := Kn (c, sendN j)) (sm := .dma (sendS j)) (k' := dst.view.dmaCredit)
      (wpE_waitDma2_eq 𝒱₀ (c : Thread nD τ) none Set.univ) (Set.mem_univ _) () (O := 0) (W := W) (R := 0) (m := 0) (T := ∅)
      (by rw [Nat.zero_add, expect_send m c j hj, hN])) $$ [HL Hc Hat]
  · isplitr; · iexact HI
    isplitl [Hc]; · rw [hN]; iexact Hc
    isplitl [HL]; · iexact HL
    isplitr; · rw [MayWait_zero]; iempintro
    iexact Hat
  iintro ⟨HL, Hat, -, Hpay⟩
  iapply Hk
  isplitl [HL]; · iexists (insert (SemLoc.dma (sendS j), ()) W); iexact HL
  ihave Hp := (Entails.of_eq (rest_send m c j hj)) $$ Hpay
  unfold sendPay
  isplitl [Hp]; · iexact Hp
  iexact Hat

/-- The wait for the row of the device `j` places back once this device owes nothing: the row comes back landed. -/
theorem step_recv_wait (c : Dev nD) (Kn : Dev nD × Fin 25 → ℕ) (j : Fin 8) (hj : j ≠ 0)
    {sp sp' : Space} {s : Shape} {e : EltTy} {src : Memref sig .tc sp s e} {dst : Memref sig .tc sp' s e}
    {hsrc : src.view.WordExact} {hdst : dst.view.WordExact} (hN : dst.view.dmaCredit = Nrow)
    {α : Type} (k : PUnit → Prog (TpuEff nD τ sig (Elt F) Λ₀ .tc) α) (Q : α → sProp 𝕄) :
    iprop(records m Kn ∗ owesX c 0 ∗ rcvI c j)
      ⊢ iprop(((owesX c 0 ∗ rcvD m c j) -∗ wp frame (wpE (defs₀ (F := F)) 𝒱₀ c none) Set.univ (k ⟨⟩) Q)
          -∗ wp frame (wpE (defs₀ (F := F)) 𝒱₀ c none) Set.univ (.op (.waitDma2 (recvS j) src dst hsrc hdst) k) Q) := by
  unfold owesX rcvI rcvD
  iintro ⟨#Hrec, ⟨%W, HL⟩, Hc, Hat⟩ Hk
  ihave #HI := (records_inv m Kn (c, recvN j)) $$ Hrec
  rw [kcell_recv]
  iapply (wp_wait_rest_token 𝒱₀ ER (sched m) (c : Thread nD τ) none (κ := Kn (c, recvN j)) (sm := .dma (recvS j)) (k' := dst.view.dmaCredit)
      (wpE_waitDma2_eq 𝒱₀ (c : Thread nD τ) none Set.univ) (Set.mem_univ _) () (O := 0) (W := W) (R := 0) (m := 0) (T := ∅)
      (by rw [Nat.zero_add, expect_recv m c j hj, hN])) $$ [HL Hc Hat]
  · isplitr; · iexact HI
    isplitl [Hc]; · rw [hN]; iexact Hc
    isplitl [HL]; · iexact HL
    isplitr; · rw [MayWait_zero]; iempintro
    iexact Hat
  iintro ⟨HL, Hat, -, Hpay⟩
  iapply Hk
  isplitl [HL]; · iexists (insert (SemLoc.dma (recvS j), ()) W); iexact HL
  ihave Hp := (Entails.of_eq (rest_recv m c j hj)) $$ Hpay
  unfold recvPay
  isplitl [Hp]; · iexact Hp
  iexact Hat

/-- info: 'Cert.Kernel.Sum.step_bar_wait' depends on axioms: [propext, Classical.choice, Quot.sound] -/
#guard_msgs in #print axioms step_bar_wait

/-- info: 'Cert.Kernel.Sum.step_send_wait' depends on axioms: [propext, Classical.choice, Quot.sound] -/
#guard_msgs in #print axioms step_send_wait

/-- info: 'Cert.Kernel.Sum.step_recv_wait' depends on axioms: [propext, Classical.choice, Quot.sound] -/
#guard_msgs in #print axioms step_recv_wait

end Cert.Kernel.Sum

end
-- ==== Proof.Word.BodyMem.lean ====
/-
  The body's loads and stores outside the chunk loop: the device's own row read, written, cut into shares and joined;
  the gather buffer and the VMEM copy made whole again; the last load and the result's store.
-/
import proofs.«901086_g7700000000001087_dist_sum_ax0_shard0_i_m2048_n1024_v7x_i8_bf16_1_alg».proof.Proof.Word.BodyA
import proofs.«901086_g7700000000001087_dist_sum_ax0_shard0_i_m2048_n1024_v7x_i8_bf16_1_alg».proof.Proof.Word.Landed

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The load of the device's own row before it is written: whatever it reads, the row stays. -/
theorem step_row_load (c : Dev nD) (f : Buf (Elt F) ((c : Thread nD τ).loc cc0_scratch1))
    {hl : cM.view.LoadsAt (Rect.unit (s := S8x1x1024) (k0_off1 c) S1x1x1024.size (k0_off1_inb c)).toLoadRect}
    {α : Type} (k : Vec F S1x1x1024 .f32 → Prog (TpuEff nD τ sig (Elt F) Λ₀ .tc) α) (Q : α → sProp 𝕄) :
    rowPts c c fullShare f
      ⊢ iprop((rowPts c c fullShare f -∗ ∀ v, wp frame (wpE (defs₀ (F := F)) 𝒱₀ c none) Set.univ (k v) Q)
          -∗ wp frame (wpE (defs₀ (F := F)) 𝒱₀ c none) Set.univ (.op (.load cM (Rect.unit (s := S8x1x1024) (k0_off1 c) S1x1x1024.size (k0_off1_inb c)).toLoadRect hl) k) Q) := by
  have h := wp_load (defs := defs₀ (F := F)) 𝒱₀ (c : Thread nD τ) none (Γ := .empty) Set.univ (Q := Q)
    (m := (cM : Memref sig .tc .vmem S8x1x1024 .f32)) (r := (Rect.unit (s := S8x1x1024) (k0_off1 c) S1x1x1024.size (k0_off1_inb c)).toLoadRect) (hl := hl) (k := k)
    (S := (rowM c).view.set) (q := fullShare) (f := f) (load_off1_sub c)
  unfold rowPts
  exact h.trans (wand_mono_left (wand_mono_right (forall_elim _)))

/-- The block's column sums stored into the device's own row: the row then holds what every device's gather buffer
    holds there at the end. -/
theorem step_row_store (c : Dev nD) (f : Buf (Elt F) ((c : Thread nD τ).loc cc0_scratch1))
    {hx : (cM.access (Rect.unit (s := S8x1x1024) (k0_off1 c) S1x1x1024.size (k0_off1_inb c))).Stores Finset.univ}
    {hm : (Finset.univ : Finset (Rect.unit (s := S8x1x1024) (k0_off1 c) S1x1x1024.size (k0_off1_inb c)).shape.Idx) = Finset.univ
      ∨ ∀ a, (Rect.unit (s := S8x1x1024) (k0_off1 c) S1x1x1024.size (k0_off1_inb c)).stride a = 1}
    {α : Type} (k : PUnit → Prog (TpuEff nD τ sig (Elt F) Λ₀ .tc) α) (Q : α → sProp 𝕄) :
    rowPts c c fullShare f
      ⊢ iprop((rowPts c c fullShare (commB m c) -∗ wp frame (wpE (defs₀ (F := F)) 𝒱₀ c none) Set.univ (k ⟨⟩) Q)
          -∗ wp frame (wpE (defs₀ (F := F)) 𝒱₀ c none) Set.univ (.op (.store cM (Rect.unit (s := S8x1x1024) (k0_off1 c) S1x1x1024.size (k0_off1_inb c)) (rowv (xb m c)) Finset.univ hx hm) k) Q) := by
  have h := wp_store (defs := defs₀ (F := F)) 𝒱₀ (c : Thread nD τ) none (Γ := .empty) Set.univ (Q := Q)
    (m := (cM : Memref sig .tc .vmem S8x1x1024 .f32)) (r := (Rect.unit (s := S8x1x1024) (k0_off1 c) S1x1x1024.size (k0_off1_inb c))) (w := rowv (xb m c)) (Mk := Finset.univ) (hx := hx) (hm := hm) (k := k)
    (S := (rowM c).view.set) (f := f) (store_off1_sub c)
  rw [stored_row m c f] at h
  exact h

/-- The device's own row cut into the share it keeps and eight read tokens, and joined back. -/
theorem row_split (c : Dev nD) (f : Buf (Elt F) ((c : Thread nD τ).loc cc0_scratch1)) :
    rowPts (F := F) c c fullShare f
      ⊢ iprop(rowPts c c (Transfers.shareDrop fullShare 8) f
          ∗ bigSepL [0, 1, 2, 3, 4, 5, 6, 7] (fun j : Fin 8 => rowPts c c (Transfers.shareTokN fullShare j.val) f)) := by
  unfold rowPts
  have h := (Transfers.pointsTo_toks (ℓ := (rowM c).view.loc (c : Thread nD τ)) (S := (rowM c).view.set)
    (f := (f : Buf (Elt F) ((rowM c).view.loc (c : Thread nD τ)))) fullShare 8 : (_ : sProp 𝕄) ⊣⊢ _)
  rw [bigSep_univ_eq_bigSepL [0, 1, 2, 3, 4, 5, 6, 7] (by decide) (by decide)] at h
  exact h.1
theorem row_join (c : Dev nD) (f : Buf (Elt F) ((c : Thread nD τ).loc cc0_scratch1)) :
    iprop(rowPts c c (Transfers.shareDrop fullShare 8) f
          ∗ bigSepL [0, 1, 2, 3, 4, 5, 6, 7] (fun j : Fin 8 => rowPts c c (Transfers.shareTokN fullShare j.val) f))
      ⊢ rowPts (F := F) c c fullShare f := by
  unfold rowPts
  have h := (Transfers.pointsTo_toks (ℓ := (rowM c).view.loc (c : Thread nD τ)) (S := (rowM c).view.set)
    (f := (f : Buf (Elt F) ((rowM c).view.loc (c : Thread nD τ)))) fullShare 8 : (_ : sProp 𝕄) ⊣⊢ _)
  rw [bigSep_univ_eq_bigSepL [0, 1, 2, 3, 4, 5, 6, 7] (by decide) (by decide)] at h
  exact h.2

/-- The eight devices, listed by how far back they sit from a device: each once, and the device itself first. -/
theorem bk_list_univ (c : Dev nD) : (Finset.univ : Finset (Fin 8)) = ([bk c 0, bk c 1, bk c 2, bk c 3, bk c 4, bk c 5, bk c 6, bk c 7] : List (Fin 8)).toFinset := by
  revert c; decide
theorem bk_list_nodup (c : Dev nD) : ([bk c 0, bk c 1, bk c 2, bk c 3, bk c 4, bk c 5, bk c 6, bk c 7] : List (Fin 8)).Nodup := by revert c; decide
theorem bk_zero (c : Dev nD) : bk c 0 = c := by revert c; decide

/-- The gather buffer whole again out of the device's own row and the seven landed rows; the VMEM copy out of its chunks. -/
theorem rows_join (c : Dev nD) (g : Buf (Elt F) ((c : Thread nD τ).loc cc0_scratch1)) :
    iprop(rowPts c c fullShare g ∗ bigSepL [1, 2, 3, 4, 5, 6, 7] (fun j : Fin 8 => rowPts c (bk c j) fullShare g))
      ⊢ ((((c : Thread nD τ).loc cc0_scratch1) ↦{fullShare} g) : sProp 𝕄) := by
  have e : ((((c : Thread nD τ).loc cc0_scratch1) ↦{fullShare} g) : sProp 𝕄)
      = bigSepL ([bk c 0, bk c 1, bk c 2, bk c 3, bk c 4, bk c 5, bk c 6, bk c 7] : List (Fin 8)) (fun r => rowPts c r fullShare g) :=
    (buf_rows c fullShare g).trans (bigSep_univ_eq_bigSepL _ (bk_list_univ c) (bk_list_nodup c) _)
  rw [e, bk_zero c]
  exact .rfl
theorem chunks_join (c : Dev nD) (g : Buf (Elt F) ((c : Thread nD τ).loc cc0_scratch0)) :
    bigSepL [0, 1, 2, 3, 4, 5, 6, 7] (fun i : Fin 8 => chunkPts (F := F) c i g)
      ⊢ ((((c : Thread nD τ).loc cc0_scratch0) ↦{fullShare} g) : sProp 𝕄) := by
  have e : ((((c : Thread nD τ).loc cc0_scratch0) ↦{fullShare} g) : sProp 𝕄)
      = bigSepL ([0, 1, 2, 3, 4, 5, 6, 7] : List (Fin 8)) (fun i => chunkPts c i g) :=
    (buf_chunks c g).trans (bigSep_univ_eq_bigSepL _ (by decide) (by decide) _)
  exact .of_eq e.symm

/-- The load of the whole gather buffer once every row has landed reads every device's column sums. -/
theorem step_load_all (c : Dev nD)
    {hl : cM.view.LoadsAt (Rect.unit (s := S8x1x1024) ![0, 0, 0] S8x1x1024.size inb_S8x1x1024_S8x1x1024_0_0_0).toLoadRect}
    {α : Type} (k : Vec F S8x1x1024 .f32 → Prog (TpuEff nD τ sig (Elt F) Λ₀ .tc) α) (Q : α → sProp 𝕄) :
    ((((c : Thread nD τ).loc cc0_scratch1) ↦{fullShare} commB m c) : sProp 𝕄)
      ⊢ iprop(((((c : Thread nD τ).loc cc0_scratch1) ↦{fullShare} commB m c) -∗ wp frame (wpE (defs₀ (F := F)) 𝒱₀ c none) Set.univ (k (comm (xb m))) Q)
          -∗ wp frame (wpE (defs₀ (F := F)) 𝒱₀ c none) Set.univ (.op (.load cM (Rect.unit (s := S8x1x1024) ![0, 0, 0] S8x1x1024.size inb_S8x1x1024_S8x1x1024_0_0_0).toLoadRect hl) k) Q) := by
  have h := wp_load (defs := defs₀ (F := F)) 𝒱₀ (c : Thread nD τ) none (Γ := .empty) Set.univ (Q := Q)
    (m := (cM : Memref sig .tc .vmem S8x1x1024 .f32)) (r := (Rect.unit (s := S8x1x1024) ![0, 0, 0] S8x1x1024.size inb_S8x1x1024_S8x1x1024_0_0_0).toLoadRect) (hl := hl) (k := k)
    (S := Finset.univ) (q := fullShare) (f := commB m c) (Finset.subset_univ _)
  rw [comm_load m c] at h
  exact h

/-- The result's staging buffer: the load before the store (whatever it reads), and the store of the eight rows' sum. -/
theorem step_out_load (c : Dev nD) (f : Buf (Elt F) ((c : Thread nD τ).loc cc0_stg0_0))
    {hl : oM.view.LoadsAt (Rect.unit (s := S1x1024) ![0, 0] S1x1024.size inb_S1x1024_S1x1024_0_0).toLoadRect}
    {α : Type} (k : Vec F S1x1024 .f32 → Prog (TpuEff nD τ sig (Elt F) Λ₀ .tc) α) (Q : α → sProp 𝕄) :
    ((((c : Thread nD τ).loc cc0_stg0_0) ↦{fullShare} f) : sProp 𝕄)
      ⊢ iprop(((((c : Thread nD τ).loc cc0_stg0_0) ↦{fullShare} f) -∗ ∀ v, wp frame (wpE (defs₀ (F := F)) 𝒱₀ c none) Set.univ (k v) Q)
          -∗ wp frame (wpE (defs₀ (F := F)) 𝒱₀ c none) Set.univ (.op (.load oM (Rect.unit (s := S1x1024) ![0, 0] S1x1024.size inb_S1x1024_S1x1024_0_0).toLoadRect hl) k) Q) := by
  have h := wp_load (defs := defs₀ (F := F)) 𝒱₀ (c : Thread nD τ) none (Γ := .empty) Set.univ (Q := Q)
    (m := (oM : Memref sig .tc .vmem S1x1024 .f32)) (r := (Rect.unit (s := S1x1024) ![0, 0] S1x1024.size inb_S1x1024_S1x1024_0_0).toLoadRect) (hl := hl) (k := k)
    (S := Finset.univ) (q := fullShare) (f := f) (Finset.subset_univ _)
  exact h.trans (wand_mono_left (wand_mono_right (forall_elim _)))
theorem step_out_store (c : Dev nD) (f : Buf (Elt F) ((c : Thread nD τ).loc cc0_stg0_0))
    {hx : (oM.access (Rect.unit (s := S1x1024) ![0, 0] S1x1024.size inb_S1x1024_S1x1024_0_0)).Stores Finset.univ}
    {hm : (Finset.univ : Finset (Rect.unit (s := S1x1024) ![0, 0] S1x1024.size inb_S1x1024_S1x1024_0_0).shape.Idx) = Finset.univ
      ∨ ∀ a, (Rect.unit (s := S1x1024) ![0, 0] S1x1024.size inb_S1x1024_S1x1024_0_0).stride a = 1}
    {α : Type} (k : PUnit → Prog (TpuEff nD τ sig (Elt F) Λ₀ .tc) α) (Q : α → sProp 𝕄) :
    ((((c : Thread nD τ).loc cc0_stg0_0) ↦{fullShare} f) : sProp 𝕄)
      ⊢ iprop(((((c : Thread nD τ).loc cc0_stg0_0) ↦{fullShare} (outv (xb m) : Buf (Elt F) ((c : Thread nD τ).loc cc0_stg0_0))) -∗ wp frame (wpE (defs₀ (F := F)) 𝒱₀ c none) Set.univ (k ⟨⟩) Q)
          -∗ wp frame (wpE (defs₀ (F := F)) 𝒱₀ c none) Set.univ (.op (.store oM (Rect.unit (s := S1x1024) ![0, 0] S1x1024.size inb_S1x1024_S1x1024_0_0) (outv (xb m)) Finset.univ hx hm) k) Q) := by
  have h := wp_store (defs := defs₀ (F := F)) 𝒱₀ (c : Thread nD τ) none (Γ := .empty) Set.univ (Q := Q)
    (m := (oM : Memref sig .tc .vmem S1x1024 .f32)) (r := (Rect.unit (s := S1x1024) ![0, 0] S1x1024.size inb_S1x1024_S1x1024_0_0)) (w := outv (xb m)) (Mk := Finset.univ) (hx := hx) (hm := hm) (k := k)
    (S := Finset.univ) (f := f) (Finset.subset_univ _)
  rw [out_store m f] at h
  exact h

/-- info: 'Cert.Kernel.Sum.step_row_store' depends on axioms: [propext, Classical.choice, Quot.sound] -/
#guard_msgs in #print axioms step_row_store

/-- info: 'Cert.Kernel.Sum.rows_join' depends on axioms: [propext, Classical.choice, Quot.sound] -/
#guard_msgs in #print axioms rows_join

/-- info: 'Cert.Kernel.Sum.step_load_all' depends on axioms: [propext, Classical.choice, Quot.sound] -/
#guard_msgs in #print axioms step_load_all

/-- info: 'Cert.Kernel.Sum.step_out_store' depends on axioms: [propext, Classical.choice, Quot.sound] -/
#guard_msgs in #print axioms step_out_store

end Cert.Kernel.Sum

end
-- ==== Proof.Word.BodyEnds.lean ====
/-
  The two ends of the body: what the launch hands over opened into the steps' pieces, and every cell of the
  device's own closed at the end.
-/
import proofs.«901086_g7700000000001087_dist_sum_ax0_shard0_i_m2048_n1024_v7x_i8_bf16_1_alg».proof.Proof.Word.BodyA
import proofs.«901086_g7700000000001087_dist_sum_ax0_shard0_i_m2048_n1024_v7x_i8_bf16_1_alg».proof.Proof.Word.Views

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Opening what the launch hands over -/

/-- Going `j` places further on from `c`, for `j` over all eight shifts, visits every device once. -/
def so_shJ (c : Dev nD) : Fin 8 ≃ Fin 8 :=
  ⟨fun j => sh c j, fun d => ⟨(d.val + (8 - c.val)) % 8, Nat.mod_lt _ (by decide)⟩,
    fun j => by revert c j; decide, fun d => by revert c d; decide⟩

omit [FloatOps F] in
/-- A device's gather buffer, whole, is its own row and the rows of the seven devices further on. -/
theorem so_rows_eq (c : Dev nD) (f : Buf (Elt F) ((c : Thread nD τ).loc cc0_scratch1)) :
    (((c : Thread nD τ).loc cc0_scratch1) ↦{fullShare} f : sProp 𝕄)
      = iprop(rowPts c c fullShare f ∗ bigSep (Finset.univ.erase (0 : Fin 8)) (fun K => rowPts (F := F) c (sh c K) fullShare f)) := by
  rw [buf_rows, bigSep_univ_equiv (so_shJ c), bigSep_univ_at _ (0 : Fin 8)]
  show iprop(rowPts c (sh c 0) fullShare f ∗ _) = _
  rw [sh_zero]; rfl

omit [FloatOps F] in
/-- The same at whatever the buffer holds: each row at some contents. -/
theorem so_rows (c : Dev nD) :
    (iprop(∃ f : Buf (Elt F) ((c : Thread nD τ).loc cc0_scratch1), ((c : Thread nD τ).loc cc0_scratch1) ↦{fullShare} f) : sProp 𝕄)
      ⊢ iprop((∃ f, rowPts c c fullShare f) ∗ bigSep (Finset.univ.erase (0 : Fin 8)) (fun K => iprop(∃ f, rowPts (F := F) c (sh c K) fullShare f))) := by
  iintro ⟨%f, H⟩
  have e : (((c : Thread nD τ).loc cc0_scratch1) ↦{fullShare} f : sProp 𝕄)
      ⊢ iprop(rowPts c c fullShare f ∗ bigSep (Finset.univ.erase (0 : Fin 8)) (fun K => rowPts (F := F) c (sh c K) fullShare f)) := by
    rw [← so_rows_eq]
  have h : (bigSep (Finset.univ.erase (0 : Fin 8)) (fun K => rowPts (F := F) c (sh c K) fullShare f) : sProp 𝕄)
      ⊢ bigSep (Finset.univ.erase (0 : Fin 8)) (fun K => iprop(∃ f, rowPts (F := F) c (sh c K) fullShare f)) :=
    bigSep_mono fun K _ => by
      change (_ : sProp 𝕄) ⊢ _
      iintro H; iexists f; iexact H
  ihave H := e $$ H
  icases H with ⟨H0, H⟩
  isplitl [H0]
  · iexists f; iexact H0
  · iapply h $$ H

omit [FloatOps F] in
/-- A device's VMEM copy, whole at whatever it holds, is its eight chunks, each at some contents. -/
theorem so_chunks (c : Dev nD) :
    (iprop(∃ f : Buf (Elt F) ((c : Thread nD τ).loc cc0_scratch0), ((c : Thread nD τ).loc cc0_scratch0) ↦{fullShare} f) : sProp 𝕄)
      ⊢ bigSep Finset.univ (fun i : Fin 8 => iprop(∃ f, chunkPts (F := F) c i f)) := by
  iintro ⟨%f, H⟩
  have h : ((((c : Thread nD τ).loc cc0_scratch0) ↦{fullShare} f) : sProp 𝕄)
      ⊢ bigSep Finset.univ (fun i : Fin 8 => iprop(∃ f, chunkPts (F := F) c i f)) := by
    rw [buf_chunks]
    exact bigSep_mono fun i _ => by
      change (_ : sProp 𝕄) ⊢ _
      iintro H; iexists f; iexact H
  iapply h $$ H

/-- The block of `x`, whole, is the share kept to the end and eight read shares, share `i` restricted to the rows
    chunk `i`'s transfer reads (the rest of that share is let go). -/
theorem so_x (c : Dev nD) : xPts m c ⊢ iprop(xKeep m c ∗ bigSep Finset.univ (fun i : Fin 8 => xTok m c i)) := by
  unfold xPts xKeep
  have h : (bigSep Finset.univ (fun i : Fin 8 => ((c : Thread nD τ).loc main_arg0) ↦[Finset.univ]{Transfers.shareTok fullShare 8 i} m ((c : Thread nD τ).loc main_arg0)) : sProp 𝕄)
      ⊢ bigSep Finset.univ (fun i : Fin 8 => xTok m c i) :=
    bigSep_mono fun i _ => by
      unfold xTok
      change (_ : sProp 𝕄) ⊢ _
      iintro H
      ihave H := (pointsTo_split_subset (I := (xSrc i).view.set) (Finset.subset_univ _)).1 $$ H
      icases H with ⟨H, -⟩
      iexact H
  iintro H
  ihave H := (Transfers.pointsTo_toks_split fullShare 8) $$ H
  icases H with ⟨Hk, Ht⟩
  isplitl [Hk]; · iexact Hk
  iapply h $$ Ht

omit [FloatOps F] in
/-- A conjunction over twenty-five indices, written out. -/
theorem so_fin25 (Φ : Fin 25 → sProp 𝕄) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) := by
  rw [bigSep_univ_eq_bigSepL [0, 1, 2, 3, 4, 5, 6, 7, 8, 9, 10, 11, 12, 13, 14, 15, 16, 17, 18, 19, 20, 21, 22, 23, 24] (by decide) (by decide)]
  exact .rfl

omit [FloatOps F] in
/-- A conjunction over eight indices, put together. -/
theorem so_fin8 (Φ : Fin 8 → sProp 𝕄) :
    iprop(Φ 0 ∗ Φ 1 ∗ Φ 2 ∗ Φ 3 ∗ Φ 4 ∗ Φ 5 ∗ Φ 6 ∗ Φ 7) ⊢ bigSep Finset.univ Φ := by
  rw [bigSep_univ_eq_bigSepL [0, 1, 2, 3, 4, 5, 6, 7] (by decide) (by decide)]
  exact .rfl

/-- A device's 25 positions by kind: the barrier cell's, the eight chunk cells', the eight send cells', the eight
    receive cells'. -/
theorem so_pos (c : Dev nD) :
    (bigSep Finset.univ (fun n : Fin 25 => atPos ER (kcell (c, n)) 0 ∅ 0) : sProp 𝕄)
      ⊢ iprop(atPos ER (barCell c) 0 ∅ 0
          ∗ bigSep Finset.univ (fun i : Fin 8 => atPos ER (copyCell c i) 0 ∅ 0)
          ∗ bigSep Finset.univ (fun j : Fin 8 => atPos ER (sendCell c j) 0 ∅ 0)
          ∗ bigSep Finset.univ (fun j : Fin 8 => atPos ER (recvCell c j) 0 ∅ 0)) := by
  iintro H
  ihave H := (so_fin25 (fun n : Fin 25 => atPos ER (kcell (c, n)) 0 ∅ 0)) $$ H
  icases H with ⟨H0, H1, H2, H3, H4, H5, H6, H7, H8, H9, H10, H11, H12, H13, H14, H15, H16, H17, H18, H19, H20, H21, H22, H23, H24⟩
  isplitl [H0]; · iexact H0
  isplitl [H1 H2 H3 H4 H5 H6 H7 H8]
  · iapply (so_fin8 (fun i : Fin 8 => atPos ER (copyCell c i) 0 ∅ 0))
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13 H14 H15 H16]
  · iapply (so_fin8 (fun j : Fin 8 => atPos ER (sendCell c j) 0 ∅ 0))
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iapply (so_fin8 (fun j : Fin 8 => atPos ER (recvCell c j) 0 ∅ 0))
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

omit [FloatOps F] in
/-- A conjunction over all eight shifts without the summand at shift 0. -/
theorem so_drop0 (Φ : Fin 8 → sProp 𝕄) : bigSep Finset.univ Φ ⊢ bigSep (Finset.univ.erase (0 : Fin 8)) Φ :=
  bigSep_subset (Finset.erase_subset _ _)

omit [FloatOps F] in
/-- The same with the summand at shift 0 kept beside. -/
theorem so_at0 (Φ : Fin 8 → sProp 𝕄) : bigSep Finset.univ Φ ⊢ iprop(Φ 0 ∗ bigSep (Finset.univ.erase (0 : Fin 8)) Φ) :=
  Entails.of_eq (bigSep_univ_at Φ 0)

/-- What the launch hands the device, opened into the pieces the steps consume: the seven entry signals' tokens and
    rows, the device's own row, the eight chunks' tokens, read tokens and VMEM chunks, the share of `x` kept, the
    barrier cell, the sends' tokens, the receives' credits, and the two cells never used. -/
theorem start_open (c : Dev nD) :
    iprop(linear c ∗ cred (tallyAt (barCell c) () 7)
        ∗ (bigSep (Finset.univ.erase (0 : Fin 8)) fun j => cred (tallyAt (recvCell c j) () Nrow)) ∗ xPts m c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ iprop(bigSepL [1, 2, 3, 4, 5, 6, 7] (sigR (F := F) c) ∗ (∃ f, rowPts c c fullShare f) ∗ bigSepL [0, 1, 2, 3, 4, 5, 6, 7] (cpyR m c) ∗ xKeep m c ∗ barI c
          ∗ bigSepL [1, 2, 3, 4, 5, 6, 7] (sndT (F := F) c) ∗ bigSepL [1, 2, 3, 4, 5, 6, 7] (rcvI (F := F) c)
          ∗ atPos ER (sendCell c 0) 0 ∅ 0 ∗ atPos ER (recvCell c 0) 0 ∅ 0) := by
  have e7 : (Finset.univ.erase (0 : Fin 8)) = ([1, 2, 3, 4, 5, 6, 7] : List (Fin 8)).toFinset := by decide
  have n7 : ([1, 2, 3, 4, 5, 6, 7] : List (Fin 8)).Nodup := by decide
  -- each listed family of pieces is, component by component, a conjunction over the set the list enumerates
  have hsig : (bigSepL [1, 2, 3, 4, 5, 6, 7] (sigR (F := F) c) : sProp 𝕄)
      = iprop(bigSep (Finset.univ.erase (0 : Fin 8)) (fun K => dutyTok ER (barCell (sh c K)) 0 (ng K))
          ∗ bigSep (Finset.univ.erase (0 : Fin 8)) (fun K => iprop(∃ f, rowPts (F := F) c (sh c K) fullShare f))) := by
    rw [← bigSep_eq_bigSepL_of_eq [1, 2, 3, 4, 5, 6, 7] e7 n7]
    exact bigSep_sep' _ (fun K => dutyTok ER (barCell (sh c K)) 0 (ng K)) (fun K => iprop(∃ f, rowPts (F := F) c (sh c K) fullShare f))
  have hcpy : (bigSepL [0, 1, 2, 3, 4, 5, 6, 7] (cpyR m c) : sProp 𝕄)
      = iprop(bigSep Finset.univ (fun i : Fin 8 => dutyTok ER (copyCell c i) 0 (0 : Fin 8)) ∗ bigSep Finset.univ (fun i : Fin 8 => xTok m c i)
          ∗ bigSep Finset.univ (fun i : Fin 8 => iprop(∃ f, chunkPts (F := F) c i f)) ∗ bigSep Finset.univ (fun i : Fin 8 => atPos ER (copyCell c i) 0 ∅ 0)) := by
    rw [← bigSep_univ_eq_bigSepL [0, 1, 2, 3, 4, 5, 6, 7] (by decide) (by decide)]
    have h : (iprop(bigSep Finset.univ (fun i : Fin 8 => dutyTok ER (copyCell c i) 0 (0 : Fin 8)) ∗ bigSep Finset.univ (fun i : Fin 8 => xTok m c i)
          ∗ bigSep Finset.univ (fun i : Fin 8 => iprop(∃ f, chunkPts (F := F) c i f)) ∗ bigSep Finset.univ (fun i : Fin 8 => atPos ER (copyCell c i) 0 ∅ 0)) : sProp 𝕄)
        = bigSep Finset.univ (fun i : Fin 8 => iprop(dutyTok ER (copyCell c i) 0 (0 : Fin 8) ∗ xTok m c i ∗ (∃ f, chunkPts (F := F) c i f) ∗ atPos ER (copyCell c i) 0 ∅ 0)) := by
      rw [← bigSep_sep', ← bigSep_sep', ← bigSep_sep']
    exact h.symm
  have hsnd : (bigSepL [1, 2, 3, 4, 5, 6, 7] (sndT (F := F) c) : sProp 𝕄)
      = iprop(bigSep (Finset.univ.erase (0 : Fin 8)) (fun j => dutyTok ER (sendCell c j) 0 (0 : Fin 8)) ∗ bigSep (Finset.univ.erase (0 : Fin 8)) (fun j => dutyTok ER (recvCell (sh c j) j) 0 (0 : Fin 8))
          ∗ bigSep (Finset.univ.erase (0 : Fin 8)) (fun j => atPos ER (sendCell c j) 0 ∅ 0)) := by
    rw [← bigSep_eq_bigSepL_of_eq [1, 2, 3, 4, 5, 6, 7] e7 n7]
    have h : (iprop(bigSep (Finset.univ.erase (0 : Fin 8)) (fun j => dutyTok ER (sendCell c j) 0 (0 : Fin 8)) ∗ bigSep (Finset.univ.erase (0 : Fin 8)) (fun j => dutyTok ER (recvCell (sh c j) j) 0 (0 : Fin 8))
          ∗ bigSep (Finset.univ.erase (0 : Fin 8)) (fun j => atPos ER (sendCell c j) 0 ∅ 0)) : sProp 𝕄)
        = bigSep (Finset.univ.erase (0 : Fin 8)) (fun j => iprop(dutyTok ER (sendCell c j) 0 (0 : Fin 8) ∗ dutyTok ER (recvCell (sh c j) j) 0 (0 : Fin 8) ∗ atPos ER (sendCell c j) 0 ∅ 0)) := by
      rw [← bigSep_sep', ← bigSep_sep']
    exact h.symm
  have hrcv : (bigSepL [1, 2, 3, 4, 5, 6, 7] (rcvI (F := F) c) : sProp 𝕄)
      = iprop(bigSep (Finset.univ.erase (0 : Fin 8)) (fun j => cred (tallyAt (recvCell c j) () Nrow)) ∗ bigSep (Finset.univ.erase (0 : Fin 8)) (fun j => atPos ER (recvCell c j) 0 ∅ 0)) := by
    rw [← bigSep_eq_bigSepL_of_eq [1, 2, 3, 4, 5, 6, 7] e7 n7]
    exact bigSep_sep' _ (fun j => cred (tallyAt (recvCell c j) () Nrow)) (fun j => atPos ER (recvCell c j) 0 ∅ 0)
  rw [hsig, hcpy, hsnd, hrcv]
  unfold linear payToks barI
  iintro ⟨⟨Hpos, Hbt, Hct, Hst, Hrt⟩, Hcb, Hcr, Hx, Hv, Hr⟩
  -- the positions by kind, the two unused cells' aside
  ihave Hpos := (so_pos c) $$ Hpos
  icases Hpos with ⟨Hpb, Hpc, Hps, Hpr⟩
  ihave Hps := (so_at0 (fun j : Fin 8 => atPos ER (sendCell c j) 0 ∅ 0)) $$ Hps
  icases Hps with ⟨Hps0, Hps⟩
  ihave Hpr := (so_at0 (fun j : Fin 8 => atPos ER (recvCell c j) 0 ∅ 0)) $$ Hpr
  icases Hpr with ⟨Hpr0, Hpr⟩
  -- the tokens of shift 0 pay nothing
  ihave Hbt := (so_drop0 (fun j : Fin 8 => dutyTok ER (barCell (sh c j)) 0 (ng j))) $$ Hbt
  ihave Hst := (so_drop0 (fun j : Fin 8 => dutyTok ER (sendCell c j) 0 (0 : Fin 8))) $$ Hst
  ihave Hrt := (so_drop0 (fun j : Fin 8 => dutyTok ER (recvCell (sh c j) j) 0 (0 : Fin 8))) $$ Hrt
  -- the block of x, the VMEM copy and the gather buffer
  ihave Hx := (so_x m c) $$ Hx
  icases Hx with ⟨Hxk, Hxt⟩
  ihave Hv := (so_chunks c) $$ Hv
  ihave Hr := (so_rows c) $$ Hr
  icases Hr with ⟨Hr0, Hr⟩
  isplitl [Hbt Hr]
  · isplitl [Hbt]; · iexact Hbt
    iexact Hr
  isplitl [Hr0]; · iexact Hr0
  isplitl [Hct Hxt Hv Hpc]
  · isplitl [Hct]; · iexact Hct
    isplitl [Hxt]; · iexact Hxt
    isplitl [Hv]; · iexact Hv
    iexact Hpc
  isplitl [Hxk]; · iexact Hxk
  isplitl [Hcb Hpb]
  · isplitl [Hcb]; · iexact Hcb
    iexact Hpb
  isplitl [Hst Hrt Hps]
  · isplitl [Hst]; · iexact Hst
    isplitl [Hrt]; · iexact Hrt
    iexact Hps
  isplitl [Hcr Hpr]
  · isplitl [Hcr]; · iexact Hcr
    iexact Hpr
  isplitl [Hps0]; · iexact Hps0
  iexact Hpr0

/-! ## Closing the cells -/

/-- The kernel's 24 own semaphores by kind: eight chunk, eight send, eight receive semaphores. -/
def ca_ownE : Fin 8 ⊕ Fin 8 ⊕ Fin 8 ≃ Fin 24 where
  toFun
    | .inl i => ⟨i.val, by have := i.isLt; omega⟩
    | .inr (.inl j) => ⟨8 + j.val, by have := j.isLt; omega⟩
    | .inr (.inr j) => ⟨16 + j.val, by have := j.isLt; omega⟩
  invFun k :=
    if h1 : k.val < 8 then .inl ⟨k.val, h1⟩
    else if h2 : k.val < 16 then .inr (.inl ⟨k.val - 8, by omega⟩)
    else .inr (.inr ⟨k.val - 16, by have := k.isLt; omega⟩)
  left_inv := by decide
  right_inv := by decide

theorem ca_osem_copy (i : Fin 8) : osem (ca_ownE (.inl i)) = .dma (copyS i) := by revert i; decide
theorem ca_osem_send (j : Fin 8) : osem (ca_ownE (.inr (.inl j))) = .dma (sendS j) := by revert j; decide
theorem ca_osem_recv (j : Fin 8) : osem (ca_ownE (.inr (.inr j))) = .dma (recvS j) := by revert j; decide

omit [FloatOps F] in
/-- The own semaphores at zero, kind by kind. -/
theorem ca_ownSems0_kinds (c : Dev nD) :
    (Pipeline.ownSems0 (Ix := Unit) (Name := ℕ) (U := UU) (Lvl := ℕ) (Val := Elt F) (τ := τ) osem c : sProp 𝕄)
      = iprop((bigSep Finset.univ fun i : Fin 8 => semVal (copyCell c i) 0) ∗ (bigSep Finset.univ fun j : Fin 8 => semVal (sendCell c j) 0)
          ∗ (bigSep Finset.univ fun j : Fin 8 => semVal (recvCell c j) 0)) := by
  unfold Pipeline.ownSems0
  rw [bigSep_univ_equiv ca_ownE, bigSep_univ_sum, bigSep_univ_sum,
    bigSep_congr (s := Finset.univ) (fun (i : Fin 8) _ => show (semVal ((c : Thread nD τ), osem (ca_ownE (.inl i))) 0 : sProp 𝕄) = semVal (copyCell c i) 0 by rw [ca_osem_copy]),
    bigSep_congr (s := Finset.univ) (fun (j : Fin 8) _ => show (semVal ((c : Thread nD τ), osem (ca_ownE (.inr (.inl j)))) 0 : sProp 𝕄) = semVal (sendCell c j) 0 by rw [ca_osem_send]),
    bigSep_congr (s := Finset.univ) (fun (j : Fin 8) _ => show (semVal ((c : Thread nD τ), osem (ca_ownE (.inr (.inr j)))) 0 : sProp 𝕄) = semVal (recvCell c j) 0 by rw [ca_osem_recv])]
  rfl

/-- A cell of this schedule whose owner stands at a round from which no round has a duty, nothing taken: closed, its
    counter comes back at zero. -/
theorem ca_close_one (Kn : Dev nD × Fin 25 → ℕ) (ck : Dev nD × Fin 25) (R : ℕ) (hR : ∀ r, R ≤ r → (sched (F := F) m).duties (kcell ck) r = ∅) :
    iprop(records m Kn ∗ atPos ER (kcell ck) R ∅ 0) ⊢ iprop(|={Set.univ}=> (semVal (kcell ck) 0 : sProp 𝕄)) :=
  (sep_mono_left (records_inv m Kn ck)).trans (cell_close ER (sched m) (Set.mem_univ _) (fun h => h) hR)

/-- A family of such cells, closed under one update. -/
theorem ca_close_family (Kn : Dev nD × Fin 25 → ℕ) (c : Dev nD) (S : Finset (Fin 8)) (n : Fin 8 → Fin 25) (R : ℕ)
    (hR : ∀ i ∈ S, ∀ r, R ≤ r → (sched (F := F) m).duties (kcell (c, n i)) r = ∅) :
    iprop(records m Kn ∗ bigSep S fun i => atPos ER (kcell (c, n i)) R ∅ 0)
      ⊢ iprop(|={Set.univ}=> (bigSep S fun i => semVal (kcell (c, n i)) 0 : sProp 𝕄)) :=
  (bigSep_with_persistent (R := records m Kn) fun i hi => ca_close_one m Kn (c, n i) R (hR i hi)).trans (bigSep_fupd _ _)

/-- Every cell of the device's own closed: the kernel's own semaphores are back at zero. -/
theorem close_all (c : Dev nD) (Kn : Dev nD × Fin 25 → ℕ) :
    iprop(records m Kn ∗ bigSepL [0, 1, 2, 3, 4, 5, 6, 7] (fun i : Fin 8 => atPos ER (copyCell c i) 1 ∅ 0)
        ∗ bigSepL [1, 2, 3, 4, 5, 6, 7] (fun j : Fin 8 => atPos ER (sendCell c j) 1 ∅ 0)
        ∗ bigSepL [1, 2, 3, 4, 5, 6, 7] (fun j : Fin 8 => atPos ER (recvCell c j) 1 ∅ 0)
        ∗ atPos ER (sendCell c 0) 0 ∅ 0 ∗ atPos ER (recvCell c 0) 0 ∅ 0)
      ⊢ iprop(|={Set.univ}=> (Pipeline.ownSems0 osem c : sProp 𝕄)) := by
  have e7 : (Finset.univ.erase (0 : Fin 8)) = ([1, 2, 3, 4, 5, 6, 7] : List (Fin 8)).toFinset := by decide
  have n7 : ([1, 2, 3, 4, 5, 6, 7] : List (Fin 8)).Nodup := by decide
  rw [ca_ownSems0_kinds, bigSep_univ_at (fun j : Fin 8 => (semVal (sendCell c j) 0 : sProp 𝕄)) 0,
    bigSep_univ_at (fun j : Fin 8 => (semVal (recvCell c j) 0 : sProp 𝕄)) 0]
  iintro ⟨#Hrec, HC, HS, HR, HS0, HR0⟩
  ihave HC := (Entails.of_eq (bigSep_univ_eq_bigSepL [0, 1, 2, 3, 4, 5, 6, 7] (by decide) (by decide)
    (fun i : Fin 8 => (atPos ER (copyCell c i) 1 ∅ 0 : sProp 𝕄))).symm) $$ HC
  ihave HS := (Entails.of_eq (bigSep_eq_bigSepL_of_eq [1, 2, 3, 4, 5, 6, 7] e7 n7
    (fun j : Fin 8 => (atPos ER (sendCell c j) 1 ∅ 0 : sProp 𝕄))).symm) $$ HS
  ihave HR := (Entails.of_eq (bigSep_eq_bigSepL_of_eq [1, 2, 3, 4, 5, 6, 7] e7 n7
    (fun j : Fin 8 => (atPos ER (recvCell c j) 1 ∅ 0 : sProp 𝕄))).symm) $$ HR
  imod (show iprop(records m Kn ∗ bigSep Finset.univ fun i : Fin 8 => atPos ER (copyCell c i) 1 ∅ 0)
      ⊢ iprop(|={Set.univ}=> (bigSep Finset.univ fun i : Fin 8 => semVal (copyCell c i) 0 : sProp 𝕄)) from by
    have h := ca_close_family m Kn c Finset.univ copyN 1 (fun i _ => duties_later m _)
    simp only [kcell_copy] at h; exact h) $$ [HC] with HC'
  · isplitr; · iexact Hrec
    iexact HC
  imod (show iprop(records m Kn ∗ bigSep (Finset.univ.erase (0 : Fin 8)) fun j : Fin 8 => atPos ER (sendCell c j) 1 ∅ 0)
      ⊢ iprop(|={Set.univ}=> (bigSep (Finset.univ.erase (0 : Fin 8)) fun j : Fin 8 => semVal (sendCell c j) 0 : sProp 𝕄)) from by
    have h := ca_close_family m Kn c (Finset.univ.erase (0 : Fin 8)) sendN 1 (fun j _ => duties_later m _)
    simp only [kcell_send] at h; exact h) $$ [HS] with HS'
  · isplitr; · iexact Hrec
    iexact HS
  imod (show iprop(records m Kn ∗ bigSep (Finset.univ.erase (0 : Fin 8)) fun j : Fin 8 => atPos ER (recvCell c j) 1 ∅ 0)
      ⊢ iprop(|={Set.univ}=> (bigSep (Finset.univ.erase (0 : Fin 8)) fun j : Fin 8 => semVal (recvCell c j) 0 : sProp 𝕄)) from by
    have h := ca_close_family m Kn c (Finset.univ.erase (0 : Fin 8)) recvN 1 (fun j _ => duties_later m _)
    simp only [kcell_recv] at h; exact h) $$ [HR] with HR'
  · isplitr; · iexact Hrec
    iexact HR
  imod (show iprop(records m Kn ∗ atPos ER (sendCell c 0) 0 ∅ 0) ⊢ iprop(|={Set.univ}=> (semVal (sendCell c 0) 0 : sProp 𝕄)) from by
    have h := ca_close_one m Kn (c, sendN 0) 0 (fun r _ => by
      rw [kcell_send]
      rcases Nat.eq_zero_or_pos r with rfl | hr
      · exact duties_send0 m c
      · exact duties_later m _ r hr)
    rw [kcell_send] at h; exact h) $$ [HS0] with HS0'
  · isplitr; · iexact Hrec
    iexact HS0
  imod (show iprop(records m Kn ∗ atPos ER (recvCell c 0) 0 ∅ 0) ⊢ iprop(|={Set.univ}=> (semVal (recvCell c 0) 0 : sProp 𝕄)) from by
    have h := ca_close_one m Kn (c, recvN 0) 0 (fun r _ => by
      rw [kcell_recv]
      rcases Nat.eq_zero_or_pos r with rfl | hr
      · exact duties_recv0 m c
      · exact duties_later m _ r hr)
    rw [kcell_recv] at h; exact h) $$ [HR0] with HR0'
  · isplitr; · iexact Hrec
    iexact HR0
  imodintro
  isplitl [HC']; · iexact HC'
  isplitl [HS0' HS']
  · isplitl [HS0'] <;> iassumption
  · isplitl [HR0'] <;> iassumption

/-- info: 'Cert.Kernel.Sum.start_open' depends on axioms: [propext, Classical.choice, Quot.sound] -/
#guard_msgs in #print axioms start_open

/-- info: 'Cert.Kernel.Sum.close_all' depends on axioms: [propext, Classical.choice, Quot.sound] -/
#guard_msgs in #print axioms close_all

end Cert.Kernel.Sum

end
-- ==== Proof.Word.Names.lean ====
/-
  The program's own spellings of the protocol's names. Each semaphore the body picks out of one of its three
  arrays of eight (slice at a literal index, then squeeze to rank zero) is the chunk, send or receive semaphore
  of that index; each device a signal or a remote copy addresses (the printed chain of integer operations on
  the device's own position) is the device a fixed number of places further on.
-/
import proofs.«901086_g7700000000001087_dist_sum_ax0_shard0_i_m2048_n1024_v7x_i8_bf16_1_alg».proof.Proof.Word.Tables

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The semaphores: entry i of the first array is chunk semaphore i, of the second send semaphore i, of the third
    receive semaphore i (the arrays lie one after the other on the pool, from 1, from 9 and from 17) -/

theorem sem_copy0 : ((cc0_scratch2.slice (Rect.unit (s := S8) ![0] S1.size inb_S8_S1_0)).squeeze S_ squeezes_S1_S_).sem = copyS 0 := rfl
theorem sem_copy1 : ((cc0_scratch2.slice (Rect.unit (s := S8) ![1] S1.size inb_S8_S1_1)).squeeze S_ squeezes_S1_S_).sem = copyS 1 := rfl
theorem sem_copy2 : ((cc0_scratch2.slice (Rect.unit (s := S8) ![2] S1.size inb_S8_S1_2)).squeeze S_ squeezes_S1_S_).sem = copyS 2 := rfl
theorem sem_copy3 : ((cc0_scratch2.slice (Rect.unit (s := S8) ![3] S1.size inb_S8_S1_3)).squeeze S_ squeezes_S1_S_).sem = copyS 3 := rfl
theorem sem_copy4 : ((cc0_scratch2.slice (Rect.unit (s := S8) ![4] S1.size inb_S8_S1_4)).squeeze S_ squeezes_S1_S_).sem = copyS 4 := rfl
theorem sem_copy5 : ((cc0_scratch2.slice (Rect.unit (s := S8) ![5] S1.size inb_S8_S1_5)).squeeze S_ squeezes_S1_S_).sem = copyS 5 := rfl
theorem sem_copy6 : ((cc0_scratch2.slice (Rect.unit (s := S8) ![6] S1.size inb_S8_S1_6)).squeeze S_ squeezes_S1_S_).sem = copyS 6 := rfl
theorem sem_copy7 : ((cc0_scratch2.slice (Rect.unit (s := S8) ![7] S1.size inb_S8_S1_7)).squeeze S_ squeezes_S1_S_).sem = copyS 7 := rfl

theorem sem_send0 : ((cc0_scratch3.slice (Rect.unit (s := S8) ![0] S1.size inb_S8_S1_0)).squeeze S_ squeezes_S1_S_).sem = sendS 0 := rfl
theorem sem_send1 : ((cc0_scratch3.slice (Rect.unit (s := S8) ![1] S1.size inb_S8_S1_1)).squeeze S_ squeezes_S1_S_).sem = sendS 1 := rfl
theorem sem_send2 : ((cc0_scratch3.slice (Rect.unit (s := S8) ![2] S1.size inb_S8_S1_2)).squeeze S_ squeezes_S1_S_).sem = sendS 2 := rfl
theorem sem_send3 : ((cc0_scratch3.slice (Rect.unit (s := S8) ![3] S1.size inb_S8_S1_3)).squeeze S_ squeezes_S1_S_).sem = sendS 3 := rfl
theorem sem_send4 : ((cc0_scratch3.slice (Rect.unit (s := S8) ![4] S1.size inb_S8_S1_4)).squeeze S_ squeezes_S1_S_).sem = sendS 4 := rfl
theorem sem_send5 : ((cc0_scratch3.slice (Rect.unit (s := S8) ![5] S1.size inb_S8_S1_5)).squeeze S_ squeezes_S1_S_).sem = sendS 5 := rfl
theorem sem_send6 : ((cc0_scratch3.slice (Rect.unit (s := S8) ![6] S1.size inb_S8_S1_6)).squeeze S_ squeezes_S1_S_).sem = sendS 6 := rfl
theorem sem_send7 : ((cc0_scratch3.slice (Rect.unit (s := S8) ![7] S1.size inb_S8_S1_7)).squeeze S_ squeezes_S1_S_).sem = sendS 7 := rfl

theorem sem_recv0 : ((cc0_scratch4.slice (Rect.unit (s := S8) ![0] S1.size inb_S8_S1_0)).squeeze S_ squeezes_S1_S_).sem = recvS 0 := rfl
theorem sem_recv1 : ((cc0_scratch4.slice (Rect.unit (s := S8) ![1] S1.size inb_S8_S1_1)).squeeze S_ squeezes_S1_S_).sem = recvS 1 := rfl
theorem sem_recv2 : ((cc0_scratch4.slice (Rect.unit (s := S8) ![2] S1.size inb_S8_S1_2)).squeeze S_ squeezes_S1_S_).sem = recvS 2 := rfl
theorem sem_recv3 : ((cc0_scratch4.slice (Rect.unit (s := S8) ![3] S1.size inb_S8_S1_3)).squeeze S_ squeezes_S1_S_).sem = recvS 3 := rfl
theorem sem_recv4 : ((cc0_scratch4.slice (Rect.unit (s := S8) ![4] S1.size inb_S8_S1_4)).squeeze S_ squeezes_S1_S_).sem = recvS 4 := rfl
theorem sem_recv5 : ((cc0_scratch4.slice (Rect.unit (s := S8) ![5] S1.size inb_S8_S1_5)).squeeze S_ squeezes_S1_S_).sem = recvS 5 := rfl
theorem sem_recv6 : ((cc0_scratch4.slice (Rect.unit (s := S8) ![6] S1.size inb_S8_S1_6)).squeeze S_ squeezes_S1_S_).sem = recvS 6 := rfl
theorem sem_recv7 : ((cc0_scratch4.slice (Rect.unit (s := S8) ![7] S1.size inb_S8_S1_7)).squeeze S_ squeezes_S1_S_).sem = recvS 7 := rfl

/-! ## The devices: the chain printed for the k-th entry signal, and the one printed for the k-th remote copy, both
    name the device k places further on -/

@[sl_canon] theorem dev1_eq (c : Dev nD) : (⟨k0_dev1 c, k0_dev1_lt c⟩ : Dev nD) = sh c 1 := Fin.ext (k0_dev1_eq c)
@[sl_canon] theorem dev2_eq (c : Dev nD) : (⟨k0_dev2 c, k0_dev2_lt c⟩ : Dev nD) = sh c 2 := Fin.ext (k0_dev2_eq c)
@[sl_canon] theorem dev3_eq (c : Dev nD) : (⟨k0_dev3 c, k0_dev3_lt c⟩ : Dev nD) = sh c 3 := Fin.ext (k0_dev3_eq c)
@[sl_canon] theorem dev4_eq (c : Dev nD) : (⟨k0_dev4 c, k0_dev4_lt c⟩ : Dev nD) = sh c 4 := Fin.ext (k0_dev4_eq c)
@[sl_canon] theorem dev5_eq (c : Dev nD) : (⟨k0_dev5 c, k0_dev5_lt c⟩ : Dev nD) = sh c 5 := Fin.ext (k0_dev5_eq c)
@[sl_canon] theorem dev6_eq (c : Dev nD) : (⟨k0_dev6 c, k0_dev6_lt c⟩ : Dev nD) = sh c 6 := Fin.ext (k0_dev6_eq c)
@[sl_canon] theorem dev7_eq (c : Dev nD) : (⟨k0_dev7 c, k0_dev7_lt c⟩ : Dev nD) = sh c 7 := Fin.ext (k0_dev7_eq c)
@[sl_canon] theorem dev8_eq (c : Dev nD) : (⟨k0_dev8 c, k0_dev8_lt c⟩ : Dev nD) = sh c 1 := Fin.ext (k0_dev8_eq c)
@[sl_canon] theorem dev9_eq (c : Dev nD) : (⟨k0_dev9 c, k0_dev9_lt c⟩ : Dev nD) = sh c 2 := Fin.ext (k0_dev9_eq c)
@[sl_canon] theorem dev10_eq (c : Dev nD) : (⟨k0_dev10 c, k0_dev10_lt c⟩ : Dev nD) = sh c 3 := Fin.ext (k0_dev10_eq c)
@[sl_canon] theorem dev11_eq (c : Dev nD) : (⟨k0_dev11 c, k0_dev11_lt c⟩ : Dev nD) = sh c 4 := Fin.ext (k0_dev11_eq c)
@[sl_canon] theorem dev12_eq (c : Dev nD) : (⟨k0_dev12 c, k0_dev12_lt c⟩ : Dev nD) = sh c 5 := Fin.ext (k0_dev12_eq c)
@[sl_canon] theorem dev13_eq (c : Dev nD) : (⟨k0_dev13 c, k0_dev13_lt c⟩ : Dev nD) = sh c 6 := Fin.ext (k0_dev13_eq c)
@[sl_canon] theorem dev14_eq (c : Dev nD) : (⟨k0_dev14 c, k0_dev14_lt c⟩ : Dev nD) = sh c 7 := Fin.ext (k0_dev14_eq c)

/-- info: 'Cert.Kernel.Sum.dev14_eq' depends on axioms: [propext, Quot.sound] -/
#guard_msgs in #print axioms dev14_eq

end Cert.Kernel.Sum

end
-- ==== Proof.Word.Body2.lean ====
/-
  The second half of one device's body, part by part: the seven remote transfers of its own row, the waits for the
  seven rows sent to it and for its own sends, and the load of the whole gather buffer.
-/
import proofs.«901086_g7700000000001087_dist_sum_ax0_shard0_i_m2048_n1024_v7x_i8_bf16_1_alg».proof.Proof.Word.BodyA
import proofs.«901086_g7700000000001087_dist_sum_ax0_shard0_i_m2048_n1024_v7x_i8_bf16_1_alg».proof.Proof.Word.BodyCopy
import proofs.«901086_g7700000000001087_dist_sum_ax0_shard0_i_m2048_n1024_v7x_i8_bf16_1_alg».proof.Proof.Word.BodySend
import proofs.«901086_g7700000000001087_dist_sum_ax0_shard0_i_m2048_n1024_v7x_i8_bf16_1_alg».proof.Proof.Word.BodyWait
import proofs.«901086_g7700000000001087_dist_sum_ax0_shard0_i_m2048_n1024_v7x_i8_bf16_1_alg».proof.Proof.Word.BodyMem
import proofs.«901086_g7700000000001087_dist_sum_ax0_shard0_i_m2048_n1024_v7x_i8_bf16_1_alg».proof.Proof.Word.BodyEnds
import proofs.«901086_g7700000000001087_dist_sum_ax0_shard0_i_m2048_n1024_v7x_i8_bf16_1_alg».proof.Proof.Word.Names
import proofs.«901086_g7700000000001087_dist_sum_ax0_shard0_i_m2048_n1024_v7x_i8_bf16_1_alg».proof.Proof.Word.Views

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A listed conjunction as the chain it is -/

theorem bigSepL2 {I : Type} (Φ : I → sProp 𝕄) (a b : I) : bigSepL [a, b] Φ = iprop(Φ a ∗ Φ b) := rfl
theorem bigSepL3 {I : Type} (Φ : I → sProp 𝕄) (a b c : I) : bigSepL [a, b, c] Φ = iprop(Φ a ∗ Φ b ∗ Φ c) := rfl
theorem bigSepL4 {I : Type} (Φ : I → sProp 𝕄) (a b c d : I) : bigSepL [a, b, c, d] Φ = iprop(Φ a ∗ Φ b ∗ Φ c ∗ Φ d) := rfl
theorem bigSepL5 {I : Type} (Φ : I → sProp 𝕄) (a b c d e : I) : bigSepL [a, b, c, d, e] Φ = iprop(Φ a ∗ Φ b ∗ Φ c ∗ Φ d ∗ Φ e) := rfl
theorem bigSepL7 {I : Type} (Φ : I → sProp 𝕄) (a b c d e f g : I) :
    bigSepL [a, b, c, d, e, f, g] Φ = iprop(Φ a ∗ Φ b ∗ Φ c ∗ Φ d ∗ Φ e ∗ Φ f ∗ Φ g) := rfl
theorem bigSepL8 {I : Type} (Φ : I → sProp 𝕄) (a b c d e f g h : I) :
    bigSepL [a, b, c, d, e, f, g, h] Φ = iprop(Φ a ∗ Φ b ∗ Φ c ∗ Φ d ∗ Φ e ∗ Φ f ∗ Φ g ∗ Φ h) := rfl

/-- What send `j` consumes: its tokens and position, share `j` of the device's own row, and what the entry signal
    from the device `j` places further on handed over. -/
def sndR (c : Dev nD) (j : Fin 8) : sProp 𝕄 :=
  iprop(sndT c j ∗ rowPts c c (Transfers.shareTokN fullShare j.val) (commB m c) ∗ barPay c j)

/-! ## Parts 7 to 13 -/

omit [FloatOps F] in
/-- The credit of a transfer into any one row of the gather buffer is a row's credit. -/
theorem slice_credit (off : Fin 3 → Nat) (h : ∀ a, off a + S1x1x1024.size a ≤ S8x1x1024.size a) (hs : S1x1x1024.Squeezes S1x1024) :
    (((cM : Memref sig .tc .vmem S8x1x1024 .f32).slice (Rect.unit (s := S8x1x1024) off S1x1x1024.size h) (fun _ => rfl)).squeeze S1x1024 hs).view.dmaCredit = Nrow := rfl

/-- Send `j` as the program spells it: the device's own row through its printed offset chain, the device addressed
    through its printed chain, the two semaphores as entries of their arrays. -/
theorem send_run (m : (ℓ : Loc nD τ sig) → Buf (Elt F) ℓ) (c : Dev nD) (Kn : Dev nD × Fin 25 → ℕ) (j : Fin 8) (n : ℕ) (hn : n < 7) (hj : j = jOf n)
    {src dst : Memref sig .tc .vmem S1x1024 .f32} (hs : src = rowM c) (hd : dst = rowM c)
    {d : Dev nD} (hdv : d = sh c j) {s1 s2 : DmaSem sig} (h1 : s1 = sendS j) (h2 : s2 = recvS j)
    {hsc : dst.view.ref.isScScratch = false} {hsrc : src.view.WordExact} {hdst : dst.view.WordExact}
    {hsem : DmaTarget.Typed (nD := nD) (p := Proc.tc) .vmem (.dma s2) (.remote ((d : Dev nD) : Thread nD τ) dst (.dma s1) hsc)}
    {α : Type} (k : PUnit → Prog (TpuEff nD τ sig (Elt F) Λ₀ .tc) α) (Q : α → sProp 𝕄) :
    iprop(records m Kn ∗ owesX c (owedS c (n + 1)) ∗ sndR m c j)
      ⊢ iprop(((sndI c j ∗ owesX c (owedS c n)) -∗ wp frame (wpE (defs₀ (F := F)) 𝒱₀ c none) Set.univ (k ⟨⟩) Q)
          -∗ wp frame (wpE (defs₀ (F := F)) 𝒱₀ c none) Set.univ (.op (.enqueueDma src (.remote ((d : Dev nD) : Thread nD τ) dst (.dma s1) hsc) (.dma s2) hsrc hdst hsem) k) Q) := by
  subst hs hd hdv h1 h2
  unfold sndR
  exact step_send m c Kn j n hn hj k Q

/-- Part 7: sends 1 and 2. -/
theorem part7_run (c : Dev nD) (Kn : Dev nD × Fin 25 → ℕ) (v2 v160 : BitVec 32) (Kt : PUnit → sProp 𝕄) :
    iprop(records m Kn ∗ owesX c (owedS c 7) ∗ bigSepL [1, 2] (sndR m c)
        ∗ ((owesX c (owedS c 5) ∗ bigSepL [1, 2] (sndI (F := F) c)) -∗ Kt ⟨⟩))
      ⊢ wp frame (wpE (defs₀ (F := F)) 𝒱₀ c none) Set.univ (k0_part7 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 v160) Kt := by
  rw [Gen.k0_part7_eq_skeleton]; unfold Gen.k0_part7_skel
  simp only [Prog.lift, Prog.bind_op, Prog.bind_ret, Prog.pure_eq_ret, bigSepL2]
  iintro ⟨#Hrec, HO, ⟨HS1, HS2⟩, Hk⟩
  iapply (send_run m c Kn 1 6 (by decide) (by decide) (row_off2 c) (row_off2 c) (dev8_eq c) sem_send1 sem_recv1 _ _) $$ [HO HS1]
  · isplitr; · iexact Hrec
    isplitl [HO]; · iexact HO
    iexact HS1
  iintro ⟨HI1, HO⟩
  iapply (send_run m c Kn 2 5 (by decide) (by decide) (row_off2 c) (row_off2 c) (dev9_eq c) sem_send2 sem_recv2 _ _) $$ [HO HS2]
  · isplitr; · iexact Hrec
    isplitl [HO]; · iexact HO
    iexact HS2
  iintro ⟨HI2, HO⟩
  rw [wp_ret]; imodintro
  iapply Hk
  isplitl [HO]; · iexact HO
  isplitl [HI1]; · iexact HI1
  iexact HI2

/-- Part 8: sends 3 to 5. -/
theorem part8_run (c : Dev nD) (Kn : Dev nD × Fin 25 → ℕ) (v2 : BitVec 32)
    (Kt : (Σ' (v221 : BitVec 32), BitVec 32) → sProp 𝕄) :
    iprop(records m Kn ∗ owesX c (owedS c 5) ∗ bigSepL [3, 4, 5] (sndR m c)
        ∗ ((owesX c (owedS c 2) ∗ bigSepL [3, 4, 5] (sndI (F := F) c)) -∗ ∀ v, Kt v))
      ⊢ wp frame (wpE (defs₀ (F := F)) 𝒱₀ c none) Set.univ (k0_part8 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [Gen.k0_part8_eq_skeleton]; unfold Gen.k0_part8_skel
  simp only [Prog.lift, Prog.bind_op, Prog.bind_ret, Prog.pure_eq_ret, bigSepL3]
  iintro ⟨#Hrec, HO, ⟨HS3, HS4, HS5⟩, Hk⟩
  iapply (send_run m c Kn 3 4 (by decide) (by decide) (row_off2 c) (row_off2 c) (dev10_eq c) sem_send3 sem_recv3 _ _) $$ [HO HS3]
  · isplitr; · iexact Hrec
    isplitl [HO]; · iexact HO
    iexact HS3
  iintro ⟨HI3, HO⟩
  iapply (send_run m c Kn 4 3 (by decide) (by decide) (row_off2 c) (row_off2 c) (dev11_eq c) sem_send4 sem_recv4 _ _) $$ [HO HS4]
  · isplitr; · iexact Hrec
    isplitl [HO]; · iexact HO
    iexact HS4
  iintro ⟨HI4, HO⟩
  iapply (send_run m c Kn 5 2 (by decide) (by decide) (row_off2 c) (row_off2 c) (dev12_eq c) sem_send5 sem_recv5 _ _) $$ [HO HS5]
  · isplitr; · iexact Hrec
    isplitl [HO]; · iexact HO
    iexact HS5
  iintro ⟨HI5, HO⟩
  rw [wp_ret]; imodintro
  iapply Hk $$ [HO HI3 HI4 HI5] %_
  isplitl [HO]; · iexact HO
  isplitl [HI3]; · iexact HI3
  isplitl [HI4]; · iexact HI4
  iexact HI5

/-- Part 9: sends 6 and 7, after which the device owes nothing, and the wait for the row of the device one place back. -/
theorem part9_run (c : Dev nD) (Kn : Dev nD × Fin 25 → ℕ) (v2 v221 c0 : BitVec 32) (Kt : PUnit → sProp 𝕄) :
    iprop(records m Kn ∗ owesX c (owedS c 2) ∗ bigSepL [6, 7] (sndR m c) ∗ rcvI c 1
        ∗ ((owesX c 0 ∗ bigSepL [6, 7] (sndI (F := F) c) ∗ rcvD m c 1) -∗ Kt ⟨⟩))
      ⊢ wp frame (wpE (defs₀ (F := F)) 𝒱₀ c none) Set.univ (k0_part9 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 v221 c0) Kt := by
  rw [Gen.k0_part9_eq_skeleton]; unfold Gen.k0_part9_skel
  simp only [Prog.lift, Prog.bind_op, Prog.bind_ret, Prog.pure_eq_ret, bigSepL2]
  rw [sem_recv1]
  iintro ⟨#Hrec, HO, ⟨HS6, HS7⟩, HV1, Hk⟩
  iapply (send_run m c Kn 6 1 (by decide) (by decide) (row_off2 c) (row_off2 c) (dev13_eq c) sem_send6 sem_recv6 _ _) $$ [HO HS6]
  · isplitr; · iexact Hrec
    isplitl [HO]; · iexact HO
    iexact HS6
  iintro ⟨HI6, HO⟩
  iapply (send_run m c Kn 7 0 (by decide) (by decide) (row_off2 c) (row_off2 c) (dev14_eq c) sem_send7 sem_recv7 _ _) $$ [HO HS7]
  · isplitr; · iexact Hrec
    isplitl [HO]; · iexact HO
    iexact HS7
  iintro ⟨HI7, HO⟩
  iapply (step_recv_wait m c Kn 1 (by decide) (slice_credit _ _ _) _ _) $$ [HO HV1]
  · isplitr; · iexact Hrec
    isplitl [HO]; · iexact HO
    iexact HV1
  iintro ⟨HO, HD1⟩
  rw [wp_ret]; imodintro
  iapply Hk
  isplitl [HO]; · iexact HO
  isplitl [HI6 HI7]
  · isplitl [HI6]; · iexact HI6
    iexact HI7
  iexact HD1

/-- Part 10: the waits for the rows of the devices two and three places back. -/
theorem part10_run (c : Dev nD) (Kn : Dev nD × Fin 25 → ℕ) (v2 : BitVec 32) (Kt : PUnit → sProp 𝕄) :
    iprop(records m Kn ∗ owesX c 0 ∗ bigSepL [2, 3] (rcvI (F := F) c)
        ∗ ((owesX c 0 ∗ bigSepL [2, 3] (rcvD m c)) -∗ Kt ⟨⟩))
      ⊢ wp frame (wpE (defs₀ (F := F)) 𝒱₀ c none) Set.univ (k0_part10 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [k0_part10_eq_skeleton]; unfold k0_part10_skel
  simp only [Prog.lift, Prog.bind_op, Prog.bind_ret, Prog.pure_eq_ret]
  rw [sem_recv2, sem_recv3]
  show iprop(records m Kn ∗ owesX c 0 ∗ (rcvI (F := F) c 2 ∗ rcvI (F := F) c 3)
        ∗ ((owesX c 0 ∗ (rcvD m c 2 ∗ rcvD m c 3)) -∗ Kt ⟨⟩)) ⊢ _
  iintro ⟨#Hrec, HO, ⟨H2, H3⟩, Hk⟩
  iapply (step_recv_wait m c Kn 2 (by decide) (slice_credit _ _ _) _ _) $$ [HO H2]
  · isplitr; · iexact Hrec
    isplitl [HO]; · iexact HO
    iexact H2
  iintro ⟨HO, D2⟩
  iapply (step_recv_wait m c Kn 3 (by decide) (slice_credit _ _ _) _ _) $$ [HO H3]
  · isplitr; · iexact Hrec
    isplitl [HO]; · iexact HO
    iexact H3
  iintro ⟨HO, D3⟩
  rw [wp_ret]; imodintro
  iapply Hk
  isplitl [HO]; · iexact HO
  isplitl [D2]; · iexact D2
  iexact D3

/-- Part 11: the waits for the rows of the devices four to six places back. -/
theorem part11_run (c : Dev nD) (Kn : Dev nD × Fin 25 → ℕ) (v2 : BitVec 32)
    (Kt : (Σ' (v310 : BitVec 32), BitVec 32) → sProp 𝕄) :
    iprop(records m Kn ∗ owesX c 0 ∗ bigSepL [4, 5, 6] (rcvI (F := F) c)
        ∗ ((owesX c 0 ∗ bigSepL [4, 5, 6] (rcvD m c)) -∗ ∀ v, Kt v))
      ⊢ wp frame (wpE (defs₀ (F := F)) 𝒱₀ c none) Set.univ (k0_part11 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2) Kt := by
  rw [k0_part11_eq_skeleton]; unfold k0_part11_skel
  simp only [Prog.lift, Prog.bind_op, Prog.bind_ret, Prog.pure_eq_ret]
  rw [sem_recv4, sem_recv5, sem_recv6]
  show iprop(records m Kn ∗ owesX c 0 ∗ (rcvI (F := F) c 4 ∗ rcvI (F := F) c 5 ∗ rcvI (F := F) c 6)
        ∗ ((owesX c 0 ∗ (rcvD m c 4 ∗ rcvD m c 5 ∗ rcvD m c 6)) -∗ ∀ v, Kt v)) ⊢ _
  iintro ⟨#Hrec, HO, ⟨H4, H5, H6⟩, Hk⟩
  iapply (step_recv_wait m c Kn 4 (by decide) (slice_credit _ _ _) _ _) $$ [HO H4]
  · isplitr; · iexact Hrec
    isplitl [HO]; · iexact HO
    iexact H4
  iintro ⟨HO, D4⟩
  iapply (step_recv_wait m c Kn 5 (by decide) (slice_credit _ _ _) _ _) $$ [HO H5]
  · isplitr; · iexact Hrec
    isplitl [HO]; · iexact HO
    iexact H5
  iintro ⟨HO, D5⟩
  iapply (step_recv_wait m c Kn 6 (by decide) (slice_credit _ _ _) _ _) $$ [HO H6]
  · isplitr; · iexact Hrec
    isplitl [HO]; · iexact HO
    iexact H6
  iintro ⟨HO, D6⟩
  rw [wp_ret]; imodintro
  ihave Hk2 := Hk $$ [HO D4 D5 D6]
  · isplitl [HO]; · iexact HO
    isplitl [D4]; · iexact D4
    isplitl [D5]; · iexact D5
    iexact D6
  iapply Hk2

/-- Part 12: the wait for the row of the device seven places back, and for sends 1 to 3. -/
theorem part12_run (c : Dev nD) (Kn : Dev nD × Fin 25 → ℕ) (v310 c8 : BitVec 32) (Kt : PUnit → sProp 𝕄) :
    iprop(records m Kn ∗ owesX c 0 ∗ rcvI c 7 ∗ bigSepL [1, 2, 3] (sndI (F := F) c)
        ∗ ((owesX c 0 ∗ rcvD m c 7 ∗ bigSepL [1, 2, 3] (sndD m c)) -∗ Kt ⟨⟩))
      ⊢ wp frame (wpE (defs₀ (F := F)) 𝒱₀ c none) Set.univ (k0_part12 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v310 c8) Kt := by
  rw [k0_part12_eq_skeleton]; unfold k0_part12_skel
  simp only [Prog.lift, Prog.bind_op, Prog.bind_ret, Prog.pure_eq_ret]
  rw [sem_recv7, sem_send1, sem_send2, sem_send3]
  show iprop(records m Kn ∗ owesX c 0 ∗ rcvI (F := F) c 7 ∗ (sndI (F := F) c 1 ∗ sndI (F := F) c 2 ∗ sndI (F := F) c 3)
        ∗ ((owesX c 0 ∗ rcvD m c 7 ∗ (sndD m c 1 ∗ sndD m c 2 ∗ sndD m c 3)) -∗ Kt ⟨⟩)) ⊢ _
  iintro ⟨#Hrec, HO, H7, ⟨S1, S2, S3⟩, Hk⟩
  iapply (step_recv_wait m c Kn 7 (by decide) (slice_credit _ _ _) _ _) $$ [HO H7]
  · isplitr; · iexact Hrec
    isplitl [HO]; · iexact HO
    iexact H7
  iintro ⟨HO, D7⟩
  iapply (step_send_wait m c Kn 1 (by decide) (slice_credit _ _ _) _ _) $$ [HO S1]
  · isplitr; · iexact Hrec
    isplitl [HO]; · iexact HO
    iexact S1
  iintro ⟨HO, E1⟩
  iapply (step_send_wait m c Kn 2 (by decide) (slice_credit _ _ _) _ _) $$ [HO S2]
  · isplitr; · iexact Hrec
    isplitl [HO]; · iexact HO
    iexact S2
  iintro ⟨HO, E2⟩
  iapply (step_send_wait m c Kn 3 (by decide) (slice_credit _ _ _) _ _) $$ [HO S3]
  · isplitr; · iexact Hrec
    isplitl [HO]; · iexact HO
    iexact S3
  iintro ⟨HO, E3⟩
  rw [wp_ret]; imodintro
  iapply Hk
  isplitl [HO]; · iexact HO
  isplitl [D7]; · iexact D7
  isplitl [E1]; · iexact E1
  isplitl [E2]; · iexact E2
  iexact E3

/-- Part 13: the waits for sends 4 to 7; then the device's own row is whole again, the gather buffer is whole, and
    the load of all of it reads every device's column sums. -/
theorem part13_run (c : Dev nD) (Kn : Dev nD × Fin 25 → ℕ) (Kt : Vec F S8x1x1024 .f32 → sProp 𝕄) :
    iprop(records m Kn ∗ owesX c 0 ∗ bigSepL [4, 5, 6, 7] (sndI (F := F) c) ∗ bigSepL [1, 2, 3] (sndD m c)
        ∗ rowPts c c (Transfers.shareDrop fullShare 8) (commB m c) ∗ rowPts c c (Transfers.shareTokN fullShare 0) (commB m c)
        ∗ bigSepL [1, 2, 3, 4, 5, 6, 7] (rcvD m c)
        ∗ ((owesX c 0 ∗ ((((c : Thread nD τ).loc cc0_scratch1) ↦{fullShare} commB m c) : sProp 𝕄)
              ∗ bigSepL [1, 2, 3, 4, 5, 6, 7] (fun j : Fin 8 => atPos ER (sendCell c j) 1 ∅ 0)
              ∗ bigSepL [1, 2, 3, 4, 5, 6, 7] (fun j : Fin 8 => atPos ER (recvCell c j) 1 ∅ 0)) -∗ Kt (comm (xb m))))
      ⊢ wp frame (wpE (defs₀ (F := F)) 𝒱₀ c none) Set.univ (k0_part13 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c) Kt := by
  have hN : (((cM : Memref sig .tc .vmem S8x1x1024 .f32).slice (Rect.unit (s := S8x1x1024) (k0_off2 c) S1x1x1024.size (k0_off2_inb c)) (fun _ => rfl)).squeeze S1x1024
      squeezes_S1x1x1024_S1x1024).view.dmaCredit = Nrow := by rw [row_off2]
  unfold k0_part13
  rw [bigSepL4, bigSepL3, bigSepL7]
  unfold sndD rcvD
  iintro ⟨#Hrec, HO, ⟨HI4, HI5, HI6, HI7⟩, ⟨⟨Ht1, Ha1⟩, ⟨Ht2, Ha2⟩, ⟨Ht3, Ha3⟩⟩, Hdrop, Ht0,
    ⟨⟨Hr1, Hb1⟩, ⟨Hr2, Hb2⟩, ⟨Hr3, Hb3⟩, ⟨Hr4, Hb4⟩, ⟨Hr5, Hb5⟩, ⟨Hr6, Hb6⟩, ⟨Hr7, Hb7⟩⟩, Hk⟩
  iapply (step_send_wait m c Kn 4 (by decide) hN) $$ [HO HI4]
  · isplitr; · iexact Hrec
    isplitl [HO] <;> iassumption
  iintro ⟨HO, HD4⟩
  iapply (step_send_wait m c Kn 5 (by decide) hN) $$ [HO HI5]
  · isplitr; · iexact Hrec
    isplitl [HO] <;> iassumption
  iintro ⟨HO, HD5⟩
  iapply (step_send_wait m c Kn 6 (by decide) hN) $$ [HO HI6]
  · isplitr; · iexact Hrec
    isplitl [HO] <;> iassumption
  iintro ⟨HO, HD6⟩
  iapply (step_send_wait m c Kn 7 (by decide) hN) $$ [HO HI7]
  · isplitr; · iexact Hrec
    isplitl [HO] <;> iassumption
  iintro ⟨HO, HD7⟩
  unfold sndD
  icases HD4 with ⟨Ht4, Ha4⟩
  icases HD5 with ⟨Ht5, Ha5⟩
  icases HD6 with ⟨Ht6, Ha6⟩
  icases HD7 with ⟨Ht7, Ha7⟩
  ihave Hrow := (row_join c (commB m c)) $$ [Hdrop Ht0 Ht1 Ht2 Ht3 Ht4 Ht5 Ht6 Ht7]
  · isplitl [Hdrop]; · iexact Hdrop
    rw [bigSepL8]
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  ihave Hbuf := (rows_join c (commB m c)) $$ [Hrow Hr1 Hr2 Hr3 Hr4 Hr5 Hr6 Hr7]
  · isplitl [Hrow]; · iexact Hrow
    rw [bigSepL7]
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  iapply (step_load_all m c) $$ Hbuf
  iintro Hbuf
  rw [wp_ret]
  imodintro
  iapply Hk
  isplitl [HO]; · iexact HO
  isplitl [Hbuf]; · iexact Hbuf
  isplitl [Ha1 Ha2 Ha3 Ha4 Ha5 Ha6 Ha7]
  · rw [bigSepL7]
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  · rw [bigSepL7]
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7

/-- info: 'Cert.Kernel.Sum.part7_run' depends on axioms: [propext, Classical.choice, Quot.sound] -/
#guard_msgs in #print axioms part7_run

/-- info: 'Cert.Kernel.Sum.part8_run' depends on axioms: [propext, Classical.choice, Quot.sound] -/
#guard_msgs in #print axioms part8_run

/-- info: 'Cert.Kernel.Sum.part9_run' depends on axioms: [propext, Classical.choice, Quot.sound] -/
#guard_msgs in #print axioms part9_run

/-- info: 'Cert.Kernel.Sum.part10_run' depends on axioms: [propext, Classical.choice, Quot.sound] -/
#guard_msgs in #print axioms part10_run

/-- info: 'Cert.Kernel.Sum.part11_run' depends on axioms: [propext, Classical.choice, Quot.sound] -/
#guard_msgs in #print axioms part11_run

/-- info: 'Cert.Kernel.Sum.part12_run' depends on axioms: [propext, Classical.choice, Quot.sound] -/
#guard_msgs in #print axioms part12_run

/-- info: 'Cert.Kernel.Sum.part13_run' depends on axioms: [propext, Classical.choice, Quot.sound] -/
#guard_msgs in #print axioms part13_run

end Cert.Kernel.Sum

end
-- ==== Proof.Word.Body.lean ====
/-
  One device's body, stepped once at a symbolic device: from what the launch hands it to the result row stored,
  every semaphore of its own back at zero and the scratch buffers whole.
-/
import proofs.«901086_g7700000000001087_dist_sum_ax0_shard0_i_m2048_n1024_v7x_i8_bf16_1_alg».proof.Proof.Word.Body2

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed parts, one by one -/

/-- Part 1: the device reads its place and signals the five devices one to five places further on. -/
theorem part1_run (c : Dev nD) (Kn : Dev nD × Fin 25 → ℕ)
    (Kt : (Σ' (d0 : Dev nD) (v2 : BitVec 32) (v3 : Sems sig S_) (v24 : BitVec 32), BitVec 32) → sProp 𝕄) :
    iprop(records m Kn ∗ owesX c (owedB c 7) ∗ bigSepL [1, 2, 3, 4, 5] (sigR (F := F) c)
        ∗ (owesX c (owedB c 2) -∗ Kt ⟨c, v2w c, SemArray.scalar (sig.barrier 0 rfl), Scalar.addi (v2w c) 6#32, 8#32⟩))
      ⊢ wp frame (wpE (defs₀ (F := F)) 𝒱₀ c none) Set.univ (k0_part1 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt := by
  rw [k0_part1_eq_skeleton]; unfold k0_part1_skel
  simp only [semSignalWord, semWaitWord, Prog.lift, Prog.bind_op, Prog.bind_ret, Prog.pure_eq_ret, wp_deviceId, dev1_eq, dev2_eq, dev3_eq, dev4_eq, dev5_eq, bigSepL5]
  iintro ⟨#Hrec, HL, ⟨S1, S2, S3, S4, S5⟩, Hk⟩
  iapply (step_signal m c Kn 1 6 (by decide) (by decide) _ _) $$ [HL S1]
  · isplitr; · iexact Hrec
    isplitl [HL]; · iexact HL
    iexact S1
  iintro HL
  iapply (step_signal m c Kn 2 5 (by decide) (by decide) _ _) $$ [HL S2]
  · isplitr; · iexact Hrec
    isplitl [HL]; · iexact HL
    iexact S2
  iintro HL
  iapply (step_signal m c Kn 3 4 (by decide) (by decide) _ _) $$ [HL S3]
  · isplitr; · iexact Hrec
    isplitl [HL]; · iexact HL
    iexact S3
  iintro HL
  iapply (step_signal m c Kn 4 3 (by decide) (by decide) _ _) $$ [HL S4]
  · isplitr; · iexact Hrec
    isplitl [HL]; · iexact HL
    iexact S4
  iintro HL
  iapply (step_signal m c Kn 5 2 (by decide) (by decide) _ _) $$ [HL S5]
  · isplitr; · iexact Hrec
    isplitl [HL]; · iexact HL
    iexact S5
  iintro HL
  rw [wp_ret]; imodintro
  iapply Hk; iexact HL

/-- Part 2: the last two entry signals, and the transfers of chunks 0 to 2 issued. -/
theorem part2_run (c : Dev nD) (Kn : Dev nD × Fin 25 → ℕ) (v2 v24 c8 : BitVec 32) (Kt : PUnit → sProp 𝕄) :
    iprop(records m Kn ∗ owesX c (owedB c 2) ∗ bigSepL [6, 7] (sigR (F := F) c) ∗ bigSepL [0, 1, 2] (cpyR m c)
        ∗ ((owesX c (owedS c 7) ∗ bigSepL [0, 1, 2] (cpyI (F := F) c)) -∗ Kt ⟨⟩))
      ⊢ wp frame (wpE (defs₀ (F := F)) 𝒱₀ c none) Set.univ (k0_part2 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 (SemArray.scalar (sig.barrier 0 rfl)) v24 c8) Kt := by
  rw [k0_part2_eq_skeleton]; unfold k0_part2_skel
  simp only [semSignalWord, semWaitWord, Prog.lift, Prog.bind_op, Prog.bind_ret, Prog.pure_eq_ret, wp_deviceId, dev6_eq, dev7_eq, bigSepL2, bigSepL3]
  iintro ⟨#Hrec, HL, ⟨S6, S7⟩, ⟨C0, C1, C2⟩, Hk⟩
  iapply (step_signal m c Kn 6 1 (by decide) (by decide) _ _) $$ [HL S6]
  · isplitr; · iexact Hrec
    isplitl [HL]; · iexact HL
    iexact S6
  iintro HL
  iapply (step_signal m c Kn 7 0 (by decide) (by decide) _ _) $$ [HL S7]
  · isplitr; · iexact Hrec
    isplitl [HL]; · iexact HL
    iexact S7
  iintro HL
  iapply (step_copy m c Kn 0 _ _) $$ [C0]
  · isplitr; · iexact Hrec
    iexact C0
  iintro I0
  iapply (step_copy m c Kn 1 _ _) $$ [C1]
  · isplitr; · iexact Hrec
    iexact C1
  iintro I1
  iapply (step_copy m c Kn 2 _ _) $$ [C2]
  · isplitr; · iexact Hrec
    iexact C2
  iintro I2
  rw [wp_ret]; imodintro
  iapply Hk
  isplitl [HL]; · iexact HL
  isplitl [I0]; · iexact I0
  isplitl [I1]; · iexact I1
  iexact I2

/-- Part 3: the transfers of chunks 3 to 7 issued. -/
theorem part3_run (c : Dev nD) (Kn : Dev nD × Fin 25 → ℕ) (Kt : FVec F S8x1024 .f32 → sProp 𝕄) :
    iprop(records m Kn ∗ bigSepL [3, 4, 5, 6, 7] (cpyR m c) ∗ (bigSepL [3, 4, 5, 6, 7] (cpyI (F := F) c) -∗ Kt k0_pay2))
      ⊢ wp frame (wpE (defs₀ (F := F)) 𝒱₀ c none) Set.univ (k0_part3 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt := by
  rw [k0_part3_eq_skeleton]; unfold k0_part3_skel
  simp only [semSignalWord, semWaitWord, Prog.lift, Prog.bind_op, Prog.bind_ret, Prog.pure_eq_ret, wp_deviceId, bigSepL5]
  iintro ⟨#Hrec, ⟨C3, C4, C5, C6, C7⟩, Hk⟩
  iapply (step_copy m c Kn 3 _ _) $$ [C3]
  · isplitr; · iexact Hrec
    iexact C3
  iintro I3
  iapply (step_copy m c Kn 4 _ _) $$ [C4]
  · isplitr; · iexact Hrec
    iexact C4
  iintro I4
  iapply (step_copy m c Kn 5 _ _) $$ [C5]
  · isplitr; · iexact Hrec
    iexact C5
  iintro I5
  iapply (step_copy m c Kn 6 _ _) $$ [C6]
  · isplitr; · iexact Hrec
    iexact C6
  iintro I6
  iapply (step_copy m c Kn 7 _ _) $$ [C7]
  · isplitr; · iexact Hrec
    iexact C7
  iintro I7
  rw [wp_ret]; imodintro
  iapply Hk
  isplitl [I3]; · iexact I3
  isplitl [I4]; · iexact I4
  isplitl [I5]; · iexact I5
  isplitl [I6]; · iexact I6
  iexact I7

/-- Part 4: chunks 0 to 2 waited for and loaded. -/
theorem part4_run (c : Dev nD) (Kn : Dev nD × Fin 25 → ℕ) (v72 : FVec F S8x1024 .f32) (Kt : FVec F S8x1024 .f32 → sProp 𝕄) :
    iprop(records m Kn ∗ levAts L lv ∗ owesX c (owedS c 7) ∗ bigSepL [0, 1, 2] (cpyI (F := F) c)
        ∗ ((owesX c (owedS c 7) ∗ bigSepL [0, 1, 2] (cpyD m c))
            -∗ Kt (k0_pay3 v72 (chunk (xb m c) 0) (chunk (xb m c) 1) (chunk (xb m c) 2))))
      ⊢ wp frame (wpE (defs₀ (F := F)) 𝒱₀ c none) Set.univ (k0_part4 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 v72) Kt := by
  rw [k0_part4_eq_skeleton]; unfold k0_part4_skel
  simp only [semSignalWord, semWaitWord, Prog.lift, Prog.bind_op, Prog.bind_ret, Prog.pure_eq_ret, wp_deviceId, bigSepL3]
  iintro ⟨#Hrec, #Hlev, HL, ⟨I0, I1, I2⟩, Hk⟩
  iapply (step_copy_wait m c Kn 0 _ _) $$ [HL I0]
  · isplitr; · iexact Hrec
    isplitr; · iexact Hlev
    isplitl [HL]; · iexact HL
    iexact I0
  iintro ⟨HL, D0⟩
  iapply (step_load_chunk m c 0 _ _) $$ D0
  iintro D0
  iapply (step_copy_wait m c Kn 1 _ _) $$ [HL I1]
  · isplitr; · iexact Hrec
    isplitr; · iexact Hlev
    isplitl [HL]; · iexact HL
    iexact I1
  iintro ⟨HL, D1⟩
  iapply (step_load_chunk m c 1 _ _) $$ D1
  iintro D1
  iapply (step_copy_wait m c Kn 2 _ _) $$ [HL I2]
  · isplitr; · iexact Hrec
    isplitr; · iexact Hlev
    isplitl [HL]; · iexact HL
    iexact I2
  iintro ⟨HL, D2⟩
  iapply (step_load_chunk m c 2 _ _) $$ D2
  iintro D2
  rw [wp_ret]; imodintro
  iapply Hk
  isplitl [HL]; · iexact HL
  isplitl [D0]; · iexact D0
  isplitl [D1]; · iexact D1
  iexact D2

/-- Part 5: chunks 3 to 5 waited for and loaded. -/
theorem part5_run (c : Dev nD) (Kn : Dev nD × Fin 25 → ℕ) (v102 : FVec F S8x1024 .f32)
    (Kt : (Σ' (v122 : FVec F S8x1024 .f32), FVec F S8x1024 .f32) → sProp 𝕄) :
    iprop(records m Kn ∗ levAts L lv ∗ owesX c (owedS c 7) ∗ bigSepL [3, 4, 5] (cpyI (F := F) c)
        ∗ ((owesX c (owedS c 7) ∗ bigSepL [3, 4, 5] (cpyD m c))
            -∗ Kt ⟨k0_pay4 v102 (chunk (xb m c) 3) (chunk (xb m c) 4), k0_pay5 (chunk (xb m c) 5)⟩))
      ⊢ wp frame (wpE (defs₀ (F := F)) 𝒱₀ c none) Set.univ (k0_part5 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 v102) Kt := by
  rw [k0_part5_eq_skeleton]; unfold k0_part5_skel
  simp only [semSignalWord, semWaitWord, Prog.lift, Prog.bind_op, Prog.bind_ret, Prog.pure_eq_ret, wp_deviceId, bigSepL3]
  iintro ⟨#Hrec, #Hlev, HL, ⟨I3, I4, I5⟩, Hk⟩
  iapply (step_copy_wait m c Kn 3 _ _) $$ [HL I3]
  · isplitr; · iexact Hrec
    isplitr; · iexact Hlev
    isplitl [HL]; · iexact HL
    iexact I3
  iintro ⟨HL, D3⟩
  iapply (step_load_chunk m c 3 _ _) $$ D3
  iintro D3
  iapply (step_copy_wait m c Kn 4 _ _) $$ [HL I4]
  · isplitr; · iexact Hrec
    isplitr; · iexact Hlev
    isplitl [HL]; · iexact HL
    iexact I4
  iintro ⟨HL, D4⟩
  iapply (step_load_chunk m c 4 _ _) $$ D4
  iintro D4
  iapply (step_copy_wait m c Kn 5 _ _) $$ [HL I5]
  · isplitr; · iexact Hrec
    isplitr; · iexact Hlev
    isplitl [HL]; · iexact HL
    iexact I5
  iintro ⟨HL, D5⟩
  iapply (step_load_chunk m c 5 _ _) $$ D5
  iintro D5
  rw [wp_ret]; imodintro
  iapply Hk
  isplitl [HL]; · iexact HL
  isplitl [D3]; · iexact D3
  isplitl [D4]; · iexact D4
  iexact D5

/-- Part 6: chunks 6 and 7 waited for and loaded, the block's column sums stored into the device's own row, and the
    seven entry signals waited for. -/
theorem part6_run (c : Dev nD) (Kn : Dev nD × Fin 25 → ℕ) (v2 : BitVec 32) (v122 v131 : FVec F S8x1024 .f32)
    (hv : k0_pay6 v122 v131 (chunk (xb m c) 6) (chunk (xb m c) 7) = rowv (xb m c)) (Kt : BitVec 32 → sProp 𝕄) :
    iprop(records m Kn ∗ levAts L lv ∗ owesX c (owedS c 7) ∗ bigSepL [6, 7] (cpyI (F := F) c)
        ∗ (∃ f, rowPts c c fullShare f) ∗ barI c
        ∗ ((owesX c (owedS c 7) ∗ bigSepL [6, 7] (cpyD m c) ∗ rowPts c c fullShare (commB m c)
              ∗ atPos ER (barCell c) 1 ∅ 0 ∗ bigSepL [1, 2, 3, 4, 5, 6, 7] (fun j : Fin 8 => barPay (F := F) c j)) -∗ ∀ v, Kt v))
      ⊢ wp frame (wpE (defs₀ (F := F)) 𝒱₀ c none) Set.univ (k0_part6 (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4 c v2 (SemArray.scalar (sig.barrier 0 rfl)) v122 v131) Kt := by
  rw [k0_part6_eq_skeleton]; unfold k0_part6_skel
  simp only [semSignalWord, semWaitWord, Prog.lift, Prog.bind_op, Prog.bind_ret, Prog.pure_eq_ret, wp_deviceId, bigSepL2]
  iintro ⟨#Hrec, #Hlev, HL, ⟨I6, I7⟩, ⟨%f, Hrow⟩, Hbar, Hk⟩
  iapply (step_copy_wait m c Kn 6 _ _) $$ [HL I6]
  · isplitr; · iexact Hrec
    isplitr; · iexact Hlev
    isplitl [HL]; · iexact HL
    iexact I6
  iintro ⟨HL, D6⟩
  iapply (step_load_chunk m c 6 _ _) $$ D6
  iintro D6
  iapply (step_copy_wait m c Kn 7 _ _) $$ [HL I7]
  · isplitr; · iexact Hrec
    isplitr; · iexact Hlev
    isplitl [HL]; · iexact HL
    iexact I7
  iintro ⟨HL, D7⟩
  iapply (step_load_chunk m c 7 _ _) $$ D7
  iintro D7
  iapply (step_row_load c f _ _) $$ Hrow
  iintro Hrow %v
  rw [hv]
  iapply (step_row_store m c f _ _) $$ Hrow
  iintro Hrow
  iapply (step_bar_wait m c Kn _ _) $$ [HL Hbar]
  · isplitr; · iexact Hrec
    isplitr; · iexact Hlev
    isplitl [HL]; · iexact HL
    iexact Hbar
  iintro ⟨HL, Hat, Hpay⟩
  generalize Scalar.remsi (Scalar.addi v2 1#32) 8#32 = w
  rw [wp_ret]; imodintro
  ihave Hk := Hk $$ [HL D6 D7 Hrow Hat Hpay]
  · isplitl [HL]; · iexact HL
    isplitl [D6 D7]
    · isplitl [D6]; · iexact D6
      iexact D7
    isplitl [Hrow]; · iexact Hrow
    isplitl [Hat]; · iexact Hat
    iexact Hpay
  iapply Hk $$ %w

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the share of `x` kept, the kernel's own semaphores at zero, the two scratch buffers whole,
    nothing owed, and the result's staging buffer at the sum of the eight rows. -/
def bodyEnd (c : Dev nD) : sProp 𝕄 :=
  iprop(xKeep m c ∗ Pipeline.ownSems0 osem c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ owesX c 0
    ∗ ((((c : Thread nD τ).loc cc0_stg0_0) ↦{fullShare} (outv (xb m) : Buf (Elt F) ((c : Thread nD τ).loc cc0_stg0_0))) : sProp 𝕄))

theorem rowv_eq (x : Vec F S2048x1024 .f32) :
    k0_pay6 (k0_pay4 (k0_pay3 k0_pay2 (chunk x 0) (chunk x 1) (chunk x 2)) (chunk x 3) (chunk x 4)) (k0_pay5 (chunk x 5))
      (chunk x 6) (chunk x 7) = rowv x := rfl

set_option maxHeartbeats 1600000 in
/-- The body from what the launch hands device `c`, the parts composed in program order. -/
theorem body_run (c : Dev nD) (Kn : Dev nD × Fin 25 → ℕ) (fo : Buf (Elt F) ((c : Thread nD τ).loc cc0_stg0_0)) (Kt : PUnit → sProp 𝕄) :
    iprop(records m Kn ∗ linear c ∗ cred (tallyAt (barCell c) () 7)
        ∗ (bigSep (Finset.univ.erase (0 : Fin 8)) fun j => cred (tallyAt (recvCell c j) () Nrow)) ∗ levAts L lv ∗ xPts m c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ owesX c (O₀ c)
        ∗ ((((c : Thread nD τ).loc cc0_stg0_0) ↦{fullShare} fo) : sProp 𝕄)
        ∗ (bodyEnd m c -∗ Kt ⟨⟩))
      ⊢ wp frame (wpE (defs₀ (F := F)) 𝒱₀ c none) Set.univ (Gen.bodyAt0 t₀) Kt := by
  show _ ⊢ wp frame (wpE (defs₀ (F := F)) 𝒱₀ c none) Set.univ (cc0_body (Memref.whole main_arg0) (Memref.isWhole_whole _) (win0_0.stage (cfg0.slots t₀ 0)) (hstage0_0 0) (Memref.whole cc0_scratch0) (Memref.isWhole_whole _) (Memref.whole cc0_scratch1) (Memref.isWhole_whole _) cc0_scratch2 cc0_scratch3 cc0_scratch4) Kt
  rw [cc0_body_eq_skeleton]; unfold cc0_body_skel
  simp only [wp_bind]
  iintro ⟨#Hrec, Hlin, HcB, HcR, #Hlev, Hx, Hs0, Hs1, HL, Hout, Hk⟩
  ihave Hopen := (start_open m c) $$ [Hlin HcB HcR Hx Hs0 Hs1]
  · isplitl [Hlin]; · iexact Hlin
    isplitl [HcB]; · iexact HcB
    isplitl [HcR]; · iexact HcR
    isplitl [Hx]; · iexact Hx
    isplitl [Hs0]; · iexact Hs0
    iexact Hs1
  simp only [bigSepL7, bigSepL8]
  icases Hopen with ⟨⟨S1, S2, S3, S4, S5, S6, S7⟩, ⟨%fr, Hrow⟩, ⟨C0, C1, C2, C3, C4, C5, C6, C7⟩, Hkeep, Hbar,
    ⟨T1, T2, T3, T4, T5, T6, T7⟩, ⟨R1, R2, R3, R4, R5, R6, R7⟩, HatS0, HatR0⟩
  -- part 1
  iapply (part1_run m c Kn _)
  isplitr; · iexact Hrec
  isplitl [HL]; · iexact HL
  isplitl [S1 S2 S3 S4 S5]
  · rw [bigSepL5]
    isplitl [S1]; · iexact S1
    isplitl [S2]; · iexact S2
    isplitl [S3]; · iexact S3
    isplitl [S4]; · iexact S4
    iexact S5
  iintro HL
  dsimp only
  -- part 2
  iapply (part2_run m c Kn _ _ _ _)
  isplitr; · iexact Hrec
  isplitl [HL]; · iexact HL
  isplitl [S6 S7]
  · rw [bigSepL2]
    isplitl [S6]; · iexact S6
    iexact S7
  isplitl [C0 C1 C2]
  · rw [bigSepL3]
    isplitl [C0]; · iexact C0
    isplitl [C1]; · iexact C1
    iexact C2
  rw [bigSepL3]
  iintro ⟨HL, I0, I1, I2⟩
  -- part 3
  iapply (part3_run m c Kn _)
  isplitr; · iexact Hrec
  isplitl [C3 C4 C5 C6 C7]
  · rw [bigSepL5]
    isplitl [C3]; · iexact C3
    isplitl [C4]; · iexact C4
    isplitl [C5]; · iexact C5
    isplitl [C6]; · iexact C6
    iexact C7
  rw [bigSepL5]
  iintro ⟨I3, I4, I5, I6, I7⟩
  -- part 4
  iapply (part4_run m c Kn _ _)
  isplitr; · iexact Hrec
  isplitr; · iexact Hlev
  isplitl [HL]; · iexact HL
  isplitl [I0 I1 I2]
  · rw [bigSepL3]
    isplitl [I0]; · iexact I0
    isplitl [I1]; · iexact I1
    iexact I2
  rw [bigSepL3]
  iintro ⟨HL, D0, D1, D2⟩
  -- part 5
  iapply (part5_run m c Kn _ _)
  isplitr; · iexact Hrec
  isplitr; · iexact Hlev
  isplitl [HL]; · iexact HL
  isplitl [I3 I4 I5]
  · rw [bigSepL3]
    isplitl [I3]; · iexact I3
    isplitl [I4]; · iexact I4
    iexact I5
  rw [bigSepL3]
  iintro ⟨HL, D3, D4, D5⟩
  dsimp only
  -- part 6
  iapply (part6_run m c Kn _ _ _ (rowv_eq (xb m c)) _)
  isplitr; · iexact Hrec
  isplitr; · iexact Hlev
  isplitl [HL]; · iexact HL
  isplitl [I6 I7]
  · rw [bigSepL2]
    isplitl [I6]; · iexact I6
    iexact I7
  isplitl [Hrow]
  · iexists fr; iexact Hrow
  isplitl [Hbar]; · iexact Hbar
  rw [bigSepL2, bigSepL7]
  iintro ⟨HL, ⟨D6, D7⟩, Hrow, HatB, ⟨P1, P2, P3, P4, P5, P6, P7⟩⟩ %v160
  ihave Hsh := (row_split c (commB m c)) $$ Hrow
  rw [bigSepL8]
  icases Hsh with ⟨Hdrop, Q0, Q1, Q2, Q3, Q4, Q5, Q6, Q7⟩
  -- part 7
  iapply (part7_run m c Kn _ _ _)
  isplitr; · iexact Hrec
  isplitl [HL]; · iexact HL
  isplitl [T1 Q1 P1 T2 Q2 P2]
  · rw [bigSepL2]
    isplitl [T1 Q1 P1]
    · unfold sndR
      isplitl [T1]; · iexact T1
      isplitl [Q1]; · iexact Q1
      iexact P1
    unfold sndR
    isplitl [T2]; · iexact T2
    isplitl [Q2]; · iexact Q2
    iexact P2
  rw [bigSepL2]
  iintro ⟨HL, J1, J2⟩
  -- part 8
  iapply (part8_run m c Kn _ _)
  isplitr; · iexact Hrec
  isplitl [HL]; · iexact HL
  isplitl [T3 Q3 P3 T4 Q4 P4 T5 Q5 P5]
  · rw [bigSepL3]
    isplitl [T3 Q3 P3]
    · unfold sndR
      isplitl [T3]; · iexact T3
      isplitl [Q3]; · iexact Q3
      iexact P3
    isplitl [T4 Q4 P4]
    · unfold sndR
      isplitl [T4]; · iexact T4
      isplitl [Q4]; · iexact Q4
      iexact P4
    unfold sndR
    isplitl [T5]; · iexact T5
    isplitl [Q5]; · iexact Q5
    iexact P5
  rw [bigSepL3]
  iintro ⟨HL, J3, J4, J5⟩ %v8
  -- part 9
  iapply (part9_run m c Kn _ _ _ _)
  isplitr; · iexact Hrec
  isplitl [HL]; · iexact HL
  isplitl [T6 Q6 P6 T7 Q7 P7]
  · rw [bigSepL2]
    isplitl [T6 Q6 P6]
    · unfold sndR
      isplitl [T6]; · iexact T6
      isplitl [Q6]; · iexact Q6
      iexact P6
    unfold sndR
    isplitl [T7]; · iexact T7
    isplitl [Q7]; · iexact Q7
    iexact P7
  isplitl [R1]; · iexact R1
  rw [bigSepL2]
  iintro ⟨HL, ⟨J6, J7⟩, E1⟩
  -- part 10
  iapply (part10_run m c Kn _ _)
  isplitr; · iexact Hrec
  isplitl [HL]; · iexact HL
  isplitl [R2 R3]
  · rw [bigSepL2]
    isplitl [R2]; · iexact R2
    iexact R3
  rw [bigSepL2]
  iintro ⟨HL, E2, E3⟩
  -- part 11
  iapply (part11_run m c Kn _ _)
  isplitr; · iexact Hrec
  isplitl [HL]; · iexact HL
  isplitl [R4 R5 R6]
  · rw [bigSepL3]
    isplitl [R4]; · iexact R4
    isplitl [R5]; · iexact R5
    iexact R6
  rw [bigSepL3]
  iintro ⟨HL, E4, E5, E6⟩ %v11
  -- part 12
  iapply (part12_run m c Kn _ _ _)
  isplitr; · iexact Hrec
  isplitl [HL]; · iexact HL
  isplitl [R7]; · iexact R7
  isplitl [J1 J2 J3]
  · rw [bigSepL3]
    isplitl [J1]; · iexact J1
    isplitl [J2]; · iexact J2
    iexact J3
  rw [bigSepL3]
  iintro ⟨HL, E7, G1, G2, G3⟩
  -- part 13
  iapply (part13_run m c Kn _)
  isplitr; · iexact Hrec
  isplitl [HL]; · iexact HL
  isplitl [J4 J5 J6 J7]
  · rw [bigSepL4]
    isplitl [J4]; · iexact J4
    isplitl [J5]; · iexact J5
    isplitl [J6]; · iexact J6
    iexact J7
  isplitl [G1 G2 G3]
  · rw [bigSepL3]
    isplitl [G1]; · iexact G1
    isplitl [G2]; · iexact G2
    iexact G3
  isplitl [Hdrop]; · iexact Hdrop
  isplitl [Q0]; · iexact Q0
  isplitl [E1 E2 E3 E4 E5 E6 E7]
  · rw [bigSepL7]
    isplitl [E1]; · iexact E1
    isplitl [E2]; · iexact E2
    isplitl [E3]; · iexact E3
    isplitl [E4]; · iexact E4
    isplitl [E5]; · iexact E5
    isplitl [E6]; · iexact E6
    iexact E7
  iintro ⟨HL, Hcm, HatS, HatR⟩
  -- the result row
  simp only [Prog.lift, Prog.pure_eq_ret]
  iapply (step_out_load c fo _ _) $$ Hout
  iintro Hout %v366
  rw [wp_ret]; imodintro
  iapply (step_out_store m c fo _ _) $$ Hout
  iintro Hout
  rw [wp_ret]; imodintro
  rw [wp_ret]
  -- every cell of the device's own closed, the two scratch buffers whole
  simp only [cpyD]
  icases D0 with ⟨V0, A0⟩
  icases D1 with ⟨V1, A1⟩
  icases D2 with ⟨V2, A2⟩
  icases D3 with ⟨V3, A3⟩
  icases D4 with ⟨V4, A4⟩
  icases D5 with ⟨V5, A5⟩
  icases D6 with ⟨V6, A6⟩
  icases D7 with ⟨V7, A7⟩
  imod (close_all m c Kn) $$ [A0 A1 A2 A3 A4 A5 A6 A7 HatS HatR HatS0 HatR0] with Hsems
  · isplitr; · iexact Hrec
    isplitl [A0 A1 A2 A3 A4 A5 A6 A7]
    · rw [bigSepL8]
      isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [HatS]; · iexact HatS
    isplitl [HatR]; · iexact HatR
    isplitl [HatS0]; · iexact HatS0
    iexact HatR0
  imodintro
  iapply Hk
  unfold bodyEnd
  isplitl [Hkeep]; · iexact Hkeep
  isplitl [Hsems]; · iexact Hsems
  isplitl [V0 V1 V2 V3 V4 V5 V6 V7]
  · iexists (vfin m c)
    iapply (chunks_join c (vfin m c))
    rw [bigSepL8]
    isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  isplitl [Hcm]
  · iexists (commB m c); iexact Hcm
  isplitl [HL]; · iexact HL
  iexact Hout

/-! ## The body obligation -/

/-- What the pipeline hands the body at its one point, and what it takes back. -/
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outv (xb m)))

/-- The library's body obligation on device `c`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (Gen.bodyAt0 t₀) (fun _ => bodyPost m ρ c)
  unfold bodyPre' Φ₀ start ghost
  rw [Gen.scopedRest0_eq]
  iintro ⟨⟨⟨⟨%Kn, Hrec, Hlin⟩, HcB, HcR, Hlev, Hx⟩, Hs0, Hs1⟩, ⟨%W, %hW, HL⟩, ⟨%d, %fo, %hfo, Hout⟩⟩
  iapply (body_run m c Kn fo (fun _ => bodyPost m ρ c))
  isplitl [Hrec]; · iexact Hrec
  isplitl [Hlin]; · iexact Hlin
  isplitl [HcB]; · iexact HcB
  isplitl [HcR]; · iexact HcR
  isplitl [Hlev]; · iexact Hlev
  isplitl [Hx]; · iexact Hx
  isplitl [Hs0]; · iexact Hs0
  isplitl [Hs1]; · iexact Hs1
  isplitl [HL]
  · unfold owesX; iexists W; iexact HL
  isplitl [Hout]; · iexact Hout
  unfold bodyEnd bodyPost Φ₁ owesX
  rw [Gen.scopedRest0_eq]
  iintro ⟨Hkeep, Hsems, Hs0, Hs1, ⟨%W', HL⟩, Hout⟩
  isplitl [Hkeep Hsems Hs0 Hs1]
  · isplitl [Hkeep]; · iexact Hkeep
    isplitl [Hsems]; · iexact Hsems
    isplitl [Hs0]; · iexact Hs0
    iexact Hs1
  isplitl [HL]
  · iexists W'
    isplitr; · (ipureintro; exact fun _ _ => Or.inl trivial)
    iexact HL
  iexists _; isplitr; · (ipureintro; rfl)
  iexact Hout

/-- info: 'Cert.Kernel.Sum.body_obligation' depends on axioms: [propext, Classical.choice, Quot.sound] -/
#guard_msgs in #print axioms body_obligation

end Cert.Kernel.Sum

end
-- ==== Proof.Word.Run.lean ====
/-
  The kernel's run on the mesh: every fair execution ends, and every device's result is the column sums of
  all the devices' blocks, its argument unchanged.

  The launch: the ghost state of the 8 × 25 cells is minted and dealt (each device keeps its positions; the token
  of a duty goes to the device that pays it), each cell's invariant is allocated from its counter at zero, the
  launch credit is counted (seven entry signals on a device's barrier cell, one row on each receive cell in use),
  and the result array is read off after the one write-back.
-/
import proofs.«901086_g7700000000001087_dist_sum_ax0_shard0_i_m2048_n1024_v7x_i8_bf16_1_alg».proof.Proof.Word.Body

noncomputable section

namespace Cert.Kernel.Sum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

namespace Launch

theorem ownSemFacts : Pipeline.OwnSemFacts cfg0.spec osem := by decide

theorem share_eq (c : Dev nD) (w : Fin cfg0.W) : (dats (F := F) m ρ 0 c).share w = fullShare := by unfold Dat.share; split <;> rfl

omit [FloatOps F] in
theorem csem_injective : Function.Injective (csem : Fin 25 → SemLoc sig) := by
  rintro ⟨a, ha⟩ ⟨b, hb⟩ h
  cases a with
  | zero =>
    cases b with
    | zero => rfl
    | succ b => exact absurd h (fun h' => by cases h')
  | succ a =>
    cases b with
    | zero => exact absurd h (fun h' => by cases h')
    | succ b => exact SemLoc.dma.inj h

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ourCells : Finset (GSem nD τ sig) := Finset.univ.map ⟨kcell, kcell_injective⟩

/-- Every duty name on every cell of round 0, as minted: most are never used. -/
abbrev tokOf (x : Dev nD × Fin 25 × Fin 8) : GSem nD τ sig × ℕ × Fin 8 := (kcell (x.1, x.2.1), 0, x.2.2)
theorem tokOf_injective : Function.Injective tokOf := by
  rintro ⟨c, n, d⟩ ⟨c', n', d'⟩ h
  have h1 : (c, n) = (c', n') := kcell_injective (congrArg (fun x : GSem nD τ sig × ℕ × Fin 8 => x.1) h)
  have h2 : d = d' := congrArg (fun x : GSem nD τ sig × ℕ × Fin 8 => x.2.2) h
  cases h1; subst h2; rfl
def ourToks : Finset (GSem nD τ sig × ℕ × Fin 8) := Finset.univ.map ⟨tokOf, tokOf_injective⟩

def u₀ : UU :=
  (initOf (Pipeline.cells cfgs cellOf_inj) (Pipeline.launchToks cfgs cellOf_inj), initOf ourCells ourToks)

/-- The duty tokens of device `c`'s own cells. -/
def toks (c : Dev nD) : sProp 𝕄 :=
  bigSep Finset.univ fun n : Fin 25 => bigSep Finset.univ fun d : Fin 8 => dutyTok ER (kcell (c, n)) 0 d

/-- What the launch element deals device `c`. -/
def G (c : Dev nD) : sProp 𝕄 :=
  iprop((bigSep Finset.univ fun n : Fin 25 => roundState ER (sched m) (kcell (c, n)) 0)
    ∗ (bigSep Finset.univ fun n : Fin 25 => iprop(atPos ER (kcell (c, n)) 0 ∅ 0 ∗ reached ER (kcell (c, n)) 0)) ∗ toks (F := F) c)

/-- What the global step makes of it. -/
def G' (c : Dev nD) : sProp 𝕄 := iprop(∃ K, ghost m K c)

theorem fund_ring : BI.own (ER (initOf ourCells ourToks)) ⊢ (|==> bigSep Finset.univ (G (F := F) m) : sProp 𝕄) := by
  have hX (Φ : GSem nD τ sig → sProp 𝕄) : bigSep ourCells Φ = bigSep Finset.univ fun c : Dev nD => bigSep Finset.univ fun n : Fin 25 => Φ (kcell (c, n)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks toks; rw [bigSep_map, bigSep_univ_prod]
    exact bigSep_congr fun c _ => by rw [bigSep_univ_prod]; rfl
  iintro HX
  imod (Rounds.fund ER (sched m) ourCells ourToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, cell by cell -/

/-- A family over `Fin (n + 1)`: its member at 0, and the rest. -/
theorem bigSep_fin_succ {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

omit [FloatOps F] in
theorem csem_succ (i : Fin 24) : csem i.succ = osem i := rfl

omit [FloatOps F] in
/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun n : Fin 25 => semVal (kcell (c, n)) 0 : sProp 𝕄) := by
  rw [unscopedSems0_eq, bigSep_fin_succ]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n => iprop(∃ κ : ℕ, cellInv ER (sched m) κ (kcell (c, n))))
          ∗ (bigSep Finset.univ fun n : Fin 25 => iprop(atPos ER (kcell (c, n)) 0 ∅ 0 ∗ reached ER (kcell (c, n)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun n : Fin 25 => semVal (kcell (c, n)) 0) ∗ bigSep Finset.univ fun n : Fin 25 => roundState ER (sched m) (kcell (c, n)) 0)
      ⊢ (|={Set.univ}=> bigSep Finset.univ fun n => iprop(∃ κ : ℕ, cellInv ER (sched m) κ (kcell (c, n))) : sProp 𝕄) from by
        rw [← bigSep_sep']
        exact (bigSep_mono fun n _ => (Rounds.body_intro ER (sched m) (kcell (c, n))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens -/

/-- A device's 25 cells by kind: the barrier cell, eight chunk cells, eight send cells, eight receive cells. -/
def cellsE : Unit ⊕ Fin 8 ⊕ Fin 8 ⊕ Fin 8 ≃ Fin 25 where
  toFun
    | .inl _ => 0
    | .inr (.inl i) => copyN i
    | .inr (.inr (.inl j)) => sendN j
    | .inr (.inr (.inr j)) => recvN j
  invFun n :=
    if h1 : n.val = 0 then .inl ()
    else if h2 : n.val ≤ 8 then .inr (.inl ⟨n.val - 1, by omega⟩)
    else if h3 : n.val ≤ 16 then .inr (.inr (.inl ⟨n.val - 9, by omega⟩))
    else .inr (.inr (.inr ⟨n.val - 17, by have := n.isLt; omega⟩))
  left_inv := by decide
  right_inv := by decide

omit [FloatOps F] in
theorem bigSep_cells25 (Ψ : Fin 25 → sProp 𝕄) :
    bigSep Finset.univ Ψ = iprop(Ψ 0 ∗ (bigSep Finset.univ fun i : Fin 8 => Ψ (copyN i)) ∗ (bigSep Finset.univ fun j : Fin 8 => Ψ (sendN j))
      ∗ (bigSep Finset.univ fun j : Fin 8 => Ψ (recvN j))) := by
  rw [bigSep_univ_equiv cellsE Ψ, bigSep_univ_sum, bigSep_univ_sum, bigSep_univ_sum, bigSep_univ_of_subsingleton ()]
  rfl

omit [FloatOps F] in
theorem csem_copyN (i : Fin 8) : csem (copyN i) = .dma (copyS i) := by revert i; decide
omit [FloatOps F] in
theorem csem_sendN (j : Fin 8) : csem (sendN j) = .dma (sendS j) := by revert j; decide
omit [FloatOps F] in
theorem csem_recvN (j : Fin 8) : csem (recvN j) = .dma (recvS j) := by revert j; decide
omit [FloatOps F] in
theorem kcell_copy (c : Dev nD) (i : Fin 8) : kcell (c, copyN i) = copyCell c i := congrArg (Prod.mk (c : Thread nD τ)) (csem_copyN i)
omit [FloatOps F] in
theorem kcell_send (c : Dev nD) (j : Fin 8) : kcell (c, sendN j) = sendCell c j := congrArg (Prod.mk (c : Thread nD τ)) (csem_sendN j)
omit [FloatOps F] in
theorem kcell_recv (c : Dev nD) (j : Fin 8) : kcell (c, recvN j) = recvCell c j := congrArg (Prod.mk (c : Thread nD τ)) (csem_recvN j)

/-- The shift that undoes a shift, as a permutation of the shifts. -/
def ngE : Fin 8 ≃ Fin 8 := ⟨ng, ng, ng_ng, ng_ng⟩

omit [FloatOps F] in
/-- Of a device's own tokens, the ones some device pays with: every duty of its barrier cell, duty 0 of its chunk, send
    and receive cells. -/
theorem toks_split (c : Dev nD) :
    (toks c : sProp 𝕄) ⊢ iprop((bigSep Finset.univ fun d : Fin 8 => dutyTok ER (barCell c) 0 d)
      ∗ (bigSep Finset.univ fun i : Fin 8 => dutyTok ER (copyCell c i) 0 (0 : Fin 8))
      ∗ (bigSep Finset.univ fun j : Fin 8 => dutyTok ER (sendCell c j) 0 (0 : Fin 8))
      ∗ (bigSep Finset.univ fun j : Fin 8 => dutyTok ER (recvCell c j) 0 (0 : Fin 8))) := by
  unfold toks
  rw [bigSep_cells25]
  refine sep_mono .rfl (sep_mono (bigSep_mono fun i _ => ?_) (sep_mono (bigSep_mono fun j _ => ?_) (bigSep_mono fun j _ => ?_)))
  · rw [kcell_copy]; exact bigSep_elim (Finset.mem_univ 0)
  · rw [kcell_send]; exact bigSep_elim (Finset.mem_univ 0)
  · rw [kcell_recv]; exact bigSep_elim (Finset.mem_univ 0)

omit [FloatOps F] in
/-- A family over (device, shift) regrouped: each device takes, for every shift, the member of the device that far on. -/
theorem shuffle (T : Dev nD → Fin 8 → sProp 𝕄) :
    (bigSep Finset.univ fun c : Dev nD => bigSep Finset.univ fun j : Fin 8 => T c j)
      = bigSep Finset.univ fun c : Dev nD => bigSep Finset.univ fun j : Fin 8 => T (sh c j) j := by
  rw [bigSep_univ_comm, bigSep_congr (s := Finset.univ) (fun (j : Fin 8) _ => bigSep_univ_equiv (shE j) (fun c' : Dev nD => T c' j)), bigSep_univ_comm]
  rfl

omit [FloatOps F] in
/-- The tokens dealt: duty `d` of a barrier cell to the device `d` places further on, the receive duty of receive
    cell `j` to the device `j` places back; chunk and send tokens stay. -/
theorem toks_around : (bigSep Finset.univ fun c : Dev nD => (toks c : sProp 𝕄)) ⊢ bigSep Finset.univ fun c : Dev nD => payToks c := by
  have hA : (bigSep Finset.univ fun c : Dev nD => bigSep Finset.univ fun d : Fin 8 => (dutyTok ER (barCell c) 0 d : sProp 𝕄))
      = bigSep Finset.univ fun c : Dev nD => bigSep Finset.univ fun j : Fin 8 => dutyTok ER (barCell (sh c j)) 0 (ng j) := by
    rw [← shuffle (fun c j => (dutyTok ER (barCell c) 0 (ng j) : sProp 𝕄))]
    exact bigSep_congr fun c _ => bigSep_univ_equiv ngE _
  have hR := shuffle (fun c j => (dutyTok ER (recvCell c j) 0 (0 : Fin 8) : sProp 𝕄))
  refine (bigSep_mono fun c _ => toks_split c).trans ?_
  unfold payToks
  rw [bigSep_sep', bigSep_sep', bigSep_sep', bigSep_sep', bigSep_sep', bigSep_sep', hA, hR]
  exact BI.Entails.refl _

theorem ghost_intro (K : Dev nD × Fin 25 → ℕ) (c : Dev nD) : iprop(records m K ∗ linear c) ⊢ G' m c := by
  unfold G' ghost
  iintro H
  iexists K
  iexact H

theorem regroup :
    (bigSep Finset.univ fun c : Dev nD => iprop((bigSep Finset.univ fun n => iprop(∃ κ : ℕ, cellInv ER (sched m) κ (kcell (c, n))))
          ∗ (bigSep Finset.univ fun n : Fin 25 => iprop(atPos ER (kcell (c, n)) 0 ∅ 0 ∗ reached ER (kcell (c, n)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun n : Fin 25 => (atPos ER (kcell (c, n)) 0 ∅ 0 : sProp 𝕄)) (fun n => reached ER (kcell (c, n)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun n : Fin 25 => (atPos ER (kcell (c, n)) 0 ∅ 0 : sProp 𝕄)) payToks).symm).trans
      (bigSep_mono fun c _ => show _ ⊢ linear c from by unfold linear; exact .rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- With `n` sends to come a device owes the receive cells `jOf 0 … jOf (n-1)`, each of the device that far on: summed over
    the devices, device `c`'s receive cell `jOf k` is owed one row. -/
theorem launchCred_owedS (c : Dev nD) : ∀ n : ℕ,
    (Pipeline.launchCred (fun d => owedS d n) c : sProp 𝕄) ⊢ bigSep (Finset.range n) fun k => cred (tallyAt (recvCell c (jOf k)) () Nrow)
  | 0 => by
    rw [show (fun d : Dev nD => owedS d 0) = fun _ => (0 : CellTallies nD τ sig Unit) from rfl, Pipeline.launchCred_zero, Finset.range_zero, bigSep_empty]
    exact .rfl
  | n + 1 => by
    have e : (bigSep (insert n (Finset.range n)) fun k => (cred (tallyAt (recvCell c (jOf k)) () Nrow) : sProp 𝕄))
        = iprop(cred (tallyAt (recvCell c (jOf n)) () Nrow) ∗ bigSep (Finset.range n) fun k => cred (tallyAt (recvCell c (jOf k)) () Nrow)) :=
      bigSep_insert Finset.notMem_range_self
    rw [show (fun d : Dev nD => owedS d (n + 1)) = fun d => owedS d n + tallyAt (recvCell (sh d (jOf n)) (jOf n)) () Nrow from rfl,
      Pipeline.launchCred_add, Finset.range_add_one, e]
    iintro ⟨H1, H2⟩
    isplitl [H2]
    · iapply (Pipeline.launchCred_tallyAt (.dma (recvS (jOf n))) (fun d => sh d (jOf n)) (fun d => bk d (jOf n)) (fun d => sh_bk d _) (fun d => bk_sh d _) () Nrow c)
      iexact H2
    · iapply (launchCred_owedS c n); iexact H1

omit [FloatOps F] in
/-- and with `n` entry signals to come, its barrier cell is owed `n` units besides. -/
theorem launchCred_owedB (c : Dev nD) : ∀ n : ℕ,
    (Pipeline.launchCred (fun d => owedB d n) c : sProp 𝕄)
      ⊢ iprop((bigSep (Finset.range 7) fun k => cred (tallyAt (recvCell c (jOf k)) () Nrow)) ∗ cred (tallyAt (barCell c) () n))
  | 0 => by
    rw [show (fun d : Dev nD => owedB d 0) = fun d => owedS d 7 from rfl, tallyAt_zero, cred_zero]
    iintro H
    isplitl [H]
    · iapply (launchCred_owedS c 7); iexact H
    · iempintro
  | n + 1 => by
    rw [show (fun d : Dev nD => owedB d (n + 1)) = fun d => owedB d n + tallyAt (barCell (sh d (jOf n))) () 1 from rfl, Pipeline.launchCred_add]
    iintro ⟨H1, H2⟩
    ihave H1' := (launchCred_owedB c n) $$ H1
    icases H1' with ⟨HS, HB⟩
    ihave H2' := (Pipeline.launchCred_tallyAt (.reg barS) (fun d => sh d (jOf n)) (fun d => bk d (jOf n)) (fun d => sh_bk d _) (fun d => bk_sh d _) () 1 c) $$ H2
    isplitl [HS]; · iexact HS
    rw [← tallyAt_add]
    iapply (cred_add _ _).2
    isplitl [HB] <;> iassumption

omit [FloatOps F] in
theorem creds (c : Dev nD) :
    (Pipeline.launchCred O₀ c : sProp 𝕄)
      ⊢ iprop(cred (tallyAt (barCell c) () 7) ∗ bigSep (Finset.univ.erase (0 : Fin 8)) fun j => cred (tallyAt (recvCell c j) () Nrow)) := by
  have himg : (Finset.univ.erase (0 : Fin 8)) = (Finset.range 7).image jOf := by decide
  have hinj : Set.InjOn jOf (Finset.range 7 : Set ℕ) := by
    intro a ha b hb h
    have ha' : a < 7 := Finset.mem_range.mp ha
    have hb' : b < 7 := Finset.mem_range.mp hb
    have := congrArg Fin.val h
    simp only [jOf] at this
    omega
  rw [himg, bigSep_image_of_injOn hinj]
  refine (launchCred_owedB c 7).trans ?_
  iintro ⟨HS, HB⟩
  isplitl [HB] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xPts
  isplitl
  · isplitl [HG]; · iexact HG
    isplitl [H1]; · iexact H1
    isplitl [HN]; · iexact HN
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(xKeep m c ∗ Pipeline.ownSems0 osem c ∗ Pipeline.scopedRest cfg0.spec c) := by
  rw [show (dats m ρ 0 c).Φ (Fin.last cfg0.N) = Φ₁ m c from rfl]
  unfold Φ₁
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The result array after the one write-back: what the body left in the staging buffer. -/
theorem final_out (c : Dev nD) : (dats m ρ 0 c).arrAt 0 cfg0.N = outv (xb m) := by
  have h := (dats (F := F) m ρ 0 c).arrAt_succ 0 t₀
  rw [flush0_0 t₀, if_pos rfl] at h
  have hN : cfg0.N = t₀.val + 1 := cfg0_N
  rw [hN, h]
  exact Memref.write_access_unit_zero_univ (Elt F) main_v1 (funext fun a => Nat.zero_mul _) _ _ _

end Launch

/-! ### The run -/

set_option maxRecDepth 8000 in
/-- On the compiled mesh of eight devices, for any float values, from any memory with every counter zero: every weakly
    fair execution of @main ends, and in every final state each device's result array holds the column sums of all
    eight blocks, its block of `x` what it held. -/
theorem run_main :
    θ_run (defs (F := F)) (onTc (τ := τ) (main (F := F))) ⟨m, fun _ => 0, ρ⟩ (fun r => ∀ c : Dev nD,
      r.2.mem ((c.tc : Thread nD τ).loc main_v1) = outv (xb m)
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ Launch.ownSemFacts (Pipeline.PreFacts.none _) EP defs₀ 𝒱₀ m ρ main
    (hmain := fun _ => rfl)
    (hbody := body_obligation m ρ) (hne := block_pos0) (harr := arr_whole0) (hstage := stage_whole0) (hshare := Launch.share_eq m ρ)
    (hdistinct := winFacts0.arr_inj)
    (O₀ := O₀) (howed₀ := fun _ => rfl) (howedN := fun _ => rfl)
    (L := L) (lv := lv) (hL := L_of_ne) (hwaits := Launch.waits m ρ)
    (G := Launch.G m) (G' := Launch.G' m) (u₀ := Launch.u₀)
    (hu₀ := by
      unfold Launch.u₀
      iintro Hu
      ihave H := (ownU_pair _ _) $$ Hu
      icases H with ⟨HP, HX⟩
      imod (Launch.fund_ring m) $$ HX with HG
      imodintro
      isplitl [HP] <;> iassumption)
    (hglob := Launch.glob m)
    (hA := fun _ _ => rfl) (hpf := fun _ k => k.elim0)
    (X := start m) (Y := xKeep m) (Z := fun _ => iprop(emp))
    (hX := Launch.start_intro m ρ) (hin := Launch.phi0_intro m ρ) (hout := Launch.phi1_exit m ρ)
    (QY := fun c s => s.mem ((c.tc : Thread nD τ).loc main_arg0) = m ((c.tc : Thread nD τ).loc main_arg0))
    (hY := fun c s' => by
      iintro ⟨Hx, -, HSI⟩
      unfold xKeep
      icombine HSI Hx gives %hx
      imodintro
      isplitr; · ipureintro; exact Buf.eq_of_forall_mem_univ hx
      iexact HSI)
    (hQ := fun s h c => ⟨((h c).1 0).trans (Launch.final_out m ρ c), (h c).2.2⟩)

/-- info: 'Cert.Kernel.Sum.run_main' depends on axioms: [propext, Classical.choice, Quot.sound] -/
#guard_msgs in #print axioms run_main

end Cert.Kernel.Sum

end
-- ==== Proof.Value.lean ====
/-
  The value: the kernel's result, the column sums accumulated block by block and device by device, is the
  reference's sum over all rows.

  At the ideal values every float is an extended real, and addition there is commutative and associative at the
  infinities too, so no finiteness is asked of the input. Column `q` of the kernel's result is the sum, over the
  devices `d`, the chunks `i`, the groups `g` of a chunk and the rows `r` of a group, of device `d`'s block at row
  `256 i + 32 g + r`; the reference's is zero plus the sum over all 16384 rows of the whole array; device `d`'s
  block is the whole array's rows `2048 d + p`. Re-indexing the ranges `8 × 8 × 32` as 2048 rows and `8 × 2048`
  as 16384 rows joins the two.
-/
import proofs.«901086_g7700000000001087_dist_sum_ax0_shard0_i_m2048_n1024_v7x_i8_bf16_1_alg».proof.Defs
import proofs.«901086_g7700000000001087_dist_sum_ax0_shard0_i_m2048_n1024_v7x_i8_bf16_1_alg».proof.Proof.Run
import proofs.«901086_g7700000000001087_dist_sum_ax0_shard0_i_m2048_n1024_v7x_i8_bf16_1_alg».proof.Proof.Gen.ReferenceIdeal
import proofs.«901086_g7700000000001087_dist_sum_ax0_shard0_i_m2048_n1024_v7x_i8_bf16_1_alg».proof.Proof.Gen.ReferenceIdeal.Run
import proofs.«901086_g7700000000001087_dist_sum_ax0_shard0_i_m2048_n1024_v7x_i8_bf16_1_alg».proof.Proof.Gen.ReferenceIdeal.Read
import proofs.«901086_g7700000000001087_dist_sum_ax0_shard0_i_m2048_n1024_v7x_i8_bf16_1_alg».proof.Proof.Gen.Pre_finite_inputs_Kernel
import proofs.«901086_g7700000000001087_dist_sum_ax0_shard0_i_m2048_n1024_v7x_i8_bf16_1_alg».proof.Proof.Gen.Pre_finite_inputs_ReferenceIdeal
import Idealize.ShloMosaic.Lib.ValueIdx
import Idealize.ShloMosaic.Lib.ValueLayout
import Idealize.ShloMosaic.Lib.Layout
import Idealize.ShloMosaic.PureOps.Ideal.Laws
import Mathlib.Algebra.BigOperators.Fin
import Mathlib.Logic.Equiv.Fin.Basic

noncomputable section

namespace Cert.Proof.Value

open Idealize.ShloMosaic Idealize.ShloMosaic.ValueIdx Idealize.SL.Sem
open Cert.KernelIdeal Cert.KernelIdeal.Gen Cert.KernelIdeal.Sum
open scoped BigOperators

/-! ## Sums over a product of ranges -/

/-- A sum over `N = m * n` positions is the double sum, position `n a + b` at `(a, b)`. -/
theorem sum_mul {M : Type} [AddCommMonoid M] (m n N : ℕ) (h : m * n = N) (f : Fin N → M) :
    ∑ k : Fin N, f k = ∑ a : Fin m, ∑ b : Fin n, f (⟨n * a.val + b.val, by
      subst h
      calc n * a.val + b.val < n * a.val + n := Nat.add_lt_add_left b.isLt _
        _ = n * (a.val + 1) := (Nat.mul_succ _ _).symm
        _ ≤ n * m := Nat.mul_le_mul_left _ a.isLt
        _ = m * n := Nat.mul_comm _ _⟩ : Fin N) := by
  subst h
  rw [← Equiv.sum_comp finProdFinEquiv f, Fintype.sum_prod_type]
  refine Finset.sum_congr rfl fun a _ => Finset.sum_congr rfl fun b _ => congrArg f (Fin.ext ?_)
  show b.val + n * a.val = n * a.val + b.val
  exact Nat.add_comm _ _

/-! ## One chunk folded -/

/-- One chunk folded: its 256 rows in eight groups of 32, each group's rows added. -/
def fold (v : Vec Ideal S1x256x1024 .f32) : FVec Ideal S8x1024 .f32 :=
  multiReduction .add [1] S8x1024
    (shapeCast S8x32x1024 (shapeCast S256x1024 v shapeCasts_S1x256x1024_S256x1024) shapeCasts_S256x1024_S8x32x1024)
    0x00000000#32 reduces_S8x32x1024_S8x1024 (.inl rfl) rfl

/-- Group `g` of a folded chunk, at column `q`: the sum of the chunk's rows `32 g + r`. -/
theorem fold_apply (v : Vec Ideal S1x256x1024 .f32) (g : Fin 8) (q : Fin 1024) :
    fold v (ix2 g q) = ∑ r : Fin 32, v (ix3 (0 : Fin 1) (⟨32 * g.val + r.val, by have := g.isLt; have := r.isLt; omega⟩ : Fin 256) q) := by
  refine (Ideal.multiReduction_add_single (φ := .f32) _ _ reduces_S8x32x1024_S8x1024 _ _ (ix2 g q)).trans ?_
  refine Finset.sum_congr rfl fun r _ => ?_
  have hr : r.val < 32 := r.isLt
  have hg : g.val < 8 := g.isLt
  have e1 := shapeCast_apply (shapeCast S256x1024 v shapeCasts_S1x256x1024_S256x1024) shapeCasts_S256x1024_S8x32x1024
    (reduces_S8x32x1024_S8x1024.lift (ix2 g q) r) (ix2 (⟨32 * g.val + r.val, by omega⟩ : Fin 256) q) (by
      rw [Shape.rowMajor_val_two, Shape.rowMajor_val_three]
      show (32 * g.val + r.val) * 1024 + q.val = (g.val * 32 + r.val) * 1024 + q.val
      omega)
  exact e1.trans (shapeCast_1ab_ab_apply v shapeCasts_S1x256x1024_S256x1024 _ q)

/-- Group `g` of chunk `i` of a block, folded, at column `q`: the sum of the block's rows `256 i + 32 g + r`. -/
theorem fold_chunk (x : Vec Ideal S2048x1024 .f32) (i g : Fin 8) (q : Fin 1024) :
    fold (chunk x i) (ix2 g q)
      = ∑ r : Fin 32, x (ix2 (⟨256 * i.val + (32 * g.val + r.val), by have := i.isLt; have := g.isLt; have := r.isLt; omega⟩ : Fin 2048) q) := by
  rw [fold_apply]
  rfl

/-! ## The body's payloads through the fold -/

theorem pay2_apply (j : S8x1024.Idx) : (k0_pay2 (F := Ideal)) j = (0 : EReal) :=
  Ideal.ofBits_zero_f32

theorem pay3_eq (z : FVec Ideal S8x1024 .f32) (a b c : Vec Ideal S1x256x1024 .f32) :
    k0_pay3 z a b c = addf (addf (addf z (fold a)) (fold b)) (fold c) := rfl

theorem pay4_eq (w : FVec Ideal S8x1024 .f32) (a b : Vec Ideal S1x256x1024 .f32) :
    k0_pay4 w a b = addf (addf w (fold a)) (fold b) := rfl

theorem pay5_eq (a : Vec Ideal S1x256x1024 .f32) : k0_pay5 a = fold a := rfl

/-- The last payload at column `q`: the eight partial rows of the accumulated sum, added. -/
theorem pay6_apply (w u : FVec Ideal S8x1024 .f32) (a b : Vec Ideal S1x256x1024 .f32) (q : Fin 1024) :
    k0_pay6 w u a b (ix3 (0 : Fin 1) (0 : Fin 1) q)
      = ∑ g : Fin 8, addf (addf (addf w u) (fold a)) (fold b) (ix2 g q) := by
  have e3 := shapeCast_ab_1ab_apply
    (shapeCast S1x1024 (multiReduction .add [0] S1024 (addf (addf (addf w u) (fold a)) (fold b)) 0x00000000#32
      reduces_S8x1024_S1024 (.inl rfl) rfl) shapeCasts_S1024_S1x1024) shapeCasts_S1x1024_S1x1x1024 (0 : Fin 1) (0 : Fin 1) q
  have e2 := shapeCast_a_1a_apply
    (multiReduction (F := Ideal) .add [0] S1024 (addf (addf (addf w u) (fold a)) (fold b)) 0x00000000#32
      reduces_S8x1024_S1024 (.inl rfl) rfl) shapeCasts_S1024_S1x1024 (0 : Fin 1) q
  have e1 := Ideal.multiReduction_add_single (φ := .f32) (addf (addf (addf w u) (fold a)) (fold b)) 0x00000000#32
    reduces_S8x1024_S1024 (.inl rfl) rfl (ix1 q)
  refine (e3.trans (e2.trans e1)).trans ?_
  refine Finset.sum_congr rfl fun g _ => congrArg _ ?_
  funext a; match a with | ⟨0, _⟩ => rfl | ⟨1, _⟩ => rfl

/-- The gathered rows added, at column `q`. -/
theorem pay1_apply (v : Vec Ideal S8x1x1024 .f32) (q : Fin 1024) :
    k0_pay1 v (ix2 (0 : Fin 1) q) = ∑ d : Fin 8, v (ix3 d (0 : Fin 1) q) := by
  have e2 := shapeCast_a_1a_apply
    (multiReduction (F := Ideal) .add [0] S1024 (shapeCast S8x1024 v shapeCasts_S8x1x1024_S8x1024) 0x00000000#32
      reduces_S8x1024_S1024 (.inl rfl) rfl) shapeCasts_S1024_S1x1024 (0 : Fin 1) q
  have e1 := Ideal.multiReduction_add_single (φ := .f32) (shapeCast S8x1024 v shapeCasts_S8x1x1024_S8x1024) 0x00000000#32
    reduces_S8x1024_S1024 (.inl rfl) rfl (ix1 q)
  refine (e2.trans e1).trans ?_
  refine Finset.sum_congr rfl fun d _ => ?_
  have hd : d.val < 8 := d.isLt
  exact shapeCast_apply v shapeCasts_S8x1x1024_S8x1024 _ (ix3 (⟨d.val, hd⟩ : Fin 8) (0 : Fin 1) q) (by
    rw [Shape.rowMajor_val_three, Shape.rowMajor_val_two]
    show (d.val * 1 + 0) * 1024 + q.val = d.val * 1024 + q.val
    omega)

/-! ## A block's column sums -/

/-- The body's accumulation at column `q`: over the eight partial rows, the eight chunks' folds. -/
theorem rowv_groups (x : Vec Ideal S2048x1024 .f32) (q : Fin 1024) :
    rowv x (ix3 (0 : Fin 1) (0 : Fin 1) q) = ∑ g : Fin 8, ∑ i : Fin 8, fold (chunk x i) (ix2 g q) := by
  unfold rowv
  rw [pay6_apply]
  refine Finset.sum_congr rfl fun g _ => ?_
  rw [Fin.sum_univ_eight]
  simp only [pay3_eq, pay4_eq, pay5_eq, addf_apply, pay2_apply]
  rw [zero_add]

/-- A block's column sums as the body accumulates them are its column sums: one sum over the 2048 rows. -/
theorem rowv_apply (x : Vec Ideal S2048x1024 .f32) (q : Fin 1024) :
    rowv x (ix3 (0 : Fin 1) (0 : Fin 1) q) = ∑ p : Fin 2048, x (ix2 p q) := by
  rw [rowv_groups, Finset.sum_comm, sum_mul 8 256 2048 rfl]
  refine Finset.sum_congr rfl fun i _ => ?_
  rw [sum_mul 8 32 256 rfl]
  refine Finset.sum_congr rfl fun g _ => ?_
  rw [fold_chunk]

/-! ## The kernel's result -/

/-- The kernel's result at column `q`: every device's block's column sums, added. -/
theorem outv_apply (xb : Dev nD → Vec Ideal S2048x1024 .f32) (q : Fin 1024) :
    outv xb (ix2 (0 : Fin 1) q) = ∑ d : Fin 8, ∑ p : Fin 2048, xb d (ix2 p q) := by
  unfold outv
  rw [pay1_apply]
  refine Finset.sum_congr rfl fun d _ => ?_
  exact rowv_apply (xb d) q

/-! ## The reference's result -/

open Cert.ReferenceIdeal.Read in
/-- The reference's result at column `q`: the sum over all 16384 rows of the whole array. -/
theorem ref_apply (X : (⟨Cert.ReferenceIdeal.S16384x1024, .f32⟩ : BufTy).Contents (Elt Ideal)) (q : Fin 1024) :
    val_main_v1 (F := Ideal) X (ix2 (0 : Fin 1) q) = ∑ k : Fin 16384, X (ix2 k q) := by
  rw [val_main_v1_apply, val_main_v0_apply, val_main_cst_apply]
  refine (congrArg (· + _) Ideal.ofBits_zero_f32).trans ?_
  rw [zero_add]
  refine Finset.sum_congr rfl fun k _ => congrArg X ?_
  funext a; match a with | ⟨0, _⟩ => rfl | ⟨1, _⟩ => rfl

/-! ## The join: the devices' blocks are the whole array's rows -/

/-- Block `d` of the whole array at `(p, q)` is the whole array at row `2048 d + p`. -/
theorem block_row (X : (⟨2, ![16384, 1024]⟩ : Shape).Idx → EReal) (d : Fin 8) (p : Fin 2048) (q : Fin 1024) :
    (Layout.block ⟨2, ![2048, 1024]⟩ ⟨2, ![16384, 1024]⟩ 0 8 d X) (ix2 p q)
      = X (ix2 (⟨2048 * d.val + p.val, by have := d.isLt; have := p.isLt; omega⟩ : Fin 16384) q) := by
  rw [Layout.block_apply]
  refine congrArg X ?_
  funext a
  match a with
  | ⟨0, _⟩ => exact Fin.ext (by show d.val * 2048 + p.val = 2048 * d.val + p.val; omega)
  | ⟨1, _⟩ => exact Fin.ext rfl

/-- The kernel's result of the devices' blocks of a whole array is the reference's result of the array. -/
theorem outv_eq (X : (⟨Cert.ReferenceIdeal.S16384x1024, .f32⟩ : BufTy).Contents (Elt Ideal)) :
    outv (F := Ideal) (fun c => Layout.block ⟨2, ![2048, 1024]⟩ ⟨2, ![16384, 1024]⟩ 0 8 c X)
      = broadcastInDim Cert.ReferenceIdeal.S1x1024 ![1] Cert.ReferenceIdeal.Gen.bcast_S1024_S1x1024_1
          (Host.reduceAdd X (constant Cert.ReferenceIdeal.S_ .f32 0x00000000#32)
            Cert.ReferenceIdeal.Gen.reducesTo_S16384x1024_S1024_d0 Cert.ReferenceIdeal.Gen.h_S_) := by
  rw [Cert.ReferenceIdeal.Read.val_main_v1_eq]
  funext j
  obtain ⟨a, q, rfl⟩ : ∃ (a : Fin 1) (q : Fin 1024), j = ix2 a q := ⟨j 0, j 1, eq_ix2 j⟩
  obtain rfl : a = 0 := Subsingleton.elim _ _
  rw [outv_apply, ref_apply, sum_mul 8 2048 16384 rfl]
  refine Finset.sum_congr rfl fun d _ => Finset.sum_congr rfl fun p _ => ?_
  exact block_row X d p q

/-! ## The claims -/

/-- The reference runs and leaves its argument as it found it. -/
theorem frame_ri : Cert.frame_ReferenceIdeal :=
  fun m ρ _ => (θ_run Cert.ReferenceIdeal.defs _ _).mono (fun _ h c => (h c).2)
    (Cert.ReferenceIdeal.Value.run (F := Ideal) m ρ)

/-- Given the kernel's run (every device's result the column sums of all the devices' blocks, its argument
    unchanged): both programs run, every device's result is the reference's, the arguments end unchanged. -/
theorem algebraic_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = outv (xb m)
        ∧ r.2.mem ((c.tc : Thread nD τ).loc main_arg0) = m ((c.tc : Thread nD τ).loc main_arg0))) :
    Cert.algebraic_KernelIdeal_ReferenceIdeal := by
  intro m g m' g' _ hblk
  have hxb : xb m = fun c => Layout.block ⟨2, ![2048, 1024]⟩ ⟨2, ![16384, 1024]⟩ 0 8 c
      (m' (((0 : Dev Cert.ReferenceIdeal.nD).tc : Thread Cert.ReferenceIdeal.nD Cert.ReferenceIdeal.τ).loc Cert.ReferenceIdeal.main_arg0)) :=
    funext fun c => hblk c
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ?_) (hrun m g)
    obtain ⟨h1, h2⟩ := h c
    refine ⟨h1.trans ?_, h2⟩
    rw [hxb]
    exact outv_eq _
  · exact (θ_run Cert.ReferenceIdeal.defs _ _).mono (fun _ h => h 0)
      (Cert.ReferenceIdeal.Value.run (F := Ideal) m' g')

/-- Both programs run; every device's result is the reference's; the arguments end unchanged. -/
theorem algebraic : Cert.algebraic_KernelIdeal_ReferenceIdeal :=
  algebraic_of_run fun m ρ => run_main (F := Ideal) m ρ

/-- info: 'Cert.Proof.Value.outv_eq' depends on axioms: [propext, Classical.choice, Quot.sound] -/
#guard_msgs in #print axioms outv_eq
/-- info: 'Cert.Proof.Value.frame_ri' depends on axioms: [propext, Classical.choice, Quot.sound] -/
#guard_msgs in #print axioms frame_ri
/-- info: 'Cert.Proof.Value.algebraic_of_run' depends on axioms: [propext, Classical.choice, Quot.sound] -/
#guard_msgs in #print axioms algebraic_of_run

/-- info: 'Cert.Proof.Value.algebraic' depends on axioms: [propext, Classical.choice, Quot.sound] -/
#guard_msgs in #print axioms algebraic

end Cert.Proof.Value

end
-- ==== Proof.lean ====
/-
  The claim. Eight devices each hold 2048 rows of a 16384 × 1024 array `x`. The kernel has every device add up its
  rows column by column, hands every device's row of column sums to every other device, and has each device add
  the eight rows; the reference adds all 16384 rows at once. Over the extended reals addition is commutative and
  associative without exception, so the two agree for every input, finite or not, and no use is made of the
  precondition.

  The kernel's run on the mesh (it ends on every fair schedule, faults nowhere, leaves `x` alone, and every device
  ends holding the column sums of all eight blocks) is proved once, for any float instance, and read at the word-level
  instance for the first frame and at the ideal instance for the second frame and for the value. The reference's run
  is its generated run. The idealization rewrote nothing, so there is nothing to preserve.
-/
import proofs.«901086_g7700000000001087_dist_sum_ax0_shard0_i_m2048_n1024_v7x_i8_bf16_1_alg».proof.Defs
import proofs.«901086_g7700000000001087_dist_sum_ax0_shard0_i_m2048_n1024_v7x_i8_bf16_1_alg».proof.Proof.Gen.Kernel
import proofs.«901086_g7700000000001087_dist_sum_ax0_shard0_i_m2048_n1024_v7x_i8_bf16_1_alg».proof.Proof.Gen.KernelIdeal
import proofs.«901086_g7700000000001087_dist_sum_ax0_shard0_i_m2048_n1024_v7x_i8_bf16_1_alg».proof.Proof.Gen.ReferenceIdeal
import proofs.«901086_g7700000000001087_dist_sum_ax0_shard0_i_m2048_n1024_v7x_i8_bf16_1_alg».proof.Proof.Gen.Pre_finite_inputs_Kernel
import proofs.«901086_g7700000000001087_dist_sum_ax0_shard0_i_m2048_n1024_v7x_i8_bf16_1_alg».proof.Proof.Gen.Pre_finite_inputs_ReferenceIdeal
import proofs.«901086_g7700000000001087_dist_sum_ax0_shard0_i_m2048_n1024_v7x_i8_bf16_1_alg».proof.Proof.Run
import proofs.«901086_g7700000000001087_dist_sum_ax0_shard0_i_m2048_n1024_v7x_i8_bf16_1_alg».proof.Proof.Word.Run
import proofs.«901086_g7700000000001087_dist_sum_ax0_shard0_i_m2048_n1024_v7x_i8_bf16_1_alg».proof.Proof.Value
import Idealize.ShloMosaic.Adequacy
import Idealize.ShloMosaic.Init

noncomputable section

namespace Cert.Proof

open Idealize.ShloMosaic Idealize.SL.Sem

/-- The word-level kernel's frame: its run with the result's value dropped. -/
theorem frame_k : Cert.frame_Kernel := fun m ρ _ =>
  (θ_run (Cert.Kernel.defs (F := Bits)) _ _).mono (fun _ h c => (h c).2) (Cert.Kernel.Sum.run_main (F := Bits) m ρ)

/-- The idealized kernel's frame, likewise. -/
theorem frame_ki : Cert.frame_KernelIdeal := fun m ρ _ =>
  (θ_run (Cert.KernelIdeal.defs (F := Ideal)) _ _).mono (fun _ h c => (h c).2) (Cert.KernelIdeal.Sum.run_main (F := Ideal) m ρ)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Proof.Value.frame_ri, trivial, Cert.Proof.Value.algebraic⟩

end Cert.Proof

end
